-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1 : Shape := ⟨2, ![1, 1]⟩
abbrev S1x1x2048 : Shape := ⟨3, ![1, 1, 2048]⟩
abbrev S512x2048 : Shape := ⟨2, ![512, 2048]⟩
abbrev S50257x2048 : Shape := ⟨2, ![50257, 2048]⟩
abbrev S512x4096 : Shape := ⟨2, ![512, 4096]⟩
abbrev S512 : Shape := ⟨1, ![512]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S50257x2048 : S_.BroadcastsInDim S50257x2048 (![] : Fin 0 → Fin S50257x2048.rank)
  reducesTo_S50257x2048_S_d0_1 : S50257x2048.ReducesTo [0, 1] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x2048 .f32) (main_arg13 : FVec F S50257 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S50257x2048 .f32 := Host.absf main_arg12
  let main_cst_20 : FVec F S_ .f32 := constant S_ .f32 0x7F800000#32
  let main_v55 : FVec F S50257x2048 .f32 := broadcastInDim S50257x2048 ![] bcast_S_S50257x2048 main_cst_20
  let main_v56 : IVec S50257x2048 1 := cmpf .olt main_v54 main_v55
  let main_c_21 : IVec S_ 1 := constantI S_ 1 1#1
  let main_v57 : IVec S_ 1 := (fun x v => Host.reduce IntOp.andi x v reducesTo_S50257x2048_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg12 main_arg13 main_v48 main_v49 main_v50

def fn_part1 {F : FTy → Type} [FloatOps F] (main_arg5 : FVec F S512 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x4096 .f32 := Host.absf main_arg6
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1x1 32) (main_arg1 : FVec F S1x1x2048 .f32) (main_arg2 : FVec F S512x2048 .f32) (main_arg3 : FVec F S50257x2048 .f32) (main_arg4 : FVec F S512x4096 .f32) (main_arg5 : FVec F S512 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S50257x2048 .f32 := Host.absf main_arg3
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_v14 : FVec F S512x4096 .f32 := Host.absf main_arg4
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg5 main_arg6 main_arg7 main_arg8 main_arg9 main_arg10 main_arg11 main_arg12 main_arg13 main_v13 main_v16
-- ==== Kernel.lean ====
abbrev S1x1 : Shape := ⟨2, ![1, 1]⟩
abbrev S1x1x2048 : Shape := ⟨3, ![1, 1, 2048]⟩
abbrev S512x2048 : Shape := ⟨2, ![512, 2048]⟩
abbrev S50257x2048 : Shape := ⟨2, ![50257, 2048]⟩
abbrev S512x4096 : Shape := ⟨2, ![512, 4096]⟩
abbrev S512 : Shape := ⟨1, ![512]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S1 : Shape := ⟨1, ![1]⟩
abbrev S_ : Shape := ⟨0, ![]⟩
abbrev S1x2048 : Shape := ⟨2, ![1, 2048]⟩
abbrev S1x4096 : Shape := ⟨2, ![1, 4096]⟩
abbrev S1x512 : Shape := ⟨2, ![1, 512]⟩
abbrev S1x6144 : Shape := ⟨2, ![1, 6144]⟩
abbrev S1024x2048 : Shape := ⟨2, ![1024, 2048]⟩
abbrev S1x1024 : Shape := ⟨2, ![1, 1024]⟩
abbrev S1x50257 : Shape := ⟨2, ![1, 50257]⟩
abbrev S2048x2048 : Shape := ⟨2, ![2048, 2048]⟩

abbrev nBuf : Space → Nat
  | .hbm => 100
  | .vmem => 34
  | .smem => 0
  | _ => 0

abbrev bufTy : (tb : Table) → Fin (tcTables nBuf tb) → BufTy
  | .hbm, ⟨0, _⟩ => ⟨S1x1, .i32⟩
  | .hbm, ⟨1, _⟩ => ⟨S1x1x2048, .f32⟩
  | .hbm, ⟨2, _⟩ => ⟨S512x2048, .f32⟩
  | .hbm, ⟨3, _⟩ => ⟨S50257x2048, .f32⟩
  | .hbm, ⟨4, _⟩ => ⟨S512x4096, .f32⟩
  | .hbm, ⟨5, _⟩ => ⟨S512, .f32⟩
  | .hbm, ⟨6, _⟩ => ⟨S2048x4096, .f32⟩
  | .hbm, ⟨7, _⟩ => ⟨S2048, .f32⟩
  | .hbm, ⟨8, _⟩ => ⟨S6144x2048, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S50257x2048, .f32⟩
  | .hbm, ⟨13, _⟩ => ⟨S50257, .f32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1, .i32⟩
  | .hbm, ⟨24, _⟩ => ⟨S_, .i32⟩
  | .hbm, ⟨25, _⟩ => ⟨S1x1, .i32⟩
  | .hbm, ⟨26, _⟩ => ⟨S1x1, .i1⟩
  | .hbm, ⟨27, _⟩ => ⟨S1x1, .i32⟩
  | .hbm, ⟨28, _⟩ => ⟨S1x1, .i1⟩
  | .hbm, ⟨29, _⟩ => ⟨S1x1, .i1⟩
  | .hbm, ⟨30, _⟩ => ⟨S_, .i1⟩
  | .hbm, ⟨31, _⟩ => ⟨S1, .i1⟩
  | .hbm, ⟨32, _⟩ => ⟨S1x2048, .f32⟩
  | .hbm, ⟨33, _⟩ => ⟨S1x2048, .i1⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x4096, .f32⟩
  | .hbm, ⟨39, _⟩ => ⟨S1x512, .f32⟩
  | .hbm, ⟨40, _⟩ => ⟨S1x512, .f32⟩
  | .hbm, ⟨41, _⟩ => ⟨S1x2048, .f32⟩
  | .hbm, ⟨42, _⟩ => ⟨S1x4096, .f32⟩
  | .hbm, ⟨43, _⟩ => ⟨S1x2048, .f32⟩
  | .hbm, ⟨44, _⟩ => ⟨S1x2048, .f32⟩
  | .hbm, ⟨45, _⟩ => ⟨S1x6144, .f32⟩
  | .hbm, ⟨46, _⟩ => ⟨S1x6144, .f32⟩
  | .hbm, ⟨47, _⟩ => ⟨S1x6144, .f32⟩
  | .hbm, ⟨48, _⟩ => ⟨S1x6144, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S_, .f32⟩
  | .hbm, ⟨59, _⟩ => ⟨S1x2048, .f32⟩
  | .hbm, ⟨60, _⟩ => ⟨S1x2048, .f32⟩
  | .hbm, ⟨61, _⟩ => ⟨S_, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S_, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S1x50257, .f32⟩
  | .hbm, ⟨83, _⟩ => ⟨S1x50257, .f32⟩
  | .hbm, ⟨84, _⟩ => ⟨S_, .f32⟩
  | .hbm, ⟨85, _⟩ => ⟨S1, .f32⟩
  | .hbm, ⟨86, _⟩ => ⟨S_, .f32⟩
  | .hbm, ⟨87, _⟩ => ⟨S1, .f32⟩
  | .hbm, ⟨88, _⟩ => ⟨S1, .f32⟩
  | .hbm, ⟨89, _⟩ => ⟨S1x1, .f32⟩
  | .hbm, ⟨90, _⟩ => ⟨S1x50257, .f32⟩
  | .hbm, ⟨91, _⟩ => ⟨S1x50257, .f32⟩
  | .hbm, ⟨92, _⟩ => ⟨S1x50257, .f32⟩
  | .hbm, ⟨93, _⟩ => ⟨S_, .f32⟩
  | .hbm, ⟨94, _⟩ => ⟨S1, .f32⟩
  | .hbm, ⟨95, _⟩ => ⟨S1x1, .f32⟩
  | .hbm, ⟨96, _⟩ => ⟨S1x1, .f32⟩
  | .hbm, ⟨97, _⟩ => ⟨S1x50257, .f32⟩
  | .hbm, ⟨98, _⟩ => ⟨S1x50257, .f32⟩
  | .hbm, ⟨99, _⟩ => ⟨S1x1x2048, .f32⟩
  | .local _ .vmem, ⟨0, _⟩ => ⟨S1x4096, .f32⟩
  | .local _ .vmem, ⟨1, _⟩ => ⟨S512x4096, .f32⟩
  | .local _ .vmem, ⟨2, _⟩ => ⟨S1x512, .f32⟩
  | .local _ .vmem, ⟨3, _⟩ => ⟨S512x2048, .f32⟩
  | .local _ .vmem, ⟨4, _⟩ => ⟨S1x512, .f32⟩
  | .local _ .vmem, ⟨5, _⟩ => ⟨S1x2048, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x2048, .f32⟩
  | .local _ .vmem, ⟨28, _⟩ => ⟨S2048x2048, .f32⟩
  | .local _ .vmem, ⟨29, _⟩ => ⟨S2048x2048, .f32⟩
  | .local _ .vmem, ⟨30, _⟩ => ⟨S1x2048, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | _, _ => ⟨S1x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5_0 : Ref sig .tc := ⟨.hbm, 40, rfl⟩
abbrev main_v5_1 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11_0 : Ref sig .tc := ⟨.hbm, 47, rfl⟩
abbrev main_v11_1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst : Ref sig .tc := ⟨.hbm, 58, rfl⟩
abbrev main_v21 : Ref sig .tc := ⟨.hbm, 59, rfl⟩
abbrev main_v22 : Ref sig .tc := ⟨.hbm, 60, rfl⟩
abbrev main_cst_0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_v28 : Ref sig .tc := ⟨.hbm, 68, rfl⟩
abbrev main_v29 : Ref sig .tc := ⟨.hbm, 69, rfl⟩
abbrev main_cst_2 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_3 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_call1_cst : Ref sig .tc := ⟨.hbm, 84, rfl⟩
abbrev main_call1_v0 : Ref sig .tc := ⟨.hbm, 85, rfl⟩
abbrev main_call1_cst_0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_cst_1 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_v42 : Ref sig .tc := ⟨.hbm, 98, rfl⟩
abbrev main_v43 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S1x1_S1 : S1x1.ShapeCasts S1
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x2048_0 : S1.BroadcastsInDim S1x2048 (![0] : Fin 1 → Fin S1x2048.rank)
  bcast_S_S1x2048 : S_.BroadcastsInDim S1x2048 (![] : Fin 0 → Fin S1x2048.rank)
  shapeCasts_S1x1x2048_S1x2048 : S1x1x2048.ShapeCasts S1x2048
  concatenates_S1x2048_S1x2048_S1x4096_d1 : Shape.Concatenates [S1x2048, S1x2048] S1x4096 1
  shapeCasts_S512_S1x512 : S512.ShapeCasts S1x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S2048_S1x2048 : S2048.ShapeCasts S1x2048
  shapeCasts_S6144_S1x6144 : S6144.ShapeCasts S1x6144
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  shapeCasts_S50257_S1x50257 : S50257.ShapeCasts S1x50257
  inb_S2048x2048_S2048x2048_0_0 : ∀ a, (![0, 0] : Fin 2 → Nat) a + S2048x2048.size a ≤ S2048x2048.size a
  h_S2048x2048 : 0 < S2048x2048.numel
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S512x4096_S1x512_1_1_0_0_n_n_wf : DotDims.WF S1x4096 S512x4096 S1x512 [1] [1] [0] [0] [] []
  dot_S1x512_S512x2048_S1x2048_1_0_0_1_n_n_wf : DotDims.WF S1x512 S512x2048 S1x2048 [1] [0] [0] [1] [] []
  dot_S1x2048_S1024x2048_S1x1024_1_1_0_0_n_n_wf : DotDims.WF S1x2048 S1024x2048 S1x1024 [1] [1] [0] [0] [] []
  dot_S1x2048_S2048x2048_S1x2048_1_1_0_0_n_n_wf : DotDims.WF S1x2048 S2048x2048 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S2048x4096.size a
  hwx1_1 : ∀ i : grid1.Coords, EltTy.bits .f32 = 32 ∨ (Rect.block (s := S2048x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S6144x2048.size a
  hwx2_2 : ∀ i : grid2.Coords, EltTy.bits .f32 = 32 ∨ (Rect.block (s := S6144x2048) S1024x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S6144x2048.size a
  hwx2_3 : ∀ i : grid2.Coords, EltTy.bits .f32 = 32 ∨ (Rect.block (s := S6144x2048) S1024x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x6144.size a
  hwx2_4 : ∀ i : grid2.Coords, EltTy.bits .f32 = 32 ∨ (Rect.block (s := S1x6144) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x6144.size a
  hwx2_5 : ∀ i : grid2.Coords, EltTy.bits .f32 = 32 ∨ (Rect.block (s := S1x6144) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x6144.size a
  hwx2_6 : ∀ i : grid2.Coords, EltTy.bits .f32 = 32 ∨ (Rect.block (s := S1x6144) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1024.size a ≤ S1x6144.size a
  hwx2_7 : ∀ i : grid2.Coords, EltTy.bits .f32 = 32 ∨ (Rect.block (s := S1x6144) S1x1024.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x2048.size a < S50257x2048.size a
  hwx3_1 : ∀ i : grid3.Coords, EltTy.bits .f32 = 32 ∨ (Rect.unit (s := S50257x2048) (fun a => cc3_transform_1 i a * S2048x2048.size a) (fun a => (Pipeline.Clip.of (cc3_transform_1 i a) (S2048x2048.size a) (S50257x2048.size a)).extent (S2048x2048.size a)) fun a => Pipeline.Clip.inb (Pipeline.Clip.ok_of (hstart3_1 i a))).WholeWords (EltTy.packing .f32)
  hwxs3_1 : ∀ i : grid3.Coords, EltTy.bits .f32 = 32 ∨ (Rect.unit (s := S2048x2048) (fun _ => 0) (fun a => (Pipeline.Clip.of (cc3_transform_1 i a) (S2048x2048.size a) (S50257x2048.size a)).extent (S2048x2048.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x2048.size a < S1x50257.size a
  hwx3_2 : ∀ i : grid3.Coords, EltTy.bits .f32 = 32 ∨ (Rect.unit (s := S1x50257) (fun a => cc3_transform_2 i a * S1x2048.size a) (fun a => (Pipeline.Clip.of (cc3_transform_2 i a) (S1x2048.size a) (S1x50257.size a)).extent (S1x2048.size a)) fun a => Pipeline.Clip.inb (Pipeline.Clip.ok_of (hstart3_2 i a))).WholeWords (EltTy.packing .f32)
  hwxs3_2 : ∀ i : grid3.Coords, EltTy.bits .f32 = 32 ∨ (Rect.unit (s := S1x2048) (fun _ => 0) (fun a => (Pipeline.Clip.of (cc3_transform_2 i a) (S1x2048.size a) (S1x50257.size a)).extent (S1x2048.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x2048.size a < S1x50257.size a
  hwx3_3 : ∀ i : grid3.Coords, EltTy.bits .f32 = 32 ∨ (Rect.unit (s := S1x50257) (fun a => cc3_transform_3 i a * S1x2048.size a) (fun a => (Pipeline.Clip.of (cc3_transform_3 i a) (S1x2048.size a) (S1x50257.size a)).extent (S1x2048.size a)) fun a => Pipeline.Clip.inb (Pipeline.Clip.ok_of (hstart3_3 i a))).WholeWords (EltTy.packing .f32)
  hwxs3_3 : ∀ i : grid3.Coords, EltTy.bits .f32 = 32 ∨ (Rect.unit (s := S1x2048) (fun _ => 0) (fun a => (Pipeline.Clip.of (cc3_transform_3 i a) (S1x2048.size a) (S1x50257.size a)).extent (S1x2048.size a)) fun a => (Nat.zero_add _).trans_le (Pipeline.Clip.extent_le (Pipeline.Clip.ok_of (hstart3_3 i a)))).WholeWords (EltTy.packing .f32)

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x2048_S2048x2048_S1x2048_1_1_0_0_n_n : DotDims S1x2048 S2048x2048 S1x2048 where
  lhsContracting := [1]
  rhsContracting := [1]
  lhsNonContracting := [0]
  rhsNonContracting := [0]
  lhsBatch := []
  rhsBatch := []
  wf := dot_S1x2048_S2048x2048_S1x2048_1_1_0_0_n_n_wf

abbrev win0_0 : Pipeline.Window sig grid0 :=
  Pipeline.Window.ofSpec (Memref.whole main_v3) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S1024x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v11_0) S1x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v11_1) S1x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v39) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S2048x2048.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v40) S1x2048.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v41) S1x2048.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1x1 : Shape := ⟨2, ![1, 1]⟩
abbrev S1x1x2048 : Shape := ⟨3, ![1, 1, 2048]⟩
abbrev S512x2048 : Shape := ⟨2, ![512, 2048]⟩
abbrev S50257x2048 : Shape := ⟨2, ![50257, 2048]⟩
abbrev S512x4096 : Shape := ⟨2, ![512, 4096]⟩
abbrev S512 : Shape := ⟨1, ![512]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S1 : Shape := ⟨1, ![1]⟩
abbrev S_ : Shape := ⟨0, ![]⟩
abbrev S1x2048 : Shape := ⟨2, ![1, 2048]⟩
abbrev S1x4096 : Shape := ⟨2, ![1, 4096]⟩
abbrev S4096x512 : Shape := ⟨2, ![4096, 512]⟩
abbrev S1x512 : Shape := ⟨2, ![1, 512]⟩
abbrev S4096x2048 : Shape := ⟨2, ![4096, 2048]⟩
abbrev S2048x6144 : Shape := ⟨2, ![2048, 6144]⟩
abbrev S1x6144 : Shape := ⟨2, ![1, 6144]⟩
abbrev S2048x50257 : Shape := ⟨2, ![2048, 50257]⟩
abbrev S1x50257 : Shape := ⟨2, ![1, 50257]⟩

abbrev nBuf : Space → Nat
  | .hbm => 127
  | .vmem => 0
  | .smem => 0
  | _ => 0

abbrev bufTy : (tb : Table) → Fin (tcTables nBuf tb) → BufTy
  | .hbm, ⟨0, _⟩ => ⟨S1x1, .i32⟩
  | .hbm, ⟨1, _⟩ => ⟨S1x1x2048, .f32⟩
  | .hbm, ⟨2, _⟩ => ⟨S512x2048, .f32⟩
  | .hbm, ⟨3, _⟩ => ⟨S50257x2048, .f32⟩
  | .hbm, ⟨4, _⟩ => ⟨S512x4096, .f32⟩
  | .hbm, ⟨5, _⟩ => ⟨S512, .f32⟩
  | .hbm, ⟨6, _⟩ => ⟨S2048x4096, .f32⟩
  | .hbm, ⟨7, _⟩ => ⟨S2048, .f32⟩
  | .hbm, ⟨8, _⟩ => ⟨S6144x2048, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S50257x2048, .f32⟩
  | .hbm, ⟨13, _⟩ => ⟨S50257, .f32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1, .i32⟩
  | .hbm, ⟨24, _⟩ => ⟨S_, .i32⟩
  | .hbm, ⟨25, _⟩ => ⟨S1x1, .i32⟩
  | .hbm, ⟨26, _⟩ => ⟨S1x1, .i1⟩
  | .hbm, ⟨27, _⟩ => ⟨S1x1, .i32⟩
  | .hbm, ⟨28, _⟩ => ⟨S1x1, .i1⟩
  | .hbm, ⟨29, _⟩ => ⟨S1x1, .i1⟩
  | .hbm, ⟨30, _⟩ => ⟨S_, .i1⟩
  | .hbm, ⟨31, _⟩ => ⟨S1, .i1⟩
  | .hbm, ⟨32, _⟩ => ⟨S1x2048, .f32⟩
  | .hbm, ⟨33, _⟩ => ⟨S1x2048, .i1⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x4096, .f32⟩
  | .hbm, ⟨39, _⟩ => ⟨S4096x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S1, .f32⟩
  | .hbm, ⟨48, _⟩ => ⟨S1x1, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1, .f32⟩
  | .hbm, ⟨54, _⟩ => ⟨S1x1, .f32⟩
  | .hbm, ⟨55, _⟩ => ⟨S1x512, .f32⟩
  | .hbm, ⟨56, _⟩ => ⟨S1x512, .f32⟩
  | .hbm, ⟨57, _⟩ => ⟨S1x2048, .f32⟩
  | .hbm, ⟨58, _⟩ => ⟨S1x4096, .f32⟩
  | .hbm, ⟨59, _⟩ => ⟨S4096x2048, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S2048x6144, .f32⟩
  | .hbm, ⟨67, _⟩ => ⟨S1x6144, .f32⟩
  | .hbm, ⟨68, _⟩ => ⟨S1x6144, .f32⟩
  | .hbm, ⟨69, _⟩ => ⟨S1x6144, .f32⟩
  | .hbm, ⟨70, _⟩ => ⟨S2048x6144, .f32⟩
  | .hbm, ⟨71, _⟩ => ⟨S1x6144, .f32⟩
  | .hbm, ⟨72, _⟩ => ⟨S1x6144, .f32⟩
  | .hbm, ⟨73, _⟩ => ⟨S1x6144, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S1x2048, .f32⟩
  | .hbm, ⟨83, _⟩ => ⟨S_, .f32⟩
  | .hbm, ⟨84, _⟩ => ⟨S1x2048, .f32⟩
  | .hbm, ⟨85, _⟩ => ⟨S1x2048, .f32⟩
  | .hbm, ⟨86, _⟩ => ⟨S_, .f32⟩
  | .hbm, ⟨87, _⟩ => ⟨S1x2048, .f32⟩
  | .hbm, ⟨88, _⟩ => ⟨S1x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S_, .f32⟩
  | .hbm, ⟨93, _⟩ => ⟨S1x2048, .f32⟩
  | .hbm, ⟨94, _⟩ => ⟨S1x2048, .f32⟩
  | .hbm, ⟨95, _⟩ => ⟨S_, .f32⟩
  | .hbm, ⟨96, _⟩ => ⟨S1x2048, .f32⟩
  | .hbm, ⟨97, _⟩ => ⟨S1x2048, .f32⟩
  | .hbm, ⟨98, _⟩ => ⟨S1x2048, .f32⟩
  | .hbm, ⟨99, _⟩ => ⟨S1x2048, .f32⟩
  | .hbm, ⟨100, _⟩ => ⟨S1x2048, .f32⟩
  | .hbm, ⟨101, _⟩ => ⟨S_, .f32⟩
  | .hbm, ⟨102, _⟩ => ⟨S1x2048, .f32⟩
  | .hbm, ⟨103, _⟩ => ⟨S1x2048, .f32⟩
  | .hbm, ⟨104, _⟩ => ⟨S1x2048, .f32⟩
  | .hbm, ⟨105, _⟩ => ⟨S1x2048, .f32⟩
  | .hbm, ⟨106, _⟩ => ⟨S1x2048, .f32⟩
  | .hbm, ⟨107, _⟩ => ⟨S2048x50257, .f32⟩
  | .hbm, ⟨108, _⟩ => ⟨S1x50257, .f32⟩
  | .hbm, ⟨109, _⟩ => ⟨S1x50257, .f32⟩
  | .hbm, ⟨110, _⟩ => ⟨S1x50257, .f32⟩
  | .hbm, ⟨111, _⟩ => ⟨S_, .f32⟩
  | .hbm, ⟨112, _⟩ => ⟨S1, .f32⟩
  | .hbm, ⟨113, _⟩ => ⟨S_, .f32⟩
  | .hbm, ⟨114, _⟩ => ⟨S1, .f32⟩
  | .hbm, ⟨115, _⟩ => ⟨S1, .f32⟩
  | .hbm, ⟨116, _⟩ => ⟨S1x1, .f32⟩
  | .hbm, ⟨117, _⟩ => ⟨S1x50257, .f32⟩
  | .hbm, ⟨118, _⟩ => ⟨S1x50257, .f32⟩
  | .hbm, ⟨119, _⟩ => ⟨S1x50257, .f32⟩
  | .hbm, ⟨120, _⟩ => ⟨S_, .f32⟩
  | .hbm, ⟨121, _⟩ => ⟨S1, .f32⟩
  | .hbm, ⟨122, _⟩ => ⟨S1x1, .f32⟩
  | .hbm, ⟨123, _⟩ => ⟨S1x1, .f32⟩
  | .hbm, ⟨124, _⟩ => ⟨S1x50257, .f32⟩
  | .hbm, ⟨125, _⟩ => ⟨S1x50257, .f32⟩
  | .hbm, ⟨126, _⟩ => ⟨S1x1x2048, .f32⟩
  | _, _ => ⟨S1x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_cst_0 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_cst : Ref sig .tc := ⟨.hbm, 63, rfl⟩
abbrev main_call1_v0 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_2 : Ref sig .tc := ⟨.hbm, 83, rfl⟩
abbrev main_v43 : Ref sig .tc := ⟨.hbm, 84, rfl⟩
abbrev main_v44 : Ref sig .tc := ⟨.hbm, 85, rfl⟩
abbrev main_cst_3 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_4 : Ref sig .tc := ⟨.hbm, 92, rfl⟩
abbrev main_v50 : Ref sig .tc := ⟨.hbm, 93, rfl⟩
abbrev main_v51 : Ref sig .tc := ⟨.hbm, 94, rfl⟩
abbrev main_cst_5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_6 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v66 : Ref sig .tc := ⟨.hbm, 125, rfl⟩
abbrev main_v67 : Ref sig .tc := ⟨.hbm, 126, rfl⟩

abbrev nD : Nat := 1
abbrev τ : Topo := Topo.v7x

variable {F : FTy → Type} [FloatOps F]

class Facts₀ : Prop where
  shapeCasts_S1x1_S1 : S1x1.ShapeCasts S1
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x2048_0 : S1.BroadcastsInDim S1x2048 (![0] : Fin 1 → Fin S1x2048.rank)
  bcast_S_S1x2048 : S_.BroadcastsInDim S1x2048 (![] : Fin 0 → Fin S1x2048.rank)
  shapeCasts_S1x1x2048_S1x2048 : S1x1x2048.ShapeCasts S1x2048
  concatenates_S1x2048_S1x2048_S1x4096_d1 : Shape.Concatenates [S1x2048, S1x2048] S1x4096 1
  transposes_S512x4096_S4096x512_1_0 : S512x4096.Transposes [1, 0] S4096x512
  bcast_S512_S1x512_1 : S512.BroadcastsInDim S1x512 (![1] : Fin 1 → Fin S1x512.rank)
  reducesTo_S1x512_S1_d1 : S1x512.ReducesTo [1] S1
  bcast_S1x1_S1x512_0_1 : S1x1.BroadcastsInDim S1x512 (![0, 1] : Fin 2 → Fin S1x512.rank)
  transposes_S2048x4096_S4096x2048_1_0 : S2048x4096.Transposes [1, 0] S4096x2048
  bcast_S2048_S1x2048_1 : S2048.BroadcastsInDim S1x2048 (![1] : Fin 1 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x512_S1x512_1_0_0_1_n_n_wf : DotDims.WF S1x4096 S4096x512 S1x512 [1] [0] [0] [1] [] []
  dot_S1x512_S512x2048_S1x2048_1_0_0_1_n_n_wf : DotDims.WF S1x512 S512x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []
  dot_S1x2048_S2048x50257_S1x50257_1_0_0_1_n_n_wf : DotDims.WF S1x2048 S2048x50257 S1x50257 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.KI.Reg0.lean ====
import proofs.«153450_j57131654971751_1_alg».proof.Proof.Gen.KernelIdeal.Launch
import proofs.«153450_j57131654971751_1_alg».proof.Proof.Gen.KernelIdeal.Skeleton
import proofs.«153450_j57131654971751_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the attention step, one grid point

The first kernel launch of the decoder step. Its grid has ONE point; all six windows are whole arrays, each
staged once. From the query row `x` ([1,4096]), the score matrix `W` ([512,4096]), the score bias `b` ([1,512])
and the encoder states `E` ([512,2048]) the body computes

* the attention weights  `a = softmax (x · Wᵀ + b)`  ([1,512], products of operands rounded to bf16), and
* the context row        `a · E`                       ([1,2048], again through bf16 operands),

and stores each once, whole, into its output buffer. This module states what the two output buffers hold after
the body as functions of the four input blocks, proves the body's triple, and packages the pipeline's proof
data and its body obligation — at ANY float model `F`, and at a PARAMETER `V`: the buffers' contents when the
region is entered.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is the
    region-entry contents and whose body leaves the block in place: the window is an input, uncut and never idle, so
    what it holds is what a fetch there puts in it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for ANY proof data whose array is the
    region-entry contents and whose body leaves the block in place: the window is an input, uncut and never idle, so
    what it holds is what a fetch there puts in it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for ANY proof data whose array is the
    region-entry contents and whose body leaves the block in place: the window is an input, uncut and never idle, so
    what it holds is what a fetch there puts in it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for ANY proof data whose array is the
    region-entry contents and whose body leaves the block in place: the window is an input, uncut and never idle, so
    what it holds is what a fetch there puts in it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every access of the body is of a WHOLE staging buffer: the rectangle of the buffer's own extents at offset zero. -/

/-- the query row, [1,4096] -/
abbrev rQuery : Rect S1x4096 := Rect.unit (s := S1x4096) ![0, 0] S1x4096.size inb_S1x4096_S1x4096_0_0
/-- the score matrix, [512,4096] -/
abbrev rScoreW : Rect S512x4096 := Rect.unit (s := S512x4096) ![0, 0] S512x4096.size inb_S512x4096_S512x4096_0_0
/-- a row of 512 scores: the bias read, and the attention weights written -/
abbrev rScores : Rect S1x512 := Rect.unit (s := S1x512) ![0, 0] S1x512.size inb_S1x512_S1x512_0_0
/-- the encoder states, [512,2048] -/
abbrev rEnc : Rect S512x2048 := Rect.unit (s := S512x2048) ![0, 0] S512x2048.size inb_S512x2048_S512x2048_0_0
/-- the context row, [1,2048] -/
abbrev rContext : Rect S1x2048 := Rect.unit (s := S1x2048) ![0, 0] S1x2048.size inb_S1x2048_S1x2048_0_0

/-- The offsets of every access are zero. -/
theorem zeros2 : (![0, 0] : Fin 2 → Nat) = fun _ => 0 := by
  funext a; fin_cases a <;> rfl

/-! ## What the body leaves in each output window's buffer -/

/-- The attention-weights buffer after the body: its one whole store, of `softmax (x · Wᵀ + b)` of the three
    loaded blocks. -/
def out0_4 (x0 : Vec F S1x4096 .f32) (x1 : Vec F S512x4096 .f32) (x2 : Vec F S1x512 .f32) : Vec F S1x512 .f32 :=
  View.canon [⟨rScores, k0_pay1 (View.ld x0 rQuery) (View.ld x1 rScoreW) (View.ld x2 rScores)⟩]

/-- The context buffer after the body: its one whole store, of the attention weights times the encoder states. -/
def out0_5 (x0 : Vec F S1x4096 .f32) (x1 : Vec F S512x4096 .f32) (x2 : Vec F S1x512 .f32) (x3 : Vec F S512x2048 .f32) : Vec F S1x2048 .f32 :=
  View.canon [⟨rContext, k0_pay2 (View.ld x0 rQuery) (View.ld x1 rScoreW) (View.ld x2 rScores) (View.ld x3 rEnc)⟩]

/-- The one store covers the attention-weights buffer: it is the whole buffer. -/
theorem cover0_4 (p0 : Vec F S1x512 .f32) (y : S1x512.Idx) :
    ∃ pc ∈ ([⟨rScores, p0⟩] : List (View.Piece (Elt F) S1x512 .f32)), y ∈ pc.1.set :=
  ⟨_, List.mem_singleton_self _, View.mem_set_unit_zero zeros2 inb_S1x512_S1x512_0_0 y⟩

/-- The one store covers the context buffer. -/
theorem cover0_5 (p0 : Vec F S1x2048 .f32) (y : S1x2048.Idx) :
    ∃ pc ∈ ([⟨rContext, p0⟩] : List (View.Piece (Elt F) S1x2048 .f32)), y ∈ pc.1.set :=
  ⟨_, List.mem_singleton_self _, View.mem_set_unit_zero zeros2 inb_S1x2048_S1x2048_0_0 y⟩

/-- One whole piece at offset zero leaves its payload, and a whole load at offset zero reads the buffer itself: the
    attention-weights buffer ends at the payload of the input buffers themselves. -/
theorem out0_4_eq (x0 : Vec F S1x4096 .f32) (x1 : Vec F S512x4096 .f32) (x2 : Vec F S1x512 .f32) :
    out0_4 x0 x1 x2 = k0_pay1 x0 x1 x2 := by
  unfold out0_4
  rw [View.canon_unit_zero zeros2 inb_S1x512_S1x512_0_0, View.ld_unit_zero zeros2 inb_S1x4096_S1x4096_0_0,
    View.ld_unit_zero zeros2 inb_S512x4096_S512x4096_0_0, View.ld_unit_zero zeros2 inb_S1x512_S1x512_0_0]

/-- Likewise the context buffer. -/
theorem out0_5_eq (x0 : Vec F S1x4096 .f32) (x1 : Vec F S512x4096 .f32) (x2 : Vec F S1x512 .f32) (x3 : Vec F S512x2048 .f32) :
    out0_5 x0 x1 x2 x3 = k0_pay2 x0 x1 x2 x3 := by
  unfold out0_5
  rw [View.canon_unit_zero zeros2 inb_S1x2048_S1x2048_0_0, View.ld_unit_zero zeros2 inb_S1x4096_S1x4096_0_0,
    View.ld_unit_zero zeros2 inb_S512x4096_S512x4096_0_0, View.ld_unit_zero zeros2 inb_S1x512_S1x512_0_0,
    View.ld_unit_zero zeros2 inb_S512x2048_S512x2048_0_0]

/-! ## The body's triple -/

set_option maxHeartbeats 1000000 in
/-- The body on whole staging memrefs — the four inputs' at read contents `x0 … x3`, the two outputs' at anything (the
    body reads each output buffer once before it stores it; the value read is never used) — runs to the continuation
    holding the inputs' as they were and the outputs' at `out0_4`, `out0_5` of the inputs'. -/
theorem sound_kernel0 (c : Dev nD) (E : Set ℕ) (i : grid0.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S1x2048 .f32) (harg6 : arg6.IsWhole)
    (x0 : Vec F S1x4096 .f32) (x1 : Vec F S512x4096 .f32) (x2 : Vec F S1x512 .f32) (x3 : Vec F S512x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E
          (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of this pipeline on core `c`: the arrays as the region finds them; after the body at point `t` each
    input's buffer at its block, the attention-weights buffer at `out0_4` and the context buffer at `out0_5` of the input
    blocks; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

/-- Each input's current staging buffer holds its block at the point: the window is an input, never idle, uncut, and
    the body leaves the block in place. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.Reg1.lean ====
/- REGION 1 of the program: the combine-and-rectify kernel on its grid of four points, at the buffer contents the
   region is entered with. Window 0 is the concatenated row vector x (one block, the whole [1,4096] array, the same at
   every point); window 1 the block of 512 rows of the [2048,4096] weight matrix the point owns; window 2 the matching
   512 entries of the bias row; window 3 the 512 entries of the result row the point writes. What the body leaves in
   the result block is relu(x · Wᵀ + b) on the blocks, a function of the three input blocks alone. -/
import proofs.«153450_j57131654971751_1_alg».proof.Proof.Gen.KernelIdeal.Launch
import proofs.«153450_j57131654971751_1_alg».proof.Proof.Gen.KernelIdeal.Skeleton
import proofs.«153450_j57131654971751_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle whose long axis has thousands of coordinates recurses once per coordinate
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row vector's buffer holds the whole vector at every point: it is brought in at the first point, the body
    leaves it in place, and at a later point the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight block's buffer holds the point's 512 rows (brought in at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias block's buffer holds the point's 512 entries (brought in at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! # The body's accesses: each buffer is read, and the result buffer written, whole -/

/-- All of the [1,4096] row vector. -/
abbrev r1_x : Rect S1x4096 := Rect.unit (s := S1x4096) ![0, 0] S1x4096.size inb_S1x4096_S1x4096_0_0
/-- All of a [512,4096] block of weight rows. -/
abbrev r1_w : Rect S512x4096 := Rect.unit (s := S512x4096) ![0, 0] S512x4096.size inb_S512x4096_S512x4096_0_0
/-- All of a [1,512] block of a row (the bias block, and the result block). -/
abbrev r1_b : Rect S1x512 := Rect.unit (s := S1x512) ![0, 0] S1x512.size inb_S1x512_S1x512_0_0

/-- The zero offsets of a rank-2 rectangle, as the constant function. -/
theorem zero_off1 : (![0, 0] : Fin 2 → Nat) = fun _ => 0 := funext fun a => by fin_cases a <;> rfl

/-! # What the body leaves in the result block -/

/-- The result buffer after the body, from the three input buffers: its one store, of relu(x · Wᵀ + b) of what the
    three loads read. -/
def out1_3 (x0 : Vec F S1x4096 .f32) (x1 : Vec F S512x4096 .f32) (x2 : Vec F S1x512 .f32) : Vec F S1x512 .f32 :=
  View.canon [⟨r1_b, k1_pay1 (View.ld x0 r1_x) (View.ld x1 r1_w) (View.ld x2 r1_b)⟩]

/-- The one store is of the whole block, so it covers it. -/
theorem cover1_3 (p0 : Vec F S1x512 .f32) (y : S1x512.Idx) :
    ∃ pc ∈ ([⟨r1_b, p0⟩] : List (View.Piece (Elt F) S1x512 .f32)), y ∈ pc.1.set :=
  View.cover_of_tiled [⟨r1_b, p0⟩] S1x512.size (by rfl) y

/-- Whole loads read the buffers themselves and the whole store leaves its payload: the result block is
    relu(x · Wᵀ + b) of the buffers. -/
theorem out1_3_eq (x0 : Vec F S1x4096 .f32) (x1 : Vec F S512x4096 .f32) (x2 : Vec F S1x512 .f32) :
    out1_3 x0 x1 x2 = k1_pay1 x0 x1 x2 := by
  unfold out1_3
  rw [View.canon_unit_zero (S := S1x512) zero_off1 inb_S1x512_S1x512_0_0,
    View.ld_unit_zero (S := S1x4096) zero_off1 inb_S1x4096_S1x4096_0_0,
    View.ld_unit_zero (S := S512x4096) zero_off1 inb_S512x4096_S512x4096_0_0,
    View.ld_unit_zero (S := S1x512) zero_off1 inb_S1x512_S1x512_0_0]

/-! # The body's triple -/

set_option maxHeartbeats 1000000 in
/-- The kernel body on whole buffers — the three inputs at contents `x0`, `x1`, `x2`, the result buffer at any
    contents (the body reads it once, a value it never uses, before overwriting it) — runs to the continuation with
    the inputs as they were and the result buffer at `out1_3` of them. -/
theorem sound_kernel1 (c : Dev nD) (E : Set ℕ) (i : grid1.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__comb_kernel i arg1 harg1 arg2 harg2 arg3 harg3 arg4 harg4) K := by
  simp only [cc1__comb_kernel_eq_skeleton]; unfold cc1__comb_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! # The pipeline's proof data -/

/-- The proof data of the region's pipeline on core `c`: the arrays as the region finds them; after the body at
    point `t` each input's buffer still at its block and the result buffer at `out1_3` of the three blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current buffer holds its block at every point, brought in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! # The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's loop, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KI.Reg2.lean ====
/- REGION 2 of the program: the two projections of the recurrent cell on a grid of six points, at the buffer contents
   the region is entered with. Windows 0 and 1 are the input row vector and the previous state (each one block, the
   whole [1,2048] array, the same at every point); windows 2 and 3 the blocks of 1024 rows of the two [6144,2048] weight
   matrices the point owns; windows 4 and 5 the matching 1024 entries of the two bias rows; windows 6 and 7 the 1024
   entries of the two result rows the point writes. The body leaves x · W_ihᵀ + b_ih in the first result block and
   h · W_hhᵀ + b_hh in the second, each a function of its own three input blocks. -/
import proofs.«153450_j57131654971751_1_alg».proof.Proof.Gen.KernelIdeal.Launch
import proofs.«153450_j57131654971751_1_alg».proof.Proof.Gen.KernelIdeal.Skeleton
import proofs.«153450_j57131654971751_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle whose long axis has thousands of coordinates recurses once per coordinate
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input row vector's buffer holds the whole vector at every point: brought in at the first point, left in place by the body, and at a later point the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The previous state's buffer likewise holds the whole vector at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first weight block's buffer holds the point's 1024 rows (brought in at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The second weight block's buffer holds the point's 1024 rows. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first bias block's buffer holds the point's 1024 entries. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The second bias block's buffer holds the point's 1024 entries. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! # The body's accesses: each buffer is read, and each result buffer written, whole -/

/-- All of a [1,2048] row vector. -/
abbrev r2_x : Rect S1x2048 := Rect.unit (s := S1x2048) ![0, 0] S1x2048.size inb_S1x2048_S1x2048_0_0
/-- All of a [1024,2048] block of weight rows. -/
abbrev r2_w : Rect S1024x2048 := Rect.unit (s := S1024x2048) ![0, 0] S1024x2048.size inb_S1024x2048_S1024x2048_0_0
/-- All of a [1,1024] block of a row (a bias block, or a result block). -/
abbrev r2_b : Rect S1x1024 := Rect.unit (s := S1x1024) ![0, 0] S1x1024.size inb_S1x1024_S1x1024_0_0

/-- The zero offsets of a rank-2 rectangle, as the constant function. -/
theorem zero_off2 : (![0, 0] : Fin 2 → Nat) = fun _ => 0 := funext fun a => by fin_cases a <;> rfl

/-! # What the body leaves in the two result blocks -/

/-- The first result buffer after the body: its one store, of x · W_ihᵀ + b_ih of what the loads of windows 0, 2, 4 read. -/
def out2_6 (x0 : Vec F S1x2048 .f32) (x2 : Vec F S1024x2048 .f32) (x4 : Vec F S1x1024 .f32) : Vec F S1x1024 .f32 :=
  View.canon [⟨r2_b, k2_pay1 (View.ld x0 r2_x) (View.ld x2 r2_w) (View.ld x4 r2_b)⟩]

/-- The second result buffer after the body: its one store, of h · W_hhᵀ + b_hh of what the loads of windows 1, 3, 5 read. -/
def out2_7 (x1 : Vec F S1x2048 .f32) (x3 : Vec F S1024x2048 .f32) (x5 : Vec F S1x1024 .f32) : Vec F S1x1024 .f32 :=
  View.canon [⟨r2_b, k2_pay2 (View.ld x1 r2_x) (View.ld x3 r2_w) (View.ld x5 r2_b)⟩]

/-- A store of the whole block covers it (the same for either result block). -/
theorem cover2_b (p0 : Vec F S1x1024 .f32) (y : S1x1024.Idx) :
    ∃ pc ∈ ([⟨r2_b, p0⟩] : List (View.Piece (Elt F) S1x1024 .f32)), y ∈ pc.1.set :=
  View.cover_of_tiled [⟨r2_b, p0⟩] S1x1024.size (by rfl) y

/-- Whole loads read the buffers themselves and the whole store leaves its payload. -/
theorem out2_6_eq (x0 : Vec F S1x2048 .f32) (x2 : Vec F S1024x2048 .f32) (x4 : Vec F S1x1024 .f32) :
    out2_6 x0 x2 x4 = k2_pay1 x0 x2 x4 := by
  unfold out2_6
  rw [View.canon_unit_zero (S := S1x1024) zero_off2 inb_S1x1024_S1x1024_0_0,
    View.ld_unit_zero (S := S1x2048) zero_off2 inb_S1x2048_S1x2048_0_0,
    View.ld_unit_zero (S := S1024x2048) zero_off2 inb_S1024x2048_S1024x2048_0_0,
    View.ld_unit_zero (S := S1x1024) zero_off2 inb_S1x1024_S1x1024_0_0]
theorem out2_7_eq (x1 : Vec F S1x2048 .f32) (x3 : Vec F S1024x2048 .f32) (x5 : Vec F S1x1024 .f32) :
    out2_7 x1 x3 x5 = k2_pay2 x1 x3 x5 := by
  unfold out2_7
  rw [View.canon_unit_zero (S := S1x1024) zero_off2 inb_S1x1024_S1x1024_0_0,
    View.ld_unit_zero (S := S1x2048) zero_off2 inb_S1x2048_S1x2048_0_0,
    View.ld_unit_zero (S := S1024x2048) zero_off2 inb_S1024x2048_S1024x2048_0_0,
    View.ld_unit_zero (S := S1x1024) zero_off2 inb_S1x1024_S1x1024_0_0]

/-! # The body's triple -/

set_option maxHeartbeats 4000000 in
/-- The kernel body on whole buffers — the six inputs at contents `x0` … `x5`, the two result buffers at any
    contents (the body reads each once, a value it never uses, before overwriting it) — runs to the continuation with
    the inputs as they were and the result buffers at `out2_6`, `out2_7` of them. -/
theorem sound_kernel2 (c : Dev nD) (E : Set ℕ) (i : grid2.Coords)
    (arg1 : Memref sig .tc .vmem S1x2048 .f32) (harg1 : arg1.IsWhole) (arg2 : Memref sig .tc .vmem S1x2048 .f32) (harg2 : arg2.IsWhole)
    (arg3 : Memref sig .tc .vmem S1024x2048 .f32) (harg3 : arg3.IsWhole) (arg4 : Memref sig .tc .vmem S1024x2048 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (x0 : Vec F S1x2048 .f32) (x1 : Vec F S1x2048 .f32) (x2 : Vec F S1024x2048 .f32) (x3 : Vec F S1024x2048 .f32)
    (x4 : Vec F S1x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x2 x4) ∗ owns (c : Thread nD τ) arg8 fullShare (out2_7 x1 x3 x5)) -∗ K ⟨⟩))
      ⊢ wp frame (wpE (defs₀ (F := F)) Variants.none c none) E
          (cc2__gru_kernel i arg1 harg1 arg2 harg2 arg3 harg3 arg4 harg4 arg5 harg5 arg6 harg6 arg7 harg7 arg8 harg8) K := by
  simp only [cc2__gru_kernel_eq_skeleton]; unfold cc2__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_b _)
  iexists _; isplitr
  swap; · iexact H7
  ipureintro
  exact View.read_writes_eq_canon _ _ _ (cover2_b _)

/-! # The pipeline's proof data -/

/-- The proof data of the region's pipeline on core `c`: the arrays as the region finds them; after the body at
    point `t` each input's buffer still at its block and each result buffer at its `out2_W` of its three blocks; the
    invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 4 t)
    | ⟨7, _⟩ => out2_7 (iblk2 V c 1 t) (iblk2 V c 3 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 2 t) (iblk2 V c 4 t) := by dsimp only [dat2]
theorem after2_7 (c : Dev nD) (t : Fin cfg2.N) :
    (dat2 V c).after 7 t = out2_7 (iblk2 V c 1 t) (iblk2 V c 3 t) (iblk2 V c 5 t) := by dsimp only [dat2]

/-- Each input's current buffer holds its block at every point, brought in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! # The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline's loop, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.Reg3.lean ====
/-
  Region 3 of @main: the output projection  logits_raw[0, n] = Σ_k h[0, k] · out_W[n, k] + out_b[n]  over the
  50257 columns n, computed in 25 column tiles of 2048. 25 · 2048 = 51200 > 50257: the last tile overhangs the
  arrays of the weight rows, the bias and the result by 943 columns, so its transfers are cut at the arrays' end
  (1105 columns inside) and the staging buffers' tails hold words nothing names. Stated here, for any float
  values: what each window's block is at a tile, what the body leaves in the result's buffer as a function of the
  three input buffers, the proof data of the pipeline, and the body's obligation at a symbolic tile — once with
  the result's window forgotten, once exact under the hypothesis that the columns inside the array do not depend
  on the input words past the arrays' end.
-/
import proofs.«153450_j57131654971751_1_alg».proof.Proof.Gen.KernelIdeal.Launch
import proofs.«153450_j57131654971751_1_alg».proof.Proof.Gen.KernelIdeal.Skeleton
import proofs.«153450_j57131654971751_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Rg

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, its part inside the array, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The same filled out to the whole block: past the array's end the zero word. -/
def zblk3 (c : Dev nD) (w : Fin cfg3.W) (t : Fin cfg3.N) : (cfg3.win w).block.Idx → Elt F (cfg3.win w).elt :=
  (cfg3.win w).fill (cfg3.grid.coords t) (fun _ => default) (iblk3 V c w t)

/-- Cut back to the part inside the array it is the block. -/
theorem cut_zblk3 (c : Dev nD) (w : Fin cfg3.W) (t : Fin cfg3.N) :
    (cfg3.win w).cut (cfg3.grid.coords t) (zblk3 V c w t) = iblk3 V c w t := by
  unfold zblk3; rw [Window.cut_fill]

/-- The hidden row's window is not cut: its filled block is the block. -/
theorem zblk3_0 (c : Dev nD) (t : Fin cfg3.N) : zblk3 V c 0 t = iblk3 V c 0 t := by
  funext j
  have h : (cfg3.win 0).moved (cfg3.grid.coords t) j = true := rfl
  unfold zblk3 Window.fill; rw [dif_pos h]

/-! ## What the body leaves in the result's buffer -/

/-- The whole buffer of a row of 2048 columns, and of the 2048 weight rows: what the body's loads and its one store go through. -/
abbrev r3_0 : Rect S1x2048 := Rect.unit (s := S1x2048) ![0, 0] S1x2048.size inb_S1x2048_S1x2048_0_0
abbrev r3_1 : Rect S2048x2048 := Rect.unit (s := S2048x2048) ![0, 0] S2048x2048.size inb_S2048x2048_S2048x2048_0_0

/-- The result's buffer after the body, from what the three input buffers hold: the one store's payload — the
    product of the hidden row with the tile's weight rows plus the tile's bias — laid over the buffer. -/
def out3_3 (x0 : Vec F S1x2048 .f32) (x1 : Vec F S2048x2048 .f32) (x2 : Vec F S1x2048 .f32) : Vec F S1x2048 .f32 :=
  View.canon [⟨r3_0, k3_pay1 (View.ld x0 r3_0) (View.ld x1 r3_1) (View.ld x2 r3_0)⟩]

/-- The two offsets of a whole-buffer access are zero. -/
theorem off00 : (![0, 0] : Fin 2 → Nat) = fun _ => 0 := funext fun a => by fin_cases a <;> rfl

/-- The loads read the buffers whole and the store covers the result's: the buffer is left at the payload. -/
theorem out3_3_eq (x0 : Vec F S1x2048 .f32) (x1 : Vec F S2048x2048 .f32) (x2 : Vec F S1x2048 .f32) :
    out3_3 x0 x1 x2 = k3_pay1 x0 x1 x2 := by
  unfold out3_3
  rw [View.canon_unit_zero off00, View.ld_unit_zero off00, View.ld_unit_zero off00, View.ld_unit_zero off00]

/-- The one store covers the result's buffer. -/
theorem cover3_3 (p0 : Vec F S1x2048 .f32) (y : S1x2048.Idx) :
    ∃ pc ∈ ([⟨r3_0, p0⟩] : List (View.Piece (Elt F) S1x2048 .f32)), y ∈ pc.1.set :=
  ⟨_, List.mem_singleton_self _, View.mem_set_unit_zero off00 inb_S1x2048_S1x2048_0_0 y⟩

/-! ## The body's triple -/

set_option maxHeartbeats 1000000 in
/-- The body on whole staging buffers, the three inputs' at any read contents and the result's at anything: it reads
    the hidden row, the weight rows and the bias, reads the result's buffer to no use, and stores the product plus
    the bias over it; the inputs' buffers are as they were. -/
theorem sound_kernel3 (c : Dev nD) (E : Set ℕ) (i : grid3.Coords)
    (arg1 : Memref sig .tc .vmem S1x2048 .f32) (harg1 : arg1.IsWhole) (arg2 : Memref sig .tc .vmem S2048x2048 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out3_3 x0 x1 x2)) -∗ K ⟨⟩))
      ⊢ wp frame (wpE (defs₀ (F := F)) Variants.none c none) E (cc3__outproj_kernel i arg1 harg1 arg2 harg2 arg3 harg3 arg4 harg4) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core `c`: the arrays as the region finds them; after the body at tile `t` the
    three input buffers at their blocks filled out with the zero word, the result's at what the body leaves of
    those; the invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => zblk3 V c 0 t
    | ⟨1, _⟩ => zblk3 V c 1 t
    | ⟨2, _⟩ => zblk3 V c 2 t
    | ⟨3, _⟩ => out3_3 (zblk3 V c 0 t) (zblk3 V c 1 t) (zblk3 V c 2 t)
  Φ _ := Pipeline.ΦA spec3 c
  q _ := fullShare
  owed _ := 0

/-- The windows a claim that reads nothing of the result forgets: the result's. -/
def fgtOut3 : Fin cfg3.W → Bool := fun | 0 => false | 1 => false | 2 => false | 3 => true | ⟨_ + 4, h⟩ => absurd h (Nat.not_lt.2 (Nat.le_add_left _ _))

theorem A_eq3 (c : Dev nD) (w : Fin cfg3.W) : (dat3 V c).A w = V c (Pipeline.arrRef spec3 w) := by
  dsimp only [dat3]

theorem after3_0 (c : Dev nD) (t : Fin cfg3.N) : (dat3 V c).after 0 t = zblk3 V c 0 t := by dsimp only [dat3]
theorem after3_1 (c : Dev nD) (t : Fin cfg3.N) : (dat3 V c).after 1 t = zblk3 V c 1 t := by dsimp only [dat3]
theorem after3_2 (c : Dev nD) (t : Fin cfg3.N) : (dat3 V c).after 2 t = zblk3 V c 2 t := by dsimp only [dat3]
theorem after3_3 (c : Dev nD) (t : Fin cfg3.N) :
    (dat3 V c).after 3 t = out3_3 (zblk3 V c 0 t) (zblk3 V c 1 t) (zblk3 V c 2 t) := by dsimp only [dat3]

/-! ## What the body finds in each buffer -/

/-- What the proof data leave in an input's buffer, cut back to the part inside the array, is the block there. -/
theorem keep3 (c : Dev nD) (w : Fin cfg3.W) (t : Fin cfg3.N) (h : (dat3 V c).after w t = zblk3 V c w t) :
    (cfg3.win w).cut (cfg3.grid.coords t) ((dat3 V c).after w t) = (dat3 V c).blockOf w t := by
  rw [h]; unfold zblk3; rw [Window.cut_fill]; unfold Dat.blockOf iblk3; rw [A_eq3]

/-- What a fetch at `t` puts in an input's buffer: the block inside the array, `d` past its end. -/
theorem fetched3 (c : Dev nD) (w : Fin cfg3.W) (t : Fin cfg3.N) (d) :
    (dat3 V c).fetched w t d = (cfg3.win w).fill (cfg3.grid.coords t) d (iblk3 V c w t) := by
  unfold Dat.fetched Dat.blockOf iblk3; rw [A_eq3]

/-- The hidden row's buffer, fetched at the first tile only and left in place since, holds the row at every tile. -/
theorem before3_0 (c : Dev nD) (t : Fin cfg3.N) (d) :
    (dat3 V c).before 0 t d = (cfg3.win 0).fill (cfg3.grid.coords t) d (iblk3 V c 0 t) :=
  ((dat3 V c).before_in_eq_fetched 0 rfl (fun _ => rfl) (fun _ _ _ => rfl) (fun t => keep3 V c 0 t (after3_0 V c t)) t d).trans
    (fetched3 V c 0 t d)

/-- The weight rows' and the bias's buffers are fetched at every tile: the block inside the array, `d` past its end. -/
theorem before3_1 (c : Dev nD) (t : Fin cfg3.N) (d) :
    (dat3 V c).before 1 t d = (cfg3.win 1).fill (cfg3.grid.coords t) d (iblk3 V c 1 t) :=
  ((dat3 V c).before_fetched 1 t (fetch3_1 t) d).trans (fetched3 V c 1 t d)
theorem before3_2 (c : Dev nD) (t : Fin cfg3.N) (d) :
    (dat3 V c).before 2 t d = (cfg3.win 2).fill (cfg3.grid.coords t) d (iblk3 V c 2 t) :=
  ((dat3 V c).before_fetched 2 t (fetch3_2 t) d).trans (fetched3 V c 2 t d)

/-- The hidden row's window is not cut: filling its block out changes nothing, whatever the filler. -/
theorem fill3_0 (i : grid3.Coords) (d d' : (cfg3.win 0).block.Idx → Elt F .f32) (g : ((cfg3.win 0).xblock i).Idx → Elt F .f32) :
    (cfg3.win 0).fill i d g = (cfg3.win 0).fill i d' g := by
  funext j
  have h : (cfg3.win 0).moved i j = true := rfl
  unfold Window.fill; rw [dif_pos h, dif_pos h]

/-- The result's buffer is written back at every tile: the body finds it at contents nothing names. -/
theorem before3_3 (c : Dev nD) (t : Fin cfg3.N) (d) : (dat3 V c).before 3 t d = d :=
  (dat3 V c).before_out_reset 3 rfl t (by
    by_cases h0 : t.val = 0
    · exact .inl h0
    · exact .inr ⟨h0, flush3_3 _⟩) d

/-! ## The body obligation, at a symbolic tile -/

/-- The three input buffers as the body finds them at tile `t`: each window's block inside the array, `dW` past its end. -/
abbrev in3_0 (c : Dev nD) (t : Fin cfg3.N) (d0 : S1x2048.Idx → Elt F .f32) : Vec F S1x2048 .f32 :=
  (cfg3.win 0).fill (cfg3.grid.coords t) d0 (iblk3 V c 0 t)
abbrev in3_1 (c : Dev nD) (t : Fin cfg3.N) (d1 : S2048x2048.Idx → Elt F .f32) : Vec F S2048x2048 .f32 :=
  (cfg3.win 1).fill (cfg3.grid.coords t) d1 (iblk3 V c 1 t)
abbrev in3_2 (c : Dev nD) (t : Fin cfg3.N) (d2 : S1x2048.Idx → Elt F .f32) : Vec F S1x2048 .f32 :=
  (cfg3.win 2).fill (cfg3.grid.coords t) d2 (iblk3 V c 2 t)

/-- The body at tile `t` on the current buffers: the inputs' hold their blocks filled out with any words, the result's
    anything; it leaves the inputs' as they were and the result's at what it computes of them. The invariant and
    the core's debts pass through unread. -/
theorem sound_body3 (c : Dev nD) (t : Fin cfg3.N) (d0 : S1x2048.Idx → Elt F .f32) (d1 : S2048x2048.Idx → Elt F .f32)
    (d2 : S1x2048.Idx → Elt F .f32) (K : PUnit → sProp 𝕄) :
    iprop(owns (c : Thread nD τ) (st3_0 t) fullShare (in3_0 V c t d0) ∗ owns (c : Thread nD τ) (st3_1 t) fullShare (in3_1 V c t d1)
        ∗ owns (c : Thread nD τ) (st3_2 t) fullShare (in3_2 V c t d2) ∗ (∃ d, owns (c : Thread nD τ) (st3_3 t) fullShare d)
        ∗ (iprop(owns (c : Thread nD τ) (st3_0 t) fullShare (in3_0 V c t d0) ∗ owns (c : Thread nD τ) (st3_1 t) fullShare (in3_1 V c t d1)
              ∗ owns (c : Thread nD τ) (st3_2 t) fullShare (in3_2 V c t d2)
              ∗ owns (c : Thread nD τ) (st3_3 t) fullShare (out3_3 (in3_0 V c t d0) (in3_1 V c t d1) (in3_2 V c t d2))) -∗ K ⟨⟩))
      ⊢ wp frame (wpE (defs₀ (F := F)) Variants.none c none) Set.univ (bodyAt3 t) K :=
  sound_kernel3 c Set.univ _ _ _ _ _ _ _ _ _ _ _ _ K

/-- The obligation with the result's window forgotten: the inputs' buffers arrive at their blocks filled out with any
    words and are handed back so — for the hidden row's, which nothing cuts, that is the block; for the weight
    rows' and the bias's, the block on the part inside the array, which is all that is asked of them —; the
    result's arrives and leaves at contents nothing names. -/
theorem body_obligation3_forget (c : Dev nD) :
    BodyObligationLoose (dat3 (F := F) V c) (defs₀ (F := F)) Variants.none () Set.univ fgtOut3 := fun t => by
  rw [bigSep_W3, bigSep_W3]
  simp only [fgtOut3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%X3, H3⟩⟩
  rw [before3_0 V c t d0, before3_1 V c t d1, before3_2 V c t d2]
  iapply (sound_body3 V c t d0 d1 d2 _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]
  · rw [after3_0]; unfold zblk3; rw [fill3_0 (cfg3.grid.coords t) _ d0]; iexact H0
  isplitl [H1]
  · iexists d1; rw [after3_1]; unfold zblk3; rw [Window.cut_fill]; iexact H1
  isplitl [H2]
  · iexists d2; rw [after3_2]; unfold zblk3; rw [Window.cut_fill]; iexact H2
  · iexists _; iexact H3

/-- What the body leaves INSIDE the array in the result's block does not depend on the input buffers' words past
    the arrays' end. -/
def ColLocal3 : Prop :=
  ∀ (t : Fin cfg3.N) (x0 : Vec F S1x2048 .f32) (b1 : ((cfg3.win 1).xblock (cfg3.grid.coords t)).Idx → Elt F .f32)
    (b2 : ((cfg3.win 2).xblock (cfg3.grid.coords t)).Idx → Elt F .f32) (d1 d1' : S2048x2048.Idx → Elt F .f32) (d2 d2' : S1x2048.Idx → Elt F .f32),
    (cfg3.win 3).cut (cfg3.grid.coords t) (out3_3 x0 ((cfg3.win 1).fill (cfg3.grid.coords t) d1 b1) ((cfg3.win 2).fill (cfg3.grid.coords t) d2 b2))
      = (cfg3.win 3).cut (cfg3.grid.coords t) (out3_3 x0 ((cfg3.win 1).fill (cfg3.grid.coords t) d1' b1) ((cfg3.win 2).fill (cfg3.grid.coords t) d2' b2))

/-- Under that hypothesis, the columns inside the array of what the body computes from the buffers as it finds them
    are those of what it computes from the blocks filled out with the zero word. -/
theorem cut_out3 (hloc : ColLocal3 (F := F)) (c : Dev nD) (t : Fin cfg3.N) (d0 : S1x2048.Idx → Elt F .f32)
    (d1 : S2048x2048.Idx → Elt F .f32) (d2 : S1x2048.Idx → Elt F .f32) :
    (cfg3.win 3).cut (cfg3.grid.coords t) (out3_3 (in3_0 V c t d0) (in3_1 V c t d1) (in3_2 V c t d2))
      = (cfg3.win 3).cut (cfg3.grid.coords t) (out3_3 (zblk3 V c 0 t) (zblk3 V c 1 t) (zblk3 V c 2 t)) := by
  have h0 : zblk3 V c 0 t = in3_0 V c t d0 := fill3_0 _ _ _ _
  rw [h0]
  exact hloc t (in3_0 V c t d0) (iblk3 V c 1 t) (iblk3 V c 2 t) d1 _ d2 _

/-- The obligation with nothing forgotten: as above for the inputs' buffers; the result's arrives at contents nothing
    names and is handed back at what the body computes of the buffers as found, which on the columns inside the
    array — all that is asked of a cut window — is what the proof data name. -/
theorem body_obligation3_exact (hloc : ColLocal3 (F := F)) (c : Dev nD) :
    BodyObligationLoose (dat3 (F := F) V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  rw [before3_0 V c t d0, before3_1 V c t d1, before3_2 V c t d2, before3_3 V c t d3]
  iapply (sound_body3 V c t d0 d1 d2 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after3_0]; unfold zblk3; rw [fill3_0 (cfg3.grid.coords t) _ d0]; iexact H0
  isplitl [H1]
  · iexists d1; rw [after3_1]; unfold zblk3; rw [Window.cut_fill]; iexact H1
  isplitl [H2]
  · iexists d2; rw [after3_2]; unfold zblk3; rw [Window.cut_fill]; iexact H2
  · iexists out3_3 (in3_0 V c t d0) (in3_1 V c t d1) (in3_2 V c t d2)
    rw [after3_3, ← cut_out3 V hloc c t d0 d1 d2, Window.fill_cut]; iexact H3

end Cert.KernelIdeal.Rg

end
-- ==== Proof.KI.Chain.lean ====
import proofs.«153450_j57131654971751_1_alg».proof.Proof.Gen.KernelIdeal.Regions
import proofs.«153450_j57131654971751_1_alg».proof.Proof.KI.Reg0
import proofs.«153450_j57131654971751_1_alg».proof.Proof.KI.Reg1
import proofs.«153450_j57131654971751_1_alg».proof.Proof.KI.Reg2
import proofs.«153450_j57131654971751_1_alg».proof.Proof.KI.Reg3
import Idealize.ShloMosaic.Lib.Pipeline.FrameSuffix

/-!
# The buffers' contents at every boundary of @main

@main is twelve items in a row: three host stretches, the attention kernel, a host stretch, the combine kernel, a
host stretch, the kernel of the two GRU projections, the gate arithmetic on the host, the output-projection kernel,
the log-softmax on the host, and a last reshaping stretch. This module names what every unscoped buffer of a core
holds between two items, as a fold from the launch memory: a host stretch maps the contents by the operations it
runs; a kernel region leaves each of its arrays at what its write-backs make of the entry contents and every other
buffer as entered. The first three regions' outputs are named in closed form by their proof data. What the output
projection leaves in the logits' buffer is NOT named before the run — its last block is moved cut at the array's
end and the staging tail holds words nothing names —, so from there on the contents are stated over a parameter
`o`: what the logits' buffer holds when that region returns.

Also here: the same contents read as the generated valuations over unknowns (`outs`), and that every argument
array ends holding its launch contents.
-/

set_option maxRecDepth 16384

noncomputable section

namespace Cert.KernelIdeal.Rn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## A valuation that agrees with `withArrays`

Two valuations are equal when they agree at every reference; a valuation that holds a region's arrays at given
contents and every other buffer as another valuation does IS that one overwritten at the arrays. -/

/-- A valuation holding every array of `win` at `A` and every buffer that is no such array as `V` does is `V` with the
    arrays at `A`. -/
theorem eq_withArrays {gr W : Nat} (win : Fin W → Pipeline.WinSpec sig gr) (hinj : Function.Injective (Pipeline.arrRef win))
    (c : Dev nD) (V V' : Valuation τ sig (Elt F))
    (A : (w : Fin W) → Buf (Elt F) ((win w).arr.view.loc (c : Thread nD τ)))
    (harr : ∀ w, V' (Proc.devRef .tc (Pipeline.arrRef win w)) = A w)
    (hrest : ∀ b : DevRef τ sig, (¬ ∃ w, Proc.devRef .tc (Pipeline.arrRef win w) = b) → V' b = V b) :
    V' = Pipeline.withArrays win c V A := by
  funext b
  by_cases h : ∃ w, Proc.devRef .tc (Pipeline.arrRef win w) = b
  · obtain ⟨w, rfl⟩ := h
    rw [harr w, Pipeline.withArrays_arr win hinj c V A w]
  · rw [hrest b h]; unfold Pipeline.withArrays; rw [dif_neg h]

/-! ## The buffers' contents at every boundary of @main

A fold from the launch memory `m`: a host stretch maps the contents by `StableHlo.after`; a kernel region leaves each
of its arrays at what its write-backs make of it and every other buffer as entered. -/

/-- After the three host stretches before the attention kernel: what region 0 is entered from. -/
abbrev U3 (c : Dev nD) : Valuation τ sig (Elt F) := Gen.V3 m c
/-- The same, read at the TensorCore's references. -/
abbrev T3 : (c : Dev nD) → (b : Ref sig .tc) → Buf (Elt F) ((c : Thread nD τ).loc b) := fun c b => U3 m c b

/-- After region 0: the attention weights and the context row in their buffers, every other buffer as entered. -/
def U4 (c : Dev nD) : Valuation τ sig (Elt F) :=
  Pipeline.withArrays spec0 c (U3 m c) fun w => (Rg.dat0 (T3 m) c).arrAt w cfg0.N
theorem U4_arr (c : Dev nD) (w : Fin cfg0.W) :
    U4 m c (Proc.devRef .tc (Pipeline.arrRef spec0 w)) = (Rg.dat0 (T3 m) c).arrAt w cfg0.N := by
  unfold U4; exact Pipeline.withArrays_arr spec0 launch0.win.arr_inj c _ _ w
theorem U4_of_ne (c : Dev nD) (b : Ref sig .tc) (hb : ∀ w, Pipeline.arrRef spec0 w ≠ b) :
    U4 m c (Proc.devRef .tc b) = U3 m c (Proc.devRef .tc b) := by
  unfold U4; exact Pipeline.withArrays_of_ne spec0 c _ _ b hb
abbrev T4 : (c : Dev nD) → (b : Ref sig .tc) → Buf (Elt F) ((c : Thread nD τ).loc b) := fun c b => U4 m c b
theorem hF0 (c : Dev nD) (w : Fin cfg0.W) : (Rg.dat0 (T3 m) c).arrAt w cfg0.N = T4 m c (Pipeline.arrRef spec0 w) :=
  (U4_arr m c w).symm
theorem hrest0 (c : Dev nD) : ∀ b, b ∉ Finset.univ.image (Pipeline.arrRef spec0) → T4 m c b = T3 m c b :=
  fun b hb => U4_of_ne m c b fun w e => hb (Finset.mem_image.mpr ⟨w, Finset.mem_univ _, e⟩)

/-- After the host stretch between regions 0 and 1: what region 1 is entered from. -/
abbrev U5 (c : Dev nD) : Valuation τ sig (Elt F) := StableHlo.after hostOps1 (U4 m c)
abbrev T5 : (c : Dev nD) → (b : Ref sig .tc) → Buf (Elt F) ((c : Thread nD τ).loc b) := fun c b => U5 m c b

/-- After region 1: the combined row in its buffer, every other buffer as entered. -/
def U6 (c : Dev nD) : Valuation τ sig (Elt F) :=
  Pipeline.withArrays spec1 c (U5 m c) fun w => (Rg.dat1 (T5 m) c).arrAt w cfg1.N
theorem U6_arr (c : Dev nD) (w : Fin cfg1.W) :
    U6 m c (Proc.devRef .tc (Pipeline.arrRef spec1 w)) = (Rg.dat1 (T5 m) c).arrAt w cfg1.N := by
  unfold U6; exact Pipeline.withArrays_arr spec1 launch1.win.arr_inj c _ _ w
theorem U6_of_ne (c : Dev nD) (b : Ref sig .tc) (hb : ∀ w, Pipeline.arrRef spec1 w ≠ b) :
    U6 m c (Proc.devRef .tc b) = U5 m c (Proc.devRef .tc b) := by
  unfold U6; exact Pipeline.withArrays_of_ne spec1 c _ _ b hb
abbrev T6 : (c : Dev nD) → (b : Ref sig .tc) → Buf (Elt F) ((c : Thread nD τ).loc b) := fun c b => U6 m c b
theorem hF1 (c : Dev nD) (w : Fin cfg1.W) : (Rg.dat1 (T5 m) c).arrAt w cfg1.N = T6 m c (Pipeline.arrRef spec1 w) :=
  (U6_arr m c w).symm
theorem hrest1 (c : Dev nD) : ∀ b, b ∉ Finset.univ.image (Pipeline.arrRef spec1) → T6 m c b = T5 m c b :=
  fun b hb => U6_of_ne m c b fun w e => hb (Finset.mem_image.mpr ⟨w, Finset.mem_univ _, e⟩)

/-- After the host stretch between regions 1 and 2: what region 2 is entered from. -/
abbrev U7 (c : Dev nD) : Valuation τ sig (Elt F) := StableHlo.after hostOps2 (U6 m c)
abbrev T7 : (c : Dev nD) → (b : Ref sig .tc) → Buf (Elt F) ((c : Thread nD τ).loc b) := fun c b => U7 m c b

/-- After region 2: the two rows of gate pre-activations in their buffers, every other buffer as entered. -/
def U8 (c : Dev nD) : Valuation τ sig (Elt F) :=
  Pipeline.withArrays spec2 c (U7 m c) fun w => (Rg.dat2 (T7 m) c).arrAt w cfg2.N
theorem U8_arr (c : Dev nD) (w : Fin cfg2.W) :
    U8 m c (Proc.devRef .tc (Pipeline.arrRef spec2 w)) = (Rg.dat2 (T7 m) c).arrAt w cfg2.N := by
  unfold U8; exact Pipeline.withArrays_arr spec2 launch2.win.arr_inj c _ _ w
theorem U8_of_ne (c : Dev nD) (b : Ref sig .tc) (hb : ∀ w, Pipeline.arrRef spec2 w ≠ b) :
    U8 m c (Proc.devRef .tc b) = U7 m c (Proc.devRef .tc b) := by
  unfold U8; exact Pipeline.withArrays_of_ne spec2 c _ _ b hb
abbrev T8 : (c : Dev nD) → (b : Ref sig .tc) → Buf (Elt F) ((c : Thread nD τ).loc b) := fun c b => U8 m c b
theorem hF2 (c : Dev nD) (w : Fin cfg2.W) : (Rg.dat2 (T7 m) c).arrAt w cfg2.N = T8 m c (Pipeline.arrRef spec2 w) :=
  (U8_arr m c w).symm
theorem hrest2 (c : Dev nD) : ∀ b, b ∉ Finset.univ.image (Pipeline.arrRef spec2) → T8 m c b = T7 m c b :=
  fun b hb => U8_of_ne m c b fun w e => hb (Finset.mem_image.mpr ⟨w, Finset.mem_univ _, e⟩)

/-- After the gate arithmetic on the host: what region 3 is entered from. -/
abbrev U9 (c : Dev nD) : Valuation τ sig (Elt F) := StableHlo.after hostOps3 (U8 m c)
abbrev T9 : (c : Dev nD) → (b : Ref sig .tc) → Buf (Elt F) ((c : Thread nD τ).loc b) := fun c b => U9 m c b

/-- After region 3: the logits' buffer at `o c` — contents the run determines —, every other buffer as entered. -/
def U10 (o : (c : Dev nD) → Buf (Elt F) ((c : Thread nD τ).loc main_v41)) (c : Dev nD) : Valuation τ sig (Elt F) :=
  Function.update (U9 m c) (Proc.devRef .tc main_v41) (o c)
/-- After the log-softmax on the host. -/
abbrev U11 (o : (c : Dev nD) → Buf (Elt F) ((c : Thread nD τ).loc main_v41)) (c : Dev nD) : Valuation τ sig (Elt F) :=
  StableHlo.after hostOps4 (U10 m o c)
/-- After the last host stretch: the contents @main returns with. -/
abbrev U12 (o : (c : Dev nD) → Buf (Elt F) ((c : Thread nD τ).loc main_v41)) (c : Dev nD) : Valuation τ sig (Elt F) :=
  StableHlo.after hostOps4_1 (U11 m o c)

theorem U10_out (o : (c : Dev nD) → Buf (Elt F) ((c : Thread nD τ).loc main_v41)) (c : Dev nD) :
    U10 m o c (Proc.devRef .tc main_v41) = o c := by
  unfold U10; exact Function.update_self ..
theorem U10_of_ne (o : (c : Dev nD) → Buf (Elt F) ((c : Thread nD τ).loc main_v41)) (c : Dev nD) (b : DevRef τ sig)
    (hb : b ≠ Proc.devRef .tc main_v41) : U10 m o c b = U9 m c b := by
  unfold U10; exact Function.update_of_ne hb ..

/-! ## The same contents as the generated valuations at the regions' outputs -/

/-- What each region leaves in the buffers it may change, read off the fold. -/
def outs (o : (c : Dev nD) → Buf (Elt F) ((c : Thread nD τ).loc main_v41)) : Gen.Outs (F := F) :=
  fun J r c => match J with
    | 4 => U4 m c r
    | 6 => U6 m c r
    | 8 => U8 m c r
    | 10 => U10 m o c r
    | _ => U3 m c r

theorem outs_4 (o : (c : Dev nD) → Buf (Elt F) ((c : Thread nD τ).loc main_v41)) (r : Ref sig .tc) (c : Dev nD) :
    outs m o 4 r c = U4 m c r := rfl
theorem outs_6 (o : (c : Dev nD) → Buf (Elt F) ((c : Thread nD τ).loc main_v41)) (r : Ref sig .tc) (c : Dev nD) :
    outs m o 6 r c = U6 m c r := rfl
theorem outs_8 (o : (c : Dev nD) → Buf (Elt F) ((c : Thread nD τ).loc main_v41)) (r : Ref sig .tc) (c : Dev nD) :
    outs m o 8 r c = U8 m c r := rfl
theorem outs_10 (o : (c : Dev nD) → Buf (Elt F) ((c : Thread nD τ).loc main_v41)) (r : Ref sig .tc) (c : Dev nD) :
    outs m o 10 r c = U10 m o c r := rfl

variable (o : (c : Dev nD) → Buf (Elt F) ((c : Thread nD τ).loc main_v41))

/-! Each region writes its output arrays only, and leaves an input array as it found it: the generated valuation after
    a region — the one before it overwritten at the region's outputs by what `outs` names — is the fold's. -/

theorem V4_eq (c : Dev nD) : Gen.V4 m (outs m o) c = U4 m c := by
  refine eq_withArrays spec0 launch0.win.arr_inj c (U3 m c) _ _ (fun w => ?_) (fun b hb => ?_)
  · have hin : ∀ w : Fin cfg0.W, (cfg0.win w).isOut = false → Pipeline.arrRef spec0 w ≠ main_v5_0 → Pipeline.arrRef spec0 w ≠ main_v5_1 →
        Gen.V4 m (outs m o) c (Proc.devRef .tc (Pipeline.arrRef spec0 w)) = (Rg.dat0 (T3 m) c).arrAt w cfg0.N := fun w hw h0 h1 => by
      show Function.update (Function.update (Gen.V3 m c) _ _) _ _ _ = _
      rw [Function.update_of_ne (StableHlo.devRef_ne_of_ne h1), Function.update_of_ne (StableHlo.devRef_ne_of_ne h0), (Rg.dat0 (T3 m) c).arrAt_in w hw, Rg.A_eq0]
    match w with
    | ⟨0, _⟩ => exact hin 0 rfl (by decide) (by decide)
    | ⟨1, _⟩ => exact hin 1 rfl (by decide) (by decide)
    | ⟨2, _⟩ => exact hin 2 rfl (by decide) (by decide)
    | ⟨3, _⟩ => exact hin 3 rfl (by decide) (by decide)
    | ⟨4, _⟩ =>
      show Function.update (Function.update (Gen.V3 m c) _ _) _ _ _ = _
      rw [Function.update_of_ne (StableHlo.devRef_ne_of_ne (by decide : Pipeline.arrRef spec0 4 ≠ main_v5_1)), Function.update_self]; exact U4_arr m c 4
    | ⟨5, _⟩ =>
      show Function.update (Function.update (Gen.V3 m c) _ _) _ _ _ = _
      rw [Function.update_self]; exact U4_arr m c 5
  ·
    have h0 : b ≠ Proc.devRef .tc main_v5_0 := fun e => hb ⟨4, e.symm⟩
    have h1 : b ≠ Proc.devRef .tc main_v5_1 := fun e => hb ⟨5, e.symm⟩
    show Function.update (Function.update (Gen.V3 m c) _ _) _ _ b = _
    rw [Function.update_of_ne h1, Function.update_of_ne h0]

theorem V5_eq (c : Dev nD) : Gen.V5 m (outs m o) c = U5 m c := by
  show StableHlo.after hostOps1 (Gen.V4 m (outs m o) c) = StableHlo.after hostOps1 (U4 m c)
  rw [V4_eq]

theorem V6_eq (c : Dev nD) : Gen.V6 m (outs m o) c = U6 m c := by
  refine eq_withArrays spec1 launch1.win.arr_inj c (U5 m c) _ _ (fun w => ?_) (fun b hb => ?_)
  · have hin : ∀ w : Fin cfg1.W, (cfg1.win w).isOut = false → Pipeline.arrRef spec1 w ≠ main_v8 →
        Gen.V6 m (outs m o) c (Proc.devRef .tc (Pipeline.arrRef spec1 w)) = (Rg.dat1 (T5 m) c).arrAt w cfg1.N := fun w hw h0 => by
      show Function.update (Gen.V5 m (outs m o) c) _ _ _ = _
      rw [Function.update_of_ne (StableHlo.devRef_ne_of_ne h0), (Rg.dat1 (T5 m) c).arrAt_in w hw, Rg.A_eq1]
      exact congrFun (V5_eq m o c) _
    match w with
    | ⟨0, _⟩ => exact hin 0 rfl (by decide)
    | ⟨1, _⟩ => exact hin 1 rfl (by decide)
    | ⟨2, _⟩ => exact hin 2 rfl (by decide)
    | ⟨3, _⟩ =>
      show Function.update (Gen.V5 m (outs m o) c) _ _ _ = _
      rw [Function.update_self]; exact U6_arr m c 3
  ·
    have h0 : b ≠ Proc.devRef .tc main_v8 := fun e => hb ⟨3, e.symm⟩
    show Function.update (Gen.V5 m (outs m o) c) _ _ b = _
    rw [Function.update_of_ne h0]
    exact congrFun (V5_eq m o c) b

theorem V7_eq (c : Dev nD) : Gen.V7 m (outs m o) c = U7 m c := by
  show StableHlo.after hostOps2 (Gen.V6 m (outs m o) c) = StableHlo.after hostOps2 (U6 m c)
  rw [V6_eq]

theorem V8_eq (c : Dev nD) : Gen.V8 m (outs m o) c = U8 m c := by
  refine eq_withArrays spec2 launch2.win.arr_inj c (U7 m c) _ _ (fun w => ?_) (fun b hb => ?_)
  · have hin : ∀ w : Fin cfg2.W, (cfg2.win w).isOut = false → Pipeline.arrRef spec2 w ≠ main_v11_0 → Pipeline.arrRef spec2 w ≠ main_v11_1 →
        Gen.V8 m (outs m o) c (Proc.devRef .tc (Pipeline.arrRef spec2 w)) = (Rg.dat2 (T7 m) c).arrAt w cfg2.N := fun w hw h0 h1 => by
      show Function.update (Function.update (Gen.V7 m (outs m o) c) _ _) _ _ _ = _
      rw [Function.update_of_ne (StableHlo.devRef_ne_of_ne h1), Function.update_of_ne (StableHlo.devRef_ne_of_ne h0), (Rg.dat2 (T7 m) c).arrAt_in w hw, Rg.A_eq2]
      exact congrFun (V7_eq m o c) _
    match w with
    | ⟨0, _⟩ => exact hin 0 rfl (by decide) (by decide)
    | ⟨1, _⟩ => exact hin 1 rfl (by decide) (by decide)
    | ⟨2, _⟩ => exact hin 2 rfl (by decide) (by decide)
    | ⟨3, _⟩ => exact hin 3 rfl (by decide) (by decide)
    | ⟨4, _⟩ => exact hin 4 rfl (by decide) (by decide)
    | ⟨5, _⟩ => exact hin 5 rfl (by decide) (by decide)
    | ⟨6, _⟩ =>
      show Function.update (Function.update (Gen.V7 m (outs m o) c) _ _) _ _ _ = _
      rw [Function.update_of_ne (StableHlo.devRef_ne_of_ne (by decide : Pipeline.arrRef spec2 6 ≠ main_v11_1)), Function.update_self]; exact U8_arr m c 6
    | ⟨7, _⟩ =>
      show Function.update (Function.update (Gen.V7 m (outs m o) c) _ _) _ _ _ = _
      rw [Function.update_self]; exact U8_arr m c 7
  ·
    have h0 : b ≠ Proc.devRef .tc main_v11_0 := fun e => hb ⟨6, e.symm⟩
    have h1 : b ≠ Proc.devRef .tc main_v11_1 := fun e => hb ⟨7, e.symm⟩
    show Function.update (Function.update (Gen.V7 m (outs m o) c) _ _) _ _ b = _
    rw [Function.update_of_ne h1, Function.update_of_ne h0]
    exact congrFun (V7_eq m o c) b

theorem V9_eq (c : Dev nD) : Gen.V9 m (outs m o) c = U9 m c := by
  show StableHlo.after hostOps3 (Gen.V8 m (outs m o) c) = StableHlo.after hostOps3 (U8 m c)
  rw [V8_eq]
/-- Region 3 may change the logits' buffer only; `outs` names there what `U10` holds there. -/
theorem V10_eq (c : Dev nD) : Gen.V10 m (outs m o) c = U10 m o c := by
  show Function.update (Gen.V9 m (outs m o) c) (Proc.devRef .tc main_v41) (outs m o 10 main_v41 c) = U10 m o c
  rw [V9_eq, outs_10, U10_out]; rfl
theorem V11_eq (c : Dev nD) : Gen.V11 m (outs m o) c = U11 m o c := by
  show StableHlo.after hostOps4 (Gen.V10 m (outs m o) c) = StableHlo.after hostOps4 (U10 m o c)
  rw [V10_eq]
theorem V12_eq (c : Dev nD) : Gen.V12 m (outs m o) c = U12 m o c := by
  show StableHlo.after hostOps4_1 (Gen.V11 m (outs m o) c) = StableHlo.after hostOps4_1 (U11 m o c)
  rw [V11_eq]

/-! ## No item writes an argument: each ends as launched -/
theorem U12_main_arg0 (c : Dev nD) : U12 m o c (Proc.devRef .tc main_arg0) = m ((c : Thread nD τ).loc main_arg0) :=
  (congrFun (V12_eq m o c) (Proc.devRef .tc main_arg0)).symm.trans (Gen.V12_main_arg0 m (outs m o) c)
theorem U12_main_arg1 (c : Dev nD) : U12 m o c (Proc.devRef .tc main_arg1) = m ((c : Thread nD τ).loc main_arg1) :=
  (congrFun (V12_eq m o c) (Proc.devRef .tc main_arg1)).symm.trans (Gen.V12_main_arg1 m (outs m o) c)
theorem U12_main_arg2 (c : Dev nD) : U12 m o c (Proc.devRef .tc main_arg2) = m ((c : Thread nD τ).loc main_arg2) :=
  (congrFun (V12_eq m o c) (Proc.devRef .tc main_arg2)).symm.trans (Gen.V12_main_arg2 m (outs m o) c)
theorem U12_main_arg3 (c : Dev nD) : U12 m o c (Proc.devRef .tc main_arg3) = m ((c : Thread nD τ).loc main_arg3) :=
  (congrFun (V12_eq m o c) (Proc.devRef .tc main_arg3)).symm.trans (Gen.V12_main_arg3 m (outs m o) c)
theorem U12_main_arg4 (c : Dev nD) : U12 m o c (Proc.devRef .tc main_arg4) = m ((c : Thread nD τ).loc main_arg4) :=
  (congrFun (V12_eq m o c) (Proc.devRef .tc main_arg4)).symm.trans (Gen.V12_main_arg4 m (outs m o) c)
theorem U12_main_arg5 (c : Dev nD) : U12 m o c (Proc.devRef .tc main_arg5) = m ((c : Thread nD τ).loc main_arg5) :=
  (congrFun (V12_eq m o c) (Proc.devRef .tc main_arg5)).symm.trans (Gen.V12_main_arg5 m (outs m o) c)
theorem U12_main_arg6 (c : Dev nD) : U12 m o c (Proc.devRef .tc main_arg6) = m ((c : Thread nD τ).loc main_arg6) :=
  (congrFun (V12_eq m o c) (Proc.devRef .tc main_arg6)).symm.trans (Gen.V12_main_arg6 m (outs m o) c)
theorem U12_main_arg7 (c : Dev nD) : U12 m o c (Proc.devRef .tc main_arg7) = m ((c : Thread nD τ).loc main_arg7) :=
  (congrFun (V12_eq m o c) (Proc.devRef .tc main_arg7)).symm.trans (Gen.V12_main_arg7 m (outs m o) c)
theorem U12_main_arg8 (c : Dev nD) : U12 m o c (Proc.devRef .tc main_arg8) = m ((c : Thread nD τ).loc main_arg8) :=
  (congrFun (V12_eq m o c) (Proc.devRef .tc main_arg8)).symm.trans (Gen.V12_main_arg8 m (outs m o) c)
theorem U12_main_arg9 (c : Dev nD) : U12 m o c (Proc.devRef .tc main_arg9) = m ((c : Thread nD τ).loc main_arg9) :=
  (congrFun (V12_eq m o c) (Proc.devRef .tc main_arg9)).symm.trans (Gen.V12_main_arg9 m (outs m o) c)
theorem U12_main_arg10 (c : Dev nD) : U12 m o c (Proc.devRef .tc main_arg10) = m ((c : Thread nD τ).loc main_arg10) :=
  (congrFun (V12_eq m o c) (Proc.devRef .tc main_arg10)).symm.trans (Gen.V12_main_arg10 m (outs m o) c)
theorem U12_main_arg11 (c : Dev nD) : U12 m o c (Proc.devRef .tc main_arg11) = m ((c : Thread nD τ).loc main_arg11) :=
  (congrFun (V12_eq m o c) (Proc.devRef .tc main_arg11)).symm.trans (Gen.V12_main_arg11 m (outs m o) c)
theorem U12_main_arg12 (c : Dev nD) : U12 m o c (Proc.devRef .tc main_arg12) = m ((c : Thread nD τ).loc main_arg12) :=
  (congrFun (V12_eq m o c) (Proc.devRef .tc main_arg12)).symm.trans (Gen.V12_main_arg12 m (outs m o) c)
theorem U12_main_arg13 (c : Dev nD) : U12 m o c (Proc.devRef .tc main_arg13) = m ((c : Thread nD τ).loc main_arg13) :=
  (congrFun (V12_eq m o c) (Proc.devRef .tc main_arg13)).symm.trans (Gen.V12_main_arg13 m (outs m o) c)

end Cert.KernelIdeal.Rn

end
-- ==== Proof.KI.Run.lean ====
import proofs.«153450_j57131654971751_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

/-!
# The launch of @main

@main's twelve items run in order on every core. Between two items a core holds every unscoped buffer whole at the
contents the fold of `Chain` names, its generator register at some state, and owes nothing. A host stretch maps the
contents by its operations. A kernel region takes its arrays out of the unscoped buffers, runs its pipeline over
them, and puts them back at what the write-backs leave.

The first three kernels' proof data name every block exactly, so what they leave is named. The output projection's
last block of weight rows, of bias and of logits overhangs the arrays' end: the transfer is cut there and the tail of
a staging buffer holds words nothing names, and at the word level the matrix product depends on its whole operand. So
its proof data are read RELATIONALLY, with the windows a mask `fgt` marks forgotten: of such a window's array only
"some contents its write-backs may leave" is known at the exit. The logits' buffer is then at contents `o` that exist
but are not named, and the two host stretches that follow — they read the buffer but take no index, branch or count
from it — run under that existential.

`run_all`: every weakly fair execution terminates and ends, on every core, with every unscoped buffer at `U12 o` for
some such `o`. `frame`: each argument array ends as launched.
-/

set_option maxRecDepth 16384

noncomputable section

namespace Cert.KernelIdeal.Rn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg) (fgt : Fin cfg3.W → Bool)

/-! ## The proof data of the four pipelines, each at its region's entry contents -/

/-- Every pipeline's exact proof data at its region's entry contents (a literal `match`, so that the pinned
    configuration at a numeral reduces to the printed one). -/
def pdats : (p : Fin 4) → (c : Dev nD) → Dat τ (Elt F) Unit ℕ (UR sig nD τ) ℕ (Pipeline.pin (pcfgs (F := F)) adm p) c
  | ⟨0, _⟩ => fun c => Rg.dat0 (T3 m) c
  | ⟨1, _⟩ => fun c => Rg.dat1 (T5 m) c
  | ⟨2, _⟩ => fun c => Rg.dat2 (T7 m) c
  | ⟨3, _⟩ => fun c => Rg.dat3 (T9 m) c
/-- The same read relationally: the first three exactly; the output projection's with the windows `fgt` marks
    forgotten — of such a window's array only "some contents the write-backs may leave" is known. -/
def rdats : (p : Fin 4) → (c : Dev nD) → RDat τ (Elt F) Unit ℕ (UR sig nD τ) ℕ (Pipeline.pin (pcfgs (F := F)) adm p) c
  | ⟨0, _⟩ => fun c => (Rg.dat0 (T3 m) c).toR
  | ⟨1, _⟩ => fun c => (Rg.dat1 (T5 m) c).toR
  | ⟨2, _⟩ => fun c => (Rg.dat2 (T7 m) c).toR
  | ⟨3, _⟩ => fun c => (Rg.dat3 (T9 m) c).toRForget fgt

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)

/-- What is known of the logits' buffer when the output projection returns: contents its array may hold after every
    write-back. -/
abbrev OutFact (o : (c : Dev nD) → Buf (Elt F) ((c : Thread nD τ).loc main_v41)) (c : Dev nD) : Prop :=
  ((Rg.dat3 (T9 m) c).toRForget fgt).ArrAt 3 cfg3.N (o c)

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A host stretch that runs AFTER the output projection: the contents it starts from depend on what the logits' buffer
    holds, which only the run determines. The thread state says: for some such contents `o` (of which `OutFact` is
    known) the buffers are at `W o`; the stretch is run at that `o`. It takes no index, branch or count from the buffer. -/
def hsegEx (ops : List (HloOp τ sig (Elt F))) (hsub : ops.Forall fun op => op.bufs ⊆ StableHlo.tcRefs τ sig)
    (hfresh : ops.Forall fun op => op.fresh = ∅)
    (W : ((c : Dev nD) → Buf (Elt F) ((c : Thread nD τ).loc main_v41)) → Dev nD → Valuation τ sig (Elt F)) :
    Pipeline.HostSeg (Name := ℕ) (U := UR sig nD τ) (pcfgs (F := F)) defs₀ 𝒱₀ L lv where
  prog := StableHlo.seq ops
  pre c := iprop(∃ o, ⌜OutFact m fgt o c⌝ ∗ StableHlo.held (c : Thread nD τ) (Pipeline.ucRefs τ sig) (W o c) ∗ R c)
  post c := iprop(∃ o, ⌜OutFact m fgt o c⌝ ∗ StableHlo.held (c : Thread nD τ) (Pipeline.ucRefs τ sig) (StableHlo.after ops (W o c)) ∗ R c)
  run c {β} k K := by
    iintro ⟨Hk, Hbd, ⟨%o, %ho, Hpre⟩, Hla⟩
    iapply ((hseg ops hsub hfresh (W o)).run c k K)
    isplitl [Hk]
    · iintro ⟨Hbd, Hpost⟩
      iapply Hk
      isplitl [Hbd]; · iexact Hbd
      iexists o; isplitr; · ipureintro; exact ho
      iapply (show (hseg ops hsub hfresh (W o)).post c
        ⊢ iprop(StableHlo.held (c : Thread nD τ) (Pipeline.ucRefs τ sig) (StableHlo.after ops (W o c)) ∗ R c) from .rfl)
      iexact Hpost
    · isplitl [Hbd]; · iexact Hbd
      isplitl [Hpre]
      · iapply (show iprop(StableHlo.held (c : Thread nD τ) (Pipeline.ucRefs τ sig) (W o c) ∗ R c)
          ⊢ (hseg ops hsub hfresh (W o)).pre c from .rfl)
        iexact Hpre
      iexact Hla

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The attention kernel as a segment of @main, between the buffers at `U3` and at `U4`. At entry its six arrays are taken
    out of the core's unscoped buffers, at exit they are put back holding what the write-backs made of them (exact data
    read relationally still name those contents); the generator register goes through the kernel's invariant and comes
    back at some state; the core owes nothing before or after; the kernel waits on no semaphore of its own. -/
def reg0 : Pipeline.RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (Rg.body_obligation0 (T3 m) c).toR
  hwaits := Pipeline.RDat.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.RDat.arrays_of_unscopedBufs (p := 0) (pcfgs (F := F)) adm (rdats m fgt) launch0.win launch0.arr_whole c
      ((rdats m fgt 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    have harr : ((rdats m fgt 0 c).arraysAt cfg0.N : sProp 𝕄) = (pdats m 0 c).arrays ((pdats m 0 c).arrAt · cfg0.N) :=
      (Rg.dat0 (T3 m) c).toR_arraysAt_eq cfg0.N
    refine (sep_mono (Entails.of_eq harr) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The combine kernel as a segment of @main, between the buffers at `U5` and at `U6`: its four arrays out of the unscoped
    buffers at entry and back at exit, the combined row's array at what its four write-backs leave. -/
def reg1 : Pipeline.RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (Rg.body_obligation1 (T5 m) c).toR
  hwaits := Pipeline.RDat.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.RDat.arrays_of_unscopedBufs (p := 1) (pcfgs (F := F)) adm (rdats m fgt) launch1.win launch1.arr_whole c
      ((rdats m fgt 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    have harr : ((rdats m fgt 1 c).arraysAt cfg1.N : sProp 𝕄) = (pdats m 1 c).arrays ((pdats m 1 c).arrAt · cfg1.N) :=
      (Rg.dat1 (T5 m) c).toR_arraysAt_eq cfg1.N
    refine (sep_mono (Entails.of_eq harr) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The kernel of the two GRU projections as a segment of @main, between the buffers at `U7` and at `U8`: its eight arrays
    out of the unscoped buffers at entry and back at exit, the two rows of gate pre-activations at what their six
    write-backs each leave. -/
def reg2 : Pipeline.RDat.RegionSeg (pcfgs (F := F)) adm (rdats m fgt) () defs₀ 𝒱₀ L lv 2 where
  win := launch2.win.to₀
  block_pos := launch2.block_pos
  stage_whole := launch2.stage_whole
  K := PEmpty
  osem k := k.elim
  ho := Pipeline.OwnSemFacts.none _
  hbody c := (Rg.body_obligation2 (T7 m) c).toR
  hwaits := Pipeline.RDat.hwaits_of_owed_zero _ _ _ _ L lv 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (T7 m c)
  hentry c := by
    rw [Pipeline.ownSems0_none]
    have hsplit := Pipeline.RDat.arrays_of_unscopedBufs (p := 2) (pcfgs (F := F)) adm (rdats m fgt) launch2.win launch2.arr_whole c
      ((rdats m fgt 2 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m fgt 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T7 m c) (T8 m c) ((pdats m 2 c).arrAt · cfg2.N) (hF2 m c) (hrest2 m c)
    rw [Pipeline.unscopedBufs_held] at hjoin
    have harr : ((rdats m fgt 2 c).arraysAt cfg2.N : sProp 𝕄) = (pdats m 2 c).arrays ((pdats m 2 c).arrAt · cfg2.N) :=
      (Rg.dat2 (T7 m) c).toR_arraysAt_eq cfg2.N
    refine (sep_mono (Entails.of_eq harr) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The output projection's exit, window by window

Its three input arrays are never written; the logits' array holds some contents `A 3` its write-backs may leave. So the
buffers' contents at the region's exit are the entry contents overwritten at the logits' buffer by `A 3`: that
valuation has every array of the region at `A`, and every other buffer as entered. Stated over an arbitrary entry
valuation `W`. -/

section Exit3
variable (c : Dev nD) (A : (w : Fin cfg3.W) → Buf (Elt F) ((cfg3.win w).arr.view.loc (c : Thread nD τ)))

theorem arr3_ne0 : Pipeline.arrRef spec3 0 ≠ main_v41 := by decide
theorem arr3_ne1 : Pipeline.arrRef spec3 1 ≠ main_v41 := by decide
theorem arr3_ne2 : Pipeline.arrRef spec3 2 ≠ main_v41 := by decide
theorem win3_in0 : (cfg3.win 0).isOut = false := rfl
theorem win3_in1 : (cfg3.win 1).isOut = false := rfl
theorem win3_in2 : (cfg3.win 2).isOut = false := rfl

/-- Each array of region 3 at `A`, in the entry valuation overwritten at the logits' buffer by `A 3`. -/
theorem exit3_arr (W : Valuation τ sig (Elt F))
    (hin : ∀ w : Fin cfg3.W, (cfg3.win w).isOut = false → A w = W (Proc.devRef .tc (Pipeline.arrRef spec3 w))) :
    ∀ w : Fin cfg3.W, A w = Function.update W (Proc.devRef .tc main_v41) (A 3) (Proc.devRef .tc (Pipeline.arrRef spec3 w)) := fun w => match w with
  | ⟨0, _⟩ => (hin 0 win3_in0).trans (Function.update_of_ne (StableHlo.devRef_ne_of_ne arr3_ne0) ..).symm
  | ⟨1, _⟩ => (hin 1 win3_in1).trans (Function.update_of_ne (StableHlo.devRef_ne_of_ne arr3_ne1) ..).symm
  | ⟨2, _⟩ => (hin 2 win3_in2).trans (Function.update_of_ne (StableHlo.devRef_ne_of_ne arr3_ne2) ..).symm
  | ⟨3, _⟩ => show A 3 = Function.update W (Proc.devRef .tc main_v41) (A 3) (Proc.devRef .tc main_v41) from (Function.update_self (Proc.devRef .tc main_v41 : DevRef τ sig) (A 3) W).symm

/-- Every buffer that is no array of region 3 as entered. -/
theorem exit3_rest (W : Valuation τ sig (Elt F)) (v : Buf (Elt F) ((c : Thread nD τ).loc main_v41)) :
    ∀ b : Ref sig .tc, b ∉ Finset.univ.image (Pipeline.arrRef spec3) →
      Function.update W (Proc.devRef .tc main_v41) v (Proc.devRef .tc b) = W (Proc.devRef .tc b) :=
  fun b hb => Function.update_of_ne (StableHlo.devRef_ne_of_ne fun e => hb (Finset.mem_image.mpr ⟨3, Finset.mem_univ _, e.symm⟩)) ..

end Exit3

/-- The contents after region 3, spelt out. -/
theorem U10_eq_update (o : (c : Dev nD) → Buf (Elt F) ((c : Thread nD τ).loc main_v41)) (c : Dev nD) :
    U10 m o c = Function.update (U9 m c) (Proc.devRef .tc main_v41) (o c) := rfl

set_option backward.isDefEq.respectTransparency.types false in
/-- The arrays of region 3 at SOME contents they may hold after every write-back, opened into a family `A` of such contents. -/
theorem reg3_open (c : Dev nD) : ((rdats m fgt 3 c).arraysAt cfg3.N : sProp 𝕄)
    ⊢ iprop(∃ A : (w : Fin cfg3.W) → Buf (Elt F) ((cfg3.win w).arr.view.loc (c : Thread nD τ)),
        ⌜∀ w, ((Rg.dat3 (T9 m) c).toRForget fgt).ArrAt w cfg3.N (A w)⌝ ∗ (pdats m 3 c).arrays A) := by
  show (((Rg.dat3 (T9 m) c).toRForget fgt).arraysAt cfg3.N : sProp 𝕄) ⊢ _
  unfold RDat.arraysAt
  iintro Ha
  ihave Ha' := (BI.bigSep_exists_pi Finset.univ (fun (w : Fin cfg3.W) F => iprop(⌜((Rg.dat3 (T9 m) c).toRForget fgt).ArrAt w cfg3.N F⌝
      ∗ (cfg3.win w).arr.view.loc (c : Thread nD τ) ↦[(cfg3.win w).arr.view.set]{((Rg.dat3 (T9 m) c).toRForget fgt).share w} F))) $$ Ha
  icases Ha' with ⟨%A, Ha⟩
  ihave Ha2 := (BI.bigSep_pure_sep Finset.univ (fun (w : Fin cfg3.W) => ((Rg.dat3 (T9 m) c).toRForget fgt).ArrAt w cfg3.N (A w))
      (fun w => (cfg3.win w).arr.view.loc (c : Thread nD τ) ↦[(cfg3.win w).arr.view.set]{((Rg.dat3 (T9 m) c).toRForget fgt).share w} A w)) $$ Ha
  icases Ha2 with ⟨%hA', Ha⟩
  iexists A; isplitr; · ipureintro; exact fun w => hA' w (Finset.mem_univ w)
  iapply (show (bigSep Finset.univ fun w : Fin cfg3.W => ((cfg3.win w).arr.view.loc (c : Thread nD τ) ↦[(cfg3.win w).arr.view.set]{((Rg.dat3 (T9 m) c).toRForget fgt).share w} A w : sProp 𝕄))
      ⊢ (pdats m 3 c).arrays A from .rfl)
  iexact Ha

/-- An input array of region 3 is never written: what it may hold after the write-backs is what it held at entry. -/
theorem reg3_hAin (c : Dev nD) (A : (w : Fin cfg3.W) → Buf (Elt F) ((cfg3.win w).arr.view.loc (c : Thread nD τ)))
    (hA : ∀ w, ((Rg.dat3 (T9 m) c).toRForget fgt).ArrAt w cfg3.N (A w)) :
    ∀ w : Fin cfg3.W, (cfg3.win w).isOut = false → A w = T9 m c (Pipeline.arrRef spec3 w) := fun w hw => by
  have h := hA w
  rw [RDat.ArrAt_in _ w hw] at h
  exact h

set_option backward.isDefEq.respectTransparency.types false in
/-- The output projection as a segment of @main, entered from the buffers at `U9`. Of what it leaves
    in the logits' buffer the relational data say only "some contents the write-backs may leave" (`OutFact`); its three
    input arrays are never written, so they come back as entered. Its exit therefore gives the thread state at
    `U10 o` for SOME `o` with `OutFact o`. -/
def reg3 (hb3 : ∀ c, BodyObligationLoose (Rg.dat3 (F := F) (T9 m) c) (defs₀ (F := F)) Variants.none () Set.univ fgt) :
    Pipeline.RDat.RegionSeg (pcfgs (F := F)) adm (rdats m fgt) () defs₀ 𝒱₀ L lv 3 where
  win := launch3.win.to₀
  block_pos := launch3.block_pos
  stage_whole := launch3.stage_whole
  K := PEmpty
  osem k := k.elim
  ho := Pipeline.OwnSemFacts.none _
  hbody c := (hb3 c).toRForget
  hwaits := Pipeline.RDat.hwaits_of_owed_zero _ _ _ _ L lv 3 fun _ _ => rfl
  pre c := iprop(StableHlo.held (c : Thread nD τ) (Pipeline.ucRefs τ sig) (U9 m c) ∗ R c)
  post c := iprop(∃ o, ⌜OutFact m fgt o c⌝ ∗ StableHlo.held (c : Thread nD τ) (Pipeline.ucRefs τ sig) (U10 m o c) ∗ R c)
  X c := iprop(∃ r, prngReg c r)
  Y c := iprop(∃ r, prngReg c r)
  Z c := Pipeline.unscopedRest (Ix := Unit) (Name := ℕ) (U := UR sig nD τ) (Lvl := ℕ) spec3 c (T9 m c)
  hentry c := by
    rw [Pipeline.ownSems0_none]
    have hsplit := Pipeline.RDat.arrays_of_unscopedBufs (p := 3) (pcfgs (F := F)) adm (rdats m fgt) launch3.win launch3.arr_whole c
      ((rdats m fgt 3 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m fgt 3 c).Φ (Fin.last _) = Pipeline.ΦA spec3 c from rfl]; unfold Pipeline.ΦA
    iintro ⟨Hr, Hp⟩
    isplitl [Hp]; · iexact Hp
    isplitr; · iempintro
    iexact Hr
  hexit c := by
    refine (sep_mono (reg3_open m fgt c) .rfl).trans ?_
    iintro ⟨⟨%A, %hA, Ha⟩, HO, HY, Hrest⟩
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T9 m c) (fun b => Function.update (U9 m c) (Proc.devRef .tc main_v41) (A 3) (Proc.devRef .tc b)) A
      (exit3_arr c A (U9 m c) (reg3_hAin m fgt c A hA)) (exit3_rest c (U9 m c) (A 3))
    rw [Pipeline.unscopedBufs_held c (Function.update (U9 m c) (Proc.devRef .tc main_v41) (A 3))] at hjoin
    imodintro
    iexists (fun _ => A 3)
    isplitr; · ipureintro; exact hA 3
    isplitl [Ha Hrest]
    · rw [U10_eq_update]
      iapply hjoin; isplitl [Ha] <;> iassumption
    isplitl [HY]; · iexact HY
    unfold Pipeline.RDat.owesAt Pipeline.owesWithin
    icases HO with ⟨%W, -, HO⟩; iexists W; iexact HO

/-! ## @main as segments, and the launch -/

/-- @main's twelve items in order. -/
abbrev segs (hb3 : ∀ c, BodyObligationLoose (Rg.dat3 (F := F) (T9 m) c) (defs₀ (F := F)) Variants.none () Set.univ fgt) :
    List (Pipeline.RDat.Seg (pcfgs (F := F)) adm (rdats m fgt) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m fgt),
    .host (hseg hostOps1 hostOps1_sub hostOps1_fresh (U4 m)),
    .region (reg1 m fgt),
    .host (hseg hostOps2 hostOps2_sub hostOps2_fresh (U6 m)),
    .region (reg2 m fgt),
    .host (hseg hostOps3 hostOps3_sub hostOps3_fresh (U8 m)),
    .region (reg3 m fgt hb3),
    .host (hsegEx m fgt hostOps4 hostOps4_sub hostOps4_fresh (U10 m)),
    .host (hsegEx m fgt hostOps4_1 hostOps4_1_sub hostOps4_1_fresh (U11 m)) ]

/-- The last thread state without the `owes`: for some contents `o` of the logits' buffer the output projection may
    have left, every unscoped buffer at `U12 o`; the generator register at some state. -/
abbrev Tₙ (c : Dev nD) : sProp 𝕄 :=
  iprop(∃ o, ⌜OutFact m fgt o c⌝ ∗ StableHlo.held (c : Thread nD τ) (Pipeline.ucRefs τ sig) (U12 m o c) ∗ ∃ r, prngReg c r)

set_option backward.isDefEq.respectTransparency.types false in
/-- The whole run. From any launch memory `m` with zero counters, every weakly fair execution of @main terminates, nothing
    faulting, and in every final state, on every core, every unscoped buffer holds what the fold names (`U12 o`) for SOME
    contents `o` of the logits' buffer that the output projection's write-backs may leave (`OutFact`): of the windows
    `fgt` forgets nothing more is known; a window it keeps holds exactly what its proof data name. -/
theorem run_all (hb3 : ∀ c, BodyObligationLoose (Rg.dat3 (F := F) (T9 m) c) (defs₀ (F := F)) Variants.none () Set.univ fgt) :
    θ_run defs (onTc (τ := τ) (main (F := F))) ⟨m, fun _ => 0, ρ⟩ (fun r => ∀ c : Dev nD,
      ∃ o : (c : Dev nD) → Buf (Elt F) ((c : Thread nD τ).loc main_v41),
        ((Rg.dat3 (T9 m) c).toRForget fgt).ArrAt 3 cfg3.N (o c)
          ∧ ∀ b ∈ Pipeline.ucRefs τ sig, r.2.mem ((c : Thread nD τ).1, b) = U12 m o c b) :=
  Pipeline.RDat.θ_run_regions_kit (pcfgs (F := F)) adm (rdats m fgt) () cellOf_inj emb₁ defs₀ 𝒱₀ L lv m ρ main (segs m fgt hb3)
    (fun c Q => by
      rewrite [main_chain c, Pipeline.RDat.Seg.run_eq_chain,
        show (segs m fgt hb3).map Pipeline.RDat.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m fgt)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show (iprop(∃ o, ⌜OutFact m fgt o c⌝ ∗ StableHlo.held (c : Thread nD τ) (Pipeline.ucRefs τ sig) (U12 m o c) ∗ R c) : sProp 𝕄)
          ⊢ iprop(Tₙ m fgt c ∗ ∃ W, owes (c : Thread nD τ) (0 : CellTallies nD τ sig Unit) W)
        iintro ⟨%o, %ho, Hh, Hp, HO⟩
        isplitr [HO]
        · iexists o; isplitr; · ipureintro; exact ho
          isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∃ o : (c : Dev nD) → Buf (Elt F) ((c : Thread nD τ).loc main_v41),
        ((Rg.dat3 (T9 m) c).toRForget fgt).ArrAt 3 cfg3.N (o c)
          ∧ ∀ b ∈ Pipeline.ucRefs τ sig, s.mem ((c : Thread nD τ).1, b) = U12 m o c b)
    (hfin := fun c s' => by
      iintro ⟨⟨%o, %ho, Hh, -⟩, HSI⟩
      unfold StableHlo.held
      ihave Hr := (pointsTo_read_all (Pipeline.ucRefs τ sig) (fun b => ((c : Thread nD τ).1, b)) (U12 m o c) s') $$ [Hh HSI]
      · isplitl [Hh] <;> iassumption
      icases Hr with ⟨%h, HSI⟩
      imodintro
      isplitr
      · ipureintro; exact ⟨o, ho, h⟩
      · iexact HSI)
    (hQ := fun s h => h)

/-- The arguments end as launched: every weakly fair execution of @main terminates, nothing faulting, and every final state holds each of
    the fourteen argument arrays as launched — the run with the output projection's result window forgotten (a frame reads
    nothing of the logits), each argument read back through the fold: no host stretch writes one, no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨o, -, h⟩ := h c
    exact ⟨(h _ (mem_uc main_arg0 (by decide))).trans (U12_main_arg0 m o c),
      (h _ (mem_uc main_arg1 (by decide))).trans (U12_main_arg1 m o c),
      (h _ (mem_uc main_arg2 (by decide))).trans (U12_main_arg2 m o c),
      (h _ (mem_uc main_arg3 (by decide))).trans (U12_main_arg3 m o c),
      (h _ (mem_uc main_arg4 (by decide))).trans (U12_main_arg4 m o c),
      (h _ (mem_uc main_arg5 (by decide))).trans (U12_main_arg5 m o c),
      (h _ (mem_uc main_arg6 (by decide))).trans (U12_main_arg6 m o c),
      (h _ (mem_uc main_arg7 (by decide))).trans (U12_main_arg7 m o c),
      (h _ (mem_uc main_arg8 (by decide))).trans (U12_main_arg8 m o c),
      (h _ (mem_uc main_arg9 (by decide))).trans (U12_main_arg9 m o c),
      (h _ (mem_uc main_arg10 (by decide))).trans (U12_main_arg10 m o c),
      (h _ (mem_uc main_arg11 (by decide))).trans (U12_main_arg11 m o c),
      (h _ (mem_uc main_arg12 (by decide))).trans (U12_main_arg12 m o c),
      (h _ (mem_uc main_arg13 (by decide))).trans (U12_main_arg13 m o c)⟩)
    (run_all m ρ Rg.fgtOut3 (Rg.body_obligation3_forget (T9 m)))

end Cert.KernelIdeal.Rn

end
-- ==== Proof.RefRun.lean ====
/-
  The reference program's run. Its @main is a straight line of host operations with no kernel
  launch: the embedding row is looked up (an index clamp, a gather and a select against NaN),
  the attention logits are an affine map of [embedded ; hidden], their softmax weights the
  encoder rows, a second affine map and a rectifier combine the result with the embedding, two
  affine maps give the recurrent cell's input and hidden gates, the gate arithmetic gives the new
  hidden row, a last affine map gives the vocabulary logits and their log-softmax is the first
  result. Three of the steps are outlined functions, one of which calls a fourth; a call executes
  the callee's operations on the caller's buffers, so here each callee's operations stand at its
  call site over that call's buffer record, and @main is ONE list of 113 operations.

  `R m' c` is what device `c`'s buffers hold after the list has run from the memory `m'`; `run`
  says every execution ends there: the three results at `R m' c`, the fourteen arguments unchanged
  (no operation writes an argument). The stage-by-stage reading of `R` is in RefStages.
-/
import proofs.«153450_j57131654971751_1_alg».proof.Defs
import proofs.«153450_j57131654971751_1_alg».proof.Proof.Gen.ReferenceIdeal
import proofs.«153450_j57131654971751_1_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 113 operations in program order. Operations 2–23 are the row lookup (the index made
    non-negative by adding the table's height when it is below zero, the in-range test, the gather,
    the select against NaN), 52–54 the rectifier, 98–112 the log-softmax; each of the three stands
    where its call stood, over the call's own buffers, its argument the caller's buffer. -/
abbrev ops : List (HloOp τ sig (Elt F)) :=
  [ reshape main_arg0 main_v0 rfl shapeCasts_S1x1_S1,
    TRef.nullary main_call0.c (constantI S_ 32 0#32),
    TRef.unary main_call0.c main_call0.v0 (broadcastInDim S1 ![] bcast_S_S1),
    TRef.binary (.of main_v0 : TRef sig ⟨S1, .i32⟩) main_call0.v0 main_call0.v1 (cmpi .slt),
    TRef.nullary main_call0.c_0 (constantI S_ 32 50257#32),
    TRef.unary main_call0.c_0 main_call0.v2 (broadcastInDim S1 ![] bcast_S_S1),
    TRef.binary (.of main_v0 : TRef sig ⟨S1, .i32⟩) main_call0.v2 main_call0.v3 addi,
    TRef.ternary main_call0.v1 main_call0.v3 (.of main_v0 : TRef sig ⟨S1, .i32⟩) main_call0.call0.v0 select,
    TRef.unary main_call0.call0.v0 main_call0.v5 (broadcastInDim S1x1 ![0] bcast_S1_S1x1_0),
    TRef.nullary main_call0.c_1 (constantI S1 32 50256#32),
    TRef.nullary main_call0.c_2 (constantI S_ 32 0#32),
    TRef.unary main_call0.c_2 main_call0.v6 (broadcastInDim S1x1 ![] bcast_S_S1x1),
    TRef.binary main_call0.v5 main_call0.v6 main_call0.v7 (cmpi .sge),
    TRef.unary main_call0.c_1 main_call0.v8 (broadcastInDim S1x1 ![1] bcast_S1_S1x1_1),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1_S1_d1 h_S_),
    TRef.binary (.of main_arg3 : TRef sig ⟨S50257x2048, .f32⟩) main_call0.v5 main_call0.v12 (fun x i => Host.gather gather_S50257x2048_S1x1_S1x2048_1_0_n_n_0_1_12048 x i),
    TRef.unary main_call0.v11 main_call0.v13 (broadcastInDim S1x2048 ![0] bcast_S1_S1x2048_0),
    TRef.nullary main_call0.cst (constant S_ .f32 0x7FC00000#32),
    TRef.unary main_call0.cst main_call0.v14 (broadcastInDim S1x2048 ![] bcast_S_S1x2048),
    TRef.ternary main_call0.v13 main_call0.v12 main_call0.v14 main_call0.v15 select,
    reshape main_arg1 main_v2 rfl shapeCasts_S1x1x2048_S1x2048,
    binary main_v1 main_v2 main_v3 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg4 main_v4 ((transpose S4096x512 [1, 0] · transposes_S512x4096_S4096x512_1_0) : (⟨S512x4096, .f32⟩ : BufTy).Contents (Elt F) → (⟨S4096x512, .f32⟩ : BufTy).Contents (Elt F)),
    binary main_v3 main_v4 main_v5 ((fun l r => Host.dotGeneral dot_S1x4096_S4096x512_S1x512_1_0_0_1_n_n none l r) : (⟨S1x4096, .f32⟩ : BufTy).Contents (Elt F) → (⟨S4096x512, .f32⟩ : BufTy).Contents (Elt F) → (⟨S1x512, .f32⟩ : BufTy).Contents (Elt F)),
    unary main_arg5 main_v6 (broadcastInDim S1x512 ![1] bcast_S512_S1x512_1 : (⟨S512, .f32⟩ : BufTy).Contents (Elt F) → (⟨S1x512, .f32⟩ : BufTy).Contents (Elt F)),
    binary main_v5 main_v6 main_v7 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v7 main_cst main_v8 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v9 (broadcastInDim S1 ![] bcast_S_S1 : (⟨S_, .f32⟩ : BufTy).Contents (Elt F) → (⟨S1, .f32⟩ : BufTy).Contents (Elt F)),
    binary main_v9 main_v8 main_v10 (maximumf : (⟨S1, .f32⟩ : BufTy).Contents (Elt F) → (⟨S1, .f32⟩ : BufTy).Contents (Elt F) → (⟨S1, .f32⟩ : BufTy).Contents (Elt F)),
    unary main_v10 main_v11 (broadcastInDim S1x1 ![0] bcast_S1_S1x1_0 : (⟨S1, .f32⟩ : BufTy).Contents (Elt F) → (⟨S1x1, .f32⟩ : BufTy).Contents (Elt F)),
    unary main_v11 main_v12 (broadcastInDim S1x512 ![0, 1] bcast_S1x1_S1x512_0_1 : (⟨S1x1, .f32⟩ : BufTy).Contents (Elt F) → (⟨S1x512, .f32⟩ : BufTy).Contents (Elt F)),
    binary main_v7 main_v12 main_v13 (subf : (⟨S1x512, .f32⟩ : BufTy).Contents (Elt F) → (⟨S1x512, .f32⟩ : BufTy).Contents (Elt F) → (⟨S1x512, .f32⟩ : BufTy).Contents (Elt F)),
    unary main_v13 main_v14 (Host.exp : (⟨S1x512, .f32⟩ : BufTy).Contents (Elt F) → (⟨S1x512, .f32⟩ : BufTy).Contents (Elt F)),
    nullary main_cst_1 (constant S_ .f32 0x00000000#32),
    binary main_v14 main_cst_1 main_v15 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x512 ![0, 1] bcast_S1x1_S1x512_0_1 : (⟨S1x1, .f32⟩ : BufTy).Contents (Elt F) → (⟨S1x512, .f32⟩ : BufTy).Contents (Elt F)),
    binary main_v14 main_v17 main_v18 (Host.divf : (⟨S1x512, .f32⟩ : BufTy).Contents (Elt F) → (⟨S1x512, .f32⟩ : BufTy).Contents (Elt F) → (⟨S1x512, .f32⟩ : BufTy).Contents (Elt F)),
    binary main_v18 main_arg2 main_v19 ((fun l r => Host.dotGeneral dot_S1x512_S512x2048_S1x2048_1_0_0_1_n_n none l r) : (⟨S1x512, .f32⟩ : BufTy).Contents (Elt F) → (⟨S512x2048, .f32⟩ : BufTy).Contents (Elt F) → (⟨S1x2048, .f32⟩ : BufTy).Contents (Elt F)),
    binary main_v1 main_v19 main_v20 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg6 main_v21 ((transpose S4096x2048 [1, 0] · transposes_S2048x4096_S4096x2048_1_0) : (⟨S2048x4096, .f32⟩ : BufTy).Contents (Elt F) → (⟨S4096x2048, .f32⟩ : BufTy).Contents (Elt F)),
    binary main_v20 main_v21 main_v22 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    unary main_arg7 main_v23 (broadcastInDim S1x2048 ![1] bcast_S2048_S1x2048_1 : (⟨S2048, .f32⟩ : BufTy).Contents (Elt F) → (⟨S1x2048, .f32⟩ : BufTy).Contents (Elt F)),
    binary main_v22 main_v23 main_v24 (addf : (⟨S1x2048, .f32⟩ : BufTy).Contents (Elt F) → (⟨S1x2048, .f32⟩ : BufTy).Contents (Elt F) → (⟨S1x2048, .f32⟩ : BufTy).Contents (Elt F)),
    TRef.nullary main_call1.cst (constant S_ .f32 0x00000000#32),
    TRef.unary main_call1.cst main_call1.v0 (broadcastInDim S1x2048 ![] bcast_S_S1x2048),
    TRef.binary (.of main_v24 : TRef sig ⟨S1x2048, .f32⟩) main_call1.v0 main_call1.v1 maximumf,
    unary main_arg8 main_v26 ((transpose S2048x6144 [1, 0] · transposes_S6144x2048_S2048x6144_1_0) : (⟨S6144x2048, .f32⟩ : BufTy).Contents (Elt F) → (⟨S2048x6144, .f32⟩ : BufTy).Contents (Elt F)),
    binary main_v25 main_v26 main_v27 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg10 main_v28 (broadcastInDim S1x6144 ![1] bcast_S6144_S1x6144_1 : (⟨S6144, .f32⟩ : BufTy).Contents (Elt F) → (⟨S1x6144, .f32⟩ : BufTy).Contents (Elt F)),
    binary main_v27 main_v28 main_v29 (addf : (⟨S1x6144, .f32⟩ : BufTy).Contents (Elt F) → (⟨S1x6144, .f32⟩ : BufTy).Contents (Elt F) → (⟨S1x6144, .f32⟩ : BufTy).Contents (Elt F)),
    unary main_arg9 main_v30 ((transpose S2048x6144 [1, 0] · transposes_S6144x2048_S2048x6144_1_0) : (⟨S6144x2048, .f32⟩ : BufTy).Contents (Elt F) → (⟨S2048x6144, .f32⟩ : BufTy).Contents (Elt F)),
    binary main_v2 main_v30 main_v31 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg11 main_v32 (broadcastInDim S1x6144 ![1] bcast_S6144_S1x6144_1 : (⟨S6144, .f32⟩ : BufTy).Contents (Elt F) → (⟨S1x6144, .f32⟩ : BufTy).Contents (Elt F)),
    binary main_v31 main_v32 main_v33 (addf : (⟨S1x6144, .f32⟩ : BufTy).Contents (Elt F) → (⟨S1x6144, .f32⟩ : BufTy).Contents (Elt F) → (⟨S1x6144, .f32⟩ : BufTy).Contents (Elt F)),
    unary main_v29 main_v34 ((extractStridedSlice S1x2048 ![0, 0] · slices_S1x6144_S1x2048_0_0) : (⟨S1x6144, .f32⟩ : BufTy).Contents (Elt F) → (⟨S1x2048, .f32⟩ : BufTy).Contents (Elt F)),
    unary main_v29 main_v35 ((extractStridedSlice S1x2048 ![0, 2048] · slices_S1x6144_S1x2048_0_2048) : (⟨S1x6144, .f32⟩ : BufTy).Contents (Elt F) → (⟨S1x2048, .f32⟩ : BufTy).Contents (Elt F)),
    unary main_v29 main_v36 ((extractStridedSlice S1x2048 ![0, 4096] · slices_S1x6144_S1x2048_0_4096) : (⟨S1x6144, .f32⟩ : BufTy).Contents (Elt F) → (⟨S1x2048, .f32⟩ : BufTy).Contents (Elt F)),
    unary main_v33 main_v37 ((extractStridedSlice S1x2048 ![0, 0] · slices_S1x6144_S1x2048_0_0) : (⟨S1x6144, .f32⟩ : BufTy).Contents (Elt F) → (⟨S1x2048, .f32⟩ : BufTy).Contents (Elt F)),
    unary main_v33 main_v38 ((extractStridedSlice S1x2048 ![0, 2048] · slices_S1x6144_S1x2048_0_2048) : (⟨S1x6144, .f32⟩ : BufTy).Contents (Elt F) → (⟨S1x2048, .f32⟩ : BufTy).Contents (Elt F)),
    unary main_v33 main_v39 ((extractStridedSlice S1x2048 ![0, 4096] · slices_S1x6144_S1x2048_0_4096) : (⟨S1x6144, .f32⟩ : BufTy).Contents (Elt F) → (⟨S1x2048, .f32⟩ : BufTy).Contents (Elt F)),
    binary main_v34 main_v37 main_v40 (addf : (⟨S1x2048, .f32⟩ : BufTy).Contents (Elt F) → (⟨S1x2048, .f32⟩ : BufTy).Contents (Elt F) → (⟨S1x2048, .f32⟩ : BufTy).Contents (Elt F)),
    unary main_v40 main_v41 (Host.negf : (⟨S1x2048, .f32⟩ : BufTy).Contents (Elt F) → (⟨S1x2048, .f32⟩ : BufTy).Contents (Elt F)),
    unary main_v41 main_v42 (Host.exp : (⟨S1x2048, .f32⟩ : BufTy).Contents (Elt F) → (⟨S1x2048, .f32⟩ : BufTy).Contents (Elt F)),
    nullary main_cst_2 (constant S_ .f32 0x3F800000#32),
    unary main_cst_2 main_v43 (broadcastInDim S1x2048 ![] bcast_S_S1x2048 : (⟨S_, .f32⟩ : BufTy).Contents (Elt F) → (⟨S1x2048, .f32⟩ : BufTy).Contents (Elt F)),
    binary main_v43 main_v42 main_v44 (addf : (⟨S1x2048, .f32⟩ : BufTy).Contents (Elt F) → (⟨S1x2048, .f32⟩ : BufTy).Contents (Elt F) → (⟨S1x2048, .f32⟩ : BufTy).Contents (Elt F)),
    nullary main_cst_3 (constant S_ .f32 0x3F800000#32),
    unary main_cst_3 main_v45 (broadcastInDim S1x2048 ![] bcast_S_S1x2048 : (⟨S_, .f32⟩ : BufTy).Contents (Elt F) → (⟨S1x2048, .f32⟩ : BufTy).Contents (Elt F)),
    binary main_v45 main_v44 main_v46 (Host.divf : (⟨S1x2048, .f32⟩ : BufTy).Contents (Elt F) → (⟨S1x2048, .f32⟩ : BufTy).Contents (Elt F) → (⟨S1x2048, .f32⟩ : BufTy).Contents (Elt F)),
    binary main_v35 main_v38 main_v47 (addf : (⟨S1x2048, .f32⟩ : BufTy).Contents (Elt F) → (⟨S1x2048, .f32⟩ : BufTy).Contents (Elt F) → (⟨S1x2048, .f32⟩ : BufTy).Contents (Elt F)),
    unary main_v47 main_v48 (Host.negf : (⟨S1x2048, .f32⟩ : BufTy).Contents (Elt F) → (⟨S1x2048, .f32⟩ : BufTy).Contents (Elt F)),
    unary main_v48 main_v49 (Host.exp : (⟨S1x2048, .f32⟩ : BufTy).Contents (Elt F) → (⟨S1x2048, .f32⟩ : BufTy).Contents (Elt F)),
    nullary main_cst_4 (constant S_ .f32 0x3F800000#32),
    unary main_cst_4 main_v50 (broadcastInDim S1x2048 ![] bcast_S_S1x2048 : (⟨S_, .f32⟩ : BufTy).Contents (Elt F) → (⟨S1x2048, .f32⟩ : BufTy).Contents (Elt F)),
    binary main_v50 main_v49 main_v51 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v52 (broadcastInDim S1x2048 ![] bcast_S_S1x2048 : (⟨S_, .f32⟩ : BufTy).Contents (Elt F) → (⟨S1x2048, .f32⟩ : BufTy).Contents (Elt F)),
    binary main_v52 main_v51 main_v53 (Host.divf : (⟨S1x2048, .f32⟩ : BufTy).Contents (Elt F) → (⟨S1x2048, .f32⟩ : BufTy).Contents (Elt F) → (⟨S1x2048, .f32⟩ : BufTy).Contents (Elt F)),
    binary main_v46 main_v39 main_v54 (mulf : (⟨S1x2048, .f32⟩ : BufTy).Contents (Elt F) → (⟨S1x2048, .f32⟩ : BufTy).Contents (Elt F) → (⟨S1x2048, .f32⟩ : BufTy).Contents (Elt F)),
    binary main_v36 main_v54 main_v55 (addf : (⟨S1x2048, .f32⟩ : BufTy).Contents (Elt F) → (⟨S1x2048, .f32⟩ : BufTy).Contents (Elt F) → (⟨S1x2048, .f32⟩ : BufTy).Contents (Elt F)),
    unary main_v55 main_v56 (Host.tanh : (⟨S1x2048, .f32⟩ : BufTy).Contents (Elt F) → (⟨S1x2048, .f32⟩ : BufTy).Contents (Elt F)),
    nullary main_cst_6 (constant S_ .f32 0x3F800000#32),
    unary main_cst_6 main_v57 (broadcastInDim S1x2048 ![] bcast_S_S1x2048 : (⟨S_, .f32⟩ : BufTy).Contents (Elt F) → (⟨S1x2048, .f32⟩ : BufTy).Contents (Elt F)),
    binary main_v57 main_v53 main_v58 (subf : (⟨S1x2048, .f32⟩ : BufTy).Contents (Elt F) → (⟨S1x2048, .f32⟩ : BufTy).Contents (Elt F) → (⟨S1x2048, .f32⟩ : BufTy).Contents (Elt F)),
    binary main_v58 main_v56 main_v59 (mulf : (⟨S1x2048, .f32⟩ : BufTy).Contents (Elt F) → (⟨S1x2048, .f32⟩ : BufTy).Contents (Elt F) → (⟨S1x2048, .f32⟩ : BufTy).Contents (Elt F)),
    binary main_v53 main_v2 main_v60 (mulf : (⟨S1x2048, .f32⟩ : BufTy).Contents (Elt F) → (⟨S1x2048, .f32⟩ : BufTy).Contents (Elt F) → (⟨S1x2048, .f32⟩ : BufTy).Contents (Elt F)),
    binary main_v59 main_v60 main_v61 (addf : (⟨S1x2048, .f32⟩ : BufTy).Contents (Elt F) → (⟨S1x2048, .f32⟩ : BufTy).Contents (Elt F) → (⟨S1x2048, .f32⟩ : BufTy).Contents (Elt F)),
    unary main_arg12 main_v62 ((transpose S2048x50257 [1, 0] · transposes_S50257x2048_S2048x50257_1_0) : (⟨S50257x2048, .f32⟩ : BufTy).Contents (Elt F) → (⟨S2048x50257, .f32⟩ : BufTy).Contents (Elt F)),
    binary main_v61 main_v62 main_v63 ((fun l r => Host.dotGeneral dot_S1x2048_S2048x50257_S1x50257_1_0_0_1_n_n none l r) : (⟨S1x2048, .f32⟩ : BufTy).Contents (Elt F) → (⟨S2048x50257, .f32⟩ : BufTy).Contents (Elt F) → (⟨S1x50257, .f32⟩ : BufTy).Contents (Elt F)),
    unary main_arg13 main_v64 (broadcastInDim S1x50257 ![1] bcast_S50257_S1x50257_1 : (⟨S50257, .f32⟩ : BufTy).Contents (Elt F) → (⟨S1x50257, .f32⟩ : BufTy).Contents (Elt F)),
    binary main_v63 main_v64 main_v65 (addf : (⟨S1x50257, .f32⟩ : BufTy).Contents (Elt F) → (⟨S1x50257, .f32⟩ : BufTy).Contents (Elt F) → (⟨S1x50257, .f32⟩ : BufTy).Contents (Elt F)),
    TRef.nullary main_call2.cst (constant S_ .f32 0xFF800000#32),
    TRef.binary (.of main_v65 : TRef sig ⟨S1x50257, .f32⟩) main_call2.cst main_call2.v0 (fun x v => Host.reduce FloatOps.maximumf x v reducesTo_S1x50257_S1_d1 h_S_),
    TRef.nullary main_call2.cst_0 (constant S_ .f32 0xFF800000#32),
    TRef.unary main_call2.cst_0 main_call2.v1 (broadcastInDim S1 ![] bcast_S_S1),
    TRef.binary main_call2.v1 main_call2.v0 main_call2.v2 maximumf,
    TRef.unary main_call2.v2 main_call2.v3 (broadcastInDim S1x1 ![0] bcast_S1_S1x1_0),
    TRef.unary main_call2.v3 main_call2.v4 (broadcastInDim S1x50257 ![0, 1] bcast_S1x1_S1x50257_0_1),
    TRef.binary (.of main_v65 : TRef sig ⟨S1x50257, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S1x50257_S1_d1 h_S_),
    TRef.unary main_call2.v7 main_call2.v8 (broadcastInDim S1x1 ![0] bcast_S1_S1x1_0),
    TRef.unary main_call2.v8 main_call2.v9 Host.log,
    TRef.unary main_call2.v9 main_call2.v10 (broadcastInDim S1x50257 ![0, 1] bcast_S1x1_S1x50257_0_1),
    TRef.binary main_call2.v5 main_call2.v10 main_call2.v11 subf,
    unary main_v61 main_v67 (broadcastInDim S1x1x2048 ![1, 2] bcast_S1x2048_S1x1x2048_1_2 : (⟨S1x2048, .f32⟩ : BufTy).Contents (Elt F) → (⟨S1x1x2048, .f32⟩ : BufTy).Contents (Elt F)) ]

set_option maxRecDepth 8192 in
set_option maxHeartbeats 4000000 in
/-- @main is that line: its two windows and the four functions' bodies unfold to the same chain of
    steps, a function's typed references being the call record's buffers. -/
theorem main_eq (c : Dev nD) : main (F := F) c = seq ops := rfl

/-- The program's values live in device memory for the whole run: nothing is scoped. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation reads and writes TensorCore references only. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    binary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., binary_bufs_sub .., unary_bufs_sub .., binary_bufs_sub .., unary_bufs_sub ..,
    binary_bufs_sub .., nullary_bufs_sub .., unary_bufs_sub .., binary_bufs_sub .., unary_bufs_sub .., binary_bufs_sub ..,
    unary_bufs_sub .., binary_bufs_sub .., unary_bufs_sub .., binary_bufs_sub .., unary_bufs_sub .., binary_bufs_sub ..,
    unary_bufs_sub .., unary_bufs_sub .., unary_bufs_sub .., unary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., unary_bufs_sub .., nullary_bufs_sub .., unary_bufs_sub .., binary_bufs_sub ..,
    binary_bufs_sub .., binary_bufs_sub .., binary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., unary_bufs_sub ..⟩

/-- What device `c`'s buffers hold once the 113 operations have run, in order, from the memory `m'`. -/
abbrev R (m' : (ℓ : Loc nD τ sig) → Buf (Elt F) ℓ) (c : Dev nD) : Valuation τ sig (Elt F) :=
  after ops (fun b => m' (c, b))

/-- The references the operations write, in program order: operation `k` writes the `k`-th of
    them and nothing else, and no two operations write the same one (every value of the program has
    a buffer of its own). No argument is among them. -/
def written : List (Ref sig .tc) :=
  [ main_v0, main_call0_c, main_call0_v0, main_call0_v1, main_call0_c_0, main_call0_v2, main_call0_v3, main_call0_v4,
    main_call0_v5, main_call0_c_1, main_call0_c_2, main_call0_v6, main_call0_v7, main_call0_v8, main_call0_v9, main_call0_v10,
    main_call0_c_3, main_call0_v11, main_call0_v12, main_call0_v13, main_call0_cst, main_call0_v14, main_v1, main_v2,
    main_v3, main_v4, main_v5, main_v6, main_v7, main_cst, main_v8, main_cst_0,
    main_v9, main_v10, main_v11, main_v12, main_v13, main_v14, main_cst_1, main_v15,
    main_v16, main_v17, main_v18, main_v19, main_v20, main_v21, main_v22, main_v23,
    main_v24, main_call1_cst, main_call1_v0, main_v25, main_v26, main_v27, main_v28, main_v29,
    main_v30, main_v31, main_v32, main_v33, main_v34, main_v35, main_v36, main_v37,
    main_v38, main_v39, main_v40, main_v41, main_v42, main_cst_2, main_v43, main_v44,
    main_cst_3, main_v45, main_v46, main_v47, main_v48, main_v49, main_cst_4, main_v50,
    main_v51, main_cst_5, main_v52, main_v53, main_v54, main_v55, main_v56, main_cst_6,
    main_v57, main_v58, main_v59, main_v60, main_v61, main_v62, main_v63, main_v64,
    main_v65, main_call2_cst, main_call2_v0, main_call2_cst_0, main_call2_v1, main_call2_v2, main_call2_v3, main_call2_v4,
    main_call2_v5, main_call2_v6, main_call2_cst_1, main_call2_v7, main_call2_v8, main_call2_v9, main_call2_v10, main_v66,
    main_v67 ]

set_option maxRecDepth 8192 in
theorem writes_written :
    List.Forall₂ (fun (op : HloOp τ sig (Elt F)) (r : Ref sig .tc) => op.writes = {Proc.devRef (τ := τ) .tc r}) ops written :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Running two lists one after the other is running their concatenation. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference none of a list's operations writes keeps its contents through the list (the
    operations' result references listed beside them, position by position). -/
theorem after_kept {Val : EltTy → Type} : ∀ {l : List (HloOp τ sig Val)} {w : List (Ref sig .tc)},
    List.Forall₂ (fun op r => op.writes = {Proc.devRef (τ := τ) .tc r}) l w →
    ∀ (V : Valuation τ sig Val) (r : Ref sig .tc), r ∉ w →
      after l V (Proc.devRef .tc r) = V (Proc.devRef .tc r)
  | _, _, .nil, _, _, _ => rfl
  | _, _, .cons (a := op) (b := r₀) h hs, V, r, hr => by
      rw [after_cons, after_kept hs _ r fun hm => hr (List.mem_cons_of_mem _ hm),
        op.result_of_not_mem V (by
          rw [h, Finset.mem_singleton]
          exact devRef_ne_of_ne fun e => hr (e ▸ List.mem_cons_self ..))]

/-- What device `c`'s buffers hold after the first `k` operations. -/
def Vk (k : ℕ) (m' : (ℓ : Loc nD τ sig) → Buf (Elt F) ℓ) (c : Dev nD) : Valuation τ sig (Elt F) :=
  after (ops.take k) (fun b => m' (c, b))

/-- Reading the final contents through a WINDOW of the program: at a reference no operation after
    the `j`-th writes, the final contents are what operations `i+1 … j` leave there when run from
    the contents after the first `i`. A stage of the program is read this way without unfolding
    anything before or after it. -/
theorem R_window (i j : ℕ) (hij : i ≤ j) (m' : (ℓ : Loc nD τ sig) → Buf (Elt F) ℓ) (c : Dev nD)
    (r : Ref sig .tc) (hr : r ∉ written.drop j) :
    R m' c (Proc.devRef .tc r) = after ((ops.take j).drop i) (Vk i m' c) (Proc.devRef .tc r) := by
  have h1 : R m' c = after (ops.drop j) (after (ops.take j) (fun b => m' (c, b))) := by
    show after ops _ = _
    rw [← after_app, List.take_append_drop]
  have h2 : after (ops.take j) (fun b => m' (c, b)) = after ((ops.take j).drop i) (Vk i m' c) := by
    unfold Vk
    rw [← after_app]
    congr 1
    conv_lhs => rw [← List.take_append_drop i (ops.take j), List.take_take, min_eq_left hij]
  rw [h1, after_kept (List.forall₂_drop j writes_written) _ r hr, h2]

/-- At a reference no operation after the `i`-th writes, the final contents are those after the
    first `i` operations. -/
theorem R_kept (i : ℕ) (m' : (ℓ : Loc nD τ sig) → Buf (Elt F) ℓ) (c : Dev nD)
    (r : Ref sig .tc) (hr : r ∉ written.drop i) :
    R m' c (Proc.devRef .tc r) = Vk i m' c (Proc.devRef .tc r) := by
  rw [R_window i i le_rfl m' c r hr, List.drop_take, Nat.sub_self, List.take_zero, after_nil]

/-- An argument ends where it started. -/
theorem arg_kept (m' : (ℓ : Loc nD τ sig) → Buf (Elt F) ℓ) (c : Dev nD) (r : Ref sig .tc) (hr : r ∉ written) :
    after ops (launchContents m' c) (Proc.devRef .tc r) = m' ((c.tc : Thread nD τ).loc r) :=
  after_kept writes_written _ r hr

/-- From any memory with zero counters every weakly fair execution of @main terminates; the three
    results end at `R m' c` and each argument at what the memory held. -/
theorem run (m' : (ℓ : Loc nD τ sig) → Buf (Elt F) ℓ) (ρ' : Dev nD → PrngReg) :
    θ_run defs (onTc (τ := τ) (main (F := F))) ⟨m', fun _ => 0, ρ'⟩ (fun r => ∀ c : Dev nD,
      r.2.mem ((c.tc : Thread nD τ).loc main_v66) = R m' c (Proc.devRef .tc main_v66)
      ∧ r.2.mem ((c.tc : Thread nD τ).loc main_v67) = R m' c (Proc.devRef .tc main_v67)
      ∧ r.2.mem ((c.tc : Thread nD τ).loc main_v18) = R m' c (Proc.devRef .tc main_v18)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run defs _ _).mono (fun _ h c => ⟨h c main_v66,
      h c main_v67,
      h c main_v18,
      (h c main_arg0).trans (arg_kept m' c main_arg0 (by decide)),
      (h c main_arg1).trans (arg_kept m' c main_arg1 (by decide)),
      (h c main_arg2).trans (arg_kept m' c main_arg2 (by decide)),
      (h c main_arg3).trans (arg_kept m' c main_arg3 (by decide)),
      (h c main_arg4).trans (arg_kept m' c main_arg4 (by decide)),
      (h c main_arg5).trans (arg_kept m' c main_arg5 (by decide)),
      (h c main_arg6).trans (arg_kept m' c main_arg6 (by decide)),
      (h c main_arg7).trans (arg_kept m' c main_arg7 (by decide)),
      (h c main_arg8).trans (arg_kept m' c main_arg8 (by decide)),
      (h c main_arg9).trans (arg_kept m' c main_arg9 (by decide)),
      (h c main_arg10).trans (arg_kept m' c main_arg10 (by decide)),
      (h c main_arg11).trans (arg_kept m' c main_arg11 (by decide)),
      (h c main_arg12).trans (arg_kept m' c main_arg12 (by decide)),
      (h c main_arg13).trans (arg_kept m' c main_arg13 (by decide))⟩)
    (run_seq scopedRefs_eq scopedSems_eq defs main (fun _ => ops) main_eq (fun _ => ops_sub) m' ρ')

/-- The frame claim: the run above with the three results dropped. -/
theorem frame : Cert.frame_ReferenceIdeal := fun m g _ =>
  (θ_run _ _ _).mono (fun _ h c => (h c).2.2.2) (run m g)

end Cert.ReferenceIdeal.RefRun

end
-- ==== Proof.KValueRun.lean ====
/-
  The kernel's program at the ideal values, run from the launch: every weakly fair execution of @main terminates,
  and every final state holds, on each core, the two results and the attention weights at what the chain of
  boundary contents names — with the logits' buffer, after the output projection, at what that region's
  write-backs make of the entry contents: the 25 column tiles written in order, each tile's columns inside the
  array —, and every argument at its launch contents. It rests on one hypothesis: that the columns of a tile
  inside the array do not depend on the input words past the arrays' end.
-/
import proofs.«153450_j57131654971751_1_alg».proof.Proof.KI.Run
import Idealize.ShloMosaic.PureOps.Ideal

set_option maxRecDepth 16384

noncomputable section

namespace Cert.Val

open Idealize.ShloMosaic Idealize.ShloMosaic.TcCoe Idealize.SL.Sem
open Idealize.ShloMosaic.Pipeline (Dat BodyObligationLoose)
open Cert.KernelIdeal Cert.KernelIdeal.Gen Cert.KernelIdeal.Rn

/-- What the logits' buffer holds when the output projection returns: the entry contents overwritten, tile after
    tile, by each tile's columns inside the array. -/
def oK (m : (ℓ : Loc nD τ sig) → Buf (Elt Ideal) ℓ) : (c : Dev nD) → Buf (Elt Ideal) ((c : Thread nD τ).loc main_v41) :=
  fun c => (Rg.dat3 (T9 m) c).arrAt 3 cfg3.N

/-- The contents after the output projection read the logits' parameter at the core's own buffer only. -/
theorem U12_congr (m : (ℓ : Loc nD τ sig) → Buf (Elt Ideal) ℓ) {o o' : (c : Dev nD) → Buf (Elt Ideal) ((c : Thread nD τ).loc main_v41)} (c : Dev nD) (h : o c = o' c) :
    U12 m o c = U12 m o' c := by
  show StableHlo.after hostOps4_1 (StableHlo.after hostOps4 (U10 m o c)) = StableHlo.after hostOps4_1 (StableHlo.after hostOps4 (U10 m o' c))
  unfold U10; rw [h]

/-- The run: with nothing forgotten, the logits' buffer after the output projection is exactly what the write-backs
    make of it, so the contents @main returns with are the chain's at that; each result and each argument is an
    unscoped buffer of the core, read off the final state. -/
theorem kernel_run (hloc : Rg.ColLocal3 (F := Ideal)) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = U12 m (oK m) c (Proc.devRef .tc main_v42)
      ∧ r.2.mem ((c.tc : Thread nD τ).loc main_v43) = U12 m (oK m) c (Proc.devRef .tc main_v43)
      ∧ r.2.mem ((c.tc : Thread nD τ).loc main_v5_0) = U12 m (oK m) c (Proc.devRef .tc main_v5_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_)
    (run_all m ρ (fun _ => false) (fun c => Rg.body_obligation3_exact (T9 m) hloc c))
  obtain ⟨o, hA, hmem⟩ := h c
  have ho : o c = oK m c := ((Rg.dat3 (T9 m) c).toRForget_arrAt_iff (fgt := fun _ => false) (w := 3) rfl cfg3.N (o c)).mp hA
  have hU : U12 m o c = U12 m (oK m) c := U12_congr m c ho
  have rd : ∀ b : Ref sig .tc, Proc.devRef .tc b ∈ Pipeline.ucRefs τ sig →
      r.2.mem ((c.tc : Thread nD τ).loc b) = U12 m (oK m) c (Proc.devRef .tc b) :=
    fun b hb => (hmem _ hb).trans (congrFun hU _)
  exact ⟨rd main_v42 (Finset.mem_filter.mpr ⟨StableHlo.devRef_mem_tcRefs main_v42, by decide⟩),
    rd main_v43 (Finset.mem_filter.mpr ⟨StableHlo.devRef_mem_tcRefs main_v43, by decide⟩),
    rd main_v5_0 (Finset.mem_filter.mpr ⟨StableHlo.devRef_mem_tcRefs main_v5_0, by decide⟩),
    (rd main_arg0 (Finset.mem_filter.mpr ⟨StableHlo.devRef_mem_tcRefs main_arg0, by decide⟩)).trans (U12_main_arg0 m (oK m) c),
    (rd main_arg1 (Finset.mem_filter.mpr ⟨StableHlo.devRef_mem_tcRefs main_arg1, by decide⟩)).trans (U12_main_arg1 m (oK m) c),
    (rd main_arg2 (Finset.mem_filter.mpr ⟨StableHlo.devRef_mem_tcRefs main_arg2, by decide⟩)).trans (U12_main_arg2 m (oK m) c),
    (rd main_arg3 (Finset.mem_filter.mpr ⟨StableHlo.devRef_mem_tcRefs main_arg3, by decide⟩)).trans (U12_main_arg3 m (oK m) c),
    (rd main_arg4 (Finset.mem_filter.mpr ⟨StableHlo.devRef_mem_tcRefs main_arg4, by decide⟩)).trans (U12_main_arg4 m (oK m) c),
    (rd main_arg5 (Finset.mem_filter.mpr ⟨StableHlo.devRef_mem_tcRefs main_arg5, by decide⟩)).trans (U12_main_arg5 m (oK m) c),
    (rd main_arg6 (Finset.mem_filter.mpr ⟨StableHlo.devRef_mem_tcRefs main_arg6, by decide⟩)).trans (U12_main_arg6 m (oK m) c),
    (rd main_arg7 (Finset.mem_filter.mpr ⟨StableHlo.devRef_mem_tcRefs main_arg7, by decide⟩)).trans (U12_main_arg7 m (oK m) c),
    (rd main_arg8 (Finset.mem_filter.mpr ⟨StableHlo.devRef_mem_tcRefs main_arg8, by decide⟩)).trans (U12_main_arg8 m (oK m) c),
    (rd main_arg9 (Finset.mem_filter.mpr ⟨StableHlo.devRef_mem_tcRefs main_arg9, by decide⟩)).trans (U12_main_arg9 m (oK m) c),
    (rd main_arg10 (Finset.mem_filter.mpr ⟨StableHlo.devRef_mem_tcRefs main_arg10, by decide⟩)).trans (U12_main_arg10 m (oK m) c),
    (rd main_arg11 (Finset.mem_filter.mpr ⟨StableHlo.devRef_mem_tcRefs main_arg11, by decide⟩)).trans (U12_main_arg11 m (oK m) c),
    (rd main_arg12 (Finset.mem_filter.mpr ⟨StableHlo.devRef_mem_tcRefs main_arg12, by decide⟩)).trans (U12_main_arg12 m (oK m) c),
    (rd main_arg13 (Finset.mem_filter.mpr ⟨StableHlo.devRef_mem_tcRefs main_arg13, by decide⟩)).trans (U12_main_arg13 m (oK m) c)⟩

end Cert.Val

end
-- ==== Proof.LibMatvecT.lean ====
/-
  A row vector against the rows of a matrix, at the ideal values.

  A dense layer keeps its weights as a matrix `W` of shape `[M, K]`, one row per output feature, and applies it to a
  row `x` of shape `[R, K]` as `x · Wᵀ`: entry `(r, c)` of the result is the inner product of row `r` of `x` with
  row `c` of `W`. A matrix unit computes this directly, contracting the SECOND axis of both operands; the plain program
  first exchanges the axes of `W` and then takes the ordinary product. Over the extended reals narrowing an operand is
  the identity, so both are the textbook sum `∑ k, x (r, k) · W (c, k)`. Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the product of an `[R, K]` matrix by the TRANSPOSE of an `[M, K]` matrix: one
    contracted index of extent `K`, which is the column of both operands; the result's row is the left operand's row
    and its column is the right operand's ROW. -/
structure TransDot {R K M : ℕ} (d : DotDims ⟨2, ![R, K]⟩ ⟨2, ![M, K]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (i 1).val
  r1 : ∀ (i : (⟨2, ![R, M]⟩ : Shape).Idx) (q : d.contr.Idx), (d.rhsIdx i q 1).val = (q ⟨0, by omega⟩).val

variable {R K M : ℕ}

/-- The sum over the record's contraction index is the sum over `k < K` of `x (r, k) · w (c, k)`: row `r` of the left
    operand against row `c` of the right one. -/
theorem TransDot.sum_eq {d : DotDims ⟨2, ![R, K]⟩ ⟨2, ![M, K]⟩ ⟨2, ![R, M]⟩} (h : TransDot d)
    (x : (⟨2, ![R, K]⟩ : Shape).Idx → EReal) (w : (⟨2, ![M, K]⟩ : Shape).Idx → EReal) (r : Fin R) (c : Fin M) :
    ∑ k : d.contr.Idx, x (d.lhsIdx (ix2 r c) k) * w (d.rhsIdx (ix2 r c) k) = ∑ k : Fin K, x (ix2 r k) * w (ix2 c k) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 c k := funext fun a => Fin.ext (by
    match a with
    | ⟨0, _⟩ => exact h.r0 _ _
    | ⟨1, _⟩ => exact (h.r1 _ _).trans hk)
  rw [el, er]

/-- A matrix unit's product of a narrowed `[R, K]` operand with the transpose of a narrowed `[M, K]` operand, accumulated
    into zeros, at `(r, c)`: the inner product of row `r` of the first with row `c` of the second. -/
theorem matmulT_zero_apply {d : DotDims ⟨2, ![R, K]⟩ ⟨2, ![M, K]⟩ ⟨2, ![R, M]⟩} (h : TransDot d)
    (x : FVec Ideal ⟨2, ![R, K]⟩ .f32) (w : FVec Ideal ⟨2, ![M, K]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 c k) := by
  simp only [matmul]
  rw [Ideal.matmul_constant_zero_apply]
  exact h.sum_eq (fun i => x i) (fun i => w i) r c

/-- The host's `dot_general` over the same dimension numbers, at `(r, c)`: the same inner product of rows. -/
theorem dotGeneralT_apply {d : DotDims ⟨2, ![R, K]⟩ ⟨2, ![M, K]⟩ ⟨2, ![R, M]⟩} (h : TransDot d)
    (x : FVec Ideal ⟨2, ![R, K]⟩ .f32) (w : FVec Ideal ⟨2, ![M, K]⟩ .f32) (r : Fin R) (c : Fin M) :
    Host.dotGeneral d none x w (ix2 r c) = ∑ k : Fin K, x (ix2 r k) * w (ix2 c k) := by
  simp only [Host.dotGeneral]
  rw [Ideal.dotGeneral_apply]
  exact h.sum_eq (fun i => x i) (fun i => w i) r c

/-- An `[M, K]` matrix with its two axes exchanged reads, at `(k, c)`, the matrix at `(c, k)`. -/
theorem transpose_apply {α : Type} (w : (⟨2, ![M, K]⟩ : Shape).Idx → α)
    (h : (⟨2, ![M, K]⟩ : Shape).Transposes [1, 0] ⟨2, ![K, M]⟩) (k : Fin K) (c : Fin M) :
    transpose ⟨2, ![K, M]⟩ [1, 0] w h (ix2 k c) = w (ix2 c k) :=
  transpose_ix2_apply w h k c

/-- The ordinary product of a row with an exchanged-axes matrix is the inner product against the matrix's rows:
    `∑ k, x (r, k) · (wᵀ) (k, c) = ∑ k, x (r, k) · w (c, k)`. -/
theorem sum_transpose {α : Type} [Mul α] [AddCommMonoid α] (x : (⟨2, ![R, K]⟩ : Shape).Idx → α)
    (w : (⟨2, ![M, K]⟩ : Shape).Idx → α) (h : (⟨2, ![M, K]⟩ : Shape).Transposes [1, 0] ⟨2, ![K, M]⟩) (r : Fin R)
    (c : Fin M) :
    ∑ k : Fin K, x (ix2 r k) * transpose ⟨2, ![K, M]⟩ [1, 0] w h (ix2 k c) = ∑ k : Fin K, x (ix2 r k) * w (ix2 c k) :=
  Finset.sum_congr rfl fun k _ => by rw [transpose_apply]

end Cert.Lib

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.DotFacts.lean ====
/-
  The dimension numbers of this program's matrix products, read as mathematics.

  The kernel multiplies a row vector by the TRANSPOSE of a block of weight rows (three sizes of block: 512, 1024 and
  2048 rows), and once by a matrix as it stands (the attention weights against the encoder rows). The plain program
  exchanges the axes of every weight matrix first and then takes five ordinary products. Each record of dimension
  numbers is read here axis by axis: which axis of each operand follows the result's row, which its column, and
  which is summed over. A record's facts hold whatever proofs of well-formedness it was built with.
-/
import proofs.«153450_j57131654971751_1_alg».proof.KernelIdeal
import proofs.«153450_j57131654971751_1_alg».proof.ReferenceIdeal
import proofs.«153450_j57131654971751_1_alg».proof.Proof.LibAffineRows
import proofs.«153450_j57131654971751_1_alg».proof.Proof.LibMatvecT

noncomputable section

namespace Cert.Lib

open Idealize.ShloMosaic Idealize.ShloMosaic.ValueIdx

/-! ## The kernel's products -/

section Kernel
variable [Cert.KernelIdeal.Facts₀]
open Cert.KernelIdeal

/-! ### a row of 4096 entries against 512 rows of weights (the whole attention matrix, or a tile of 512 rows of the combining matrix) -/

/-- The left operand's row is the result's row. -/
theorem t512_lhs_0 (j : S1x512.Idx) (k : dot_S1x4096_S512x4096_S1x512_1_1_0_0_n_n.contr.Idx) :
    (dot_S1x4096_S512x4096_S1x512_1_1_0_0_n_n.lhsIdx j k 0).val = (j 0).val := by
  unfold DotDims.lhsIdx
  rw [dif_neg (show ¬ (0 : Fin S1x4096.rank) ∈ dot_S1x4096_S512x4096_S1x512_1_1_0_0_n_n.lhsBatch from List.not_mem_nil),
    dif_pos (show (0 : Fin S1x4096.rank) ∈ dot_S1x4096_S512x4096_S1x512_1_1_0_0_n_n.lhsNonContracting from List.mem_singleton.mpr rfl)]
  rfl

/-- The left operand's column is the summation index. -/
theorem t512_lhs_1 (j : S1x512.Idx) (k : dot_S1x4096_S512x4096_S1x512_1_1_0_0_n_n.contr.Idx) :
    (dot_S1x4096_S512x4096_S1x512_1_1_0_0_n_n.lhsIdx j k 1).val = (k ⟨0, Nat.one_pos⟩).val :=
  dot_S1x4096_S512x4096_S1x512_1_1_0_0_n_n.lhsIdx_val_of_single (cl := 1) rfl j k

/-- The right operand's ROW is the result's column. -/
theorem t512_rhs_0 (j : S1x512.Idx) (k : dot_S1x4096_S512x4096_S1x512_1_1_0_0_n_n.contr.Idx) :
    (dot_S1x4096_S512x4096_S1x512_1_1_0_0_n_n.rhsIdx j k 0).val = (j 1).val := by
  unfold DotDims.rhsIdx
  rw [dif_neg (show ¬ (0 : Fin S512x4096.rank) ∈ dot_S1x4096_S512x4096_S1x512_1_1_0_0_n_n.rhsBatch from List.not_mem_nil),
    dif_pos (show (0 : Fin S512x4096.rank) ∈ dot_S1x4096_S512x4096_S1x512_1_1_0_0_n_n.rhsNonContracting from List.mem_singleton.mpr rfl)]
  rfl

/-- The right operand's column is the summation index. -/
theorem t512_rhs_1 (j : S1x512.Idx) (k : dot_S1x4096_S512x4096_S1x512_1_1_0_0_n_n.contr.Idx) :
    (dot_S1x4096_S512x4096_S1x512_1_1_0_0_n_n.rhsIdx j k 1).val = (k ⟨0, Nat.one_pos⟩).val :=
  dot_S1x4096_S512x4096_S1x512_1_1_0_0_n_n.rhsIdx_val_of_single (cr := 1) rfl j k

/-- These dimension numbers multiply by the transpose of the right operand: a row of 4096 entries against 512 rows of weights (the whole attention matrix, or a tile of 512 rows of the combining matrix). -/
theorem transDot_512 : TransDot dot_S1x4096_S512x4096_S1x512_1_1_0_0_n_n :=
  ⟨rfl, rfl, t512_lhs_0, t512_lhs_1, t512_rhs_0, t512_rhs_1⟩

/-! ### a row of 2048 entries against a tile of 1024 rows of the recurrent cell's input or hidden weights -/

/-- The left operand's row is the result's row. -/
theorem t1024_lhs_0 (j : S1x1024.Idx) (k : dot_S1x2048_S1024x2048_S1x1024_1_1_0_0_n_n.contr.Idx) :
    (dot_S1x2048_S1024x2048_S1x1024_1_1_0_0_n_n.lhsIdx j k 0).val = (j 0).val := by
  unfold DotDims.lhsIdx
  rw [dif_neg (show ¬ (0 : Fin S1x2048.rank) ∈ dot_S1x2048_S1024x2048_S1x1024_1_1_0_0_n_n.lhsBatch from List.not_mem_nil),
    dif_pos (show (0 : Fin S1x2048.rank) ∈ dot_S1x2048_S1024x2048_S1x1024_1_1_0_0_n_n.lhsNonContracting from List.mem_singleton.mpr rfl)]
  rfl

/-- The left operand's column is the summation index. -/
theorem t1024_lhs_1 (j : S1x1024.Idx) (k : dot_S1x2048_S1024x2048_S1x1024_1_1_0_0_n_n.contr.Idx) :
    (dot_S1x2048_S1024x2048_S1x1024_1_1_0_0_n_n.lhsIdx j k 1).val = (k ⟨0, Nat.one_pos⟩).val :=
  dot_S1x2048_S1024x2048_S1x1024_1_1_0_0_n_n.lhsIdx_val_of_single (cl := 1) rfl j k

/-- The right operand's ROW is the result's column. -/
theorem t1024_rhs_0 (j : S1x1024.Idx) (k : dot_S1x2048_S1024x2048_S1x1024_1_1_0_0_n_n.contr.Idx) :
    (dot_S1x2048_S1024x2048_S1x1024_1_1_0_0_n_n.rhsIdx j k 0).val = (j 1).val := by
  unfold DotDims.rhsIdx
  rw [dif_neg (show ¬ (0 : Fin S1024x2048.rank) ∈ dot_S1x2048_S1024x2048_S1x1024_1_1_0_0_n_n.rhsBatch from List.not_mem_nil),
    dif_pos (show (0 : Fin S1024x2048.rank) ∈ dot_S1x2048_S1024x2048_S1x1024_1_1_0_0_n_n.rhsNonContracting from List.mem_singleton.mpr rfl)]
  rfl

/-- The right operand's column is the summation index. -/
theorem t1024_rhs_1 (j : S1x1024.Idx) (k : dot_S1x2048_S1024x2048_S1x1024_1_1_0_0_n_n.contr.Idx) :
    (dot_S1x2048_S1024x2048_S1x1024_1_1_0_0_n_n.rhsIdx j k 1).val = (k ⟨0, Nat.one_pos⟩).val :=
  dot_S1x2048_S1024x2048_S1x1024_1_1_0_0_n_n.rhsIdx_val_of_single (cr := 1) rfl j k

/-- These dimension numbers multiply by the transpose of the right operand: a row of 2048 entries against a tile of 1024 rows of the recurrent cell's input or hidden weights. -/
theorem transDot_1024 : TransDot dot_S1x2048_S1024x2048_S1x1024_1_1_0_0_n_n :=
  ⟨rfl, rfl, t1024_lhs_0, t1024_lhs_1, t1024_rhs_0, t1024_rhs_1⟩

/-! ### a row of 2048 entries against a tile of 2048 rows of the output weights -/

/-- The left operand's row is the result's row. -/
theorem t2048_lhs_0 (j : S1x2048.Idx) (k : dot_S1x2048_S2048x2048_S1x2048_1_1_0_0_n_n.contr.Idx) :
    (dot_S1x2048_S2048x2048_S1x2048_1_1_0_0_n_n.lhsIdx j k 0).val = (j 0).val := by
  unfold DotDims.lhsIdx
  rw [dif_neg (show ¬ (0 : Fin S1x2048.rank) ∈ dot_S1x2048_S2048x2048_S1x2048_1_1_0_0_n_n.lhsBatch from List.not_mem_nil),
    dif_pos (show (0 : Fin S1x2048.rank) ∈ dot_S1x2048_S2048x2048_S1x2048_1_1_0_0_n_n.lhsNonContracting from List.mem_singleton.mpr rfl)]
  rfl

/-- The left operand's column is the summation index. -/
theorem t2048_lhs_1 (j : S1x2048.Idx) (k : dot_S1x2048_S2048x2048_S1x2048_1_1_0_0_n_n.contr.Idx) :
    (dot_S1x2048_S2048x2048_S1x2048_1_1_0_0_n_n.lhsIdx j k 1).val = (k ⟨0, Nat.one_pos⟩).val :=
  dot_S1x2048_S2048x2048_S1x2048_1_1_0_0_n_n.lhsIdx_val_of_single (cl := 1) rfl j k

/-- The right operand's ROW is the result's column. -/
theorem t2048_rhs_0 (j : S1x2048.Idx) (k : dot_S1x2048_S2048x2048_S1x2048_1_1_0_0_n_n.contr.Idx) :
    (dot_S1x2048_S2048x2048_S1x2048_1_1_0_0_n_n.rhsIdx j k 0).val = (j 1).val := by
  unfold DotDims.rhsIdx
  rw [dif_neg (show ¬ (0 : Fin S2048x2048.rank) ∈ dot_S1x2048_S2048x2048_S1x2048_1_1_0_0_n_n.rhsBatch from List.not_mem_nil),
    dif_pos (show (0 : Fin S2048x2048.rank) ∈ dot_S1x2048_S2048x2048_S1x2048_1_1_0_0_n_n.rhsNonContracting from List.mem_singleton.mpr rfl)]
  rfl

/-- The right operand's column is the summation index. -/
theorem t2048_rhs_1 (j : S1x2048.Idx) (k : dot_S1x2048_S2048x2048_S1x2048_1_1_0_0_n_n.contr.Idx) :
    (dot_S1x2048_S2048x2048_S1x2048_1_1_0_0_n_n.rhsIdx j k 1).val = (k ⟨0, Nat.one_pos⟩).val :=
  dot_S1x2048_S2048x2048_S1x2048_1_1_0_0_n_n.rhsIdx_val_of_single (cr := 1) rfl j k

/-- These dimension numbers multiply by the transpose of the right operand: a row of 2048 entries against a tile of 2048 rows of the output weights. -/
theorem transDot_2048 : TransDot dot_S1x2048_S2048x2048_S1x2048_1_1_0_0_n_n :=
  ⟨rfl, rfl, t2048_lhs_0, t2048_lhs_1, t2048_rhs_0, t2048_rhs_1⟩

/-! ### the 512 attention weights against the 512 encoder rows, in the kernel -/

/-- The left operand's row is the result's row. -/
theorem kEnc_lhs_0 (j : S1x2048.Idx) (k : dot_S1x512_S512x2048_S1x2048_1_0_0_1_n_n.contr.Idx) :
    (dot_S1x512_S512x2048_S1x2048_1_0_0_1_n_n.lhsIdx j k 0).val = (j 0).val := by
  unfold DotDims.lhsIdx
  rw [dif_neg (show ¬ (0 : Fin S1x512.rank) ∈ dot_S1x512_S512x2048_S1x2048_1_0_0_1_n_n.lhsBatch from List.not_mem_nil),
    dif_pos (show (0 : Fin S1x512.rank) ∈ dot_S1x512_S512x2048_S1x2048_1_0_0_1_n_n.lhsNonContracting from List.mem_singleton.mpr rfl)]
  rfl

/-- The left operand's column is the summation index. -/
theorem kEnc_lhs_1 (j : S1x2048.Idx) (k : dot_S1x512_S512x2048_S1x2048_1_0_0_1_n_n.contr.Idx) :
    (dot_S1x512_S512x2048_S1x2048_1_0_0_1_n_n.lhsIdx j k 1).val = (k ⟨0, Nat.one_pos⟩).val :=
  dot_S1x512_S512x2048_S1x2048_1_0_0_1_n_n.lhsIdx_val_of_single (cl := 1) rfl j k

/-- The right operand's row is the summation index. -/
theorem kEnc_rhs_0 (j : S1x2048.Idx) (k : dot_S1x512_S512x2048_S1x2048_1_0_0_1_n_n.contr.Idx) :
    (dot_S1x512_S512x2048_S1x2048_1_0_0_1_n_n.rhsIdx j k 0).val = (k ⟨0, Nat.one_pos⟩).val :=
  dot_S1x512_S512x2048_S1x2048_1_0_0_1_n_n.rhsIdx_val_of_single (cr := 0) rfl j k

/-- The right operand's column is the result's column. -/
theorem kEnc_rhs_1 (j : S1x2048.Idx) (k : dot_S1x512_S512x2048_S1x2048_1_0_0_1_n_n.contr.Idx) :
    (dot_S1x512_S512x2048_S1x2048_1_0_0_1_n_n.rhsIdx j k 1).val = (j 1).val := by
  unfold DotDims.rhsIdx
  rw [dif_neg (show ¬ (1 : Fin S512x2048.rank) ∈ dot_S1x512_S512x2048_S1x2048_1_0_0_1_n_n.rhsBatch from List.not_mem_nil),
    dif_pos (show (1 : Fin S512x2048.rank) ∈ dot_S1x512_S512x2048_S1x2048_1_0_0_1_n_n.rhsNonContracting from List.mem_singleton.mpr rfl)]
  rfl

/-- These dimension numbers are the plain product of matrices: the 512 attention weights against the 512 encoder rows, in the kernel. -/
theorem plainDot_kernel_dot_S1x512_S512x2048_S1x2048_1_0_0_1_n_n : PlainDot dot_S1x512_S512x2048_S1x2048_1_0_0_1_n_n :=
  ⟨rfl, rfl, kEnc_lhs_0, kEnc_lhs_1, kEnc_rhs_0, kEnc_rhs_1⟩

end Kernel

/-! ## The plain program's products -/

section Reference
variable [Cert.ReferenceIdeal.Facts₀]
open Cert.ReferenceIdeal

/-! ### the attention scores (before the softmax) of the plain program -/

/-- The left operand's row is the result's row. -/
theorem rAttn_lhs_0 (j : S1x512.Idx) (k : dot_S1x4096_S4096x512_S1x512_1_0_0_1_n_n.contr.Idx) :
    (dot_S1x4096_S4096x512_S1x512_1_0_0_1_n_n.lhsIdx j k 0).val = (j 0).val := by
  unfold DotDims.lhsIdx
  rw [dif_neg (show ¬ (0 : Fin S1x4096.rank) ∈ dot_S1x4096_S4096x512_S1x512_1_0_0_1_n_n.lhsBatch from List.not_mem_nil),
    dif_pos (show (0 : Fin S1x4096.rank) ∈ dot_S1x4096_S4096x512_S1x512_1_0_0_1_n_n.lhsNonContracting from List.mem_singleton.mpr rfl)]
  rfl

/-- The left operand's column is the summation index. -/
theorem rAttn_lhs_1 (j : S1x512.Idx) (k : dot_S1x4096_S4096x512_S1x512_1_0_0_1_n_n.contr.Idx) :
    (dot_S1x4096_S4096x512_S1x512_1_0_0_1_n_n.lhsIdx j k 1).val = (k ⟨0, Nat.one_pos⟩).val :=
  dot_S1x4096_S4096x512_S1x512_1_0_0_1_n_n.lhsIdx_val_of_single (cl := 1) rfl j k

/-- The right operand's row is the summation index. -/
theorem rAttn_rhs_0 (j : S1x512.Idx) (k : dot_S1x4096_S4096x512_S1x512_1_0_0_1_n_n.contr.Idx) :
    (dot_S1x4096_S4096x512_S1x512_1_0_0_1_n_n.rhsIdx j k 0).val = (k ⟨0, Nat.one_pos⟩).val :=
  dot_S1x4096_S4096x512_S1x512_1_0_0_1_n_n.rhsIdx_val_of_single (cr := 0) rfl j k

/-- The right operand's column is the result's column. -/
theorem rAttn_rhs_1 (j : S1x512.Idx) (k : dot_S1x4096_S4096x512_S1x512_1_0_0_1_n_n.contr.Idx) :
    (dot_S1x4096_S4096x512_S1x512_1_0_0_1_n_n.rhsIdx j k 1).val = (j 1).val := by
  unfold DotDims.rhsIdx
  rw [dif_neg (show ¬ (1 : Fin S4096x512.rank) ∈ dot_S1x4096_S4096x512_S1x512_1_0_0_1_n_n.rhsBatch from List.not_mem_nil),
    dif_pos (show (1 : Fin S4096x512.rank) ∈ dot_S1x4096_S4096x512_S1x512_1_0_0_1_n_n.rhsNonContracting from List.mem_singleton.mpr rfl)]
  rfl

/-- These dimension numbers are the plain product of matrices: the attention scores (before the softmax) of the plain program. -/
theorem plainDot_dot_S1x4096_S4096x512_S1x512_1_0_0_1_n_n : PlainDot dot_S1x4096_S4096x512_S1x512_1_0_0_1_n_n :=
  ⟨rfl, rfl, rAttn_lhs_0, rAttn_lhs_1, rAttn_rhs_0, rAttn_rhs_1⟩

/-! ### the attention weights applied to the encoder rows, in the plain program -/

/-- The left operand's row is the result's row. -/
theorem rEnc_lhs_0 (j : S1x2048.Idx) (k : dot_S1x512_S512x2048_S1x2048_1_0_0_1_n_n.contr.Idx) :
    (dot_S1x512_S512x2048_S1x2048_1_0_0_1_n_n.lhsIdx j k 0).val = (j 0).val := by
  unfold DotDims.lhsIdx
  rw [dif_neg (show ¬ (0 : Fin S1x512.rank) ∈ dot_S1x512_S512x2048_S1x2048_1_0_0_1_n_n.lhsBatch from List.not_mem_nil),
    dif_pos (show (0 : Fin S1x512.rank) ∈ dot_S1x512_S512x2048_S1x2048_1_0_0_1_n_n.lhsNonContracting from List.mem_singleton.mpr rfl)]
  rfl

/-- The left operand's column is the summation index. -/
theorem rEnc_lhs_1 (j : S1x2048.Idx) (k : dot_S1x512_S512x2048_S1x2048_1_0_0_1_n_n.contr.Idx) :
    (dot_S1x512_S512x2048_S1x2048_1_0_0_1_n_n.lhsIdx j k 1).val = (k ⟨0, Nat.one_pos⟩).val :=
  dot_S1x512_S512x2048_S1x2048_1_0_0_1_n_n.lhsIdx_val_of_single (cl := 1) rfl j k

/-- The right operand's row is the summation index. -/
theorem rEnc_rhs_0 (j : S1x2048.Idx) (k : dot_S1x512_S512x2048_S1x2048_1_0_0_1_n_n.contr.Idx) :
    (dot_S1x512_S512x2048_S1x2048_1_0_0_1_n_n.rhsIdx j k 0).val = (k ⟨0, Nat.one_pos⟩).val :=
  dot_S1x512_S512x2048_S1x2048_1_0_0_1_n_n.rhsIdx_val_of_single (cr := 0) rfl j k

/-- The right operand's column is the result's column. -/
theorem rEnc_rhs_1 (j : S1x2048.Idx) (k : dot_S1x512_S512x2048_S1x2048_1_0_0_1_n_n.contr.Idx) :
    (dot_S1x512_S512x2048_S1x2048_1_0_0_1_n_n.rhsIdx j k 1).val = (j 1).val := by
  unfold DotDims.rhsIdx
  rw [dif_neg (show ¬ (1 : Fin S512x2048.rank) ∈ dot_S1x512_S512x2048_S1x2048_1_0_0_1_n_n.rhsBatch from List.not_mem_nil),
    dif_pos (show (1 : Fin S512x2048.rank) ∈ dot_S1x512_S512x2048_S1x2048_1_0_0_1_n_n.rhsNonContracting from List.mem_singleton.mpr rfl)]
  rfl

/-- These dimension numbers are the plain product of matrices: the attention weights applied to the encoder rows, in the plain program. -/
theorem plainDot_dot_S1x512_S512x2048_S1x2048_1_0_0_1_n_n : PlainDot dot_S1x512_S512x2048_S1x2048_1_0_0_1_n_n :=
  ⟨rfl, rfl, rEnc_lhs_0, rEnc_lhs_1, rEnc_rhs_0, rEnc_rhs_1⟩

/-! ### the combining layer of the plain program -/

/-- The left operand's row is the result's row. -/
theorem rComb_lhs_0 (j : S1x2048.Idx) (k : dot_S1x4096_S4096x2048_S1x2048_1_0_0_1_n_n.contr.Idx) :
    (dot_S1x4096_S4096x2048_S1x2048_1_0_0_1_n_n.lhsIdx j k 0).val = (j 0).val := by
  unfold DotDims.lhsIdx
  rw [dif_neg (show ¬ (0 : Fin S1x4096.rank) ∈ dot_S1x4096_S4096x2048_S1x2048_1_0_0_1_n_n.lhsBatch from List.not_mem_nil),
    dif_pos (show (0 : Fin S1x4096.rank) ∈ dot_S1x4096_S4096x2048_S1x2048_1_0_0_1_n_n.lhsNonContracting from List.mem_singleton.mpr rfl)]
  rfl

/-- The left operand's column is the summation index. -/
theorem rComb_lhs_1 (j : S1x2048.Idx) (k : dot_S1x4096_S4096x2048_S1x2048_1_0_0_1_n_n.contr.Idx) :
    (dot_S1x4096_S4096x2048_S1x2048_1_0_0_1_n_n.lhsIdx j k 1).val = (k ⟨0, Nat.one_pos⟩).val :=
  dot_S1x4096_S4096x2048_S1x2048_1_0_0_1_n_n.lhsIdx_val_of_single (cl := 1) rfl j k

/-- The right operand's row is the summation index. -/
theorem rComb_rhs_0 (j : S1x2048.Idx) (k : dot_S1x4096_S4096x2048_S1x2048_1_0_0_1_n_n.contr.Idx) :
    (dot_S1x4096_S4096x2048_S1x2048_1_0_0_1_n_n.rhsIdx j k 0).val = (k ⟨0, Nat.one_pos⟩).val :=
  dot_S1x4096_S4096x2048_S1x2048_1_0_0_1_n_n.rhsIdx_val_of_single (cr := 0) rfl j k

/-- The right operand's column is the result's column. -/
theorem rComb_rhs_1 (j : S1x2048.Idx) (k : dot_S1x4096_S4096x2048_S1x2048_1_0_0_1_n_n.contr.Idx) :
    (dot_S1x4096_S4096x2048_S1x2048_1_0_0_1_n_n.rhsIdx j k 1).val = (j 1).val := by
  unfold DotDims.rhsIdx
  rw [dif_neg (show ¬ (1 : Fin S4096x2048.rank) ∈ dot_S1x4096_S4096x2048_S1x2048_1_0_0_1_n_n.rhsBatch from List.not_mem_nil),
    dif_pos (show (1 : Fin S4096x2048.rank) ∈ dot_S1x4096_S4096x2048_S1x2048_1_0_0_1_n_n.rhsNonContracting from List.mem_singleton.mpr rfl)]
  rfl

/-- These dimension numbers are the plain product of matrices: the combining layer of the plain program. -/
theorem plainDot_dot_S1x4096_S4096x2048_S1x2048_1_0_0_1_n_n : PlainDot dot_S1x4096_S4096x2048_S1x2048_1_0_0_1_n_n :=
  ⟨rfl, rfl, rComb_lhs_0, rComb_lhs_1, rComb_rhs_0, rComb_rhs_1⟩

/-! ### the recurrent cell's input and hidden projections in the plain program (the record serves both) -/

/-- The left operand's row is the result's row. -/
theorem rGate_lhs_0 (j : S1x6144.Idx) (k : dot_S1x2048_S2048x6144_S1x6144_1_0_0_1_n_n.contr.Idx) :
    (dot_S1x2048_S2048x6144_S1x6144_1_0_0_1_n_n.lhsIdx j k 0).val = (j 0).val := by
  unfold DotDims.lhsIdx
  rw [dif_neg (show ¬ (0 : Fin S1x2048.rank) ∈ dot_S1x2048_S2048x6144_S1x6144_1_0_0_1_n_n.lhsBatch from List.not_mem_nil),
    dif_pos (show (0 : Fin S1x2048.rank) ∈ dot_S1x2048_S2048x6144_S1x6144_1_0_0_1_n_n.lhsNonContracting from List.mem_singleton.mpr rfl)]
  rfl

/-- The left operand's column is the summation index. -/
theorem rGate_lhs_1 (j : S1x6144.Idx) (k : dot_S1x2048_S2048x6144_S1x6144_1_0_0_1_n_n.contr.Idx) :
    (dot_S1x2048_S2048x6144_S1x6144_1_0_0_1_n_n.lhsIdx j k 1).val = (k ⟨0, Nat.one_pos⟩).val :=
  dot_S1x2048_S2048x6144_S1x6144_1_0_0_1_n_n.lhsIdx_val_of_single (cl := 1) rfl j k

/-- The right operand's row is the summation index. -/
theorem rGate_rhs_0 (j : S1x6144.Idx) (k : dot_S1x2048_S2048x6144_S1x6144_1_0_0_1_n_n.contr.Idx) :
    (dot_S1x2048_S2048x6144_S1x6144_1_0_0_1_n_n.rhsIdx j k 0).val = (k ⟨0, Nat.one_pos⟩).val :=
  dot_S1x2048_S2048x6144_S1x6144_1_0_0_1_n_n.rhsIdx_val_of_single (cr := 0) rfl j k

/-- The right operand's column is the result's column. -/
theorem rGate_rhs_1 (j : S1x6144.Idx) (k : dot_S1x2048_S2048x6144_S1x6144_1_0_0_1_n_n.contr.Idx) :
    (dot_S1x2048_S2048x6144_S1x6144_1_0_0_1_n_n.rhsIdx j k 1).val = (j 1).val := by
  unfold DotDims.rhsIdx
  rw [dif_neg (show ¬ (1 : Fin S2048x6144.rank) ∈ dot_S1x2048_S2048x6144_S1x6144_1_0_0_1_n_n.rhsBatch from List.not_mem_nil),
    dif_pos (show (1 : Fin S2048x6144.rank) ∈ dot_S1x2048_S2048x6144_S1x6144_1_0_0_1_n_n.rhsNonContracting from List.mem_singleton.mpr rfl)]
  rfl

/-- These dimension numbers are the plain product of matrices: the recurrent cell's input and hidden projections in the plain program (the record serves both). -/
theorem plainDot_dot_S1x2048_S2048x6144_S1x6144_1_0_0_1_n_n : PlainDot dot_S1x2048_S2048x6144_S1x6144_1_0_0_1_n_n :=
  ⟨rfl, rfl, rGate_lhs_0, rGate_lhs_1, rGate_rhs_0, rGate_rhs_1⟩

/-! ### the output projection of the plain program -/

/-- The left operand's row is the result's row. -/
theorem rOut_lhs_0 (j : S1x50257.Idx) (k : dot_S1x2048_S2048x50257_S1x50257_1_0_0_1_n_n.contr.Idx) :
    (dot_S1x2048_S2048x50257_S1x50257_1_0_0_1_n_n.lhsIdx j k 0).val = (j 0).val := by
  unfold DotDims.lhsIdx
  rw [dif_neg (show ¬ (0 : Fin S1x2048.rank) ∈ dot_S1x2048_S2048x50257_S1x50257_1_0_0_1_n_n.lhsBatch from List.not_mem_nil),
    dif_pos (show (0 : Fin S1x2048.rank) ∈ dot_S1x2048_S2048x50257_S1x50257_1_0_0_1_n_n.lhsNonContracting from List.mem_singleton.mpr rfl)]
  rfl

/-- The left operand's column is the summation index. -/
theorem rOut_lhs_1 (j : S1x50257.Idx) (k : dot_S1x2048_S2048x50257_S1x50257_1_0_0_1_n_n.contr.Idx) :
    (dot_S1x2048_S2048x50257_S1x50257_1_0_0_1_n_n.lhsIdx j k 1).val = (k ⟨0, Nat.one_pos⟩).val :=
  dot_S1x2048_S2048x50257_S1x50257_1_0_0_1_n_n.lhsIdx_val_of_single (cl := 1) rfl j k

/-- The right operand's row is the summation index. -/
theorem rOut_rhs_0 (j : S1x50257.Idx) (k : dot_S1x2048_S2048x50257_S1x50257_1_0_0_1_n_n.contr.Idx) :
    (dot_S1x2048_S2048x50257_S1x50257_1_0_0_1_n_n.rhsIdx j k 0).val = (k ⟨0, Nat.one_pos⟩).val :=
  dot_S1x2048_S2048x50257_S1x50257_1_0_0_1_n_n.rhsIdx_val_of_single (cr := 0) rfl j k

/-- The right operand's column is the result's column. -/
theorem rOut_rhs_1 (j : S1x50257.Idx) (k : dot_S1x2048_S2048x50257_S1x50257_1_0_0_1_n_n.contr.Idx) :
    (dot_S1x2048_S2048x50257_S1x50257_1_0_0_1_n_n.rhsIdx j k 1).val = (j 1).val := by
  unfold DotDims.rhsIdx
  rw [dif_neg (show ¬ (1 : Fin S2048x50257.rank) ∈ dot_S1x2048_S2048x50257_S1x50257_1_0_0_1_n_n.rhsBatch from List.not_mem_nil),
    dif_pos (show (1 : Fin S2048x50257.rank) ∈ dot_S1x2048_S2048x50257_S1x50257_1_0_0_1_n_n.rhsNonContracting from List.mem_singleton.mpr rfl)]
  rfl

/-- These dimension numbers are the plain product of matrices: the output projection of the plain program. -/
theorem plainDot_dot_S1x2048_S2048x50257_S1x50257_1_0_0_1_n_n : PlainDot dot_S1x2048_S2048x50257_S1x50257_1_0_0_1_n_n :=
  ⟨rfl, rfl, rOut_lhs_0, rOut_lhs_1, rOut_rhs_0, rOut_rhs_1⟩

end Reference

end Cert.Lib

end
-- ==== Proof.Stage3.lean ====
/-
  The output projection, from tiles to the whole row, at the ideal values.

  Region 3 computes the row of logits  logits[0, n] = Σ_k h[0, k] · W[n, k] + b[n]  for the 50257 columns n in 25 tiles
  of 2048 columns: tile t holds the columns 2048·t … 2048·t + 2047, and the last tile (t = 24) only the 1105 columns
  49152 … 50256 that exist — its blocks of weight rows, of bias entries and of results overhang the arrays, and what lies
  past the arrays' end is not named by anything.

  Over the extended reals the tile's product is the textbook sum, so COLUMN j of a tile's result is the inner product of
  the hidden row with ROW j of the tile's block of weights, plus ENTRY j of the tile's block of the bias, and depends on
  nothing else. Two consequences are proved here.

  * The columns of a tile's result that lie inside the array do not depend on the words past the arrays' end in the
    blocks of weights and bias (`colLocal3`): the three blocks are cut alike along the tiled axis, so a column inside
    reads a weight row inside and a bias entry inside.
  * The 25 tiles cover the row, each column n lying in the tile n / 2048, so that after the last write-back the array
    holds the whole row as one function of the hidden row, the weight matrix and the bias row (`final3`); the plain
    program computes the same function by one product with the weight matrix's axes exchanged and one broadcast of the
    bias vector (`ref_row`), whence the two results agree as soon as their inputs do (`stage3_of`).
-/
import proofs.«153450_j57131654971751_1_alg».proof.Proof.KI.Reg3
import proofs.«153450_j57131654971751_1_alg».proof.Proof.KI.Chain
import proofs.«153450_j57131654971751_1_alg».proof.Proof.Gen.ReferenceIdeal
import proofs.«153450_j57131654971751_1_alg».proof.Proof.LibMatvecT
import proofs.«153450_j57131654971751_1_alg».proof.Proof.DotFacts
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.Stage3

open Cert.KernelIdeal Cert.KernelIdeal.Gen Cert.KernelIdeal.Rg
open Idealize.ShloMosaic Idealize.ShloMosaic.TcCoe Idealize.ShloMosaic.ValueIdx
open Idealize.ShloMosaic.Pipeline (Dat Cfg Window)
open Cert.Lib

/-! ## One tile: a column reads one row of the weights and one entry of the bias -/

/-- One tile's payload at column `j`: the hidden row against ROW `j` of the tile's weight block, plus entry `j` of the
    tile's bias block. No other row of the weights and no other bias entry enters. -/
theorem k3_pay1_apply (x0 : Vec Ideal S1x2048 .f32) (Wb : Vec Ideal S2048x2048 .f32) (bb : Vec Ideal S1x2048 .f32) (j : Fin 2048) :
    k3_pay1 (F := Ideal) x0 Wb bb (ix2 (0 : Fin 1) j)
      = (∑ k : Fin 2048, x0 (ix2 (0 : Fin 1) k) * Wb (ix2 j k)) + bb (ix2 (0 : Fin 1) j) := by
  unfold k3_pay1
  rw [addf_apply, shapeCast_self, shapeCast_self, matmulT_zero_apply transDot_2048]

/-! ## The tiles' places, decided once over the 25 points

At tile `t`: the hidden row's block is the whole row; the weight block starts at row `2048·t`, the bias and result blocks
at column `2048·t`; along the tiled axis all three are cut to the same number of coordinates, which together with the
start makes `min (2048·(t+1)) 50257`; along the other axis nothing is cut; every tile writes its result back. -/
theorem tile_facts : ∀ t : Fin cfg3.N,
    win3_0.index t (0 : Fin 2) = 0 ∧ win3_0.index t (1 : Fin 2) = 0
  ∧ win3_1.index t (0 : Fin 2) = t.val ∧ win3_1.index t (1 : Fin 2) = 0
  ∧ win3_2.index t (0 : Fin 2) = 0 ∧ win3_2.index t (1 : Fin 2) = t.val
  ∧ win3_3.index t (0 : Fin 2) = 0 ∧ win3_3.index t (1 : Fin 2) = t.val
  ∧ win3_1.xsize (grid3.coords t) (0 : Fin 2) = win3_3.xsize (grid3.coords t) (1 : Fin 2)
  ∧ win3_1.xsize (grid3.coords t) (1 : Fin 2) = 2048
  ∧ win3_2.xsize (grid3.coords t) (0 : Fin 2) = 1
  ∧ win3_2.xsize (grid3.coords t) (1 : Fin 2) = win3_3.xsize (grid3.coords t) (1 : Fin 2)
  ∧ win3_3.xsize (grid3.coords t) (0 : Fin 2) = 1
  ∧ t.val * 2048 + win3_3.xsize (grid3.coords t) (1 : Fin 2) = min ((t.val + 1) * 2048) 50257
  ∧ (cfg3.win 3).flush t = true :=
  (by decide +kernel : ∀ t : Fin grid3.N, _)

/-! ## Blocks filled out past the array's end -/

/-- Two fillings of one block's inside part agree at every coordinate inside, whatever fills the rest. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- A filled block at a coordinate inside is the inside part there. -/
theorem fill_of_moved {G : Pipeline.Grid} (w : Window sig G) {α : Type} (i : G.Coords) (d : w.block.Idx → α)
    (g : (w.xblock i).Idx → α) {j : w.block.Idx} (h : w.moved i j = true) :
    w.fill i d g j = g fun a => ⟨(j a).val, (w.moved_iff i j).mp h a⟩ := by
  unfold Window.fill; rw [dif_pos h]

/-- A coordinate of the result block's inside part is `(0, q)` for a column `q` of the tile. -/
theorem xinj3_eq (t : Fin cfg3.N) (j : (win3_3.xblock (grid3.coords t)).Idx) :
    ∃ q : Fin 2048, q.val = (j (1 : Fin 2)).val ∧ win3_3.xinj (grid3.coords t) j = ix2 (0 : Fin 1) q :=
  ⟨(win3_3.xinj (grid3.coords t) j) (1 : Fin 2), rfl, by
    funext a
    match a with
    | ⟨0, _⟩ => exact @Subsingleton.elim (Fin 1) _ _ _
    | ⟨1, _⟩ => rfl⟩

/-! ## The columns inside the array do not see the words past the arrays' end -/

/-- A column of the result inside the array reads row `q` of the weight block and entry `q` of the bias block with `q`
    below the common cut: both inside their arrays, where a filled block is the array's part whatever fills the rest. -/
theorem colLocal3 : ColLocal3 (F := Ideal) := by
  intro t x0 b1 b2 d1 d1' d2 d2'
  obtain ⟨-, -, -, -, -, -, -, -, s10, s11, s20, s21, s30, -, -⟩ := tile_facts t
  funext j
  show out3_3 x0 _ _ (win3_3.xinj (grid3.coords t) j) = out3_3 x0 _ _ (win3_3.xinj (grid3.coords t) j)
  rw [out3_3_eq, out3_3_eq]
  have hq : (j (1 : Fin 2)).val < win3_3.xsize (grid3.coords t) (1 : Fin 2) := (j (1 : Fin 2)).isLt
  obtain ⟨q, hqv, hx⟩ := xinj3_eq t j
  rw [hx, k3_pay1_apply, k3_pay1_apply]
  congr 1
  · refine Finset.sum_congr rfl fun k _ => ?_
    congr 1
    exact fill_eq_of_moved win3_1 _ _ _ _ ((win3_1.moved_iff _ _).mpr fun a => by
      match a with
      | ⟨0, _⟩ => show q.val < win3_1.xsize (grid3.coords t) (0 : Fin 2); omega
      | ⟨1, _⟩ => show k.val < win3_1.xsize (grid3.coords t) (1 : Fin 2); have := k.isLt; omega)
  · exact fill_eq_of_moved win3_2 _ _ _ _ ((win3_2.moved_iff _ _).mpr fun a => by
      match a with
      | ⟨0, _⟩ => show (0 : Fin 1).val < win3_2.xsize (grid3.coords t) (0 : Fin 2); rw [s20]; exact Nat.one_pos
      | ⟨1, _⟩ => show q.val < win3_2.xsize (grid3.coords t) (1 : Fin 2); omega)

/-! ## From the tiles to the whole row -/

/-- The row of logits as ONE function of the hidden row, the weight matrix and the bias row. -/
def logitsRow (h : S1x2048.Idx → EReal) (W : S50257x2048.Idx → EReal) (b : S1x50257.Idx → EReal) : S1x50257.Idx → EReal :=
  fun i => (∑ k : Fin 2048, h (ix2 (0 : Fin 1) k) * W (ix2 (i (1 : Fin 2) : Fin 50257) k)) + b (ix2 (0 : Fin 1) (i (1 : Fin 2) : Fin 50257))

variable (V : (c : Dev nD) → (b : Ref sig .tc) → Buf (Elt Ideal) ((c : Thread nD τ).loc b))

/-- WHAT TILE `t` WRITES BACK is the row read through the tile's block cut at the array's end: column `q` of the tile is
    column `2048·t + q` of the row, its weight row is row `2048·t + q` of the matrix, its bias entry is entry `2048·t + q`
    of the bias row, and the hidden row is the whole hidden row at every tile. -/
theorem flushed3_eq (c : Dev nD) (t : Fin cfg3.N) :
    (dat3 V c).flushed 3 t
      = ((cfg3.win 3).blk t).view.read (Elt Ideal) (logitsRow (V c main_v39) (V c main_arg12) (V c main_v40)) := by
  show (cfg3.win 3).cut (cfg3.grid.coords t) ((dat3 V c).after 3 t) = _
  rw [after3_3, out3_3_eq]
  obtain ⟨i00, i01, i10, i11, i20, i21, i30, i31, s10, s11, s20, s21, s30, s31, -⟩ := tile_facts t
  funext j
  have hq : (j (1 : Fin 2)).val < win3_3.xsize (grid3.coords t) (1 : Fin 2) := (j (1 : Fin 2)).isLt
  obtain ⟨q, hqv, hx⟩ := xinj3_eq t j
  show k3_pay1 (F := Ideal) _ _ _ (win3_3.xinj (grid3.coords t) j) = logitsRow _ _ _ ((win3_3.blk t).view.emb j)
  rw [hx, k3_pay1_apply]
  unfold logitsRow
  have hemb : (((win3_3.blk t).view.emb j) (1 : Fin 2)).val = t.val * 2048 + q.val := by
    show win3_3.index t (1 : Fin 2) * 2048 + 1 * (j (1 : Fin 2)).val = _
    rw [i31, hqv]; omega
  have m0 : ∀ k : Fin 2048, zblk3 V c 0 t (ix2 (0 : Fin 1) k) = V c main_v39 (ix2 (0 : Fin 1) k) := fun k => by
    unfold zblk3
    refine (fill_of_moved win3_0 (grid3.coords t) _ (iblk3 V c 0 t) (j := ix2 (0 : Fin 1) k) rfl).trans ?_
    show V c main_v39 ((win3_0.blk t).view.emb _) = _
    refine congrArg _ (funext fun a => Fin.ext ?_)
    match a with
    | ⟨0, _⟩ => show win3_0.index t (0 : Fin 2) * 1 + 1 * 0 = 0; omega
    | ⟨1, _⟩ => show win3_0.index t (1 : Fin 2) * 2048 + 1 * k.val = k.val; omega
  have m1 : ∀ k : Fin 2048, zblk3 V c 1 t (ix2 q k)
      = V c main_arg12 (ix2 (((win3_3.blk t).view.emb j) (1 : Fin 2) : Fin 50257) k) := fun k => by
    have hm : win3_1.moved (grid3.coords t) (ix2 q k) = true := (win3_1.moved_iff _ _).mpr fun a => by
      match a with
      | ⟨0, _⟩ => show q.val < win3_1.xsize (grid3.coords t) (0 : Fin 2); omega
      | ⟨1, _⟩ => show k.val < win3_1.xsize (grid3.coords t) (1 : Fin 2); have := k.isLt; omega
    unfold zblk3
    refine (fill_of_moved win3_1 (grid3.coords t) _ (iblk3 V c 1 t) hm).trans ?_
    show V c main_arg12 ((win3_1.blk t).view.emb _) = _
    refine congrArg _ (funext fun a => Fin.ext ?_)
    match a with
    | ⟨0, _⟩ =>
      show win3_1.index t (0 : Fin 2) * 2048 + 1 * q.val = (((win3_3.blk t).view.emb j) (1 : Fin 2)).val
      rw [hemb, i10]; omega
    | ⟨1, _⟩ => show win3_1.index t (1 : Fin 2) * 2048 + 1 * k.val = k.val; omega
  have m2 : zblk3 V c 2 t (ix2 (0 : Fin 1) q)
      = V c main_v40 (ix2 (0 : Fin 1) (((win3_3.blk t).view.emb j) (1 : Fin 2) : Fin 50257)) := by
    have hm : win3_2.moved (grid3.coords t) (ix2 (0 : Fin 1) q) = true := (win3_2.moved_iff _ _).mpr fun a => by
      match a with
      | ⟨0, _⟩ => show (0 : Fin 1).val < win3_2.xsize (grid3.coords t) (0 : Fin 2); rw [s20]; exact Nat.one_pos
      | ⟨1, _⟩ => show q.val < win3_2.xsize (grid3.coords t) (1 : Fin 2); omega
    unfold zblk3
    refine (fill_of_moved win3_2 (grid3.coords t) _ (iblk3 V c 2 t) hm).trans ?_
    show V c main_v40 ((win3_2.blk t).view.emb _) = _
    refine congrArg _ (funext fun a => Fin.ext ?_)
    match a with
    | ⟨0, _⟩ => show win3_2.index t (0 : Fin 2) * 1 + 1 * 0 = 0; omega
    | ⟨1, _⟩ =>
      show win3_2.index t (1 : Fin 2) * 2048 + 1 * q.val = (((win3_3.blk t).view.emb j) (1 : Fin 2)).val
      rw [hemb, i21]; omega
  refine congrArg₂ (· + ·) (Finset.sum_congr rfl fun k _ => ?_) m2
  rw [m0, m1]

/-- A column of the row lies in tile `t`'s block exactly when it is one of the tile's columns inside the array. -/
theorem mem_blk3 (t : Fin cfg3.N) (i : S1x50257.Idx) :
    i ∈ ((cfg3.win 3).blk t).view.set ↔ ∀ a : Fin 2, win3_3.index t a * S1x2048.size a ≤ (i a).val
      ∧ (i a).val < win3_3.index t a * S1x2048.size a + win3_3.xsize (grid3.coords t) a := by
  show i ∈ ((View.whole main_v41).slice (win3_3.rect t)).set ↔ _
  rw [View.set_slice_whole, Rect.mem_set_unit]
  exact Iff.rfl

/-- Every column `n < 50257` is in the block of tile `n / 2048`. -/
theorem cover3 (i : S1x50257.Idx) : ∃ t : Fin cfg3.N, (cfg3.win 3).flush t = true ∧ i ∈ ((cfg3.win 3).blk t).view.set := by
  have hi0 : (i (0 : Fin 2)).val < 1 := (i (0 : Fin 2)).isLt
  have hi1 : (i (1 : Fin 2)).val < 50257 := (i (1 : Fin 2)).isLt
  have ht : (i (1 : Fin 2)).val / 2048 < cfg3.N := by show _ < 25; omega
  obtain ⟨t, htv⟩ : ∃ t : Fin cfg3.N, t.val = (i (1 : Fin 2)).val / 2048 := ⟨⟨_, ht⟩, rfl⟩
  obtain ⟨-, -, -, -, -, -, i30, i31, -, -, -, -, s30, s31, hf⟩ := tile_facts t
  refine ⟨t, hf, ?_⟩
  rw [mem_blk3]
  intro a
  match a with
  | ⟨0, _⟩ =>
    show win3_3.index _ (0 : Fin 2) * 1 ≤ (i (0 : Fin 2)).val ∧ (i (0 : Fin 2)).val < win3_3.index _ (0 : Fin 2) * 1 + win3_3.xsize _ (0 : Fin 2)
    rw [i30, s30]; omega
  | ⟨1, _⟩ =>
    show win3_3.index _ (1 : Fin 2) * 2048 ≤ (i (1 : Fin 2)).val ∧ (i (1 : Fin 2)).val < win3_3.index _ (1 : Fin 2) * 2048 + win3_3.xsize _ (1 : Fin 2)
    rw [i31]
    omega

/-- What region 3 leaves in the row of logits: every column at its inner product plus its bias entry. -/
theorem final3 (c : Dev nD) :
    (dat3 V c).arrAt 3 cfg3.N = logitsRow (V c main_v39) (V c main_arg12) (V c main_v40) :=
  (dat3 V c).arrAt_eq_of_cover 3 _ (fun t _ => flushed3_eq V c t) cover3

/-! ## The plain program's row, and the bias row the host prepares -/

/-- The plain program's row: the hidden row times the weight matrix with its axes exchanged, plus the bias vector laid
    along the row — column `n` is the inner product with ROW `n` of the weights plus entry `n` of the bias. -/
theorem ref_row (h : FVec Ideal S1x2048 .f32) (W : FVec Ideal S50257x2048 .f32) (b : FVec Ideal S50257 .f32)
    (htr : S50257x2048.Transposes [1, 0] Cert.ReferenceIdeal.S2048x50257)
    (hbc : S50257.BroadcastsInDim S1x50257 (![1] : Fin 1 → Fin S1x50257.rank)) :
    addf (Host.dotGeneral Cert.ReferenceIdeal.dot_S1x2048_S2048x50257_S1x50257_1_0_0_1_n_n none h
          (transpose Cert.ReferenceIdeal.S2048x50257 [1, 0] W htr))
        (broadcastInDim S1x50257 ![1] hbc b)
      = logitsRow h W (shapeCast S1x50257 b shapeCasts_S50257_S1x50257) := by
  funext i
  obtain ⟨u, n, rfl⟩ : ∃ (u : Fin 1) (n : Fin 50257), i = ix2 u n := ⟨i 0, i 1, eq_ix2 i⟩
  obtain rfl : u = 0 := Subsingleton.elim _ _
  rw [addf_apply, dotGeneral_apply plainDot_dot_S1x2048_S2048x50257_S1x50257_1_0_0_1_n_n]
  unfold logitsRow
  refine congrArg₂ (· + ·) (Finset.sum_congr rfl fun k _ => ?_) ?_
  · rw [Cert.Lib.transpose_apply]
  · rw [shapeCast_a_1a_apply]
    exact broadcastInDim_apply _ hbc b (ix2 (0 : Fin 1) n) (ix1 n) (fun a => by
      match a with
      | ⟨0, _⟩ => show n.val = if (50257 : ℕ) = 1 then 0 else n.val; rw [if_neg (by decide)])

/-- The host's stretch before region 3 leaves in the bias row the bias vector recast to one row, and does not touch
    the vector. -/
theorem bias_row (X : Valuation τ sig (Elt Ideal)) :
    (StableHlo.after hostOps3 X (Proc.devRef .tc main_v40) : S1x50257.Idx → EReal)
      = shapeCast S1x50257 (StableHlo.after hostOps3 X (Proc.devRef .tc main_arg13) : S50257.Idx → EReal) shapeCasts_S50257_S1x50257 := by
  have e13 : StableHlo.after hostOps3 X (Proc.devRef .tc main_arg13) = X (Proc.devRef .tc main_arg13) :=
    StableHlo.after_of_writes_sub hostOps3 _ hostOps3_writes (by decide)
  rw [e13]
  open StableHlo in after_results
  rfl

/-! ## The two programs' rows agree -/

section Bridge

open Cert.KernelIdeal.Rn

variable (m : (ℓ : Loc nD τ sig) → Buf (Elt Ideal) ℓ)

/-- What region 3 leaves in the row of logits, from the buffers as the region finds them in the run from `m`: the
    bias row is the bias vector recast by the host. -/
theorem oK_eq (c : Dev nD) :
    ((dat3 (T9 m) c).arrAt 3 cfg3.N : S1x50257.Idx → EReal)
      = logitsRow (T9 m c main_v39) (T9 m c main_arg12)
          (shapeCast S1x50257 (T9 m c main_arg13 : S50257.Idx → EReal) shapeCasts_S50257_S1x50257) := by
  rw [final3 (T9 m) c]
  exact congrArg (logitsRow (T9 m c main_v39) (T9 m c main_arg12)) (bias_row (U8 m c))

/-- THE STAGE: the plain program's buffers `RV` satisfying its last four equations before the soft-max (the exchanged
    weight matrix, the product, the broadcast bias, their sum), and the two programs' hidden rows, weight matrices and
    bias vectors being equal, region 3 leaves in its result exactly the plain program's row of logits. -/
theorem stage3_of (c : Dev nD)
    (RV : Valuation Cert.ReferenceIdeal.τ Cert.ReferenceIdeal.sig (Elt Ideal))
    (e62 : (RV (Proc.devRef .tc Cert.ReferenceIdeal.main_v62) : Cert.ReferenceIdeal.S2048x50257.Idx → EReal)
      = (transpose Cert.ReferenceIdeal.S2048x50257 [1, 0] (RV (Proc.devRef .tc Cert.ReferenceIdeal.main_arg12) : S50257x2048.Idx → EReal)
          Cert.ReferenceIdeal.Facts₀.transposes_S50257x2048_S2048x50257_1_0 : Cert.ReferenceIdeal.S2048x50257.Idx → EReal))
    (e63 : (RV (Proc.devRef .tc Cert.ReferenceIdeal.main_v63) : S1x50257.Idx → EReal)
      = (Host.dotGeneral (F := Ideal) (φ₁ := .f32) (φ₂ := .f32) Cert.ReferenceIdeal.dot_S1x2048_S2048x50257_S1x50257_1_0_0_1_n_n none
          (RV (Proc.devRef .tc Cert.ReferenceIdeal.main_v61)) (RV (Proc.devRef .tc Cert.ReferenceIdeal.main_v62)) : S1x50257.Idx → EReal))
    (e64 : (RV (Proc.devRef .tc Cert.ReferenceIdeal.main_v64) : S1x50257.Idx → EReal)
      = (broadcastInDim S1x50257 ![1] Cert.ReferenceIdeal.Facts₀.bcast_S50257_S1x50257_1
          (RV (Proc.devRef .tc Cert.ReferenceIdeal.main_arg13) : S50257.Idx → EReal) : S1x50257.Idx → EReal))
    (e65 : (RV (Proc.devRef .tc Cert.ReferenceIdeal.main_v65) : S1x50257.Idx → EReal)
      = (addf (F := Ideal) (s := S1x50257) (φ := .f32) (RV (Proc.devRef .tc Cert.ReferenceIdeal.main_v63))
          (RV (Proc.devRef .tc Cert.ReferenceIdeal.main_v64)) : S1x50257.Idx → EReal))
    (h_new : (T9 m c main_v39 : S1x2048.Idx → EReal) = RV (Proc.devRef .tc Cert.ReferenceIdeal.main_v61))
    (hW : (T9 m c main_arg12 : S50257x2048.Idx → EReal) = RV (Proc.devRef .tc Cert.ReferenceIdeal.main_arg12))
    (hb : (T9 m c main_arg13 : S50257.Idx → EReal) = RV (Proc.devRef .tc Cert.ReferenceIdeal.main_arg13)) :
    ((dat3 (T9 m) c).arrAt 3 cfg3.N : S1x50257.Idx → EReal) = RV (Proc.devRef .tc Cert.ReferenceIdeal.main_v65) := by
  rw [oK_eq m c, h_new, hW, hb, e65, e63, e62, e64]
  exact (ref_row _ _ _ _ _).symm

end Bridge

end Cert.Stage3

end
-- ==== Proof.LibSoftmaxRow.lean ====
/-
  The softmax of one row, as a matrix unit's program spells it and as the plain program spells it, at the ideal values.

  Given a row of logits l = (l_0 … l_{n-1}), kept as a [1, n] matrix, both programs compute
      M = max_k l_k ,   e_k = exp (l_k − M) ,   Z = Σ_k e_k ,   p_k = e_k / Z .
  The tiled program takes M by a lane maximum whose accumulator starts at −∞, reshapes the one result [1] → [1, 1] and
  spreads it along the row; the plain program takes M by a reduce with body max from −∞, takes once more the maximum
  with −∞, and spreads it by two broadcasts [1] → [1, 1] → [1, n]. Over the extended reals −∞ is the least element, so
  max (−∞, y) = y and the two maxima are one number: the greatest of the n entries, folded over the same family of
  entries. Z likewise is the same finite sum, the plain program's starting from the initial value 0. The exponential and
  the quotient are each one function of extended reals on both sides. Hence the two rows p are one vector. Nothing here
  depends on n.
-/
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.Lib

open Idealize.ShloMosaic Idealize.ShloMosaic.ValueIdx

/-- The binary32 pattern of −∞ is the least extended real. -/
theorem ofBits_negInf_f32 : Ideal.ofBits .f32 0xFF800000#32 = (⊥ : EReal) := by
  simp [Ideal.ofBits, Ideal.ieee]

variable {n : ℕ} {α : Type}

/-- One number, reshaped [1] → [1, 1] and spread along a row of n entries, reads that number at every entry. -/
theorem spread_cast_apply (v : (⟨1, ![1]⟩ : Shape).Idx → α)
    (hsc : (⟨1, ![1]⟩ : Shape).ShapeCasts ⟨2, ![1, 1]⟩) (hbc : (⟨2, ![1, 1]⟩ : Shape).Broadcasts ⟨2, ![1, n]⟩)
    (r : Fin 1) (c : Fin n) :
    broadcastTo ⟨2, ![1, n]⟩ (shapeCast ⟨2, ![1, 1]⟩ v hsc) hbc (ix2 r c) = v (ix1 (0 : Fin 1)) := by
  rw [broadcastTo_apply _ hbc (ix2 r c) (ix2 (0 : Fin 1) (0 : Fin 1)) (fun a => by
    match a with
    | ⟨0, _⟩ => rfl
    | ⟨1, _⟩ => rfl)]
  exact shapeCast_a_1a_apply v hsc 0 0

/-- The same by two broadcasts along named axes, [1] → [1, 1] → [1, n]. -/
theorem spread_inDim_apply (v : (⟨1, ![1]⟩ : Shape).Idx → α)
    (h1 : (⟨1, ![1]⟩ : Shape).BroadcastsInDim ⟨2, ![1, 1]⟩ (![0] : Fin 1 → Fin 2))
    (h2 : (⟨2, ![1, 1]⟩ : Shape).BroadcastsInDim ⟨2, ![1, n]⟩ (![0, 1] : Fin 2 → Fin 2)) (r : Fin 1) (c : Fin n) :
    broadcastInDim ⟨2, ![1, n]⟩ ![0, 1] h2 (broadcastInDim ⟨2, ![1, 1]⟩ ![0] h1 v) (ix2 r c) = v (ix1 (0 : Fin 1)) := by
  rw [broadcastInDim_apply _ h2 _ (ix2 r c) (ix2 (0 : Fin 1) (0 : Fin 1)) (fun a => by
    match a with
    | ⟨0, _⟩ => rfl
    | ⟨1, _⟩ => rfl)]
  exact broadcastInDim_apply _ h1 v (ix2 (0 : Fin 1) (0 : Fin 1)) (ix1 (0 : Fin 1)) (fun a => by
    match a with
    | ⟨0, _⟩ => rfl)

variable (l : FVec Ideal ⟨2, ![1, n]⟩ .f32)

/-- THE ROW'S MAXIMUM. A lane maximum whose accumulator starts at −∞, and a reduce with body max from −∞ followed by one
    more maximum with −∞, are one vector [1]: each is the fold of max from −∞ over the row's n entries, and
    max (−∞, y) = y. -/
theorem rowMax_eq (hr : (⟨2, ![1, n]⟩ : Shape).Reduces [1] ⟨1, ![1]⟩) (hφ : FKind.Formats .f32)
    (hacc : (0xFF800000#32 : BitVec (FTy.bits .f32)) = FKind.maximumf.neutral .f32 hφ)
    (hr' : (⟨2, ![1, n]⟩ : Shape).ReducesTo [1] ⟨1, ![1]⟩) (hu : 0 < (⟨0, ![]⟩ : Shape).numel)
    (hb0 : (⟨0, ![]⟩ : Shape).BroadcastsInDim ⟨1, ![1]⟩ (![] : Fin 0 → Fin 1)) :
    multiReduction .maximumf [1] ⟨1, ![1]⟩ l 0xFF800000#32 hr hφ hacc
      = maximumf (broadcastInDim ⟨1, ![1]⟩ ![] hb0 (constant ⟨0, ![]⟩ .f32 0xFF800000#32))
          (Host.reduce FloatOps.maximumf l (constant ⟨0, ![]⟩ .f32 0xFF800000#32) hr' hu) := by
  funext j
  rw [Ideal.multiReduction_maximumf_single l _ hr hφ hacc j, maximumf_apply,
    Host.reduce_eq_fold_single FloatOps.maximumf l _ hr' hr hu j, broadcastInDim_scalar_apply]
  change (Finset.univ.fold max (Ideal.ofBits .f32 0xFF800000#32) (l ∘ hr.lift j) : EReal)
    = max (Ideal.ofBits .f32 0xFF800000#32) (Finset.univ.fold max (Ideal.ofBits .f32 0xFF800000#32) (l ∘ hr.lift j))
  rw [ofBits_negInf_f32]
  exact (max_eq_right bot_le).symm

/-- THE SOFTMAX OF ONE ROW: the tiled program's spelling and the plain program's are one vector [1, n]. -/
theorem softmax_row_eq (hr : (⟨2, ![1, n]⟩ : Shape).Reduces [1] ⟨1, ![1]⟩) (hφ : FKind.Formats .f32)
    (haccM : (0xFF800000#32 : BitVec (FTy.bits .f32)) = FKind.maximumf.neutral .f32 hφ)
    (haccS : (0x00000000#32 : BitVec (FTy.bits .f32)) = FKind.add.neutral .f32 hφ)
    (hsc : (⟨1, ![1]⟩ : Shape).ShapeCasts ⟨2, ![1, 1]⟩) (hbc : (⟨2, ![1, 1]⟩ : Shape).Broadcasts ⟨2, ![1, n]⟩)
    (hr' : (⟨2, ![1, n]⟩ : Shape).ReducesTo [1] ⟨1, ![1]⟩) (hu : 0 < (⟨0, ![]⟩ : Shape).numel)
    (hb0 : (⟨0, ![]⟩ : Shape).BroadcastsInDim ⟨1, ![1]⟩ (![] : Fin 0 → Fin 1))
    (h1 : (⟨1, ![1]⟩ : Shape).BroadcastsInDim ⟨2, ![1, 1]⟩ (![0] : Fin 1 → Fin 2))
    (h2 : (⟨2, ![1, 1]⟩ : Shape).BroadcastsInDim ⟨2, ![1, n]⟩ (![0, 1] : Fin 2 → Fin 2)) :
    divf
        (exp (subf l (broadcastTo ⟨2, ![1, n]⟩ (shapeCast ⟨2, ![1, 1]⟩
          (multiReduction .maximumf [1] ⟨1, ![1]⟩ l 0xFF800000#32 hr hφ haccM) hsc) hbc)))
        (broadcastTo ⟨2, ![1, n]⟩ (shapeCast ⟨2, ![1, 1]⟩
          (multiReduction .add [1] ⟨1, ![1]⟩
            (exp (subf l (broadcastTo ⟨2, ![1, n]⟩ (shapeCast ⟨2, ![1, 1]⟩
              (multiReduction .maximumf [1] ⟨1, ![1]⟩ l 0xFF800000#32 hr hφ haccM) hsc) hbc)))
            0x00000000#32 hr hφ haccS) hsc) hbc)
      = Host.divf
        (Host.exp (subf l (broadcastInDim ⟨2, ![1, n]⟩ ![0, 1] h2 (broadcastInDim ⟨2, ![1, 1]⟩ ![0] h1
          (maximumf (broadcastInDim ⟨1, ![1]⟩ ![] hb0 (constant ⟨0, ![]⟩ .f32 0xFF800000#32))
            (Host.reduce FloatOps.maximumf l (constant ⟨0, ![]⟩ .f32 0xFF800000#32) hr' hu))))))
        (broadcastInDim ⟨2, ![1, n]⟩ ![0, 1] h2 (broadcastInDim ⟨2, ![1, 1]⟩ ![0] h1
          (Host.reduceAdd
            (Host.exp (subf l (broadcastInDim ⟨2, ![1, n]⟩ ![0, 1] h2 (broadcastInDim ⟨2, ![1, 1]⟩ ![0] h1
              (maximumf (broadcastInDim ⟨1, ![1]⟩ ![] hb0 (constant ⟨0, ![]⟩ .f32 0xFF800000#32))
                (Host.reduce FloatOps.maximumf l (constant ⟨0, ![]⟩ .f32 0xFF800000#32) hr' hu))))))
            (constant ⟨0, ![]⟩ .f32 0x00000000#32) hr' hu))) := by
  -- the two spreads of one number along the row are one vector
  have spread : ∀ v : (⟨1, ![1]⟩ : Shape).Idx → EReal,
      broadcastTo ⟨2, ![1, n]⟩ (shapeCast ⟨2, ![1, 1]⟩ v hsc) hbc
        = broadcastInDim ⟨2, ![1, n]⟩ ![0, 1] h2 (broadcastInDim ⟨2, ![1, 1]⟩ ![0] h1 v) := fun v => funext fun i => by
    have hi : i = ix2 (n0 := 1) (n1 := n) (i 0) (i 1) := eq_ix2 i
    rw [hi]
    exact (spread_cast_apply v hsc hbc _ _).trans (spread_inDim_apply v h1 h2 _ _).symm
  -- the same maximum, hence the same exponentials
  rw [rowMax_eq l hr hφ haccM hr' hu hb0, spread, spread]
  have hexp : ∀ y : FVec Ideal ⟨2, ![1, n]⟩ .f32, exp y = Host.exp y := fun y => rfl
  rw [hexp]
  -- the same sum, the plain program's from the initial value 0
  rw [multiReduction_add_eq_hostReduceAdd _ _ hr hφ haccS (constant ⟨0, ![]⟩ .f32 0x00000000#32) hr' hu
    (by rw [constant_apply]; exact Ideal.ofBits_zero_f32)]
  rfl

end Cert.Lib

end
-- ==== Proof.Stage0Pure.lean ====
/-
  Region 0 of the decoder step, as pure vector facts at the ideal values: attention weights and context row.

  From the query row x ([1, 4096]), the score matrix W ([512, 4096]), the score bias b (kept as a row [1, 512] by the
  tiled program, as a vector [512] by the plain one) and the encoder states E ([512, 2048]):

      l_j = Σ_k x(0,k) · W(j,k) + b_j ,     a = softmax l ,     ctx_n = Σ_j a_j · E(j,n) .

  The tiled program contracts the second axis of both x and W in one product and adds the bias row; the plain program
  exchanges W's axes, takes the ordinary product and adds the bias broadcast to a row. Entry (0, j) of either is the
  inner product of x with row j of W, plus b_j: the logit rows are one vector. The softmax of one row is one vector in
  both spellings (the greatest entry folded from −∞ over the same entries; the sum of the same exponentials; one quotient).
  The context row is the ordinary product of a with E on both sides, the tiled one accumulated into zeros.
-/
import proofs.«153450_j57131654971751_1_alg».proof.Proof.Gen.KernelIdeal.Skeleton
import proofs.«153450_j57131654971751_1_alg».proof.Proof.Gen.ReferenceIdeal
import proofs.«153450_j57131654971751_1_alg».proof.Proof.LibAffineRows
import proofs.«153450_j57131654971751_1_alg».proof.Proof.LibMatvecT
import proofs.«153450_j57131654971751_1_alg».proof.Proof.LibSoftmaxRow

noncomputable section

namespace Cert.Val.Stage0

open Idealize.ShloMosaic Idealize.ShloMosaic.ValueIdx Cert.Lib

/-! ## The plain program's terms -/

/-- The plain program's logit row: x · Wᵀ + b, with W's axes exchanged first and b broadcast to a row. -/
def refLogits (x : FVec Ideal ⟨2, ![1, 4096]⟩ .f32) (W : FVec Ideal ⟨2, ![512, 4096]⟩ .f32)
    (b : FVec Ideal ⟨1, ![512]⟩ .f32) : FVec Ideal ⟨2, ![1, 512]⟩ .f32 :=
  addf
    (Host.dotGeneral Cert.ReferenceIdeal.dot_S1x4096_S4096x512_S1x512_1_0_0_1_n_n none x
      (transpose Cert.ReferenceIdeal.S4096x512 [1, 0] W Cert.ReferenceIdeal.Gen.transposes_S512x4096_S4096x512_1_0))
    (broadcastInDim Cert.ReferenceIdeal.S1x512 ![1] Cert.ReferenceIdeal.Gen.bcast_S512_S1x512_1 b)

/-- The plain program's greatest logit, as a [1] vector: the reduce with body max from −∞, then once more the maximum
    with −∞. -/
def refMax (l : FVec Ideal ⟨2, ![1, 512]⟩ .f32) : FVec Ideal ⟨1, ![1]⟩ .f32 :=
  maximumf
    (broadcastInDim Cert.ReferenceIdeal.S1 ![] Cert.ReferenceIdeal.Gen.bcast_S_S1
      (constant Cert.ReferenceIdeal.S_ .f32 0xFF800000#32))
    (Host.reduce FloatOps.maximumf l (constant Cert.ReferenceIdeal.S_ .f32 0xFF800000#32)
      Cert.ReferenceIdeal.Gen.reducesTo_S1x512_S1_d1 Cert.ReferenceIdeal.Gen.h_S_)

/-- One number spread along a row of 512 by the plain program's two broadcasts. -/
def refSpread (v : FVec Ideal ⟨1, ![1]⟩ .f32) : FVec Ideal ⟨2, ![1, 512]⟩ .f32 :=
  broadcastInDim Cert.ReferenceIdeal.S1x512 ![0, 1] Cert.ReferenceIdeal.Gen.bcast_S1x1_S1x512_0_1
    (broadcastInDim Cert.ReferenceIdeal.S1x1 ![0] Cert.ReferenceIdeal.Gen.bcast_S1_S1x1_0 v)

/-- The plain program's exponentials exp (l_j − M). -/
def refExp (l : FVec Ideal ⟨2, ![1, 512]⟩ .f32) : FVec Ideal ⟨2, ![1, 512]⟩ .f32 :=
  Host.exp (subf l (refSpread (refMax l)))

/-- The plain program's softmax of a logit row. -/
def refSoftmax (l : FVec Ideal ⟨2, ![1, 512]⟩ .f32) : FVec Ideal ⟨2, ![1, 512]⟩ .f32 :=
  Host.divf (refExp l)
    (refSpread (Host.reduceAdd (refExp l) (constant Cert.ReferenceIdeal.S_ .f32 0x00000000#32)
      Cert.ReferenceIdeal.Gen.reducesTo_S1x512_S1_d1 Cert.ReferenceIdeal.Gen.h_S_))

/-- The plain program's context row: the ordinary product a · E. -/
def refContext (a : FVec Ideal ⟨2, ![1, 512]⟩ .f32) (E : FVec Ideal ⟨2, ![512, 2048]⟩ .f32) :
    FVec Ideal ⟨2, ![1, 2048]⟩ .f32 :=
  Host.dotGeneral Cert.ReferenceIdeal.dot_S1x512_S512x2048_S1x2048_1_0_0_1_n_n none a E

/-! ## The tiled program's terms -/

open Cert.KernelIdeal Cert.KernelIdeal.Gen in
/-- The tiled program's logit row: the product contracting the second axis of both operands, accumulated into zeros, plus
    the bias row. -/
def tileLogits (x : FVec Ideal ⟨2, ![1, 4096]⟩ .f32) (W : FVec Ideal ⟨2, ![512, 4096]⟩ .f32)
    (b2 : FVec Ideal ⟨2, ![1, 512]⟩ .f32) : FVec Ideal ⟨2, ![1, 512]⟩ .f32 :=
  addf
    (matmul dot_S1x4096_S512x4096_S1x512_1_1_0_0_n_n none
      (truncf .bf16 (shapeCast S1x4096 x shapeCasts_S1x4096_S1x4096) bitsLt_bf16_f32)
      (truncf .bf16 W bitsLt_bf16_f32) (constant S1x512 .f32 0x00000000#32))
    (shapeCast S1x512 b2 shapeCasts_S1x512_S1x512)

open Cert.KernelIdeal Cert.KernelIdeal.Gen in
/-- One number, a [1] vector, spread along a row of 512 by the tiled program's reshape and broadcast. -/
def tileSpread (v : FVec Ideal ⟨1, ![1]⟩ .f32) : FVec Ideal ⟨2, ![1, 512]⟩ .f32 :=
  broadcastTo S1x512 (shapeCast S1x1 v shapeCasts_S1_S1x1) broadcasts_S1x1_S1x512

open Cert.KernelIdeal Cert.KernelIdeal.Gen in
/-- The tiled program's exponentials. -/
def tileExp (l : FVec Ideal ⟨2, ![1, 512]⟩ .f32) : FVec Ideal ⟨2, ![1, 512]⟩ .f32 :=
  exp (subf l (tileSpread (multiReduction .maximumf [1] S1 l 0xFF800000#32 reduces_S1x512_S1 (.inl rfl) rfl)))

open Cert.KernelIdeal Cert.KernelIdeal.Gen in
/-- The tiled program's softmax of a logit row. -/
def tileSoftmax (l : FVec Ideal ⟨2, ![1, 512]⟩ .f32) : FVec Ideal ⟨2, ![1, 512]⟩ .f32 :=
  divf (tileExp l)
    (tileSpread (multiReduction .add [1] S1 (tileExp l) 0x00000000#32 reduces_S1x512_S1 (.inl rfl) rfl))

open Cert.KernelIdeal Cert.KernelIdeal.Gen in
/-- The attention-weights payload is the tiled softmax of the tiled logits: the definitions unfold to one term. -/
theorem pay1_unfold (x : FVec Ideal ⟨2, ![1, 4096]⟩ .f32) (W : FVec Ideal ⟨2, ![512, 4096]⟩ .f32)
    (b2 : FVec Ideal ⟨2, ![1, 512]⟩ .f32) :
    k0_pay1 (F := Ideal) x W b2 = tileSoftmax (tileLogits x W b2) := rfl

/-! ## The two programs agree -/

/-- Two [n0, n1] arrays that agree at every (r, c) are one array. -/
theorem ext_ix2 {n0 n1 : ℕ} {α : Type} {f g : (⟨2, ![n0, n1]⟩ : Shape).Idx → α}
    (h : ∀ (r : Fin n0) (c : Fin n1), f (ix2 r c) = g (ix2 r c)) : f = g :=
  funext fun i => (congrArg f (eq_ix2 i)).trans ((h (i 0) (i 1)).trans (congrArg g (eq_ix2 i)).symm)

variable (x : FVec Ideal ⟨2, ![1, 4096]⟩ .f32) (W : FVec Ideal ⟨2, ![512, 4096]⟩ .f32)
  (b2 : FVec Ideal ⟨2, ![1, 512]⟩ .f32) (b : FVec Ideal ⟨1, ![512]⟩ .f32) (E : FVec Ideal ⟨2, ![512, 2048]⟩ .f32)

/-- The bias vector broadcast to a row reads, at (r, j), the vector at j. -/
theorem refBias_apply (r : Fin 1) (j : Fin 512) :
    broadcastInDim Cert.ReferenceIdeal.S1x512 ![1] Cert.ReferenceIdeal.Gen.bcast_S512_S1x512_1 b (ix2 r j) = b (ix1 j) :=
  broadcastInDim_apply _ Cert.ReferenceIdeal.Gen.bcast_S512_S1x512_1 b (ix2 r j) (ix1 j) (fun a => by
    match a with
    | ⟨0, _⟩ => rfl)

/-- THE LOGIT ROWS ARE ONE VECTOR: entry (0, j) of either is Σ_k x(0,k) · W(j,k) + b_j, where the bias row's entry j is
    the bias vector's. -/
theorem logits_eq
    (hT : TransDot Cert.KernelIdeal.dot_S1x4096_S512x4096_S1x512_1_1_0_0_n_n)
    (hP : PlainDot Cert.ReferenceIdeal.dot_S1x4096_S4096x512_S1x512_1_0_0_1_n_n)
    (hb : ∀ j : Fin 512, b2 (ix2 (0 : Fin 1) j) = b (ix1 j)) :
    tileLogits x W b2 = refLogits x W b := by
  refine ext_ix2 fun r j => ?_
  have h0 : r = 0 := Subsingleton.elim _ _
  unfold tileLogits refLogits
  rw [addf_apply, addf_apply, shapeCast_self, shapeCast_self, matmulT_zero_apply hT, dotGeneral_apply hP,
    sum_transpose, refBias_apply, h0, hb]

/-- THE SOFTMAX OF A LOGIT ROW IS ONE VECTOR in the two spellings. -/
theorem softmax_eq (l : FVec Ideal ⟨2, ![1, 512]⟩ .f32) : tileSoftmax l = refSoftmax l :=
  softmax_row_eq l _ _ _ _ _ _ _ _ _ _ _

/-- (A) THE ATTENTION WEIGHTS: the first payload of region 0 is the plain program's softmax of its logits. -/
theorem pay1_eq
    (hT : TransDot Cert.KernelIdeal.dot_S1x4096_S512x4096_S1x512_1_1_0_0_n_n)
    (hP : PlainDot Cert.ReferenceIdeal.dot_S1x4096_S4096x512_S1x512_1_0_0_1_n_n)
    (hb : ∀ j : Fin 512, b2 (ix2 (0 : Fin 1) j) = b (ix1 j)) :
    Cert.KernelIdeal.Gen.k0_pay1 (F := Ideal) x W b2 = refSoftmax (refLogits x W b) := by
  rw [pay1_unfold, logits_eq x W b2 b hT hP hb, softmax_eq]

open Cert.KernelIdeal Cert.KernelIdeal.Gen in
/-- The context payload is the product of the narrowed attention weights with the narrowed encoder states, into zeros. -/
theorem pay2_unfold :
    k0_pay2 (F := Ideal) x W b2 E
      = matmul dot_S1x512_S512x2048_S1x2048_1_0_0_1_n_n none
          (truncf .bf16 (k0_pay1 (F := Ideal) x W b2) bitsLt_bf16_f32) (truncf .bf16 E bitsLt_bf16_f32)
          (constant S1x2048 .f32 0x00000000#32) := rfl

/-- (B) THE CONTEXT ROW: the second payload of region 0 is the plain program's product of the first payload with the
    encoder states; entry (0, n) of either is Σ_j a_j · E(j,n). -/
theorem pay2_eq
    (hK : PlainDot Cert.KernelIdeal.dot_S1x512_S512x2048_S1x2048_1_0_0_1_n_n)
    (hR : PlainDot Cert.ReferenceIdeal.dot_S1x512_S512x2048_S1x2048_1_0_0_1_n_n) :
    Cert.KernelIdeal.Gen.k0_pay2 (F := Ideal) x W b2 E
      = refContext (Cert.KernelIdeal.Gen.k0_pay1 (F := Ideal) x W b2) E := by
  refine ext_ix2 fun r q => ?_
  rw [pay2_unfold]
  unfold refContext
  rw [matmul_zero_apply hK, dotGeneral_apply hR]

/-- (A) and (B) together: the context payload from the plain program's own attention weights. -/
theorem pay2_eq_ref
    (hT : TransDot Cert.KernelIdeal.dot_S1x4096_S512x4096_S1x512_1_1_0_0_n_n)
    (hP : PlainDot Cert.ReferenceIdeal.dot_S1x4096_S4096x512_S1x512_1_0_0_1_n_n)
    (hK : PlainDot Cert.KernelIdeal.dot_S1x512_S512x2048_S1x2048_1_0_0_1_n_n)
    (hR : PlainDot Cert.ReferenceIdeal.dot_S1x512_S512x2048_S1x2048_1_0_0_1_n_n)
    (hb : ∀ j : Fin 512, b2 (ix2 (0 : Fin 1) j) = b (ix1 j)) :
    Cert.KernelIdeal.Gen.k0_pay2 (F := Ideal) x W b2 E = refContext (refSoftmax (refLogits x W b)) E := by
  rw [pay2_eq x W b2 E hK hR, pay1_eq x W b2 b hT hP hb]

end Cert.Val.Stage0

end
-- ==== Proof.Stage0.lean ====
/-
  Stage 0 of the bridge: the attention step.

  Region 0 has ONE grid point and every window's block is its whole array. So each input block the body reads is the
  array the region found, and each output array after the region is what the one write-back put there: the body's
  payload of the four input arrays. With the pure facts on the payloads this gives, from a query row that agrees on
  both sides and arguments that agree,

      attention weights:  the first output array  = the plain program's softmax (x · Wᵀ + b) ,
      context row:        the second output array = the plain program's (attention weights) · E .
-/
import proofs.«153450_j57131654971751_1_alg».proof.Proof.KI.Chain
import proofs.«153450_j57131654971751_1_alg».proof.Proof.DotFacts
import proofs.«153450_j57131654971751_1_alg».proof.Proof.Stage0Pure
import Idealize.ShloMosaic.Lib.Pipeline.Value

set_option maxRecDepth 16384

noncomputable section

namespace Cert.Val.Stage0

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

/-! ## The one block of each window is the whole array (at any float model) -/

section Blocks

variable {F : FTy → Type} [FloatOps F]
variable (V : (c : Dev nD) → (b : Ref sig .tc) → Buf (Elt F) ((c : Thread nD τ).loc b))

/-- The query block is the query row [1, 4096] as the region found it: the block index is 0 on both axes. -/
theorem iblk0_0_eq (c : Dev nD) (t : Fin cfg0.N) :
    iblk0 V c 0 t = (V c main_v3 : S1x4096.Idx → Elt F .f32) := by
  funext j
  show V c main_v3 (((cfg0.win 0).blk t).view.emb j) = V c main_v3 j
  refine congrArg (V c main_v3) (funext fun a => Fin.ext ?_)
  match a with
  | ⟨0, _⟩ => show 0 * 1 + 1 * (j 0).val = (j 0).val; omega
  | ⟨1, _⟩ => show 0 * 4096 + 1 * (j 1).val = (j 1).val; omega

/-- The score-matrix block is the whole matrix [512, 4096]. -/
theorem iblk0_1_eq (c : Dev nD) (t : Fin cfg0.N) :
    iblk0 V c 1 t = (V c main_arg4 : S512x4096.Idx → Elt F .f32) := by
  funext j
  show V c main_arg4 (((cfg0.win 1).blk t).view.emb j) = V c main_arg4 j
  refine congrArg (V c main_arg4) (funext fun a => Fin.ext ?_)
  match a with
  | ⟨0, _⟩ => show 0 * 512 + 1 * (j 0).val = (j 0).val; omega
  | ⟨1, _⟩ => show 0 * 4096 + 1 * (j 1).val = (j 1).val; omega

/-- The bias block is the whole bias row [1, 512]. -/
theorem iblk0_2_eq (c : Dev nD) (t : Fin cfg0.N) :
    iblk0 V c 2 t = (V c main_v4 : S1x512.Idx → Elt F .f32) := by
  funext j
  show V c main_v4 (((cfg0.win 2).blk t).view.emb j) = V c main_v4 j
  refine congrArg (V c main_v4) (funext fun a => Fin.ext ?_)
  match a with
  | ⟨0, _⟩ => show 0 * 1 + 1 * (j 0).val = (j 0).val; omega
  | ⟨1, _⟩ => show 0 * 512 + 1 * (j 1).val = (j 1).val; omega

/-- The encoder block is the whole encoder matrix [512, 2048]. -/
theorem iblk0_3_eq (c : Dev nD) (t : Fin cfg0.N) :
    iblk0 V c 3 t = (V c main_arg2 : S512x2048.Idx → Elt F .f32) := by
  funext j
  show V c main_arg2 (((cfg0.win 3).blk t).view.emb j) = V c main_arg2 j
  refine congrArg (V c main_arg2) (funext fun a => Fin.ext ?_)
  match a with
  | ⟨0, _⟩ => show 0 * 512 + 1 * (j 0).val = (j 0).val; omega
  | ⟨1, _⟩ => show 0 * 2048 + 1 * (j 1).val = (j 1).val; omega

/-! ## The output arrays after the region -/

/-- What the one point writes back to the attention-weights array: the body's result there. -/
theorem flushed0_4 (c : Dev nD) (t : Fin cfg0.N) :
    (dat0 V c).flushed 4 t
      = (cfg0.win 4).cut (grid0.coords t) (out0_4 (iblk0 V c 0 t) (iblk0 V c 1 t) (iblk0 V c 2 t)) := by
  show (cfg0.win 4).cut (grid0.coords t) ((dat0 V c).after 4 t) = _
  rw [after0_4]

/-- What the one point writes back to the context array. -/
theorem flushed0_5 (c : Dev nD) (t : Fin cfg0.N) :
    (dat0 V c).flushed 5 t
      = (cfg0.win 5).cut (grid0.coords t)
          (out0_5 (iblk0 V c 0 t) (iblk0 V c 1 t) (iblk0 V c 2 t) (iblk0 V c 3 t)) := by
  show (cfg0.win 5).cut (grid0.coords t) ((dat0 V c).after 5 t) = _
  rw [after0_5]

/-- Every index of the attention-weights array [1, 512] lies in the one block. -/
theorem mem_blk0_4 (i : S1x512.Idx) (t : Fin cfg0.N) : i ∈ ((cfg0.win 4).blk t).view.set := by
  show i ∈ ((View.whole main_v5_0).slice (win0_4.rect t)).set
  rw [View.set_slice_whole, Rect.mem_set_unit]
  intro a
  match a with
  | ⟨0, _⟩ =>
    show 0 * 1 ≤ (i 0).val ∧ (i 0).val < 0 * 1 + 1
    have h : (i 0).val < 1 := (i 0).isLt
    omega
  | ⟨1, _⟩ =>
    show 0 * 512 ≤ (i 1).val ∧ (i 1).val < 0 * 512 + 512
    have h : (i 1).val < 512 := (i 1).isLt
    omega

/-- Every index of the context array [1, 2048] lies in the one block. -/
theorem mem_blk0_5 (i : S1x2048.Idx) (t : Fin cfg0.N) : i ∈ ((cfg0.win 5).blk t).view.set := by
  show i ∈ ((View.whole main_v5_1).slice (win0_5.rect t)).set
  rw [View.set_slice_whole, Rect.mem_set_unit]
  intro a
  match a with
  | ⟨0, _⟩ =>
    show 0 * 1 ≤ (i 0).val ∧ (i 0).val < 0 * 1 + 1
    have h : (i 0).val < 1 := (i 0).isLt
    omega
  | ⟨1, _⟩ =>
    show 0 * 2048 ≤ (i 1).val ∧ (i 1).val < 0 * 2048 + 2048
    have h : (i 1).val < 2048 := (i 1).isLt
    omega

/-- A whole array [1, 512] read back through the one block is the array. -/
theorem read_blk0_4 (G : S1x512.Idx → Elt F .f32) (t : Fin cfg0.N) :
    ((cfg0.win 4).blk t).view.read (Elt F) G = (cfg0.win 4).cut (grid0.coords t) G := by
  funext j
  show G (((cfg0.win 4).blk t).view.emb j) = G ((cfg0.win 4).xinj (grid0.coords t) j)
  refine congrArg G (funext fun a => Fin.ext ?_)
  match a with
  | ⟨0, _⟩ => show 0 * 1 + 1 * (j 0).val = (j 0).val; omega
  | ⟨1, _⟩ => show 0 * 512 + 1 * (j 1).val = (j 1).val; omega

/-- A whole array [1, 2048] read back through the one block is the array. -/
theorem read_blk0_5 (G : S1x2048.Idx → Elt F .f32) (t : Fin cfg0.N) :
    ((cfg0.win 5).blk t).view.read (Elt F) G = (cfg0.win 5).cut (grid0.coords t) G := by
  funext j
  show G (((cfg0.win 5).blk t).view.emb j) = G ((cfg0.win 5).xinj (grid0.coords t) j)
  refine congrArg G (funext fun a => Fin.ext ?_)
  match a with
  | ⟨0, _⟩ => show 0 * 1 + 1 * (j 0).val = (j 0).val; omega
  | ⟨1, _⟩ => show 0 * 2048 + 1 * (j 1).val = (j 1).val; omega

/-- AFTER REGION 0 the attention-weights array is the first payload of the three input arrays as the region found
    them: the one write-back covers the array and writes the body's result of the whole input arrays. -/
theorem arrAt0_4 (c : Dev nD) :
    (dat0 V c).arrAt 4 cfg0.N
      = (k0_pay1 (V c main_v3) (V c main_arg4) (V c main_v4) : S1x512.Idx → Elt F .f32) := by
  refine (dat0 V c).arrAt_eq_of_cover 4 _ (fun t _ => ?_) (fun i => ⟨t0_0, flush0_4 t0_0, mem_blk0_4 i t0_0⟩)
  rw [flushed0_4, out0_4_eq, iblk0_0_eq, iblk0_1_eq, iblk0_2_eq, read_blk0_4]

/-- AFTER REGION 0 the context array is the second payload of the four input arrays as the region found them. -/
theorem arrAt0_5 (c : Dev nD) :
    (dat0 V c).arrAt 5 cfg0.N
      = (k0_pay2 (V c main_v3) (V c main_arg4) (V c main_v4) (V c main_arg2) : S1x2048.Idx → Elt F .f32) := by
  refine (dat0 V c).arrAt_eq_of_cover 5 _ (fun t _ => ?_) (fun i => ⟨t0_0, flush0_5 t0_0, mem_blk0_5 i t0_0⟩)
  rw [flushed0_5, out0_5_eq, iblk0_0_eq, iblk0_1_eq, iblk0_2_eq, iblk0_3_eq, read_blk0_5]

/-! ## The same, read off the buffers' contents at the region's exit -/

variable (m : (ℓ : Loc nD τ sig) → Buf (Elt F) ℓ)

/-- The attention-weights buffer at the exit of region 0, from the buffers at its entry. -/
theorem exit_weights (c : Dev nD) :
    (Rn.U4 m c (Proc.devRef .tc main_v5_0) : S1x512.Idx → Elt F .f32)
      = k0_pay1 (Rn.U3 m c (Proc.devRef .tc main_v3)) (Rn.U3 m c (Proc.devRef .tc main_arg4))
          (Rn.U3 m c (Proc.devRef .tc main_v4)) :=
  (Rn.U4_arr m c 4).trans (arrAt0_4 (Rn.T3 m) c)

/-- The context buffer at the exit of region 0, from the buffers at its entry. -/
theorem exit_context (c : Dev nD) :
    (Rn.U4 m c (Proc.devRef .tc main_v5_1) : S1x2048.Idx → Elt F .f32)
      = k0_pay2 (Rn.U3 m c (Proc.devRef .tc main_v3)) (Rn.U3 m c (Proc.devRef .tc main_arg4))
          (Rn.U3 m c (Proc.devRef .tc main_v4)) (Rn.U3 m c (Proc.devRef .tc main_arg2)) :=
  (Rn.U4_arr m c 5).trans (arrAt0_5 (Rn.T3 m) c)

end Blocks

/-! ## The bridge at the ideal values

The plain program's buffers are read through ANY valuation R of its references of which the three stage equations
hold (logits, softmax, context: each buffer the printed operation of its operands); the arguments and the query row
agree on the two sides. -/

section Bridge

variable (m : (ℓ : Loc nD τ sig) → Buf (Elt Ideal) ℓ) (c : Dev nD)
variable (R : Valuation Cert.ReferenceIdeal.τ Cert.ReferenceIdeal.sig (Elt Ideal))

/-- THE ATTENTION WEIGHTS AGREE: what region 0 leaves in its first output buffer is the plain program's softmax buffer. -/
theorem weights_eq
    (hx : (Rn.U3 m c (Proc.devRef .tc main_v3) : (⟨2, ![1, 4096]⟩ : Shape).Idx → EReal)
      = R (Proc.devRef .tc Cert.ReferenceIdeal.main_v3))
    (hW : (Rn.U3 m c (Proc.devRef .tc main_arg4) : (⟨2, ![512, 4096]⟩ : Shape).Idx → EReal)
      = R (Proc.devRef .tc Cert.ReferenceIdeal.main_arg4))
    (hb : ∀ j : Fin 512, (Rn.U3 m c (Proc.devRef .tc main_v4) : (⟨2, ![1, 512]⟩ : Shape).Idx → EReal) (ix2 (0 : Fin 1) j)
      = (R (Proc.devRef .tc Cert.ReferenceIdeal.main_arg5) : (⟨1, ![512]⟩ : Shape).Idx → EReal) (ix1 j))
    (hR7 : (R (Proc.devRef .tc Cert.ReferenceIdeal.main_v7) : (⟨2, ![1, 512]⟩ : Shape).Idx → EReal)
      = refLogits (R (Proc.devRef .tc Cert.ReferenceIdeal.main_v3)) (R (Proc.devRef .tc Cert.ReferenceIdeal.main_arg4))
          (R (Proc.devRef .tc Cert.ReferenceIdeal.main_arg5)))
    (hR18 : (R (Proc.devRef .tc Cert.ReferenceIdeal.main_v18) : (⟨2, ![1, 512]⟩ : Shape).Idx → EReal)
      = refSoftmax (R (Proc.devRef .tc Cert.ReferenceIdeal.main_v7))) :
    (Rn.U4 m c (Proc.devRef .tc main_v5_0) : (⟨2, ![1, 512]⟩ : Shape).Idx → EReal)
      = R (Proc.devRef .tc Cert.ReferenceIdeal.main_v18) := by
  rw [exit_weights, hR18, hR7, ← hx, ← hW]
  exact pay1_eq _ _ _ _ Cert.Lib.transDot_512 Cert.Lib.plainDot_dot_S1x4096_S4096x512_S1x512_1_0_0_1_n_n hb

/-- THE CONTEXT ROWS AGREE: what region 0 leaves in its second output buffer is the plain program's product of its
    attention weights with the encoder states. -/
theorem context_eq
    (hx : (Rn.U3 m c (Proc.devRef .tc main_v3) : (⟨2, ![1, 4096]⟩ : Shape).Idx → EReal)
      = R (Proc.devRef .tc Cert.ReferenceIdeal.main_v3))
    (hW : (Rn.U3 m c (Proc.devRef .tc main_arg4) : (⟨2, ![512, 4096]⟩ : Shape).Idx → EReal)
      = R (Proc.devRef .tc Cert.ReferenceIdeal.main_arg4))
    (hb : ∀ j : Fin 512, (Rn.U3 m c (Proc.devRef .tc main_v4) : (⟨2, ![1, 512]⟩ : Shape).Idx → EReal) (ix2 (0 : Fin 1) j)
      = (R (Proc.devRef .tc Cert.ReferenceIdeal.main_arg5) : (⟨1, ![512]⟩ : Shape).Idx → EReal) (ix1 j))
    (hE : (Rn.U3 m c (Proc.devRef .tc main_arg2) : (⟨2, ![512, 2048]⟩ : Shape).Idx → EReal)
      = R (Proc.devRef .tc Cert.ReferenceIdeal.main_arg2))
    (hR7 : (R (Proc.devRef .tc Cert.ReferenceIdeal.main_v7) : (⟨2, ![1, 512]⟩ : Shape).Idx → EReal)
      = refLogits (R (Proc.devRef .tc Cert.ReferenceIdeal.main_v3)) (R (Proc.devRef .tc Cert.ReferenceIdeal.main_arg4))
          (R (Proc.devRef .tc Cert.ReferenceIdeal.main_arg5)))
    (hR18 : (R (Proc.devRef .tc Cert.ReferenceIdeal.main_v18) : (⟨2, ![1, 512]⟩ : Shape).Idx → EReal)
      = refSoftmax (R (Proc.devRef .tc Cert.ReferenceIdeal.main_v7)))
    (hR19 : (R (Proc.devRef .tc Cert.ReferenceIdeal.main_v19) : (⟨2, ![1, 2048]⟩ : Shape).Idx → EReal)
      = refContext (R (Proc.devRef .tc Cert.ReferenceIdeal.main_v18)) (R (Proc.devRef .tc Cert.ReferenceIdeal.main_arg2))) :
    (Rn.U4 m c (Proc.devRef .tc main_v5_1) : (⟨2, ![1, 2048]⟩ : Shape).Idx → EReal)
      = R (Proc.devRef .tc Cert.ReferenceIdeal.main_v19) := by
  rw [exit_context, hR19, hR18, hR7, ← hx, ← hW, ← hE]
  exact pay2_eq_ref _ _ _ _ _ Cert.Lib.transDot_512 Cert.Lib.plainDot_dot_S1x4096_S4096x512_S1x512_1_0_0_1_n_n
    Cert.Lib.plainDot_kernel_dot_S1x512_S512x2048_S1x2048_1_0_0_1_n_n
    Cert.Lib.plainDot_dot_S1x512_S512x2048_S1x2048_1_0_0_1_n_n hb

/-- STAGE 0, both outputs at once, with the bias row given as the kernel's host stretch makes it: the reshape [512] → [1, 512]
    of a vector that is the plain program's bias argument. -/
theorem stage0 (b5 : (⟨1, ![512]⟩ : Shape).Idx → EReal) (hsc : (⟨1, ![512]⟩ : Shape).ShapeCasts ⟨2, ![1, 512]⟩)
    (hx : (Rn.U3 m c (Proc.devRef .tc main_v3) : (⟨2, ![1, 4096]⟩ : Shape).Idx → EReal)
      = R (Proc.devRef .tc Cert.ReferenceIdeal.main_v3))
    (hW : (Rn.U3 m c (Proc.devRef .tc main_arg4) : (⟨2, ![512, 4096]⟩ : Shape).Idx → EReal)
      = R (Proc.devRef .tc Cert.ReferenceIdeal.main_arg4))
    (hv4 : (Rn.U3 m c (Proc.devRef .tc main_v4) : (⟨2, ![1, 512]⟩ : Shape).Idx → EReal) = shapeCast ⟨2, ![1, 512]⟩ b5 hsc)
    (hb5 : b5 = R (Proc.devRef .tc Cert.ReferenceIdeal.main_arg5))
    (hE : (Rn.U3 m c (Proc.devRef .tc main_arg2) : (⟨2, ![512, 2048]⟩ : Shape).Idx → EReal)
      = R (Proc.devRef .tc Cert.ReferenceIdeal.main_arg2))
    (hR7 : (R (Proc.devRef .tc Cert.ReferenceIdeal.main_v7) : (⟨2, ![1, 512]⟩ : Shape).Idx → EReal)
      = refLogits (R (Proc.devRef .tc Cert.ReferenceIdeal.main_v3)) (R (Proc.devRef .tc Cert.ReferenceIdeal.main_arg4))
          (R (Proc.devRef .tc Cert.ReferenceIdeal.main_arg5)))
    (hR18 : (R (Proc.devRef .tc Cert.ReferenceIdeal.main_v18) : (⟨2, ![1, 512]⟩ : Shape).Idx → EReal)
      = refSoftmax (R (Proc.devRef .tc Cert.ReferenceIdeal.main_v7)))
    (hR19 : (R (Proc.devRef .tc Cert.ReferenceIdeal.main_v19) : (⟨2, ![1, 2048]⟩ : Shape).Idx → EReal)
      = refContext (R (Proc.devRef .tc Cert.ReferenceIdeal.main_v18)) (R (Proc.devRef .tc Cert.ReferenceIdeal.main_arg2))) :
    (Rn.U4 m c (Proc.devRef .tc main_v5_0) : (⟨2, ![1, 512]⟩ : Shape).Idx → EReal)
        = R (Proc.devRef .tc Cert.ReferenceIdeal.main_v18)
      ∧ (Rn.U4 m c (Proc.devRef .tc main_v5_1) : (⟨2, ![1, 2048]⟩ : Shape).Idx → EReal)
        = R (Proc.devRef .tc Cert.ReferenceIdeal.main_v19) := by
  have hb : ∀ j : Fin 512, (Rn.U3 m c (Proc.devRef .tc main_v4) : (⟨2, ![1, 512]⟩ : Shape).Idx → EReal) (ix2 (0 : Fin 1) j)
      = (R (Proc.devRef .tc Cert.ReferenceIdeal.main_arg5) : (⟨1, ![512]⟩ : Shape).Idx → EReal) (ix1 j) := fun j => by
    rw [hv4, shapeCast_a_1a_apply, hb5]
  exact ⟨weights_eq m c R hx hW hb hR7 hR18, context_eq m c R hx hW hb hE hR7 hR18 hR19⟩

end Bridge

end Cert.Val.Stage0

end
-- ==== Proof.HostChains.lean ====
/-
  The host arithmetic both programs share, each as ONE function of its inputs.

  * `takeRow E tok`: row `tok` of the table `E` the way `jnp.take` reads it: a negative index is wrapped once by the
    number of rows, the row is gathered, and where the wrapped index still lies outside `[0, 50256]` the row is
    replaced by the quiet-NaN word.
  * `gruHost gi gh h`: one step of a gated recurrent cell from the two projections `gi`, `gh` (each the
    concatenation of the reset, update and candidate parts) and the previous state `h`:
    `r = σ(gi_r + gh_r)`, `z = σ(gi_z + gh_z)`, `n = tanh(gi_n + r · gh_n)`, `h' = (1 − z) · n + z · h`, the logistic
    function written `1 / (1 + exp(−x))`.
  * `logSoftmax x`: `x − max x − log Σ exp(x − max x)` along the row.
-/
import proofs.«153450_j57131654971751_1_alg».proof.KernelIdeal

noncomputable section

namespace Cert.HostChains

open Idealize.ShloMosaic Cert.KernelIdeal Cert.KernelIdeal.Facts₀

variable {F : FTy → Type} [FloatOps F] [Cert.KernelIdeal.Facts₀]

/-- Row `tok` of `E`, out-of-range indices answered by the quiet-NaN word. -/
def takeRow (E : (⟨S50257x2048, .f32⟩ : BufTy).Contents (Elt F)) (tok : (⟨S1x1, .i32⟩ : BufTy).Contents (Elt F)) :
    (⟨S1x2048, .f32⟩ : BufTy).Contents (Elt F) :=
  have v0 : (⟨S1, .i32⟩ : BufTy).Contents (Elt F) := shapeCast S1 tok shapeCasts_S1x1_S1
  have neg : (⟨S1, .i1⟩ : BufTy).Contents (Elt F) := cmpi .slt v0 (broadcastInDim S1 ![] bcast_S_S1 (constantI S_ 32 0#32))
  have wrapped : (⟨S1, .i32⟩ : BufTy).Contents (Elt F) := addi v0 (broadcastInDim S1 ![] bcast_S_S1 (constantI S_ 32 50257#32))
  have idx : (⟨S1, .i32⟩ : BufTy).Contents (Elt F) := select neg wrapped v0
  have idx2 : (⟨S1x1, .i32⟩ : BufTy).Contents (Elt F) := broadcastInDim S1x1 ![0] bcast_S1_S1x1_0 idx
  have lo : (⟨S1x1, .i1⟩ : BufTy).Contents (Elt F) := cmpi .sge idx2 (broadcastInDim S1x1 ![] bcast_S_S1x1 (constantI S_ 32 0#32))
  have hi : (⟨S1x1, .i1⟩ : BufTy).Contents (Elt F) := cmpi .sle idx2 (broadcastInDim S1x1 ![1] bcast_S1_S1x1_1 (constantI S1 32 50256#32))
  have ok : (⟨S1, .i1⟩ : BufTy).Contents (Elt F) := Host.reduce IntOp.andi (andi lo hi) (constantI S_ 1 1#1) reducesTo_S1x1_S1_d1 h_S_
  select (broadcastInDim S1x2048 ![0] bcast_S1_S1x2048_0 ok)
    (Host.gather gather_S50257x2048_S1x1_S1x2048_1_0_n_n_0_1_12048 E idx2)
    (broadcastInDim S1x2048 ![] bcast_S_S1x2048 (constant S_ .f32 0x7FC00000#32))

/-- The logistic function on a row, as the host writes it: `1 / (1 + exp(−x))`. -/
def sigmoidRow (x : (⟨S1x2048, .f32⟩ : BufTy).Contents (Elt F)) : (⟨S1x2048, .f32⟩ : BufTy).Contents (Elt F) :=
  Host.divf (broadcastInDim S1x2048 ![] bcast_S_S1x2048 (constant S_ .f32 0x3F800000#32))
    (addf (broadcastInDim S1x2048 ![] bcast_S_S1x2048 (constant S_ .f32 0x3F800000#32)) (Host.exp (Host.negf x)))

/-- One step of the gated recurrent cell. -/
def gruHost (gi gh : (⟨S1x6144, .f32⟩ : BufTy).Contents (Elt F)) (h : (⟨S1x2048, .f32⟩ : BufTy).Contents (Elt F)) :
    (⟨S1x2048, .f32⟩ : BufTy).Contents (Elt F) :=
  have r := sigmoidRow (addf (extractStridedSlice S1x2048 ![0, 0] gi slices_S1x6144_S1x2048_0_0)
    (extractStridedSlice S1x2048 ![0, 0] gh slices_S1x6144_S1x2048_0_0))
  have z := sigmoidRow (addf (extractStridedSlice S1x2048 ![0, 2048] gi slices_S1x6144_S1x2048_0_2048)
    (extractStridedSlice S1x2048 ![0, 2048] gh slices_S1x6144_S1x2048_0_2048))
  have n := Host.tanh (addf (extractStridedSlice S1x2048 ![0, 4096] gi slices_S1x6144_S1x2048_0_4096)
    (mulf r (extractStridedSlice S1x2048 ![0, 4096] gh slices_S1x6144_S1x2048_0_4096)))
  addf (mulf (subf (broadcastInDim S1x2048 ![] bcast_S_S1x2048 (constant S_ .f32 0x3F800000#32)) z) n) (mulf z h)

/-- The logarithm of the softmax along the row. -/
def logSoftmax (x : (⟨S1x50257, .f32⟩ : BufTy).Contents (Elt F)) : (⟨S1x50257, .f32⟩ : BufTy).Contents (Elt F) :=
  have mx : (⟨S1, .f32⟩ : BufTy).Contents (Elt F) := maximumf (broadcastInDim S1 ![] bcast_S_S1 (constant S_ .f32 0xFF800000#32))
    (Host.reduce FloatOps.maximumf x (constant S_ .f32 0xFF800000#32) reducesTo_S1x50257_S1_d1 h_S_)
  have sh := subf x (broadcastInDim S1x50257 ![0, 1] bcast_S1x1_S1x50257_0_1 (broadcastInDim S1x1 ![0] bcast_S1_S1x1_0 mx))
  subf sh (broadcastInDim S1x50257 ![0, 1] bcast_S1x1_S1x50257_0_1
    (Host.log (broadcastInDim S1x1 ![0] bcast_S1_S1x1_0 (Host.reduceAdd (Host.exp sh) (constant S_ .f32 0x00000000#32) reducesTo_S1x50257_S1_d1 h_S_))))

end Cert.HostChains

end
-- ==== Proof.KGlue.lean ====
/-
  What each host stretch of the kernel's program leaves in the buffers the next region or the results read, as a function of what it
  found: a reshape is the same words in another shape, the two concatenations put the embedding row beside the state (resp. beside the
  attention's context), and the three longer stretches are the shared chains of HostChains (the table row, the recurrent cell's gates, the
  logarithm of the softmax). Stated over ANY contents `W` of the buffers before the stretch.
-/
import proofs.«153450_j57131654971751_1_alg».proof.Proof.Gen.KernelIdeal.Launch
import proofs.«153450_j57131654971751_1_alg».proof.Proof.HostChains
import Idealize.ShloMosaic.Lib.StableHlo.Run

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 1000000 in
/-- The token as a vector of one index. -/
theorem after0_v0 : StableHlo.after hostOps0 W (Proc.devRef .tc main_v0) = shapeCast S1 (W (Proc.devRef .tc main_arg0)) shapeCasts_S1x1_S1 := by
  after_results
  all_goals rfl

set_option maxHeartbeats 1000000 in
/-- The previous state as a row. -/
theorem after02_v2 : StableHlo.after hostOps0_2 W (Proc.devRef .tc main_v2) = shapeCast S1x2048 (W (Proc.devRef .tc main_arg1)) shapeCasts_S1x1x2048_S1x2048 := by
  after_results
  all_goals rfl

set_option maxHeartbeats 1000000 in
/-- The attention's query: the embedding row beside the state. -/
theorem after02_v3 : StableHlo.after hostOps0_2 W (Proc.devRef .tc main_v3)
    = concatenate S1x4096 1 [⟨S1x2048, W (Proc.devRef .tc main_v1)⟩, ⟨S1x2048, shapeCast S1x2048 (W (Proc.devRef .tc main_arg1)) shapeCasts_S1x1x2048_S1x2048⟩] concatenates_S1x2048_S1x2048_S1x4096_d1 := by
  after_results
  all_goals rfl

set_option maxHeartbeats 1000000 in
/-- The attention's bias as a row. -/
theorem after02_v4 : StableHlo.after hostOps0_2 W (Proc.devRef .tc main_v4) = shapeCast S1x512 (W (Proc.devRef .tc main_arg5)) shapeCasts_S512_S1x512 := by
  after_results
  all_goals rfl

set_option maxHeartbeats 1000000 in
/-- The combining layer's input: the embedding row beside the attention's context. -/
theorem after1_v6 : StableHlo.after hostOps1 W (Proc.devRef .tc main_v6)
    = concatenate S1x4096 1 [⟨S1x2048, W (Proc.devRef .tc main_v1)⟩, ⟨S1x2048, W (Proc.devRef .tc main_v5_1)⟩] concatenates_S1x2048_S1x2048_S1x4096_d1 := by
  after_results
  all_goals rfl

set_option maxHeartbeats 1000000 in
theorem after1_v7 : StableHlo.after hostOps1 W (Proc.devRef .tc main_v7) = shapeCast S1x2048 (W (Proc.devRef .tc main_arg7)) shapeCasts_S2048_S1x2048 := by
  after_results
  all_goals rfl

set_option maxHeartbeats 1000000 in
theorem after2_v9 : StableHlo.after hostOps2 W (Proc.devRef .tc main_v9) = shapeCast S1x6144 (W (Proc.devRef .tc main_arg10)) shapeCasts_S6144_S1x6144 := by
  after_results
  all_goals rfl

set_option maxHeartbeats 1000000 in
theorem after2_v10 : StableHlo.after hostOps2 W (Proc.devRef .tc main_v10) = shapeCast S1x6144 (W (Proc.devRef .tc main_arg11)) shapeCasts_S6144_S1x6144 := by
  after_results
  all_goals rfl

set_option maxHeartbeats 4000000 in
theorem after3_v40 : StableHlo.after hostOps3 W (Proc.devRef .tc main_v40) = shapeCast S1x50257 (W (Proc.devRef .tc main_arg13)) shapeCasts_S50257_S1x50257 := by
  after_results
  all_goals rfl

set_option maxHeartbeats 1000000 in
/-- The second result: the new state with a leading unit axis. -/
theorem after41_v43 : StableHlo.after hostOps4_1 W (Proc.devRef .tc main_v43)
    = broadcastInDim S1x1x2048 ![1, 2] bcast_S1x2048_S1x1x2048_1_2 (W (Proc.devRef .tc main_v39)) := by
  after_results
  all_goals rfl

end Cert.KernelIdeal.Glue

end
-- ==== Proof.KGlueTake.lean ====
/-
  The embedding row of the token, read off the kernel program's first two host stretches: the token reshaped to a vector of one index, then the
  table-row gather with its wrap of a negative index and its quiet-NaN answer outside the table (HostChains.takeRow).
-/
import proofs.«153450_j57131654971751_1_alg».proof.Proof.Gen.KernelIdeal.Launch
import proofs.«153450_j57131654971751_1_alg».proof.Proof.HostChains
import Idealize.ShloMosaic.Lib.StableHlo.Run

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 4000000 in
/-- The embedding row of the token. -/
theorem after01_v1 : StableHlo.after hostOps0_1 (StableHlo.after hostOps0 W) (Proc.devRef .tc main_v1)
    = Cert.HostChains.takeRow (W (Proc.devRef .tc main_arg3)) (W (Proc.devRef .tc main_arg0)) := by
  after_results_simp
  rfl

end Cert.KernelIdeal.Glue

end
-- ==== Proof.KGlueGru.lean ====
/-
  The new state, read off the kernel program's host stretch after the two projections: the recurrent cell's gates (HostChains.gruHost) of the
  projections gi, gh and the previous state.
-/
import proofs.«153450_j57131654971751_1_alg».proof.Proof.Gen.KernelIdeal.Launch
import proofs.«153450_j57131654971751_1_alg».proof.Proof.HostChains
import Idealize.ShloMosaic.Lib.StableHlo.Run

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 4000000 in
/-- The new state: the recurrent cell's gates of the two projections and the previous state. -/
theorem after3_v39 : StableHlo.after hostOps3 W (Proc.devRef .tc main_v39)
    = Cert.HostChains.gruHost (W (Proc.devRef .tc main_v11_0)) (W (Proc.devRef .tc main_v11_1)) (W (Proc.devRef .tc main_v2)) := by
  after_results_simp
  rfl

end Cert.KernelIdeal.Glue

end
-- ==== Proof.KGlueLsm.lean ====
/-
  The first result, read off the kernel program's last long host stretch: the logarithm of the softmax (HostChains.logSoftmax) of the output layer's row.
  The stretch is an outlined function's body over typed references; an intermediate value carried into its buffer and read back is the value itself.
-/
import proofs.«153450_j57131654971751_1_alg».proof.Proof.Gen.KernelIdeal.Launch
import proofs.«153450_j57131654971751_1_alg».proof.Proof.HostChains
import Idealize.ShloMosaic.Lib.StableHlo.Run

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

/-- Contents carried to a typed reference's buffer and read back are the contents. -/
theorem ofBuf_toBuf {T : BufTy} (x : TRef sig T) (v : T.Contents (Elt F)) : x.ofBuf (x.toBuf v) = v := by
  obtain ⟨r, h, h2, h3⟩ := x
  subst h
  rfl

set_option maxHeartbeats 4000000 in
/-- The first result: the logarithm of the softmax of the output layer's row. -/
theorem after4_v42 : StableHlo.after hostOps4 W (Proc.devRef .tc main_v42) = Cert.HostChains.logSoftmax (W (Proc.devRef .tc main_v41)) := by
  after_results
  simp only [ofBuf_toBuf]
  rfl

end Cert.KernelIdeal.Glue

end
-- ==== Proof.ChainFacts.lean ====
/-
  What the buffers of a core hold at the boundaries of the kernel's program, read back to the launch memory and to
  what the regions leave. The program is a row of host stretches and kernel regions; between two of them every buffer
  holds either what it held at launch (no stretch in between writes it, no region in between has it among its
  arrays), or what ONE stretch made of the buffers before it (a reshaped argument, the embedding row beside the state
  or beside the attention's context, the embedding row of the token, the recurrent cell's new state, the logarithm of
  the softmax), or what a region left. Each statement below walks one buffer back along the row until it meets the
  item that wrote it.
-/
import proofs.«153450_j57131654971751_1_alg».proof.Proof.KI.Chain
import proofs.«153450_j57131654971751_1_alg».proof.Proof.KGlue
import proofs.«153450_j57131654971751_1_alg».proof.Proof.KGlueTake
import proofs.«153450_j57131654971751_1_alg».proof.Proof.KGlueGru
import proofs.«153450_j57131654971751_1_alg».proof.Proof.KGlueLsm

set_option maxRecDepth 16384

noncomputable section

namespace Cert.KernelIdeal.ChainFacts

open Cert.KernelIdeal Cert.KernelIdeal.Gen
open Idealize.ShloMosaic Idealize.ShloMosaic.TcCoe Idealize.SL.Sem

variable {F : FTy → Type} [FloatOps F]

-- the launch memory, a core, and what the output projection leaves in the logits' buffer
variable (m : (ℓ : Loc nD τ sig) → Buf (Elt F) ℓ)
variable (o : (c : Dev nD) → Buf (Elt F) ((c : Thread nD τ).loc main_v41)) (c : Dev nD)

/-! ## A buffer an item does not touch keeps its contents across it

One step back along the row, per item: a host stretch keeps every buffer it does not write; a region keeps every
buffer that is none of its arrays (and each of its INPUT arrays, which it only reads). -/

theorem U5_keep (r : Ref sig .tc) (h : r ∉ hostOps1_W) : Rn.U5 m c (Proc.devRef .tc r) = Rn.U4 m c (Proc.devRef .tc r) :=
  StableHlo.after_of_writes_sub hostOps1 _ hostOps1_writes h
theorem U7_keep (r : Ref sig .tc) (h : r ∉ hostOps2_W) : Rn.U7 m c (Proc.devRef .tc r) = Rn.U6 m c (Proc.devRef .tc r) :=
  StableHlo.after_of_writes_sub hostOps2 _ hostOps2_writes h
theorem U9_keep (r : Ref sig .tc) (h : r ∉ hostOps3_W) : Rn.U9 m c (Proc.devRef .tc r) = Rn.U8 m c (Proc.devRef .tc r) :=
  StableHlo.after_of_writes_sub hostOps3 _ hostOps3_writes h
theorem U10_keep (r : Ref sig .tc) (h : r ≠ main_v41) : Rn.U10 m o c (Proc.devRef .tc r) = Rn.U9 m c (Proc.devRef .tc r) :=
  Rn.U10_of_ne m o c _ (StableHlo.devRef_ne_of_ne h)
theorem U11_keep (r : Ref sig .tc) (h : r ∉ hostOps4_W) : Rn.U11 m o c (Proc.devRef .tc r) = Rn.U10 m o c (Proc.devRef .tc r) :=
  StableHlo.after_of_writes_sub hostOps4 _ hostOps4_writes h
theorem U12_keep (r : Ref sig .tc) (h : r ∉ hostOps4_1_W) : Rn.U12 m o c (Proc.devRef .tc r) = Rn.U11 m o c (Proc.devRef .tc r) :=
  StableHlo.after_of_writes_sub hostOps4_1 _ hostOps4_1_writes h

/-! ## Buffers still holding their launch contents

A buffer that none of the items so far writes (host stretches) or has among its arrays (regions) holds what it was
launched with. Stated once per boundary, for any such buffer; the hypotheses are decided at each use. -/

theorem V2_launch (r : Ref sig .tc) (h0 : r ∉ hostOps0_W) (h1 : r ∉ hostOps0_1_W) :
    Gen.V2 m c (Proc.devRef .tc r) = (m ((c : Thread nD τ).loc r)) :=
  (Gen.V2_of m c r h1).trans ((Gen.V1_of m c r h0).trans rfl)
theorem U3_launch (r : Ref sig .tc) (h0 : r ∉ hostOps0_W) (h1 : r ∉ hostOps0_1_W) (h2 : r ∉ hostOps0_2_W) :
    Rn.U3 m c (Proc.devRef .tc r) = (m ((c : Thread nD τ).loc r)) :=
  (Gen.V3_of m c r h2).trans (V2_launch m c r h0 h1)
theorem U4_launch (r : Ref sig .tc) (h0 : r ∉ hostOps0_W) (h1 : r ∉ hostOps0_1_W) (h2 : r ∉ hostOps0_2_W)
    (h3 : ∀ w, Pipeline.arrRef spec0 w ≠ r) : Rn.U4 m c (Proc.devRef .tc r) = (m ((c : Thread nD τ).loc r)) :=
  (Rn.U4_of_ne m c r h3).trans (U3_launch m c r h0 h1 h2)
theorem U5_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) : Rn.U5 m c (Proc.devRef .tc r) = (m ((c : Thread nD τ).loc r)) :=
  (U5_keep m c r h4).trans (U4_launch m c r h0 h1 h2 h3)
theorem U6_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    Rn.U6 m c (Proc.devRef .tc r) = (m ((c : Thread nD τ).loc r)) :=
  (Rn.U6_of_ne m c r h5).trans (U5_launch m c r h0 h1 h2 h3 h4)
theorem U7_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) : Rn.U7 m c (Proc.devRef .tc r) = (m ((c : Thread nD τ).loc r)) :=
  (U7_keep m c r h6).trans (U6_launch m c r h0 h1 h2 h3 h4 h5)
theorem U8_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : ∀ w, Pipeline.arrRef spec2 w ≠ r) : Rn.U8 m c (Proc.devRef .tc r) = (m ((c : Thread nD τ).loc r)) :=
  (Rn.U8_of_ne m c r h7).trans (U7_launch m c r h0 h1 h2 h3 h4 h5 h6)

/-! ## Entering region 0 (the attention kernel) -/

/-- The embedding row of the token: the first stretch reshapes the token, the second looks its row up in the table;
    the third stretch does not write it. -/
theorem U3_v1 : Rn.U3 m c (Proc.devRef .tc main_v1)
    = Cert.HostChains.takeRow (m ((c : Thread nD τ).loc main_arg3)) (m ((c : Thread nD τ).loc main_arg0)) :=
  (Gen.V3_of m c main_v1 (by decide)).trans (Glue.after01_v1 (Gen.V0 m c))

/-- The previous state as a row. -/
theorem U3_v2 : Rn.U3 m c (Proc.devRef .tc main_v2)
    = shapeCast S1x2048 (m ((c : Thread nD τ).loc main_arg1)) shapeCasts_S1x1x2048_S1x2048 :=
  (Glue.after02_v2 (Gen.V2 m c)).trans (by rw [V2_launch m c main_arg1 (by decide) (by decide)])

/-- The attention's query: the embedding row beside the previous state. -/
theorem U3_v3 : Rn.U3 m c (Proc.devRef .tc main_v3)
    = concatenate S1x4096 1 [⟨S1x2048, Rn.U3 m c (Proc.devRef .tc main_v1)⟩, ⟨S1x2048, Rn.U3 m c (Proc.devRef .tc main_v2)⟩]
        concatenates_S1x2048_S1x2048_S1x4096_d1 :=
  (Glue.after02_v3 (Gen.V2 m c)).trans (by rw [← Gen.V3_of m c main_v1 (by decide), ← Glue.after02_v2 (Gen.V2 m c)])

/-- The attention's bias as a row. -/
theorem U3_v4 : Rn.U3 m c (Proc.devRef .tc main_v4)
    = shapeCast S1x512 (m ((c : Thread nD τ).loc main_arg5)) shapeCasts_S512_S1x512 :=
  (Glue.after02_v4 (Gen.V2 m c)).trans (by rw [V2_launch m c main_arg5 (by decide) (by decide)])

/-- The encoder's outputs and the attention's weight matrix, as launched. -/
theorem U3_arg2 : Rn.U3 m c (Proc.devRef .tc main_arg2) = (m ((c : Thread nD τ).loc main_arg2)) :=
  U3_launch m c main_arg2 (by decide) (by decide) (by decide)
theorem U3_arg4 : Rn.U3 m c (Proc.devRef .tc main_arg4) = (m ((c : Thread nD τ).loc main_arg4)) :=
  U3_launch m c main_arg4 (by decide) (by decide) (by decide)

/-! ## Entering region 1 (the combining layer) -/

/-- Region 0 does not have the embedding row among its arrays. -/
theorem U4_v1 : Rn.U4 m c (Proc.devRef .tc main_v1) = Rn.U3 m c (Proc.devRef .tc main_v1) :=
  Rn.U4_of_ne m c main_v1 (by decide)

/-- The combining layer's input: the embedding row beside the attention's context (what region 0 left). -/
theorem U5_v6 : Rn.U5 m c (Proc.devRef .tc main_v6)
    = concatenate S1x4096 1 [⟨S1x2048, Rn.U3 m c (Proc.devRef .tc main_v1)⟩, ⟨S1x2048, Rn.U4 m c (Proc.devRef .tc main_v5_1)⟩]
        concatenates_S1x2048_S1x2048_S1x4096_d1 :=
  (Glue.after1_v6 (Rn.U4 m c)).trans (by rw [U4_v1 m c])

/-- The combining layer's bias as a row. -/
theorem U5_v7 : Rn.U5 m c (Proc.devRef .tc main_v7)
    = shapeCast S1x2048 (m ((c : Thread nD τ).loc main_arg7)) shapeCasts_S2048_S1x2048 :=
  (Glue.after1_v7 (Rn.U4 m c)).trans (by rw [U4_launch m c main_arg7 (by decide) (by decide) (by decide) (by decide)])

/-- The combining layer's weight matrix, as launched. -/
theorem U5_arg6 : Rn.U5 m c (Proc.devRef .tc main_arg6) = (m ((c : Thread nD τ).loc main_arg6)) :=
  U5_launch m c main_arg6 (by decide) (by decide) (by decide) (by decide) (by decide)

/-! ## Entering region 2 (the recurrent cell's two projections) -/

/-- The combined row is what region 1 left: the stretch between does not write it. -/
theorem U7_v8 : Rn.U7 m c (Proc.devRef .tc main_v8) = Rn.U6 m c (Proc.devRef .tc main_v8) :=
  U7_keep m c main_v8 (by decide)

/-- The previous state's row is still the one made before region 0: no stretch since writes it, regions 0 and 1 do not
    have it among their arrays. -/
theorem U7_v2 : Rn.U7 m c (Proc.devRef .tc main_v2) = Rn.U3 m c (Proc.devRef .tc main_v2) :=
  (U7_keep m c main_v2 (by decide)).trans <| (Rn.U6_of_ne m c main_v2 (by decide)).trans <|
    (U5_keep m c main_v2 (by decide)).trans (Rn.U4_of_ne m c main_v2 (by decide))

/-- The two bias vectors of the cell as rows. -/
theorem U7_v9 : Rn.U7 m c (Proc.devRef .tc main_v9)
    = shapeCast S1x6144 (m ((c : Thread nD τ).loc main_arg10)) shapeCasts_S6144_S1x6144 :=
  (Glue.after2_v9 (Rn.U6 m c)).trans (by rw [U6_launch m c main_arg10 (by decide) (by decide) (by decide) (by decide) (by decide) (by decide)])
theorem U7_v10 : Rn.U7 m c (Proc.devRef .tc main_v10)
    = shapeCast S1x6144 (m ((c : Thread nD τ).loc main_arg11)) shapeCasts_S6144_S1x6144 :=
  (Glue.after2_v10 (Rn.U6 m c)).trans (by rw [U6_launch m c main_arg11 (by decide) (by decide) (by decide) (by decide) (by decide) (by decide)])

/-- The cell's two weight matrices, as launched. -/
theorem U7_arg8 : Rn.U7 m c (Proc.devRef .tc main_arg8) = (m ((c : Thread nD τ).loc main_arg8)) :=
  U7_launch m c main_arg8 (by decide) (by decide) (by decide) (by decide) (by decide) (by decide) (by decide)
theorem U7_arg9 : Rn.U7 m c (Proc.devRef .tc main_arg9) = (m ((c : Thread nD τ).loc main_arg9)) :=
  U7_launch m c main_arg9 (by decide) (by decide) (by decide) (by decide) (by decide) (by decide) (by decide)

/-! ## Entering region 3 (the output projection) -/

/-- Region 2 only reads the previous state's row (its window 1): the row leaves the region as it entered. -/
theorem U8_v2 : Rn.U8 m c (Proc.devRef .tc main_v2) = Rn.U3 m c (Proc.devRef .tc main_v2) :=
  (Rn.U8_arr m c 1).trans <| ((Rg.dat2 (Rn.T7 m) c).arrAt_in 1 rfl _).trans <| (Rg.A_eq2 (Rn.T7 m) c 1).trans (U7_v2 m c)

/-- The new state: the recurrent cell's gates of the two projections region 2 left and the previous state. -/
theorem U9_v39 : Rn.U9 m c (Proc.devRef .tc main_v39)
    = Cert.HostChains.gruHost (Rn.U8 m c (Proc.devRef .tc main_v11_0)) (Rn.U8 m c (Proc.devRef .tc main_v11_1)) (Rn.U3 m c (Proc.devRef .tc main_v2)) :=
  (Glue.after3_v39 (Rn.U8 m c)).trans (by rw [U8_v2 m c])

/-- The output layer's bias as a row. -/
theorem U9_v40 : Rn.U9 m c (Proc.devRef .tc main_v40)
    = shapeCast S1x50257 (m ((c : Thread nD τ).loc main_arg13)) shapeCasts_S50257_S1x50257 :=
  (Glue.after3_v40 (Rn.U8 m c)).trans (by rw [U8_launch m c main_arg13 (by decide) (by decide) (by decide) (by decide) (by decide) (by decide) (by decide) (by decide)])

/-- The output layer's weight matrix, as launched. -/
theorem U9_arg12 : Rn.U9 m c (Proc.devRef .tc main_arg12) = (m ((c : Thread nD τ).loc main_arg12)) :=
  (U9_keep m c main_arg12 (by decide)).trans
    (U8_launch m c main_arg12 (by decide) (by decide) (by decide) (by decide) (by decide) (by decide) (by decide) (by decide))

/-! ## At the return -/

/-- The first result: the logarithm of the softmax of what region 3 left in the logits' buffer. -/
theorem U12_v42 : Rn.U12 m o c (Proc.devRef .tc main_v42) = Cert.HostChains.logSoftmax (o c) :=
  (U12_keep m o c main_v42 (by decide)).trans ((Glue.after4_v42 (Rn.U10 m o c)).trans (by rw [Rn.U10_out m o c]))

/-- The new state is not written after the gate arithmetic. -/
theorem U11_v39 : Rn.U11 m o c (Proc.devRef .tc main_v39) = Rn.U9 m c (Proc.devRef .tc main_v39) :=
  (U11_keep m o c main_v39 (by decide)).trans (U10_keep m o c main_v39 (by decide))

/-- The second result: the new state with a leading unit axis. -/
theorem U12_v43 : Rn.U12 m o c (Proc.devRef .tc main_v43)
    = broadcastInDim S1x1x2048 ![1, 2] bcast_S1x2048_S1x1x2048_1_2 (Rn.U9 m c (Proc.devRef .tc main_v39)) :=
  (Glue.after41_v43 (Rn.U11 m o c)).trans (by rw [U11_v39 m o c])

/-- The third result, the attention weights, is what region 0 left: nothing after it writes that buffer. -/
theorem U12_v5_0 : Rn.U12 m o c (Proc.devRef .tc main_v5_0) = Rn.U4 m c (Proc.devRef .tc main_v5_0) :=
  (U12_keep m o c main_v5_0 (by decide)).trans <| (U11_keep m o c main_v5_0 (by decide)).trans <|
    (U10_keep m o c main_v5_0 (by decide)).trans <| (U9_keep m c main_v5_0 (by decide)).trans <|
    (Rn.U8_of_ne m c main_v5_0 (by decide)).trans <| (U7_keep m c main_v5_0 (by decide)).trans <|
    (Rn.U6_of_ne m c main_v5_0 (by decide)).trans (U5_keep m c main_v5_0 (by decide))

end Cert.KernelIdeal.ChainFacts

end
-- ==== Proof.GlueFront.lean ====
/-
  The front of the glue: from the arguments' agreement to the combining layer's input.

  Both programs start the decoder step alike. The token's row of the embedding table (the shared lookup of the table
  argument at the token argument) and the previous state read as a row [1, 2048] are each ONE function of arguments
  that agree, so they agree. The attention's query is the two side by side; the attention weights and the context row
  agree by stage 0, whose other inputs (score matrix, score bias, encoder states) are arguments; the combining
  layer's input is the embedding row beside the context row. Side by side is the same function in both programs.
-/
import proofs.«153450_j57131654971751_1_alg».proof.Proof.Stage0
import proofs.«153450_j57131654971751_1_alg».proof.Proof.ChainFacts
import proofs.«153450_j57131654971751_1_alg».proof.Proof.RefRun

set_option maxRecDepth 16384

noncomputable section

namespace Cert.Val.Glue

open Cert.KernelIdeal Cert.KernelIdeal.Gen
open Idealize.ShloMosaic Idealize.ShloMosaic.TcCoe Idealize.ShloMosaic.ValueIdx Idealize.SL.Sem
open Cert.Val.Stage0

variable (m : (ℓ : Loc nD τ sig) → Buf (Elt Ideal) ℓ)
variable (m' : (ℓ : Loc Cert.ReferenceIdeal.nD Cert.ReferenceIdeal.τ Cert.ReferenceIdeal.sig) → Buf (Elt Ideal) ℓ)
variable (c : Dev nD)

/-- The plain program's buffers after its run. -/
local notation "RV" => Cert.ReferenceIdeal.RefRun.R (F := Ideal) m' c

/-- An argument of the plain program ends at what it was launched with. -/
theorem ref_arg (r : Ref Cert.ReferenceIdeal.sig .tc) (hr : r ∉ Cert.ReferenceIdeal.RefRun.written) :
    RV (Proc.devRef .tc r) = m' ((c.tc : Thread Cert.ReferenceIdeal.nD Cert.ReferenceIdeal.τ).loc r) :=
  Cert.ReferenceIdeal.RefRun.arg_kept m' c r hr

/-! ## The embedding row, the state row, the query -/

/-- The token's embedding row: the shared lookup of arguments that agree. -/
theorem front_v1
    (hA0 : m' ((c.tc : Thread Cert.ReferenceIdeal.nD Cert.ReferenceIdeal.τ).loc Cert.ReferenceIdeal.main_arg0)
      = m ((c.tc : Thread nD τ).loc main_arg0))
    (hA3 : m' ((c.tc : Thread Cert.ReferenceIdeal.nD Cert.ReferenceIdeal.τ).loc Cert.ReferenceIdeal.main_arg3)
      = m ((c.tc : Thread nD τ).loc main_arg3))
    (hR1 : (RV (Proc.devRef .tc Cert.ReferenceIdeal.main_v1) : (⟨Cert.ReferenceIdeal.S1x2048, .f32⟩ : BufTy).Contents (Elt Ideal))
      = Cert.HostChains.takeRow
          (RV (Proc.devRef .tc Cert.ReferenceIdeal.main_arg3) : (⟨Cert.ReferenceIdeal.S50257x2048, .f32⟩ : BufTy).Contents (Elt Ideal))
          (RV (Proc.devRef .tc Cert.ReferenceIdeal.main_arg0) : (⟨Cert.ReferenceIdeal.S1x1, .i32⟩ : BufTy).Contents (Elt Ideal))) :
    (Rn.U3 m c (Proc.devRef .tc main_v1) : (⟨2, ![1, 2048]⟩ : Shape).Idx → EReal)
      = RV (Proc.devRef .tc Cert.ReferenceIdeal.main_v1) := by
  rw [ChainFacts.U3_v1, hR1, ref_arg m' c Cert.ReferenceIdeal.main_arg3 (by decide),
    ref_arg m' c Cert.ReferenceIdeal.main_arg0 (by decide), hA3, hA0]

/-- The previous state as a row: the same reshape of arguments that agree. -/
theorem front_v2
    (hA1 : m' ((c.tc : Thread Cert.ReferenceIdeal.nD Cert.ReferenceIdeal.τ).loc Cert.ReferenceIdeal.main_arg1)
      = m ((c.tc : Thread nD τ).loc main_arg1))
    (hR2 : (RV (Proc.devRef .tc Cert.ReferenceIdeal.main_v2) : (⟨Cert.ReferenceIdeal.S1x2048, .f32⟩ : BufTy).Contents (Elt Ideal))
      = shapeCast Cert.ReferenceIdeal.S1x2048
          (RV (Proc.devRef .tc Cert.ReferenceIdeal.main_arg1) : (⟨Cert.ReferenceIdeal.S1x1x2048, .f32⟩ : BufTy).Contents (Elt Ideal))
          Cert.ReferenceIdeal.Gen.shapeCasts_S1x1x2048_S1x2048) :
    (Rn.U3 m c (Proc.devRef .tc main_v2) : (⟨2, ![1, 2048]⟩ : Shape).Idx → EReal)
      = RV (Proc.devRef .tc Cert.ReferenceIdeal.main_v2) := by
  rw [ChainFacts.U3_v2, hR2, ref_arg m' c Cert.ReferenceIdeal.main_arg1 (by decide), hA1]

/-- The attention's query: the embedding row beside the state row, on both sides the same function of rows that agree. -/
theorem front_v3
    (h1 : (Rn.U3 m c (Proc.devRef .tc main_v1) : (⟨2, ![1, 2048]⟩ : Shape).Idx → EReal)
      = RV (Proc.devRef .tc Cert.ReferenceIdeal.main_v1))
    (h2 : (Rn.U3 m c (Proc.devRef .tc main_v2) : (⟨2, ![1, 2048]⟩ : Shape).Idx → EReal)
      = RV (Proc.devRef .tc Cert.ReferenceIdeal.main_v2))
    (hR3 : (RV (Proc.devRef .tc Cert.ReferenceIdeal.main_v3) : (⟨Cert.ReferenceIdeal.S1x4096, .f32⟩ : BufTy).Contents (Elt Ideal))
      = concatenate Cert.ReferenceIdeal.S1x4096 1
          [⟨Cert.ReferenceIdeal.S1x2048, (RV (Proc.devRef .tc Cert.ReferenceIdeal.main_v1) : (⟨Cert.ReferenceIdeal.S1x2048, .f32⟩ : BufTy).Contents (Elt Ideal))⟩,
           ⟨Cert.ReferenceIdeal.S1x2048, (RV (Proc.devRef .tc Cert.ReferenceIdeal.main_v2) : (⟨Cert.ReferenceIdeal.S1x2048, .f32⟩ : BufTy).Contents (Elt Ideal))⟩]
          Cert.ReferenceIdeal.Gen.concatenates_S1x2048_S1x2048_S1x4096_d1) :
    (Rn.U3 m c (Proc.devRef .tc main_v3) : (⟨2, ![1, 4096]⟩ : Shape).Idx → EReal)
      = RV (Proc.devRef .tc Cert.ReferenceIdeal.main_v3) := by
  rw [ChainFacts.U3_v3, hR3, h1, h2]

/-! ## Stage 0's other inputs are arguments -/

/-- The score matrix entering region 0 is the plain program's. -/
theorem front_W
    (hA4 : m' ((c.tc : Thread Cert.ReferenceIdeal.nD Cert.ReferenceIdeal.τ).loc Cert.ReferenceIdeal.main_arg4)
      = m ((c.tc : Thread nD τ).loc main_arg4)) :
    (Rn.U3 m c (Proc.devRef .tc main_arg4) : (⟨2, ![512, 4096]⟩ : Shape).Idx → EReal)
      = RV (Proc.devRef .tc Cert.ReferenceIdeal.main_arg4) := by
  rw [ChainFacts.U3_arg4, ref_arg m' c Cert.ReferenceIdeal.main_arg4 (by decide), hA4]

/-- The encoder states entering region 0 are the plain program's. -/
theorem front_E
    (hA2 : m' ((c.tc : Thread Cert.ReferenceIdeal.nD Cert.ReferenceIdeal.τ).loc Cert.ReferenceIdeal.main_arg2)
      = m ((c.tc : Thread nD τ).loc main_arg2)) :
    (Rn.U3 m c (Proc.devRef .tc main_arg2) : (⟨2, ![512, 2048]⟩ : Shape).Idx → EReal)
      = RV (Proc.devRef .tc Cert.ReferenceIdeal.main_arg2) := by
  rw [ChainFacts.U3_arg2, ref_arg m' c Cert.ReferenceIdeal.main_arg2 (by decide), hA2]

/-- The score bias vector of the tiled program's launch memory is the plain program's bias buffer. -/
theorem front_b
    (hA5 : m' ((c.tc : Thread Cert.ReferenceIdeal.nD Cert.ReferenceIdeal.τ).loc Cert.ReferenceIdeal.main_arg5)
      = m ((c.tc : Thread nD τ).loc main_arg5)) :
    (m ((c.tc : Thread nD τ).loc main_arg5) : (⟨1, ![512]⟩ : Shape).Idx → EReal)
      = RV (Proc.devRef .tc Cert.ReferenceIdeal.main_arg5) := by
  rw [ref_arg m' c Cert.ReferenceIdeal.main_arg5 (by decide), hA5]

/-! ## The combining layer's input -/

/-- The embedding row beside the context row, on both sides the same function of rows that agree. -/
theorem front_v6
    (h1 : (Rn.U3 m c (Proc.devRef .tc main_v1) : (⟨2, ![1, 2048]⟩ : Shape).Idx → EReal)
      = RV (Proc.devRef .tc Cert.ReferenceIdeal.main_v1))
    (h19 : (Rn.U4 m c (Proc.devRef .tc main_v5_1) : (⟨2, ![1, 2048]⟩ : Shape).Idx → EReal)
      = RV (Proc.devRef .tc Cert.ReferenceIdeal.main_v19))
    (hR20 : (RV (Proc.devRef .tc Cert.ReferenceIdeal.main_v20) : (⟨Cert.ReferenceIdeal.S1x4096, .f32⟩ : BufTy).Contents (Elt Ideal))
      = concatenate Cert.ReferenceIdeal.S1x4096 1
          [⟨Cert.ReferenceIdeal.S1x2048, (RV (Proc.devRef .tc Cert.ReferenceIdeal.main_v1) : (⟨Cert.ReferenceIdeal.S1x2048, .f32⟩ : BufTy).Contents (Elt Ideal))⟩,
           ⟨Cert.ReferenceIdeal.S1x2048, (RV (Proc.devRef .tc Cert.ReferenceIdeal.main_v19) : (⟨Cert.ReferenceIdeal.S1x2048, .f32⟩ : BufTy).Contents (Elt Ideal))⟩]
          Cert.ReferenceIdeal.Gen.concatenates_S1x2048_S1x2048_S1x4096_d1) :
    (Rn.U5 m c (Proc.devRef .tc main_v6) : (⟨2, ![1, 4096]⟩ : Shape).Idx → EReal)
      = RV (Proc.devRef .tc Cert.ReferenceIdeal.main_v20) := by
  rw [ChainFacts.U5_v6, hR20, h1, h19]

/-! ## The front, whole -/

/-- THE FRONT OF THE GLUE: from arguments 0–5 agreeing and the plain program's seven stage equations, the embedding row,
    the state row, the query, the attention weights, the context row and the combining layer's input agree. -/
theorem front
    (hA0 : m' ((c.tc : Thread Cert.ReferenceIdeal.nD Cert.ReferenceIdeal.τ).loc Cert.ReferenceIdeal.main_arg0)
      = m ((c.tc : Thread nD τ).loc main_arg0))
    (hA1 : m' ((c.tc : Thread Cert.ReferenceIdeal.nD Cert.ReferenceIdeal.τ).loc Cert.ReferenceIdeal.main_arg1)
      = m ((c.tc : Thread nD τ).loc main_arg1))
    (hA2 : m' ((c.tc : Thread Cert.ReferenceIdeal.nD Cert.ReferenceIdeal.τ).loc Cert.ReferenceIdeal.main_arg2)
      = m ((c.tc : Thread nD τ).loc main_arg2))
    (hA3 : m' ((c.tc : Thread Cert.ReferenceIdeal.nD Cert.ReferenceIdeal.τ).loc Cert.ReferenceIdeal.main_arg3)
      = m ((c.tc : Thread nD τ).loc main_arg3))
    (hA4 : m' ((c.tc : Thread Cert.ReferenceIdeal.nD Cert.ReferenceIdeal.τ).loc Cert.ReferenceIdeal.main_arg4)
      = m ((c.tc : Thread nD τ).loc main_arg4))
    (hA5 : m' ((c.tc : Thread Cert.ReferenceIdeal.nD Cert.ReferenceIdeal.τ).loc Cert.ReferenceIdeal.main_arg5)
      = m ((c.tc : Thread nD τ).loc main_arg5))
    (hR1 : (RV (Proc.devRef .tc Cert.ReferenceIdeal.main_v1) : (⟨Cert.ReferenceIdeal.S1x2048, .f32⟩ : BufTy).Contents (Elt Ideal))
      = Cert.HostChains.takeRow
          (RV (Proc.devRef .tc Cert.ReferenceIdeal.main_arg3) : (⟨Cert.ReferenceIdeal.S50257x2048, .f32⟩ : BufTy).Contents (Elt Ideal))
          (RV (Proc.devRef .tc Cert.ReferenceIdeal.main_arg0) : (⟨Cert.ReferenceIdeal.S1x1, .i32⟩ : BufTy).Contents (Elt Ideal)))
    (hR2 : (RV (Proc.devRef .tc Cert.ReferenceIdeal.main_v2) : (⟨Cert.ReferenceIdeal.S1x2048, .f32⟩ : BufTy).Contents (Elt Ideal))
      = shapeCast Cert.ReferenceIdeal.S1x2048
          (RV (Proc.devRef .tc Cert.ReferenceIdeal.main_arg1) : (⟨Cert.ReferenceIdeal.S1x1x2048, .f32⟩ : BufTy).Contents (Elt Ideal))
          Cert.ReferenceIdeal.Gen.shapeCasts_S1x1x2048_S1x2048)
    (hR3 : (RV (Proc.devRef .tc Cert.ReferenceIdeal.main_v3) : (⟨Cert.ReferenceIdeal.S1x4096, .f32⟩ : BufTy).Contents (Elt Ideal))
      = concatenate Cert.ReferenceIdeal.S1x4096 1
          [⟨Cert.ReferenceIdeal.S1x2048, (RV (Proc.devRef .tc Cert.ReferenceIdeal.main_v1) : (⟨Cert.ReferenceIdeal.S1x2048, .f32⟩ : BufTy).Contents (Elt Ideal))⟩,
           ⟨Cert.ReferenceIdeal.S1x2048, (RV (Proc.devRef .tc Cert.ReferenceIdeal.main_v2) : (⟨Cert.ReferenceIdeal.S1x2048, .f32⟩ : BufTy).Contents (Elt Ideal))⟩]
          Cert.ReferenceIdeal.Gen.concatenates_S1x2048_S1x2048_S1x4096_d1)
    (hR7 : (RV (Proc.devRef .tc Cert.ReferenceIdeal.main_v7) : (⟨2, ![1, 512]⟩ : Shape).Idx → EReal)
      = refLogits (RV (Proc.devRef .tc Cert.ReferenceIdeal.main_v3)) (RV (Proc.devRef .tc Cert.ReferenceIdeal.main_arg4))
          (RV (Proc.devRef .tc Cert.ReferenceIdeal.main_arg5)))
    (hR18 : (RV (Proc.devRef .tc Cert.ReferenceIdeal.main_v18) : (⟨2, ![1, 512]⟩ : Shape).Idx → EReal)
      = refSoftmax (RV (Proc.devRef .tc Cert.ReferenceIdeal.main_v7)))
    (hR19 : (RV (Proc.devRef .tc Cert.ReferenceIdeal.main_v19) : (⟨2, ![1, 2048]⟩ : Shape).Idx → EReal)
      = refContext (RV (Proc.devRef .tc Cert.ReferenceIdeal.main_v18)) (RV (Proc.devRef .tc Cert.ReferenceIdeal.main_arg2)))
    (hR20 : (RV (Proc.devRef .tc Cert.ReferenceIdeal.main_v20) : (⟨Cert.ReferenceIdeal.S1x4096, .f32⟩ : BufTy).Contents (Elt Ideal))
      = concatenate Cert.ReferenceIdeal.S1x4096 1
          [⟨Cert.ReferenceIdeal.S1x2048, (RV (Proc.devRef .tc Cert.ReferenceIdeal.main_v1) : (⟨Cert.ReferenceIdeal.S1x2048, .f32⟩ : BufTy).Contents (Elt Ideal))⟩,
           ⟨Cert.ReferenceIdeal.S1x2048, (RV (Proc.devRef .tc Cert.ReferenceIdeal.main_v19) : (⟨Cert.ReferenceIdeal.S1x2048, .f32⟩ : BufTy).Contents (Elt Ideal))⟩]
          Cert.ReferenceIdeal.Gen.concatenates_S1x2048_S1x2048_S1x4096_d1) :
    (Rn.U3 m c (Proc.devRef .tc main_v1) : (⟨2, ![1, 2048]⟩ : Shape).Idx → EReal) = RV (Proc.devRef .tc Cert.ReferenceIdeal.main_v1)
    ∧ (Rn.U3 m c (Proc.devRef .tc main_v2) : (⟨2, ![1, 2048]⟩ : Shape).Idx → EReal) = RV (Proc.devRef .tc Cert.ReferenceIdeal.main_v2)
    ∧ (Rn.U3 m c (Proc.devRef .tc main_v3) : (⟨2, ![1, 4096]⟩ : Shape).Idx → EReal) = RV (Proc.devRef .tc Cert.ReferenceIdeal.main_v3)
    ∧ (Rn.U4 m c (Proc.devRef .tc main_v5_0) : (⟨2, ![1, 512]⟩ : Shape).Idx → EReal) = RV (Proc.devRef .tc Cert.ReferenceIdeal.main_v18)
    ∧ (Rn.U4 m c (Proc.devRef .tc main_v5_1) : (⟨2, ![1, 2048]⟩ : Shape).Idx → EReal) = RV (Proc.devRef .tc Cert.ReferenceIdeal.main_v19)
    ∧ (Rn.U5 m c (Proc.devRef .tc main_v6) : (⟨2, ![1, 4096]⟩ : Shape).Idx → EReal) = RV (Proc.devRef .tc Cert.ReferenceIdeal.main_v20) := by
  have h1 := front_v1 m m' c hA0 hA3 hR1
  have h2 := front_v2 m m' c hA1 hR2
  have h3 := front_v3 m m' c h1 h2 hR3
  obtain ⟨h18, h19⟩ := stage0 m c RV (m ((c.tc : Thread nD τ).loc main_arg5)) shapeCasts_S512_S1x512 h3
    (front_W m m' c hA4) (ChainFacts.U3_v4 m c) (front_b m m' c hA5) (front_E m m' c hA2) hR7 hR18 hR19
  exact ⟨h1, h2, h3, h18, h19, front_v6 m m' c h1 h19 hR20⟩

end Cert.Val.Glue

end
-- ==== Proof.Stage2.lean ====
import proofs.«153450_j57131654971751_1_alg».proof.Proof.KI.Reg2
import proofs.«153450_j57131654971751_1_alg».proof.Proof.KI.Chain
import proofs.«153450_j57131654971751_1_alg».proof.Proof.RefRun
import proofs.«153450_j57131654971751_1_alg».proof.Proof.ChainFacts
import proofs.«153450_j57131654971751_1_alg».proof.Proof.DotFacts
import proofs.«153450_j57131654971751_1_alg».proof.Proof.LibAffineRows
import proofs.«153450_j57131654971751_1_alg».proof.Proof.LibMatvecT
import Idealize.ShloMosaic.Lib.ValueIdx
import Idealize.ShloMosaic.Lib.ValueLayout
import Idealize.ShloMosaic.Lib.Pipeline.Value
import Idealize.ShloMosaic.PureOps.Ideal.Laws

/-!
# The two projections of the recurrent cell, kernel against reference

The recurrent cell needs two rows of 6144 numbers: `gi = x · W_ihᵀ + b_ih` from the cell's input row `x` ([1,2048]) and
`gh = h · W_hhᵀ + b_hh` from the previous state `h` ([1,2048]); each weight matrix is [6144,2048], one row per output
column. Entry `n` of either row is the inner product of the input row with row `n` of the matrix, plus entry `n` of the
bias:   `giRow x W b (0, n) = ∑ k, x (0, k) · W (n, k) + b (0, n)`.

* The kernel computes the rows on a grid of six points: point `t` owns columns `1024·t … 1024·t + 1023`, multiplies the
  input row by the transpose of rows `1024·t …` of the matrix, adds the matching 1024 bias entries and writes the 1024
  results back. Over the extended reals the narrowing of the operands is the identity and the product is the textbook
  sum, so what point `t` writes is block `t` of `giRow`; the six blocks tile the row, so the array ends holding `giRow`.
* The reference exchanges the matrix's axes, takes the ordinary product `x · Wᵀ` and adds the bias vector broadcast to a
  row: the same sum, index by index.
-/

set_option maxRecDepth 16384

noncomputable section

namespace Cert.Val.Stage2

open Cert.KernelIdeal Cert.KernelIdeal.Gen Cert.KernelIdeal.Rg Cert.Lib
open Idealize.ShloMosaic Idealize.ShloMosaic.TcCoe Idealize.ShloMosaic.ValueIdx Idealize.SL.Sem
open Idealize.ShloMosaic.Pipeline (Dat)

/-! ## The row, as one function of the whole arrays -/

/-- Entry `n` of the projection: the inner product of the input row with row `n` of the weight matrix, plus entry `n` of
    the bias row. (The same function serves both projections: `(x, W_ih, b_ih)` and `(h, W_hh, b_hh)`.) -/
def giRow (x : (⟨2, ![1, 2048]⟩ : Shape).Idx → EReal) (W : (⟨2, ![6144, 2048]⟩ : Shape).Idx → EReal)
    (b : (⟨2, ![1, 6144]⟩ : Shape).Idx → EReal) : (⟨2, ![1, 6144]⟩ : Shape).Idx → EReal :=
  fun i => (∑ k : Fin 2048, x (ix2 (0 : Fin 1) k) * W (ix2 (i 1) k)) + b (ix2 (0 : Fin 1) (i 1))

theorem giRow_apply (x : (⟨2, ![1, 2048]⟩ : Shape).Idx → EReal) (W : (⟨2, ![6144, 2048]⟩ : Shape).Idx → EReal)
    (b : (⟨2, ![1, 6144]⟩ : Shape).Idx → EReal) (n : Fin 6144) :
    giRow x W b (ix2 (0 : Fin 1) n) = (∑ k : Fin 2048, x (ix2 (0 : Fin 1) k) * W (ix2 n k)) + b (ix2 (0 : Fin 1) n) := rfl

/-! ## What one grid point computes -/

/-- The first projection's block at a point, entry `j`: the input row against row `j` of the point's 1024 matrix rows, plus
    entry `j` of its 1024 bias entries. -/
theorem k2_pay1_apply (x : Vec Ideal S1x2048 .f32) (Wb : Vec Ideal S1024x2048 .f32) (bb : Vec Ideal S1x1024 .f32) (j : Fin 1024) :
    k2_pay1 x Wb bb (ix2 (0 : Fin 1) j) = (∑ k : Fin 2048, x (ix2 (0 : Fin 1) k) * Wb (ix2 j k)) + bb (ix2 (0 : Fin 1) j) := by
  unfold k2_pay1
  rw [addf_apply, shapeCast_self, shapeCast_self, matmulT_zero_apply transDot_1024]

/-- The second projection's block is the same function of its own three blocks. -/
theorem k2_pay2_apply (h : Vec Ideal S1x2048 .f32) (Wb : Vec Ideal S1024x2048 .f32) (bb : Vec Ideal S1x1024 .f32) (j : Fin 1024) :
    k2_pay2 h Wb bb (ix2 (0 : Fin 1) j) = (∑ k : Fin 2048, h (ix2 (0 : Fin 1) k) * Wb (ix2 j k)) + bb (ix2 (0 : Fin 1) j) := by
  unfold k2_pay2
  rw [addf_apply, shapeCast_self, shapeCast_self, matmulT_zero_apply transDot_1024]

/-- An index of a one-row array is its column: the row coordinate is `0`. -/
theorem row_idx_eq {N : ℕ} (y : (⟨2, ![1, N]⟩ : Shape).Idx) : y = ix2 (0 : Fin 1) (y 1) :=
  (eq_ix2 y).trans (congrArg (fun z : Fin 1 => ix2 z (y 1)) (Fin.ext (by
    have h := idx2_lt0 y
    show (y 0).val = 0
    omega)))

/-- A point's block against the whole arrays: if the point's three blocks are the input row, rows `1024·n …` of the matrix
    and entries `1024·n …` of the bias row, then entry `y` of what it computes is entry `1024·n + y` of the whole row. -/
theorem pay1_eq_giRow (n : ℕ) (hn : n < 6) (xb : Vec Ideal S1x2048 .f32) (Wb : Vec Ideal S1024x2048 .f32) (bb : Vec Ideal S1x1024 .f32)
    (x : (⟨2, ![1, 2048]⟩ : Shape).Idx → EReal) (W : (⟨2, ![6144, 2048]⟩ : Shape).Idx → EReal) (b : (⟨2, ![1, 6144]⟩ : Shape).Idx → EReal)
    (hx : ∀ k : Fin 2048, xb (ix2 (0 : Fin 1) k) = x (ix2 (0 : Fin 1) k))
    (hW : ∀ (j : Fin 1024) (k : Fin 2048), Wb (ix2 j k) = W (ix2 (⟨n * 1024 + j.val, by have := j.isLt; omega⟩ : Fin 6144) k))
    (hb : ∀ j : Fin 1024, bb (ix2 (0 : Fin 1) j) = b (ix2 (0 : Fin 1) (⟨n * 1024 + j.val, by have := j.isLt; omega⟩ : Fin 6144)))
    (y : S1x1024.Idx) (i : S1x6144.Idx) (hi : (i 1).val = n * 1024 + (y 1).val) :
    k2_pay1 xb Wb bb y = giRow x W b i := by
  obtain ⟨j, rfl⟩ : ∃ j : Fin 1024, y = ix2 (0 : Fin 1) j := ⟨y 1, row_idx_eq y⟩
  have hlt : n * 1024 + j.val < 6144 := by have := j.isLt; omega
  obtain ⟨q, rfl⟩ : ∃ q : Fin 6144, i = ix2 (0 : Fin 1) q := ⟨i 1, row_idx_eq i⟩
  obtain rfl : q = ⟨n * 1024 + j.val, hlt⟩ := Fin.ext hi
  rw [k2_pay1_apply, giRow_apply, hb]
  exact congrArg (· + _) (Finset.sum_congr rfl fun k _ => by rw [hx, hW])

/-- The same for the second projection. -/
theorem pay2_eq_giRow (n : ℕ) (hn : n < 6) (hb' : Vec Ideal S1x2048 .f32) (Wb : Vec Ideal S1024x2048 .f32) (bb : Vec Ideal S1x1024 .f32)
    (x : (⟨2, ![1, 2048]⟩ : Shape).Idx → EReal) (W : (⟨2, ![6144, 2048]⟩ : Shape).Idx → EReal) (b : (⟨2, ![1, 6144]⟩ : Shape).Idx → EReal)
    (hx : ∀ k : Fin 2048, hb' (ix2 (0 : Fin 1) k) = x (ix2 (0 : Fin 1) k))
    (hW : ∀ (j : Fin 1024) (k : Fin 2048), Wb (ix2 j k) = W (ix2 (⟨n * 1024 + j.val, by have := j.isLt; omega⟩ : Fin 6144) k))
    (hb : ∀ j : Fin 1024, bb (ix2 (0 : Fin 1) j) = b (ix2 (0 : Fin 1) (⟨n * 1024 + j.val, by have := j.isLt; omega⟩ : Fin 6144)))
    (y : S1x1024.Idx) (i : S1x6144.Idx) (hi : (i 1).val = n * 1024 + (y 1).val) :
    k2_pay2 hb' Wb bb y = giRow x W b i := by
  obtain ⟨j, rfl⟩ : ∃ j : Fin 1024, y = ix2 (0 : Fin 1) j := ⟨y 1, row_idx_eq y⟩
  have hlt : n * 1024 + j.val < 6144 := by have := j.isLt; omega
  obtain ⟨q, rfl⟩ : ∃ q : Fin 6144, i = ix2 (0 : Fin 1) q := ⟨i 1, row_idx_eq i⟩
  obtain rfl : q = ⟨n * 1024 + j.val, hlt⟩ := Fin.ext hi
  rw [k2_pay2_apply, giRow_apply, hb]
  exact congrArg (· + _) (Finset.sum_congr rfl fun k _ => by rw [hx, hW])

/-! ## From the six blocks to the array -/

/-- Where each window's block sits at grid point `t`, decided over the six points: the input row and the state are the
    one block of their arrays; the matrices' blocks are rows `1024·t …`; the bias and result blocks are columns `1024·t …`. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = t.val
    ∧ win2_5.index t (0 : Fin 2) = 0 ∧ win2_5.index t (1 : Fin 2) = t.val
    ∧ win2_6.index t (0 : Fin 2) = 0 ∧ win2_6.index t (1 : Fin 2) = t.val
    ∧ win2_7.index t (0 : Fin 2) = 0 ∧ win2_7.index t (1 : Fin 2) = t.val :=
  (by decide +kernel : ∀ t : Fin grid2.N, _)

-- the buffers' contents when region 2 is entered
variable (V : (c : Dev nD) → (b : Ref sig .tc) → Buf (Elt Ideal) ((c : Thread nD τ).loc b))

/-- WHAT POINT `t` WRITES BACK to the first result array is block `t` of the whole row `giRow` of the arrays as the region
    finds them. -/
theorem flushed2_6_eq (c : Dev nD) (t : Fin cfg2.N) :
    (dat2 V c).flushed 6 t
      = ((cfg2.win 6).blk t).view.read (Elt Ideal) (giRow (V c main_v8) (V c main_arg8) (V c main_v9)) := by
  show (cfg2.win 6).cut (grid2.coords t) ((dat2 V c).after 6 t) = _
  rw [after2_6, out2_6_eq]
  obtain ⟨a00, a01, -, -, a20, a21, -, -, a40, a41, -, -, a60, a61, -, -⟩ := idx_facts2 t
  have ht : t.val < 6 := lt_of_lt_of_eq t.isLt N_2
  funext y
  show k2_pay1 (iblk2 V c 0 t) (iblk2 V c 2 t) (iblk2 V c 4 t) y
    = giRow (V c main_v8) (V c main_arg8) (V c main_v9) (((cfg2.win 6).blk t).view.emb y)
  refine pay1_eq_giRow t.val ht _ _ _ _ _ _ ?_ ?_ ?_ y _ ?_
  · intro k
    show V c main_v8 (((cfg2.win 0).blk t).view.emb (ix2 (0 : Fin 1) k)) = V c main_v8 (ix2 (0 : Fin 1) k)
    refine congrArg _ (funext fun a => Fin.ext ?_)
    match a with
    | ⟨0, _⟩ => show win2_0.index t (0 : Fin 2) * 1 + 1 * 0 = 0; omega
    | ⟨1, _⟩ => show win2_0.index t (1 : Fin 2) * 2048 + 1 * k.val = k.val; omega
  · intro j k
    show V c main_arg8 (((cfg2.win 2).blk t).view.emb (ix2 j k)) = V c main_arg8 (ix2 (⟨t.val * 1024 + j.val, _⟩ : Fin 6144) k)
    refine congrArg _ (funext fun a => Fin.ext ?_)
    match a with
    | ⟨0, _⟩ => show win2_2.index t (0 : Fin 2) * 1024 + 1 * j.val = t.val * 1024 + j.val; omega
    | ⟨1, _⟩ => show win2_2.index t (1 : Fin 2) * 2048 + 1 * k.val = k.val; omega
  · intro j
    show V c main_v9 (((cfg2.win 4).blk t).view.emb (ix2 (0 : Fin 1) j)) = V c main_v9 (ix2 (0 : Fin 1) (⟨t.val * 1024 + j.val, _⟩ : Fin 6144))
    refine congrArg _ (funext fun a => Fin.ext ?_)
    match a with
    | ⟨0, _⟩ => show win2_4.index t (0 : Fin 2) * 1 + 1 * 0 = 0; omega
    | ⟨1, _⟩ => show win2_4.index t (1 : Fin 2) * 1024 + 1 * j.val = t.val * 1024 + j.val; omega
  · show win2_6.index t (1 : Fin 2) * 1024 + 1 * (y 1).val = t.val * 1024 + (y 1).val
    omega

/-- WHAT POINT `t` WRITES BACK to the second result array is block `t` of `giRow` of the state, the second matrix and the
    second bias row. -/
theorem flushed2_7_eq (c : Dev nD) (t : Fin cfg2.N) :
    (dat2 V c).flushed 7 t
      = ((cfg2.win 7).blk t).view.read (Elt Ideal) (giRow (V c main_v2) (V c main_arg9) (V c main_v10)) := by
  show (cfg2.win 7).cut (grid2.coords t) ((dat2 V c).after 7 t) = _
  rw [after2_7, out2_7_eq]
  obtain ⟨-, -, a10, a11, -, -, a30, a31, -, -, a50, a51, -, -, a70, a71⟩ := idx_facts2 t
  have ht : t.val < 6 := lt_of_lt_of_eq t.isLt N_2
  funext y
  show k2_pay2 (iblk2 V c 1 t) (iblk2 V c 3 t) (iblk2 V c 5 t) y
    = giRow (V c main_v2) (V c main_arg9) (V c main_v10) (((cfg2.win 7).blk t).view.emb y)
  refine pay2_eq_giRow t.val ht _ _ _ _ _ _ ?_ ?_ ?_ y _ ?_
  · intro k
    show V c main_v2 (((cfg2.win 1).blk t).view.emb (ix2 (0 : Fin 1) k)) = V c main_v2 (ix2 (0 : Fin 1) k)
    refine congrArg _ (funext fun a => Fin.ext ?_)
    match a with
    | ⟨0, _⟩ => show win2_1.index t (0 : Fin 2) * 1 + 1 * 0 = 0; omega
    | ⟨1, _⟩ => show win2_1.index t (1 : Fin 2) * 2048 + 1 * k.val = k.val; omega
  · intro j k
    show V c main_arg9 (((cfg2.win 3).blk t).view.emb (ix2 j k)) = V c main_arg9 (ix2 (⟨t.val * 1024 + j.val, _⟩ : Fin 6144) k)
    refine congrArg _ (funext fun a => Fin.ext ?_)
    match a with
    | ⟨0, _⟩ => show win2_3.index t (0 : Fin 2) * 1024 + 1 * j.val = t.val * 1024 + j.val; omega
    | ⟨1, _⟩ => show win2_3.index t (1 : Fin 2) * 2048 + 1 * k.val = k.val; omega
  · intro j
    show V c main_v10 (((cfg2.win 5).blk t).view.emb (ix2 (0 : Fin 1) j)) = V c main_v10 (ix2 (0 : Fin 1) (⟨t.val * 1024 + j.val, _⟩ : Fin 6144))
    refine congrArg _ (funext fun a => Fin.ext ?_)
    match a with
    | ⟨0, _⟩ => show win2_5.index t (0 : Fin 2) * 1 + 1 * 0 = 0; omega
    | ⟨1, _⟩ => show win2_5.index t (1 : Fin 2) * 1024 + 1 * j.val = t.val * 1024 + j.val; omega
  · show win2_7.index t (1 : Fin 2) * 1024 + 1 * (y 1).val = t.val * 1024 + (y 1).val
    omega

/-- An index of the first result row is in point `t`'s block iff each coordinate is in the block's range on its axis. -/
theorem mem_blk2_6 (t : Fin cfg2.N) (i : S1x6144.Idx) :
    i ∈ ((cfg2.win 6).blk t).view.set ↔ ∀ a : Fin 2, win2_6.index t a * S1x1024.size a ≤ (i a).val ∧ (i a).val < win2_6.index t a * S1x1024.size a + S1x1024.size a := by
  show i ∈ ((View.whole main_v11_0).slice (win2_6.rect t)).set ↔ _
  rw [View.set_slice_whole, Rect.mem_set_unit]
  exact Iff.rfl

theorem mem_blk2_7 (t : Fin cfg2.N) (i : S1x6144.Idx) :
    i ∈ ((cfg2.win 7).blk t).view.set ↔ ∀ a : Fin 2, win2_7.index t a * S1x1024.size a ≤ (i a).val ∧ (i a).val < win2_7.index t a * S1x1024.size a + S1x1024.size a := by
  show i ∈ ((View.whole main_v11_1).slice (win2_7.rect t)).set ↔ _
  rw [View.set_slice_whole, Rect.mem_set_unit]
  exact Iff.rfl

/-- Column `n` of the first result row lies in the block of point `n / 1024`: the six blocks tile the row. -/
theorem cover2_6 (i : S1x6144.Idx) : ∃ t : Fin cfg2.N, (cfg2.win 6).flush t = true ∧ i ∈ ((cfg2.win 6).blk t).view.set := by
  have hi0 : (i 0).val < 1 := idx2_lt0 i
  have hi1 : (i 1).val < 6144 := idx2_lt1 i
  have hN : (i 1).val / 1024 < cfg2.N := lt_of_lt_of_eq (show (i 1).val / 1024 < 6 by omega) N_2.symm
  obtain ⟨-, -, -, -, -, -, -, -, -, -, -, -, a60, a61, -, -⟩ := idx_facts2 ⟨(i 1).val / 1024, hN⟩
  have a61' : win2_6.index ⟨(i 1).val / 1024, hN⟩ (1 : Fin 2) = (i 1).val / 1024 := a61
  refine ⟨⟨(i 1).val / 1024, hN⟩, flush2_6 _, ?_⟩
  rw [mem_blk2_6]
  intro a
  match a with
  | ⟨0, _⟩ =>
    show win2_6.index ⟨(i 1).val / 1024, hN⟩ (0 : Fin 2) * 1 ≤ (i 0).val ∧ (i 0).val < win2_6.index ⟨(i 1).val / 1024, hN⟩ (0 : Fin 2) * 1 + 1
    omega
  | ⟨1, _⟩ =>
    show win2_6.index ⟨(i 1).val / 1024, hN⟩ (1 : Fin 2) * 1024 ≤ (i 1).val ∧ (i 1).val < win2_6.index ⟨(i 1).val / 1024, hN⟩ (1 : Fin 2) * 1024 + 1024
    omega

theorem cover2_7 (i : S1x6144.Idx) : ∃ t : Fin cfg2.N, (cfg2.win 7).flush t = true ∧ i ∈ ((cfg2.win 7).blk t).view.set := by
  have hi0 : (i 0).val < 1 := idx2_lt0 i
  have hi1 : (i 1).val < 6144 := idx2_lt1 i
  have hN : (i 1).val / 1024 < cfg2.N := lt_of_lt_of_eq (show (i 1).val / 1024 < 6 by omega) N_2.symm
  obtain ⟨-, -, -, -, -, -, -, -, -, -, -, -, -, -, a70, a71⟩ := idx_facts2 ⟨(i 1).val / 1024, hN⟩
  have a71' : win2_7.index ⟨(i 1).val / 1024, hN⟩ (1 : Fin 2) = (i 1).val / 1024 := a71
  refine ⟨⟨(i 1).val / 1024, hN⟩, flush2_7 _, ?_⟩
  rw [mem_blk2_7]
  intro a
  match a with
  | ⟨0, _⟩ =>
    show win2_7.index ⟨(i 1).val / 1024, hN⟩ (0 : Fin 2) * 1 ≤ (i 0).val ∧ (i 0).val < win2_7.index ⟨(i 1).val / 1024, hN⟩ (0 : Fin 2) * 1 + 1
    omega
  | ⟨1, _⟩ =>
    show win2_7.index ⟨(i 1).val / 1024, hN⟩ (1 : Fin 2) * 1024 ≤ (i 1).val ∧ (i 1).val < win2_7.index ⟨(i 1).val / 1024, hN⟩ (1 : Fin 2) * 1024 + 1024
    omega

/-- THE FIRST RESULT ARRAY after region 2: the whole row `x · W_ihᵀ + b_ih` of the arrays as the region finds them. -/
theorem final2_6 (c : Dev nD) : (dat2 V c).arrAt 6 cfg2.N = giRow (V c main_v8) (V c main_arg8) (V c main_v9) :=
  (dat2 V c).arrAt_eq_of_cover 6 (giRow (V c main_v8) (V c main_arg8) (V c main_v9)) (fun t _ => flushed2_6_eq V c t) cover2_6

/-- THE SECOND RESULT ARRAY after region 2: the whole row `h · W_hhᵀ + b_hh`. -/
theorem final2_7 (c : Dev nD) : (dat2 V c).arrAt 7 cfg2.N = giRow (V c main_v2) (V c main_arg9) (V c main_v10) :=
  (dat2 V c).arrAt_eq_of_cover 7 (giRow (V c main_v2) (V c main_arg9) (V c main_v10)) (fun t _ => flushed2_7_eq V c t) cover2_7

/-! ## The reference's row -/

/-- A bias vector [6144] made a row [1,6144] by a reshape reads, at column `n`, the vector at `n`. -/
theorem bias_row_apply (bv : (⟨1, ![6144]⟩ : Shape).Idx → EReal) (h : (⟨1, ![6144]⟩ : Shape).ShapeCasts ⟨2, ![1, 6144]⟩) (n : Fin 6144) :
    shapeCast ⟨2, ![1, 6144]⟩ bv h (ix2 (0 : Fin 1) n) = bv (ix1 n) := by
  rw [shapeCast_addUnit_apply ![6144] bv h (ix2 (0 : Fin 1) n)]
  exact congrArg bv (funext fun a => by match a with | ⟨0, _⟩ => rfl)

/-- The reference's projection — the matrix's axes exchanged, the ordinary product with the input row, the bias vector
    broadcast to a row and added — is `giRow` of the input row, the matrix and the bias vector reshaped to a row. -/
theorem ref_row_eq (X : FVec Ideal ⟨2, ![1, 2048]⟩ .f32) (W : FVec Ideal ⟨2, ![6144, 2048]⟩ .f32) (bv : FVec Ideal ⟨1, ![6144]⟩ .f32)
    (h : (⟨1, ![6144]⟩ : Shape).ShapeCasts ⟨2, ![1, 6144]⟩) :
    addf (Host.dotGeneral Cert.ReferenceIdeal.dot_S1x2048_S2048x6144_S1x6144_1_0_0_1_n_n none X
          (transpose Cert.ReferenceIdeal.S2048x6144 [1, 0] W Cert.ReferenceIdeal.Facts₀.transposes_S6144x2048_S2048x6144_1_0))
        (broadcastInDim Cert.ReferenceIdeal.S1x6144 ![1] Cert.ReferenceIdeal.Facts₀.bcast_S6144_S1x6144_1 bv)
      = giRow X W (shapeCast ⟨2, ![1, 6144]⟩ bv h) := by
  funext i
  obtain ⟨n, rfl⟩ : ∃ n : Fin 6144, i = ix2 (0 : Fin 1) n := ⟨i 1, row_idx_eq i⟩
  rw [addf_apply, dotGeneral_apply plainDot_dot_S1x2048_S2048x6144_S1x6144_1_0_0_1_n_n, sum_transpose, giRow_apply, bias_row_apply]
  refine congrArg (_ + ·) ?_
  exact broadcastInDim_apply _ Cert.ReferenceIdeal.Facts₀.bcast_S6144_S1x6144_1 bv (ix2 (0 : Fin 1) n) (ix1 n) (fun a => by
    match a with
    | ⟨0, _⟩ => rfl)

/-! ## The stage, between the two runs

`U7` / `U8` are the kernel's buffers when region 2 is entered / left; `R` the reference's buffers after its run. Each
reference equation is taken in its one-operation form. -/

section Bridge

open Cert.KernelIdeal.Rn

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- What region 2 leaves in the first result array, over the buffers it was entered with. -/
theorem U8_gi (c : Dev nD) :
    (U8 m c (Proc.devRef .tc main_v11_0) : (⟨2, ![1, 6144]⟩ : Shape).Idx → EReal)
      = giRow (U7 m c (Proc.devRef .tc main_v8)) (U7 m c (Proc.devRef .tc main_arg8)) (U7 m c (Proc.devRef .tc main_v9)) :=
  (U8_arr m c 6).trans (final2_6 (T7 m) c)

/-- and in the second. -/
theorem U8_gh (c : Dev nD) :
    (U8 m c (Proc.devRef .tc main_v11_1) : (⟨2, ![1, 6144]⟩ : Shape).Idx → EReal)
      = giRow (U7 m c (Proc.devRef .tc main_v2)) (U7 m c (Proc.devRef .tc main_arg9)) (U7 m c (Proc.devRef .tc main_v10)) :=
  (U8_arr m c 7).trans (final2_7 (T7 m) c)

/-- THE FIRST PROJECTION: if the two programs agree on the cell's input row, on `w_ih` and on `b_ih` (which the kernel
    holds reshaped to a row), the kernel's first result array is the reference's `x · w_ihᵀ + b_ih`. -/
theorem stage2_gi (c : Dev nD)
    (hx : (U7 m c (Proc.devRef .tc main_v8) : (⟨2, ![1, 2048]⟩ : Shape).Idx → EReal)
      = Cert.ReferenceIdeal.RefRun.R m' c (Proc.devRef .tc Cert.ReferenceIdeal.main_v25))
    (hW : (U7 m c (Proc.devRef .tc main_arg8) : (⟨2, ![6144, 2048]⟩ : Shape).Idx → EReal)
      = Cert.ReferenceIdeal.RefRun.R m' c (Proc.devRef .tc Cert.ReferenceIdeal.main_arg8))
    (hb : (U7 m c (Proc.devRef .tc main_v9) : (⟨2, ![1, 6144]⟩ : Shape).Idx → EReal)
      = shapeCast S1x6144 (Cert.ReferenceIdeal.RefRun.R m' c (Proc.devRef .tc Cert.ReferenceIdeal.main_arg10) : (⟨1, ![6144]⟩ : Shape).Idx → EReal) shapeCasts_S6144_S1x6144)
    (r26 : Cert.ReferenceIdeal.RefRun.R m' c (Proc.devRef .tc Cert.ReferenceIdeal.main_v26)
      = transpose Cert.ReferenceIdeal.S2048x6144 [1, 0] (Cert.ReferenceIdeal.RefRun.R m' c (Proc.devRef .tc Cert.ReferenceIdeal.main_arg8)) Cert.ReferenceIdeal.Facts₀.transposes_S6144x2048_S2048x6144_1_0)
    (r27 : @Eq (FVec Ideal Cert.ReferenceIdeal.S1x6144 .f32) (Cert.ReferenceIdeal.RefRun.R m' c (Proc.devRef .tc Cert.ReferenceIdeal.main_v27))
      (Host.dotGeneral (φ₁ := .f32) (φ₂ := .f32) Cert.ReferenceIdeal.dot_S1x2048_S2048x6144_S1x6144_1_0_0_1_n_n none
          (Cert.ReferenceIdeal.RefRun.R m' c (Proc.devRef .tc Cert.ReferenceIdeal.main_v25)) (Cert.ReferenceIdeal.RefRun.R m' c (Proc.devRef .tc Cert.ReferenceIdeal.main_v26))))
    (r28 : Cert.ReferenceIdeal.RefRun.R m' c (Proc.devRef .tc Cert.ReferenceIdeal.main_v28)
      = broadcastInDim Cert.ReferenceIdeal.S1x6144 ![1] Cert.ReferenceIdeal.Facts₀.bcast_S6144_S1x6144_1 (Cert.ReferenceIdeal.RefRun.R m' c (Proc.devRef .tc Cert.ReferenceIdeal.main_arg10)))
    (r29 : @Eq (FVec Ideal Cert.ReferenceIdeal.S1x6144 .f32) (Cert.ReferenceIdeal.RefRun.R m' c (Proc.devRef .tc Cert.ReferenceIdeal.main_v29))
      (addf (Cert.ReferenceIdeal.RefRun.R m' c (Proc.devRef .tc Cert.ReferenceIdeal.main_v27)) (Cert.ReferenceIdeal.RefRun.R m' c (Proc.devRef .tc Cert.ReferenceIdeal.main_v28)))) :
    (U8 m c (Proc.devRef .tc main_v11_0) : (⟨2, ![1, 6144]⟩ : Shape).Idx → EReal)
      = Cert.ReferenceIdeal.RefRun.R m' c (Proc.devRef .tc Cert.ReferenceIdeal.main_v29) := by
  rw [U8_gi, hx, hW, hb, r29, r27, r26, r28]
  exact (ref_row_eq _ _ _ _).symm

/-- THE SECOND PROJECTION: likewise from the previous state, `w_hh` and `b_hh`. -/
theorem stage2_gh (c : Dev nD)
    (hh : (U7 m c (Proc.devRef .tc main_v2) : (⟨2, ![1, 2048]⟩ : Shape).Idx → EReal)
      = Cert.ReferenceIdeal.RefRun.R m' c (Proc.devRef .tc Cert.ReferenceIdeal.main_v2))
    (hW : (U7 m c (Proc.devRef .tc main_arg9) : (⟨2, ![6144, 2048]⟩ : Shape).Idx → EReal)
      = Cert.ReferenceIdeal.RefRun.R m' c (Proc.devRef .tc Cert.ReferenceIdeal.main_arg9))
    (hb : (U7 m c (Proc.devRef .tc main_v10) : (⟨2, ![1, 6144]⟩ : Shape).Idx → EReal)
      = shapeCast S1x6144 (Cert.ReferenceIdeal.RefRun.R m' c (Proc.devRef .tc Cert.ReferenceIdeal.main_arg11) : (⟨1, ![6144]⟩ : Shape).Idx → EReal) shapeCasts_S6144_S1x6144)
    (r30 : Cert.ReferenceIdeal.RefRun.R m' c (Proc.devRef .tc Cert.ReferenceIdeal.main_v30)
      = transpose Cert.ReferenceIdeal.S2048x6144 [1, 0] (Cert.ReferenceIdeal.RefRun.R m' c (Proc.devRef .tc Cert.ReferenceIdeal.main_arg9)) Cert.ReferenceIdeal.Facts₀.transposes_S6144x2048_S2048x6144_1_0)
    (r31 : @Eq (FVec Ideal Cert.ReferenceIdeal.S1x6144 .f32) (Cert.ReferenceIdeal.RefRun.R m' c (Proc.devRef .tc Cert.ReferenceIdeal.main_v31))
      (Host.dotGeneral (φ₁ := .f32) (φ₂ := .f32) Cert.ReferenceIdeal.dot_S1x2048_S2048x6144_S1x6144_1_0_0_1_n_n none
          (Cert.ReferenceIdeal.RefRun.R m' c (Proc.devRef .tc Cert.ReferenceIdeal.main_v2)) (Cert.ReferenceIdeal.RefRun.R m' c (Proc.devRef .tc Cert.ReferenceIdeal.main_v30))))
    (r32 : Cert.ReferenceIdeal.RefRun.R m' c (Proc.devRef .tc Cert.ReferenceIdeal.main_v32)
      = broadcastInDim Cert.ReferenceIdeal.S1x6144 ![1] Cert.ReferenceIdeal.Facts₀.bcast_S6144_S1x6144_1 (Cert.ReferenceIdeal.RefRun.R m' c (Proc.devRef .tc Cert.ReferenceIdeal.main_arg11)))
    (r33 : @Eq (FVec Ideal Cert.ReferenceIdeal.S1x6144 .f32) (Cert.ReferenceIdeal.RefRun.R m' c (Proc.devRef .tc Cert.ReferenceIdeal.main_v33))
      (addf (Cert.ReferenceIdeal.RefRun.R m' c (Proc.devRef .tc Cert.ReferenceIdeal.main_v31)) (Cert.ReferenceIdeal.RefRun.R m' c (Proc.devRef .tc Cert.ReferenceIdeal.main_v32)))) :
    (U8 m c (Proc.devRef .tc main_v11_1) : (⟨2, ![1, 6144]⟩ : Shape).Idx → EReal)
      = Cert.ReferenceIdeal.RefRun.R m' c (Proc.devRef .tc Cert.ReferenceIdeal.main_v33) := by
  rw [U8_gh, hh, hW, hb, r33, r31, r30, r32]
  exact (ref_row_eq _ _ _ _).symm

/-- The first projection, the arguments' agreement taken as the claim states it (the launch memories agree on `w_ih` and
    `b_ih`): neither program writes an argument, and the kernel's host only reshapes `b_ih` to a row. -/
theorem stage2_gi_of_args (c : Dev nD)
    (hx : (U7 m c (Proc.devRef .tc main_v8) : (⟨2, ![1, 2048]⟩ : Shape).Idx → EReal)
      = Cert.ReferenceIdeal.RefRun.R m' c (Proc.devRef .tc Cert.ReferenceIdeal.main_v25))
    (h8 : m' ((c.tc : Thread Cert.ReferenceIdeal.nD Cert.ReferenceIdeal.τ).loc Cert.ReferenceIdeal.main_arg8) = m ((c.tc : Thread nD τ).loc main_arg8))
    (h10 : m' ((c.tc : Thread Cert.ReferenceIdeal.nD Cert.ReferenceIdeal.τ).loc Cert.ReferenceIdeal.main_arg10) = m ((c.tc : Thread nD τ).loc main_arg10))
    (r26 : Cert.ReferenceIdeal.RefRun.R m' c (Proc.devRef .tc Cert.ReferenceIdeal.main_v26)
      = transpose Cert.ReferenceIdeal.S2048x6144 [1, 0] (Cert.ReferenceIdeal.RefRun.R m' c (Proc.devRef .tc Cert.ReferenceIdeal.main_arg8)) Cert.ReferenceIdeal.Facts₀.transposes_S6144x2048_S2048x6144_1_0)
    (r27 : @Eq (FVec Ideal Cert.ReferenceIdeal.S1x6144 .f32) (Cert.ReferenceIdeal.RefRun.R m' c (Proc.devRef .tc Cert.ReferenceIdeal.main_v27))
      (Host.dotGeneral (φ₁ := .f32) (φ₂ := .f32) Cert.ReferenceIdeal.dot_S1x2048_S2048x6144_S1x6144_1_0_0_1_n_n none
          (Cert.ReferenceIdeal.RefRun.R m' c (Proc.devRef .tc Cert.ReferenceIdeal.main_v25)) (Cert.ReferenceIdeal.RefRun.R m' c (Proc.devRef .tc Cert.ReferenceIdeal.main_v26))))
    (r28 : Cert.ReferenceIdeal.RefRun.R m' c (Proc.devRef .tc Cert.ReferenceIdeal.main_v28)
      = broadcastInDim Cert.ReferenceIdeal.S1x6144 ![1] Cert.ReferenceIdeal.Facts₀.bcast_S6144_S1x6144_1 (Cert.ReferenceIdeal.RefRun.R m' c (Proc.devRef .tc Cert.ReferenceIdeal.main_arg10)))
    (r29 : @Eq (FVec Ideal Cert.ReferenceIdeal.S1x6144 .f32) (Cert.ReferenceIdeal.RefRun.R m' c (Proc.devRef .tc Cert.ReferenceIdeal.main_v29))
      (addf (Cert.ReferenceIdeal.RefRun.R m' c (Proc.devRef .tc Cert.ReferenceIdeal.main_v27)) (Cert.ReferenceIdeal.RefRun.R m' c (Proc.devRef .tc Cert.ReferenceIdeal.main_v28)))) :
    (U8 m c (Proc.devRef .tc main_v11_0) : (⟨2, ![1, 6144]⟩ : Shape).Idx → EReal)
      = Cert.ReferenceIdeal.RefRun.R m' c (Proc.devRef .tc Cert.ReferenceIdeal.main_v29) :=
  stage2_gi m m' c hx
    ((Cert.KernelIdeal.ChainFacts.U7_arg8 m c).trans
      (h8.symm.trans (Cert.ReferenceIdeal.RefRun.arg_kept m' c Cert.ReferenceIdeal.main_arg8 (by decide)).symm))
    ((Cert.KernelIdeal.ChainFacts.U7_v9 m c).trans
      (congrArg (fun v : (⟨1, ![6144]⟩ : Shape).Idx → EReal => shapeCast S1x6144 v shapeCasts_S6144_S1x6144)
        (h10.symm.trans (Cert.ReferenceIdeal.RefRun.arg_kept m' c Cert.ReferenceIdeal.main_arg10 (by decide)).symm)))
    r26 r27 r28 r29

/-- The second projection, likewise (`w_hh`, `b_hh`). -/
theorem stage2_gh_of_args (c : Dev nD)
    (hh : (U7 m c (Proc.devRef .tc main_v2) : (⟨2, ![1, 2048]⟩ : Shape).Idx → EReal)
      = Cert.ReferenceIdeal.RefRun.R m' c (Proc.devRef .tc Cert.ReferenceIdeal.main_v2))
    (h9 : m' ((c.tc : Thread Cert.ReferenceIdeal.nD Cert.ReferenceIdeal.τ).loc Cert.ReferenceIdeal.main_arg9) = m ((c.tc : Thread nD τ).loc main_arg9))
    (h11 : m' ((c.tc : Thread Cert.ReferenceIdeal.nD Cert.ReferenceIdeal.τ).loc Cert.ReferenceIdeal.main_arg11) = m ((c.tc : Thread nD τ).loc main_arg11))
    (r30 : Cert.ReferenceIdeal.RefRun.R m' c (Proc.devRef .tc Cert.ReferenceIdeal.main_v30)
      = transpose Cert.ReferenceIdeal.S2048x6144 [1, 0] (Cert.ReferenceIdeal.RefRun.R m' c (Proc.devRef .tc Cert.ReferenceIdeal.main_arg9)) Cert.ReferenceIdeal.Facts₀.transposes_S6144x2048_S2048x6144_1_0)
    (r31 : @Eq (FVec Ideal Cert.ReferenceIdeal.S1x6144 .f32) (Cert.ReferenceIdeal.RefRun.R m' c (Proc.devRef .tc Cert.ReferenceIdeal.main_v31))
      (Host.dotGeneral (φ₁ := .f32) (φ₂ := .f32) Cert.ReferenceIdeal.dot_S1x2048_S2048x6144_S1x6144_1_0_0_1_n_n none
          (Cert.ReferenceIdeal.RefRun.R m' c (Proc.devRef .tc Cert.ReferenceIdeal.main_v2)) (Cert.ReferenceIdeal.RefRun.R m' c (Proc.devRef .tc Cert.ReferenceIdeal.main_v30))))
    (r32 : Cert.ReferenceIdeal.RefRun.R m' c (Proc.devRef .tc Cert.ReferenceIdeal.main_v32)
      = broadcastInDim Cert.ReferenceIdeal.S1x6144 ![1] Cert.ReferenceIdeal.Facts₀.bcast_S6144_S1x6144_1 (Cert.ReferenceIdeal.RefRun.R m' c (Proc.devRef .tc Cert.ReferenceIdeal.main_arg11)))
    (r33 : @Eq (FVec Ideal Cert.ReferenceIdeal.S1x6144 .f32) (Cert.ReferenceIdeal.RefRun.R m' c (Proc.devRef .tc Cert.ReferenceIdeal.main_v33))
      (addf (Cert.ReferenceIdeal.RefRun.R m' c (Proc.devRef .tc Cert.ReferenceIdeal.main_v31)) (Cert.ReferenceIdeal.RefRun.R m' c (Proc.devRef .tc Cert.ReferenceIdeal.main_v32)))) :
    (U8 m c (Proc.devRef .tc main_v11_1) : (⟨2, ![1, 6144]⟩ : Shape).Idx → EReal)
      = Cert.ReferenceIdeal.RefRun.R m' c (Proc.devRef .tc Cert.ReferenceIdeal.main_v33) :=
  stage2_gh m m' c hh
    ((Cert.KernelIdeal.ChainFacts.U7_arg9 m c).trans
      (h9.symm.trans (Cert.ReferenceIdeal.RefRun.arg_kept m' c Cert.ReferenceIdeal.main_arg9 (by decide)).symm))
    ((Cert.KernelIdeal.ChainFacts.U7_v10 m c).trans
      (congrArg (fun v : (⟨1, ![6144]⟩ : Shape).Idx → EReal => shapeCast S1x6144 v shapeCasts_S6144_S1x6144)
        (h11.symm.trans (Cert.ReferenceIdeal.RefRun.arg_kept m' c Cert.ReferenceIdeal.main_arg11 (by decide)).symm)))
    r30 r31 r32 r33

end Bridge

end Cert.Val.Stage2

end
-- ==== Proof.RefStages.lean ====
/-
  The reference program's run read one stage at a time. For each buffer the comparison with the
  kernel's program reads, the final contents `R m' c` at that buffer are the stage's operation applied
  to `R m' c` at its operands: the program writes every buffer once, so what a buffer holds when its
  consumer runs is what it holds at the end, and a stage is read through the window of operations
  that computes it (`R_window`, `R_kept`) with nothing before or after it unfolded. The affine maps
  are read operation by operation (transpose, product, bias row, sum); the row lookup, the softmax,
  the rectifier, the gate arithmetic and the log-softmax are each read as ONE function of their
  inputs — the lookup, the gates and the log-softmax as the functions both programs share.
-/
import proofs.«153450_j57131654971751_1_alg».proof.Proof.RefRun
import proofs.«153450_j57131654971751_1_alg».proof.Proof.HostChains
import proofs.«153450_j57131654971751_1_alg».proof.Proof.Gen.KernelIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A value stored at a typed reference's buffer and read back at the value's type is the value:
    the two transports along the reference's type equation cancel. -/
theorem ofBuf_toBuf {T : BufTy} (x : TRef sig T) (v : T.Contents (Elt F)) : x.ofBuf (x.toBuf v) = v := by
  obtain ⟨r, h, h2, h3⟩ := x
  subst h
  rfl

/-- The embedded row: the token's row of the table, looked up the way the shared `takeRow` spells it (operations 1–23: the token read as [1], wrapped once if negative, tested against the table's height, the row gathered, NaN where the test fails). -/
theorem main_v1_eq (m' : (ℓ : Loc nD τ sig) → Buf (Elt F) ℓ) (c : Dev nD) :
    (R m' c (Proc.devRef .tc main_v1) : (⟨S1x2048, .f32⟩ : BufTy).Contents (Elt F))
      = Cert.HostChains.takeRow (R m' c (Proc.devRef .tc main_arg3) : (⟨S50257x2048, .f32⟩ : BufTy).Contents (Elt F)) (R m' c (Proc.devRef .tc main_arg0) : (⟨S1x1, .i32⟩ : BufTy).Contents (Elt F)) := by
  rw [R_window 0 23 (by decide) m' c main_v1 (by decide),
    R_kept 0 m' c main_arg3 (by decide),
    R_kept 0 m' c main_arg0 (by decide)]
  generalize Vk 0 m' c = W
  rw [show (ops.take 23).drop 0 = [_, _, _, _, _, _, _, _, _, _, _, _, _, _, _, _, _, _, _, _, _, _, _] from rfl]
  after_results_simp
  rfl

/-- The previous hidden state as a row: the [1,1,2048] argument read as [1,2048]. -/
theorem main_v2_eq (m' : (ℓ : Loc nD τ sig) → Buf (Elt F) ℓ) (c : Dev nD) :
    (R m' c (Proc.devRef .tc main_v2) : (⟨S1x2048, .f32⟩ : BufTy).Contents (Elt F))
      = shapeCast S1x2048 (R m' c (Proc.devRef .tc main_arg1) : (⟨S1x1x2048, .f32⟩ : BufTy).Contents (Elt F)) shapeCasts_S1x1x2048_S1x2048 := by
  rw [R_window 23 24 (by decide) m' c main_v2 (by decide),
    R_kept 23 m' c main_arg1 (by decide)]
  generalize Vk 23 m' c = W
  rw [show (ops.take 24).drop 23 = [_] from rfl]
  after_results <;> rfl

/-- The attention input: the embedded row and the hidden row side by side, 4096 entries. -/
theorem main_v3_eq (m' : (ℓ : Loc nD τ sig) → Buf (Elt F) ℓ) (c : Dev nD) :
    (R m' c (Proc.devRef .tc main_v3) : (⟨S1x4096, .f32⟩ : BufTy).Contents (Elt F))
      = concatenate S1x4096 1 [⟨S1x2048, (R m' c (Proc.devRef .tc main_v1) : (⟨S1x2048, .f32⟩ : BufTy).Contents (Elt F))⟩, ⟨S1x2048, (R m' c (Proc.devRef .tc main_v2) : (⟨S1x2048, .f32⟩ : BufTy).Contents (Elt F))⟩] concatenates_S1x2048_S1x2048_S1x4096_d1 := by
  rw [R_window 24 25 (by decide) m' c main_v3 (by decide),
    R_kept 24 m' c main_v1 (by decide),
    R_kept 24 m' c main_v2 (by decide)]
  generalize Vk 24 m' c = W
  rw [show (ops.take 25).drop 24 = [_] from rfl]
  after_results <;> rfl

/-- The attention weights transposed, so that the product below contracts its first axis. -/
theorem main_v4_eq (m' : (ℓ : Loc nD τ sig) → Buf (Elt F) ℓ) (c : Dev nD) :
    (R m' c (Proc.devRef .tc main_v4) : (⟨S4096x512, .f32⟩ : BufTy).Contents (Elt F))
      = transpose S4096x512 [1, 0] (R m' c (Proc.devRef .tc main_arg4) : (⟨S512x4096, .f32⟩ : BufTy).Contents (Elt F)) transposes_S512x4096_S4096x512_1_0 := by
  rw [R_window 25 26 (by decide) m' c main_v4 (by decide),
    R_kept 25 m' c main_arg4 (by decide)]
  generalize Vk 25 m' c = W
  rw [show (ops.take 26).drop 25 = [_] from rfl]
  after_results <;> rfl

/-- The attention logits before the bias: the 4096-entry row times the transposed weights. -/
theorem main_v5_eq (m' : (ℓ : Loc nD τ sig) → Buf (Elt F) ℓ) (c : Dev nD) :
    (R m' c (Proc.devRef .tc main_v5) : (⟨S1x512, .f32⟩ : BufTy).Contents (Elt F))
      = Host.dotGeneral dot_S1x4096_S4096x512_S1x512_1_0_0_1_n_n none (R m' c (Proc.devRef .tc main_v3) : (⟨S1x4096, .f32⟩ : BufTy).Contents (Elt F)) (R m' c (Proc.devRef .tc main_v4) : (⟨S4096x512, .f32⟩ : BufTy).Contents (Elt F)) := by
  rw [R_window 26 27 (by decide) m' c main_v5 (by decide),
    R_kept 26 m' c main_v3 (by decide),
    R_kept 26 m' c main_v4 (by decide)]
  generalize Vk 26 m' c = W
  rw [show (ops.take 27).drop 26 = [_] from rfl]
  after_results <;> rfl

/-- The attention bias as a row. -/
theorem main_v6_eq (m' : (ℓ : Loc nD τ sig) → Buf (Elt F) ℓ) (c : Dev nD) :
    (R m' c (Proc.devRef .tc main_v6) : (⟨S1x512, .f32⟩ : BufTy).Contents (Elt F))
      = broadcastInDim S1x512 ![1] bcast_S512_S1x512_1 (R m' c (Proc.devRef .tc main_arg5) : (⟨S512, .f32⟩ : BufTy).Contents (Elt F)) := by
  rw [R_window 27 28 (by decide) m' c main_v6 (by decide),
    R_kept 27 m' c main_arg5 (by decide)]
  generalize Vk 27 m' c = W
  rw [show (ops.take 28).drop 27 = [_] from rfl]
  after_results <;> rfl

/-- The attention logits: product plus bias. -/
theorem main_v7_eq (m' : (ℓ : Loc nD τ sig) → Buf (Elt F) ℓ) (c : Dev nD) :
    (R m' c (Proc.devRef .tc main_v7) : (⟨S1x512, .f32⟩ : BufTy).Contents (Elt F))
      = addf (R m' c (Proc.devRef .tc main_v5) : (⟨S1x512, .f32⟩ : BufTy).Contents (Elt F)) (R m' c (Proc.devRef .tc main_v6) : (⟨S1x512, .f32⟩ : BufTy).Contents (Elt F)) := by
  rw [R_window 28 29 (by decide) m' c main_v7 (by decide),
    R_kept 28 m' c main_v5 (by decide),
    R_kept 28 m' c main_v6 (by decide)]
  generalize Vk 28 m' c = W
  rw [show (ops.take 29).drop 28 = [_] from rfl]
  after_results <;> rfl

/-- The softmax of a row of 512 logits, as the program spells it: the row's maximum (a reduce from −∞,
    once more the maximum with −∞, spread back along the row), the exponentials of the differences,
    their sum (a reduce from 0, spread back) and the quotient. -/
def softmaxRow (x : (⟨S1x512, .f32⟩ : BufTy).Contents (Elt F)) : (⟨S1x512, .f32⟩ : BufTy).Contents (Elt F) :=
  Host.divf (Host.exp (subf x (broadcastInDim S1x512 ![0, 1] bcast_S1x1_S1x512_0_1 (broadcastInDim S1x1 ![0] bcast_S1_S1x1_0 (maximumf (broadcastInDim S1 ![] bcast_S_S1 (constant S_ .f32 0xFF800000#32)) (Host.reduce FloatOps.maximumf x (constant S_ .f32 0xFF800000#32) reducesTo_S1x512_S1_d1 h_S_)))))) (broadcastInDim S1x512 ![0, 1] bcast_S1x1_S1x512_0_1 (broadcastInDim S1x1 ![0] bcast_S1_S1x1_0 (Host.reduceAdd (Host.exp (subf x (broadcastInDim S1x512 ![0, 1] bcast_S1x1_S1x512_0_1 (broadcastInDim S1x1 ![0] bcast_S1_S1x1_0 (maximumf (broadcastInDim S1 ![] bcast_S_S1 (constant S_ .f32 0xFF800000#32)) (Host.reduce FloatOps.maximumf x (constant S_ .f32 0xFF800000#32) reducesTo_S1x512_S1_d1 h_S_)))))) (constant S_ .f32 0x00000000#32) reducesTo_S1x512_S1_d1 h_S_)))

/-- The attention weights (the third result): the softmax of the logits (operations 30–43). -/
theorem main_v18_eq (m' : (ℓ : Loc nD τ sig) → Buf (Elt F) ℓ) (c : Dev nD) :
    (R m' c (Proc.devRef .tc main_v18) : (⟨S1x512, .f32⟩ : BufTy).Contents (Elt F))
      = softmaxRow (R m' c (Proc.devRef .tc main_v7) : (⟨S1x512, .f32⟩ : BufTy).Contents (Elt F)) := by
  rw [R_window 29 43 (by decide) m' c main_v18 (by decide),
    R_kept 29 m' c main_v7 (by decide)]
  generalize Vk 29 m' c = W
  rw [show (ops.take 43).drop 29 = [_, _, _, _, _, _, _, _, _, _, _, _, _, _] from rfl]
  after_results_simp
  rfl

/-- The attention applied: the softmax weights times the encoder rows. -/
theorem main_v19_eq (m' : (ℓ : Loc nD τ sig) → Buf (Elt F) ℓ) (c : Dev nD) :
    (R m' c (Proc.devRef .tc main_v19) : (⟨S1x2048, .f32⟩ : BufTy).Contents (Elt F))
      = Host.dotGeneral dot_S1x512_S512x2048_S1x2048_1_0_0_1_n_n none (R m' c (Proc.devRef .tc main_v18) : (⟨S1x512, .f32⟩ : BufTy).Contents (Elt F)) (R m' c (Proc.devRef .tc main_arg2) : (⟨S512x2048, .f32⟩ : BufTy).Contents (Elt F)) := by
  rw [R_window 43 44 (by decide) m' c main_v19 (by decide),
    R_kept 43 m' c main_v18 (by decide),
    R_kept 43 m' c main_arg2 (by decide)]
  generalize Vk 43 m' c = W
  rw [show (ops.take 44).drop 43 = [_] from rfl]
  after_results <;> rfl

/-- The combine input: the embedded row and the applied attention side by side. -/
theorem main_v20_eq (m' : (ℓ : Loc nD τ sig) → Buf (Elt F) ℓ) (c : Dev nD) :
    (R m' c (Proc.devRef .tc main_v20) : (⟨S1x4096, .f32⟩ : BufTy).Contents (Elt F))
      = concatenate S1x4096 1 [⟨S1x2048, (R m' c (Proc.devRef .tc main_v1) : (⟨S1x2048, .f32⟩ : BufTy).Contents (Elt F))⟩, ⟨S1x2048, (R m' c (Proc.devRef .tc main_v19) : (⟨S1x2048, .f32⟩ : BufTy).Contents (Elt F))⟩] concatenates_S1x2048_S1x2048_S1x4096_d1 := by
  rw [R_window 44 45 (by decide) m' c main_v20 (by decide),
    R_kept 44 m' c main_v1 (by decide),
    R_kept 44 m' c main_v19 (by decide)]
  generalize Vk 44 m' c = W
  rw [show (ops.take 45).drop 44 = [_] from rfl]
  after_results <;> rfl

/-- The combine weights transposed. -/
theorem main_v21_eq (m' : (ℓ : Loc nD τ sig) → Buf (Elt F) ℓ) (c : Dev nD) :
    (R m' c (Proc.devRef .tc main_v21) : (⟨S4096x2048, .f32⟩ : BufTy).Contents (Elt F))
      = transpose S4096x2048 [1, 0] (R m' c (Proc.devRef .tc main_arg6) : (⟨S2048x4096, .f32⟩ : BufTy).Contents (Elt F)) transposes_S2048x4096_S4096x2048_1_0 := by
  rw [R_window 45 46 (by decide) m' c main_v21 (by decide),
    R_kept 45 m' c main_arg6 (by decide)]
  generalize Vk 45 m' c = W
  rw [show (ops.take 46).drop 45 = [_] from rfl]
  after_results <;> rfl

/-- The combine product. -/
theorem main_v22_eq (m' : (ℓ : Loc nD τ sig) → Buf (Elt F) ℓ) (c : Dev nD) :
    (R m' c (Proc.devRef .tc main_v22) : (⟨S1x2048, .f32⟩ : BufTy).Contents (Elt F))
      = Host.dotGeneral dot_S1x4096_S4096x2048_S1x2048_1_0_0_1_n_n none (R m' c (Proc.devRef .tc main_v20) : (⟨S1x4096, .f32⟩ : BufTy).Contents (Elt F)) (R m' c (Proc.devRef .tc main_v21) : (⟨S4096x2048, .f32⟩ : BufTy).Contents (Elt F)) := by
  rw [R_window 46 47 (by decide) m' c main_v22 (by decide),
    R_kept 46 m' c main_v20 (by decide),
    R_kept 46 m' c main_v21 (by decide)]
  generalize Vk 46 m' c = W
  rw [show (ops.take 47).drop 46 = [_] from rfl]
  after_results <;> rfl

/-- The combine bias as a row. -/
theorem main_v23_eq (m' : (ℓ : Loc nD τ sig) → Buf (Elt F) ℓ) (c : Dev nD) :
    (R m' c (Proc.devRef .tc main_v23) : (⟨S1x2048, .f32⟩ : BufTy).Contents (Elt F))
      = broadcastInDim S1x2048 ![1] bcast_S2048_S1x2048_1 (R m' c (Proc.devRef .tc main_arg7) : (⟨S2048, .f32⟩ : BufTy).Contents (Elt F)) := by
  rw [R_window 47 48 (by decide) m' c main_v23 (by decide),
    R_kept 47 m' c main_arg7 (by decide)]
  generalize Vk 47 m' c = W
  rw [show (ops.take 48).drop 47 = [_] from rfl]
  after_results <;> rfl

/-- The combine output before the rectifier. -/
theorem main_v24_eq (m' : (ℓ : Loc nD τ sig) → Buf (Elt F) ℓ) (c : Dev nD) :
    (R m' c (Proc.devRef .tc main_v24) : (⟨S1x2048, .f32⟩ : BufTy).Contents (Elt F))
      = addf (R m' c (Proc.devRef .tc main_v22) : (⟨S1x2048, .f32⟩ : BufTy).Contents (Elt F)) (R m' c (Proc.devRef .tc main_v23) : (⟨S1x2048, .f32⟩ : BufTy).Contents (Elt F)) := by
  rw [R_window 48 49 (by decide) m' c main_v24 (by decide),
    R_kept 48 m' c main_v22 (by decide),
    R_kept 48 m' c main_v23 (by decide)]
  generalize Vk 48 m' c = W
  rw [show (ops.take 49).drop 48 = [_] from rfl]
  after_results <;> rfl

/-- The combine output: the rectifier, the entrywise maximum with the zero row (operations 50–52). -/
theorem main_v25_eq (m' : (ℓ : Loc nD τ sig) → Buf (Elt F) ℓ) (c : Dev nD) :
    (R m' c (Proc.devRef .tc main_v25) : (⟨S1x2048, .f32⟩ : BufTy).Contents (Elt F))
      = maximumf ((R m' c (Proc.devRef .tc main_v24) : (⟨S1x2048, .f32⟩ : BufTy).Contents (Elt F))) (broadcastInDim S1x2048 ![] bcast_S_S1x2048 (constant S_ .f32 0x00000000#32)) := by
  rw [R_window 49 52 (by decide) m' c main_v25 (by decide),
    R_kept 49 m' c main_v24 (by decide)]
  generalize Vk 49 m' c = W
  rw [show (ops.take 52).drop 49 = [_, _, _] from rfl]
  after_results <;> rfl

/-- The input-gate weights transposed. -/
theorem main_v26_eq (m' : (ℓ : Loc nD τ sig) → Buf (Elt F) ℓ) (c : Dev nD) :
    (R m' c (Proc.devRef .tc main_v26) : (⟨S2048x6144, .f32⟩ : BufTy).Contents (Elt F))
      = transpose S2048x6144 [1, 0] (R m' c (Proc.devRef .tc main_arg8) : (⟨S6144x2048, .f32⟩ : BufTy).Contents (Elt F)) transposes_S6144x2048_S2048x6144_1_0 := by
  rw [R_window 52 53 (by decide) m' c main_v26 (by decide),
    R_kept 52 m' c main_arg8 (by decide)]
  generalize Vk 52 m' c = W
  rw [show (ops.take 53).drop 52 = [_] from rfl]
  after_results <;> rfl

/-- The input projection before its bias. -/
theorem main_v27_eq (m' : (ℓ : Loc nD τ sig) → Buf (Elt F) ℓ) (c : Dev nD) :
    (R m' c (Proc.devRef .tc main_v27) : (⟨S1x6144, .f32⟩ : BufTy).Contents (Elt F))
      = Host.dotGeneral dot_S1x2048_S2048x6144_S1x6144_1_0_0_1_n_n none (R m' c (Proc.devRef .tc main_v25) : (⟨S1x2048, .f32⟩ : BufTy).Contents (Elt F)) (R m' c (Proc.devRef .tc main_v26) : (⟨S2048x6144, .f32⟩ : BufTy).Contents (Elt F)) := by
  rw [R_window 53 54 (by decide) m' c main_v27 (by decide),
    R_kept 53 m' c main_v25 (by decide),
    R_kept 53 m' c main_v26 (by decide)]
  generalize Vk 53 m' c = W
  rw [show (ops.take 54).drop 53 = [_] from rfl]
  after_results <;> rfl

/-- The input projection's bias as a row. -/
theorem main_v28_eq (m' : (ℓ : Loc nD τ sig) → Buf (Elt F) ℓ) (c : Dev nD) :
    (R m' c (Proc.devRef .tc main_v28) : (⟨S1x6144, .f32⟩ : BufTy).Contents (Elt F))
      = broadcastInDim S1x6144 ![1] bcast_S6144_S1x6144_1 (R m' c (Proc.devRef .tc main_arg10) : (⟨S6144, .f32⟩ : BufTy).Contents (Elt F)) := by
  rw [R_window 54 55 (by decide) m' c main_v28 (by decide),
    R_kept 54 m' c main_arg10 (by decide)]
  generalize Vk 54 m' c = W
  rw [show (ops.take 55).drop 54 = [_] from rfl]
  after_results <;> rfl

/-- The input projection: the three gates' input parts, 6144 entries. -/
theorem main_v29_eq (m' : (ℓ : Loc nD τ sig) → Buf (Elt F) ℓ) (c : Dev nD) :
    (R m' c (Proc.devRef .tc main_v29) : (⟨S1x6144, .f32⟩ : BufTy).Contents (Elt F))
      = addf (R m' c (Proc.devRef .tc main_v27) : (⟨S1x6144, .f32⟩ : BufTy).Contents (Elt F)) (R m' c (Proc.devRef .tc main_v28) : (⟨S1x6144, .f32⟩ : BufTy).Contents (Elt F)) := by
  rw [R_window 55 56 (by decide) m' c main_v29 (by decide),
    R_kept 55 m' c main_v27 (by decide),
    R_kept 55 m' c main_v28 (by decide)]
  generalize Vk 55 m' c = W
  rw [show (ops.take 56).drop 55 = [_] from rfl]
  after_results <;> rfl

/-- The hidden-gate weights transposed. -/
theorem main_v30_eq (m' : (ℓ : Loc nD τ sig) → Buf (Elt F) ℓ) (c : Dev nD) :
    (R m' c (Proc.devRef .tc main_v30) : (⟨S2048x6144, .f32⟩ : BufTy).Contents (Elt F))
      = transpose S2048x6144 [1, 0] (R m' c (Proc.devRef .tc main_arg9) : (⟨S6144x2048, .f32⟩ : BufTy).Contents (Elt F)) transposes_S6144x2048_S2048x6144_1_0 := by
  rw [R_window 56 57 (by decide) m' c main_v30 (by decide),
    R_kept 56 m' c main_arg9 (by decide)]
  generalize Vk 56 m' c = W
  rw [show (ops.take 57).drop 56 = [_] from rfl]
  after_results <;> rfl

/-- The hidden projection before its bias. -/
theorem main_v31_eq (m' : (ℓ : Loc nD τ sig) → Buf (Elt F) ℓ) (c : Dev nD) :
    (R m' c (Proc.devRef .tc main_v31) : (⟨S1x6144, .f32⟩ : BufTy).Contents (Elt F))
      = Host.dotGeneral dot_S1x2048_S2048x6144_S1x6144_1_0_0_1_n_n none (R m' c (Proc.devRef .tc main_v2) : (⟨S1x2048, .f32⟩ : BufTy).Contents (Elt F)) (R m' c (Proc.devRef .tc main_v30) : (⟨S2048x6144, .f32⟩ : BufTy).Contents (Elt F)) := by
  rw [R_window 57 58 (by decide) m' c main_v31 (by decide),
    R_kept 57 m' c main_v2 (by decide),
    R_kept 57 m' c main_v30 (by decide)]
  generalize Vk 57 m' c = W
  rw [show (ops.take 58).drop 57 = [_] from rfl]
  after_results <;> rfl

/-- The hidden projection's bias as a row. -/
theorem main_v32_eq (m' : (ℓ : Loc nD τ sig) → Buf (Elt F) ℓ) (c : Dev nD) :
    (R m' c (Proc.devRef .tc main_v32) : (⟨S1x6144, .f32⟩ : BufTy).Contents (Elt F))
      = broadcastInDim S1x6144 ![1] bcast_S6144_S1x6144_1 (R m' c (Proc.devRef .tc main_arg11) : (⟨S6144, .f32⟩ : BufTy).Contents (Elt F)) := by
  rw [R_window 58 59 (by decide) m' c main_v32 (by decide),
    R_kept 58 m' c main_arg11 (by decide)]
  generalize Vk 58 m' c = W
  rw [show (ops.take 59).drop 58 = [_] from rfl]
  after_results <;> rfl

/-- The hidden projection: the three gates' hidden parts, 6144 entries. -/
theorem main_v33_eq (m' : (ℓ : Loc nD τ sig) → Buf (Elt F) ℓ) (c : Dev nD) :
    (R m' c (Proc.devRef .tc main_v33) : (⟨S1x6144, .f32⟩ : BufTy).Contents (Elt F))
      = addf (R m' c (Proc.devRef .tc main_v31) : (⟨S1x6144, .f32⟩ : BufTy).Contents (Elt F)) (R m' c (Proc.devRef .tc main_v32) : (⟨S1x6144, .f32⟩ : BufTy).Contents (Elt F)) := by
  rw [R_window 59 60 (by decide) m' c main_v33 (by decide),
    R_kept 59 m' c main_v31 (by decide),
    R_kept 59 m' c main_v32 (by decide)]
  generalize Vk 59 m' c = W
  rw [show (ops.take 60).drop 59 = [_] from rfl]
  after_results <;> rfl

/-- The new hidden row: the gate arithmetic of the shared `gruHost` on the two projections and the previous hidden row (operations 61–93: the six slices, the two logistic gates, the candidate, the blend). -/
theorem main_v61_eq (m' : (ℓ : Loc nD τ sig) → Buf (Elt F) ℓ) (c : Dev nD) :
    (R m' c (Proc.devRef .tc main_v61) : (⟨S1x2048, .f32⟩ : BufTy).Contents (Elt F))
      = Cert.HostChains.gruHost (R m' c (Proc.devRef .tc main_v29) : (⟨S1x6144, .f32⟩ : BufTy).Contents (Elt F)) (R m' c (Proc.devRef .tc main_v33) : (⟨S1x6144, .f32⟩ : BufTy).Contents (Elt F)) (R m' c (Proc.devRef .tc main_v2) : (⟨S1x2048, .f32⟩ : BufTy).Contents (Elt F)) := by
  rw [R_window 60 93 (by decide) m' c main_v61 (by decide),
    R_kept 60 m' c main_v29 (by decide),
    R_kept 60 m' c main_v33 (by decide),
    R_kept 60 m' c main_v2 (by decide)]
  generalize Vk 60 m' c = W
  rw [show (ops.take 93).drop 60 = [_, _, _, _, _, _, _, _, _, _, _, _, _, _, _, _, _, _, _, _, _, _, _, _, _, _, _, _, _, _, _, _, _] from rfl]
  after_results_simp
  rfl

/-- The output weights transposed. -/
theorem main_v62_eq (m' : (ℓ : Loc nD τ sig) → Buf (Elt F) ℓ) (c : Dev nD) :
    (R m' c (Proc.devRef .tc main_v62) : (⟨S2048x50257, .f32⟩ : BufTy).Contents (Elt F))
      = transpose S2048x50257 [1, 0] (R m' c (Proc.devRef .tc main_arg12) : (⟨S50257x2048, .f32⟩ : BufTy).Contents (Elt F)) transposes_S50257x2048_S2048x50257_1_0 := by
  rw [R_window 93 94 (by decide) m' c main_v62 (by decide),
    R_kept 93 m' c main_arg12 (by decide)]
  generalize Vk 93 m' c = W
  rw [show (ops.take 94).drop 93 = [_] from rfl]
  after_results <;> rfl

/-- The vocabulary logits before the bias. -/
theorem main_v63_eq (m' : (ℓ : Loc nD τ sig) → Buf (Elt F) ℓ) (c : Dev nD) :
    (R m' c (Proc.devRef .tc main_v63) : (⟨S1x50257, .f32⟩ : BufTy).Contents (Elt F))
      = Host.dotGeneral dot_S1x2048_S2048x50257_S1x50257_1_0_0_1_n_n none (R m' c (Proc.devRef .tc main_v61) : (⟨S1x2048, .f32⟩ : BufTy).Contents (Elt F)) (R m' c (Proc.devRef .tc main_v62) : (⟨S2048x50257, .f32⟩ : BufTy).Contents (Elt F)) := by
  rw [R_window 94 95 (by decide) m' c main_v63 (by decide),
    R_kept 94 m' c main_v61 (by decide),
    R_kept 94 m' c main_v62 (by decide)]
  generalize Vk 94 m' c = W
  rw [show (ops.take 95).drop 94 = [_] from rfl]
  after_results <;> rfl

/-- The output bias as a row. -/
theorem main_v64_eq (m' : (ℓ : Loc nD τ sig) → Buf (Elt F) ℓ) (c : Dev nD) :
    (R m' c (Proc.devRef .tc main_v64) : (⟨S1x50257, .f32⟩ : BufTy).Contents (Elt F))
      = broadcastInDim S1x50257 ![1] bcast_S50257_S1x50257_1 (R m' c (Proc.devRef .tc main_arg13) : (⟨S50257, .f32⟩ : BufTy).Contents (Elt F)) := by
  rw [R_window 95 96 (by decide) m' c main_v64 (by decide),
    R_kept 95 m' c main_arg13 (by decide)]
  generalize Vk 95 m' c = W
  rw [show (ops.take 96).drop 95 = [_] from rfl]
  after_results <;> rfl

/-- The vocabulary logits. -/
theorem main_v65_eq (m' : (ℓ : Loc nD τ sig) → Buf (Elt F) ℓ) (c : Dev nD) :
    (R m' c (Proc.devRef .tc main_v65) : (⟨S1x50257, .f32⟩ : BufTy).Contents (Elt F))
      = addf (R m' c (Proc.devRef .tc main_v63) : (⟨S1x50257, .f32⟩ : BufTy).Contents (Elt F)) (R m' c (Proc.devRef .tc main_v64) : (⟨S1x50257, .f32⟩ : BufTy).Contents (Elt F)) := by
  rw [R_window 96 97 (by decide) m' c main_v65 (by decide),
    R_kept 96 m' c main_v63 (by decide),
    R_kept 96 m' c main_v64 (by decide)]
  generalize Vk 96 m' c = W
  rw [show (ops.take 97).drop 96 = [_] from rfl]
  after_results <;> rfl

/-- The first result: the shared `logSoftmax` of the vocabulary logits (operations 98–112). -/
theorem main_v66_eq (m' : (ℓ : Loc nD τ sig) → Buf (Elt F) ℓ) (c : Dev nD) :
    (R m' c (Proc.devRef .tc main_v66) : (⟨S1x50257, .f32⟩ : BufTy).Contents (Elt F))
      = Cert.HostChains.logSoftmax (R m' c (Proc.devRef .tc main_v65) : (⟨S1x50257, .f32⟩ : BufTy).Contents (Elt F)) := by
  rw [R_window 97 112 (by decide) m' c main_v66 (by decide),
    R_kept 97 m' c main_v65 (by decide)]
  generalize Vk 97 m' c = W
  rw [show (ops.take 112).drop 97 = [_, _, _, _, _, _, _, _, _, _, _, _, _, _, _] from rfl]
  after_results_simp
  simp only [ofBuf_toBuf]
  rfl

/-- The second result: the new hidden row read as [1,1,2048]. -/
theorem main_v67_eq (m' : (ℓ : Loc nD τ sig) → Buf (Elt F) ℓ) (c : Dev nD) :
    (R m' c (Proc.devRef .tc main_v67) : (⟨S1x1x2048, .f32⟩ : BufTy).Contents (Elt F))
      = broadcastInDim S1x1x2048 ![1, 2] bcast_S1x2048_S1x1x2048_1_2 (R m' c (Proc.devRef .tc main_v61) : (⟨S1x2048, .f32⟩ : BufTy).Contents (Elt F)) := by
  rw [R_window 112 113 (by decide) m' c main_v67 (by decide),
    R_kept 112 m' c main_v61 (by decide)]
  generalize Vk 112 m' c = W
  rw [show (ops.take 113).drop 112 = [_] from rfl]
  after_results <;> rfl

end Cert.ReferenceIdeal.RefRun

end
-- ==== Proof.GlueMid.lean ====
import proofs.«153450_j57131654971751_1_alg».proof.Proof.Stage2
import proofs.«153450_j57131654971751_1_alg».proof.Proof.ChainFacts
import proofs.«153450_j57131654971751_1_alg».proof.Proof.HostChains
import proofs.«153450_j57131654971751_1_alg».proof.Proof.RefStages

/-!
# From the combining layer to the new state

The recurrent cell's new state is one function — the gate arithmetic — of three rows: the projection of the cell's input,
the projection of the previous state, and the previous state itself. Both programs apply that same function; the kernel's
two projections, each written as six blocks of 1024 columns, are the reference's whole rows. So agreement on the cell's
input row and on the previous state, with the launch memories agreeing on the two weight matrices and the two bias
vectors, carries over to the new state.
-/

noncomputable section

namespace Cert.Val.Glue

open Cert.KernelIdeal Cert.KernelIdeal.Gen Cert.KernelIdeal.Rn
open Idealize.ShloMosaic Idealize.ShloMosaic.TcCoe Idealize.ShloMosaic.ValueIdx Idealize.SL.Sem

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- THE MIDDLE: if the two programs agree on the combining layer's output row and on the previous state's row, and their
    launch memories on the cell's two weight matrices and two bias vectors, then they agree on the NEW STATE. Both
    compute it by the same gate arithmetic from the two projections and the previous state, and the projections agree:
    the kernel's, six blocks of 1024 columns each, are the reference's whole rows. -/
theorem mid (c : Dev nD)
    (hS1 : (U6 m c (Proc.devRef .tc main_v8) : (⟨2, ![1, 2048]⟩ : Shape).Idx → EReal) = Cert.ReferenceIdeal.RefRun.R m' c (Proc.devRef .tc Cert.ReferenceIdeal.main_v25))
    (hv2 : (U3 m c (Proc.devRef .tc main_v2) : (⟨2, ![1, 2048]⟩ : Shape).Idx → EReal) = Cert.ReferenceIdeal.RefRun.R m' c (Proc.devRef .tc Cert.ReferenceIdeal.main_v2))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (r26 : Cert.ReferenceIdeal.RefRun.R m' c (Proc.devRef .tc Cert.ReferenceIdeal.main_v26)
      = transpose Cert.ReferenceIdeal.S2048x6144 [1, 0] (Cert.ReferenceIdeal.RefRun.R m' c (Proc.devRef .tc Cert.ReferenceIdeal.main_arg8)) Cert.ReferenceIdeal.Facts₀.transposes_S6144x2048_S2048x6144_1_0)
    (r27 : @Eq (FVec Ideal Cert.ReferenceIdeal.S1x6144 .f32) (Cert.ReferenceIdeal.RefRun.R m' c (Proc.devRef .tc Cert.ReferenceIdeal.main_v27))
      (Host.dotGeneral (φ₁ := .f32) (φ₂ := .f32) Cert.ReferenceIdeal.dot_S1x2048_S2048x6144_S1x6144_1_0_0_1_n_n none
          (Cert.ReferenceIdeal.RefRun.R m' c (Proc.devRef .tc Cert.ReferenceIdeal.main_v25)) (Cert.ReferenceIdeal.RefRun.R m' c (Proc.devRef .tc Cert.ReferenceIdeal.main_v26))))
    (r28 : Cert.ReferenceIdeal.RefRun.R m' c (Proc.devRef .tc Cert.ReferenceIdeal.main_v28)
      = broadcastInDim Cert.ReferenceIdeal.S1x6144 ![1] Cert.ReferenceIdeal.Facts₀.bcast_S6144_S1x6144_1 (Cert.ReferenceIdeal.RefRun.R m' c (Proc.devRef .tc Cert.ReferenceIdeal.main_arg10)))
    (r29 : @Eq (FVec Ideal Cert.ReferenceIdeal.S1x6144 .f32) (Cert.ReferenceIdeal.RefRun.R m' c (Proc.devRef .tc Cert.ReferenceIdeal.main_v29))
      (addf (Cert.ReferenceIdeal.RefRun.R m' c (Proc.devRef .tc Cert.ReferenceIdeal.main_v27)) (Cert.ReferenceIdeal.RefRun.R m' c (Proc.devRef .tc Cert.ReferenceIdeal.main_v28))))
    (r30 : Cert.ReferenceIdeal.RefRun.R m' c (Proc.devRef .tc Cert.ReferenceIdeal.main_v30)
      = transpose Cert.ReferenceIdeal.S2048x6144 [1, 0] (Cert.ReferenceIdeal.RefRun.R m' c (Proc.devRef .tc Cert.ReferenceIdeal.main_arg9)) Cert.ReferenceIdeal.Facts₀.transposes_S6144x2048_S2048x6144_1_0)
    (r31 : @Eq (FVec Ideal Cert.ReferenceIdeal.S1x6144 .f32) (Cert.ReferenceIdeal.RefRun.R m' c (Proc.devRef .tc Cert.ReferenceIdeal.main_v31))
      (Host.dotGeneral (φ₁ := .f32) (φ₂ := .f32) Cert.ReferenceIdeal.dot_S1x2048_S2048x6144_S1x6144_1_0_0_1_n_n none
          (Cert.ReferenceIdeal.RefRun.R m' c (Proc.devRef .tc Cert.ReferenceIdeal.main_v2)) (Cert.ReferenceIdeal.RefRun.R m' c (Proc.devRef .tc Cert.ReferenceIdeal.main_v30))))
    (r32 : Cert.ReferenceIdeal.RefRun.R m' c (Proc.devRef .tc Cert.ReferenceIdeal.main_v32)
      = broadcastInDim Cert.ReferenceIdeal.S1x6144 ![1] Cert.ReferenceIdeal.Facts₀.bcast_S6144_S1x6144_1 (Cert.ReferenceIdeal.RefRun.R m' c (Proc.devRef .tc Cert.ReferenceIdeal.main_arg11)))
    (r33 : @Eq (FVec Ideal Cert.ReferenceIdeal.S1x6144 .f32) (Cert.ReferenceIdeal.RefRun.R m' c (Proc.devRef .tc Cert.ReferenceIdeal.main_v33))
      (addf (Cert.ReferenceIdeal.RefRun.R m' c (Proc.devRef .tc Cert.ReferenceIdeal.main_v31)) (Cert.ReferenceIdeal.RefRun.R m' c (Proc.devRef .tc Cert.ReferenceIdeal.main_v32))))
    (e61 : (Cert.ReferenceIdeal.RefRun.R m' c (Proc.devRef .tc Cert.ReferenceIdeal.main_v61) : (⟨2, ![1, 2048]⟩ : Shape).Idx → EReal)
      = Cert.HostChains.gruHost (F := Ideal) (Cert.ReferenceIdeal.RefRun.R m' c (Proc.devRef .tc Cert.ReferenceIdeal.main_v29)) (Cert.ReferenceIdeal.RefRun.R m' c (Proc.devRef .tc Cert.ReferenceIdeal.main_v33)) (Cert.ReferenceIdeal.RefRun.R m' c (Proc.devRef .tc Cert.ReferenceIdeal.main_v2))) :
    (U9 m c (Proc.devRef .tc main_v39) : (⟨2, ![1, 2048]⟩ : Shape).Idx → EReal) = Cert.ReferenceIdeal.RefRun.R m' c (Proc.devRef .tc Cert.ReferenceIdeal.main_v61) := by
  have gi := Cert.Val.Stage2.stage2_gi_of_args m m' c ((Cert.KernelIdeal.ChainFacts.U7_v8 m c).trans hS1) h8 h10 r26 r27 r28 r29
  have gh := Cert.Val.Stage2.stage2_gh_of_args m m' c ((Cert.KernelIdeal.ChainFacts.U7_v2 m c).trans hv2) h9 h11 r30 r31 r32 r33
  rw [Cert.KernelIdeal.ChainFacts.U9_v39 m c, gi, gh, hv2]
  exact e61.symm

/-- THE MIDDLE, the reference's side read off its run: only the agreement of the two rows and of the launch memories on the
    cell's four arguments is left to give. -/
theorem mid_closed (c : Dev nD)
    (hS1 : (U6 m c (Proc.devRef .tc main_v8) : (⟨2, ![1, 2048]⟩ : Shape).Idx → EReal) = Cert.ReferenceIdeal.RefRun.R m' c (Proc.devRef .tc Cert.ReferenceIdeal.main_v25))
    (hv2 : (U3 m c (Proc.devRef .tc main_v2) : (⟨2, ![1, 2048]⟩ : Shape).Idx → EReal) = Cert.ReferenceIdeal.RefRun.R m' c (Proc.devRef .tc Cert.ReferenceIdeal.main_v2))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    (U9 m c (Proc.devRef .tc main_v39) : (⟨2, ![1, 2048]⟩ : Shape).Idx → EReal) = Cert.ReferenceIdeal.RefRun.R m' c (Proc.devRef .tc Cert.ReferenceIdeal.main_v61) :=
  mid m m' c hS1 hv2 h8 h9 h10 h11
    (Cert.ReferenceIdeal.RefRun.main_v26_eq m' c) (Cert.ReferenceIdeal.RefRun.main_v27_eq m' c)
    (Cert.ReferenceIdeal.RefRun.main_v28_eq m' c) (Cert.ReferenceIdeal.RefRun.main_v29_eq m' c)
    (Cert.ReferenceIdeal.RefRun.main_v30_eq m' c) (Cert.ReferenceIdeal.RefRun.main_v31_eq m' c)
    (Cert.ReferenceIdeal.RefRun.main_v32_eq m' c) (Cert.ReferenceIdeal.RefRun.main_v33_eq m' c)
    (Cert.ReferenceIdeal.RefRun.main_v61_eq m' c)

end Cert.Val.Glue

end
-- ==== Proof.GlueBack.lean ====
/-
  The back of the bridge: from the new state's agreement to the three results.

  After the recurrent cell both programs hold the same new state `h'`. The kernel then computes the row of logits
  tile by tile and the plain program by one product; both add the bias, take the logarithm of the softmax along the row,
  and return it beside the new state with a leading unit axis and the attention weights computed at the start. The tiles
  piece the plain program's row together, so the two rows of logits are equal, and equal rows have equal log-softmax;
  the second result is one and the same broadcast of equal states; the third is carried unchanged from the first region
  to the return.
-/
import proofs.«153450_j57131654971751_1_alg».proof.Proof.ChainFacts
import proofs.«153450_j57131654971751_1_alg».proof.Proof.RefRun
import proofs.«153450_j57131654971751_1_alg».proof.Proof.Stage3

set_option maxRecDepth 16384

noncomputable section

namespace Cert.Val.Glue

open Cert.KernelIdeal Cert.KernelIdeal.Gen Cert.KernelIdeal.Rn
open Idealize.ShloMosaic Idealize.ShloMosaic.TcCoe

variable (m : (ℓ : Loc nD τ sig) → Buf (Elt Ideal) ℓ)
variable (m' : (ℓ : Loc Cert.ReferenceIdeal.nD Cert.ReferenceIdeal.τ Cert.ReferenceIdeal.sig) → Buf (Elt Ideal) ℓ)
variable (c : Dev nD)

/-- The output layer's bias vector reaches region 3 as launched: no stretch writes it and no region has it among its
    arrays. -/
theorem U9_arg13 : U9 m c (Proc.devRef .tc main_arg13) = m ((c : Thread nD τ).loc main_arg13) :=
  (ChainFacts.U9_keep m c main_arg13 (by decide)).trans
    (ChainFacts.U8_launch m c main_arg13 (by decide) (by decide) (by decide) (by decide) (by decide) (by decide) (by decide) (by decide))

/-- THE THREE RESULTS. The two programs' new states and attention weights being equal, and the launch memories agreeing on
    the output layer's weights and bias: with the logits' buffer at what region 3's write-backs leave, the kernel's
    program returns the plain program's log-softmax row, new state and attention weights. The plain program's last six
    equations (the exchanged weight matrix, the product, the broadcast bias, their sum, the log-softmax, the new
    state's broadcast) are hypotheses. -/
theorem back (o : (c : Dev nD) → Buf (Elt Ideal) ((c : Thread nD τ).loc main_v41))
    (ho : o c = (Rg.dat3 (T9 m) c).arrAt 3 cfg3.N)
    (h_new : (U9 m c (Proc.devRef .tc main_v39) : S1x2048.Idx → EReal)
      = Cert.ReferenceIdeal.RefRun.R m' c (Proc.devRef .tc Cert.ReferenceIdeal.main_v61))
    (hweights : (U4 m c (Proc.devRef .tc main_v5_0) : S1x512.Idx → EReal)
      = Cert.ReferenceIdeal.RefRun.R m' c (Proc.devRef .tc Cert.ReferenceIdeal.main_v18))
    (hA12 : (m ((c.tc : Thread nD τ).loc main_arg12) : S50257x2048.Idx → EReal)
      = m' ((c.tc : Thread Cert.ReferenceIdeal.nD Cert.ReferenceIdeal.τ).loc Cert.ReferenceIdeal.main_arg12))
    (hA13 : (m ((c.tc : Thread nD τ).loc main_arg13) : S50257.Idx → EReal)
      = m' ((c.tc : Thread Cert.ReferenceIdeal.nD Cert.ReferenceIdeal.τ).loc Cert.ReferenceIdeal.main_arg13))
    (e62 : (Cert.ReferenceIdeal.RefRun.R m' c (Proc.devRef .tc Cert.ReferenceIdeal.main_v62) : Cert.ReferenceIdeal.S2048x50257.Idx → EReal)
      = (transpose Cert.ReferenceIdeal.S2048x50257 [1, 0]
          (Cert.ReferenceIdeal.RefRun.R m' c (Proc.devRef .tc Cert.ReferenceIdeal.main_arg12) : S50257x2048.Idx → EReal)
          Cert.ReferenceIdeal.Facts₀.transposes_S50257x2048_S2048x50257_1_0 : Cert.ReferenceIdeal.S2048x50257.Idx → EReal))
    (e63 : (Cert.ReferenceIdeal.RefRun.R m' c (Proc.devRef .tc Cert.ReferenceIdeal.main_v63) : S1x50257.Idx → EReal)
      = (Host.dotGeneral (F := Ideal) (φ₁ := .f32) (φ₂ := .f32) Cert.ReferenceIdeal.dot_S1x2048_S2048x50257_S1x50257_1_0_0_1_n_n none
          (Cert.ReferenceIdeal.RefRun.R m' c (Proc.devRef .tc Cert.ReferenceIdeal.main_v61))
          (Cert.ReferenceIdeal.RefRun.R m' c (Proc.devRef .tc Cert.ReferenceIdeal.main_v62)) : S1x50257.Idx → EReal))
    (e64 : (Cert.ReferenceIdeal.RefRun.R m' c (Proc.devRef .tc Cert.ReferenceIdeal.main_v64) : S1x50257.Idx → EReal)
      = (broadcastInDim S1x50257 ![1] Cert.ReferenceIdeal.Facts₀.bcast_S50257_S1x50257_1
          (Cert.ReferenceIdeal.RefRun.R m' c (Proc.devRef .tc Cert.ReferenceIdeal.main_arg13) : S50257.Idx → EReal) : S1x50257.Idx → EReal))
    (e65 : (Cert.ReferenceIdeal.RefRun.R m' c (Proc.devRef .tc Cert.ReferenceIdeal.main_v65) : S1x50257.Idx → EReal)
      = (addf (F := Ideal) (s := S1x50257) (φ := .f32) (Cert.ReferenceIdeal.RefRun.R m' c (Proc.devRef .tc Cert.ReferenceIdeal.main_v63))
          (Cert.ReferenceIdeal.RefRun.R m' c (Proc.devRef .tc Cert.ReferenceIdeal.main_v64)) : S1x50257.Idx → EReal))
    (e66 : (Cert.ReferenceIdeal.RefRun.R m' c (Proc.devRef .tc Cert.ReferenceIdeal.main_v66) : S1x50257.Idx → EReal)
      = (Cert.HostChains.logSoftmax (F := Ideal)
          (Cert.ReferenceIdeal.RefRun.R m' c (Proc.devRef .tc Cert.ReferenceIdeal.main_v65)) : S1x50257.Idx → EReal))
    (e67 : (Cert.ReferenceIdeal.RefRun.R m' c (Proc.devRef .tc Cert.ReferenceIdeal.main_v67) : S1x1x2048.Idx → EReal)
      = (broadcastInDim S1x1x2048 ![1, 2] Cert.ReferenceIdeal.Facts₀.bcast_S1x2048_S1x1x2048_1_2
          (Cert.ReferenceIdeal.RefRun.R m' c (Proc.devRef .tc Cert.ReferenceIdeal.main_v61) : S1x2048.Idx → EReal) : S1x1x2048.Idx → EReal)) :
    (U12 m o c (Proc.devRef .tc main_v42) : S1x50257.Idx → EReal)
        = Cert.ReferenceIdeal.RefRun.R m' c (Proc.devRef .tc Cert.ReferenceIdeal.main_v66)
      ∧ (U12 m o c (Proc.devRef .tc main_v43) : S1x1x2048.Idx → EReal)
        = Cert.ReferenceIdeal.RefRun.R m' c (Proc.devRef .tc Cert.ReferenceIdeal.main_v67)
      ∧ (U12 m o c (Proc.devRef .tc main_v5_0) : S1x512.Idx → EReal)
        = Cert.ReferenceIdeal.RefRun.R m' c (Proc.devRef .tc Cert.ReferenceIdeal.main_v18) := by
  -- the weights and the bias: each program holds what it was launched with, and the launch memories agree
  have hW : (T9 m c main_arg12 : S50257x2048.Idx → EReal)
      = Cert.ReferenceIdeal.RefRun.R m' c (Proc.devRef .tc Cert.ReferenceIdeal.main_arg12) :=
    (ChainFacts.U9_arg12 m c).trans (hA12.trans (Cert.ReferenceIdeal.RefRun.arg_kept m' c Cert.ReferenceIdeal.main_arg12 (by decide)).symm)
  have hb : (T9 m c main_arg13 : S50257.Idx → EReal)
      = Cert.ReferenceIdeal.RefRun.R m' c (Proc.devRef .tc Cert.ReferenceIdeal.main_arg13) :=
    (U9_arg13 m c).trans (hA13.trans (Cert.ReferenceIdeal.RefRun.arg_kept m' c Cert.ReferenceIdeal.main_arg13 (by decide)).symm)
  -- the rows of logits
  have hlogits : (o c : S1x50257.Idx → EReal) = Cert.ReferenceIdeal.RefRun.R m' c (Proc.devRef .tc Cert.ReferenceIdeal.main_v65) :=
    ho.trans (Cert.Stage3.stage3_of m c _ e62 e63 e64 e65 h_new hW hb)
  refine ⟨?_, ?_, ?_⟩
  · rw [ChainFacts.U12_v42 m o c, hlogits, e66]
  · rw [ChainFacts.U12_v43 m o c, e67]
    exact congrArg _ h_new
  · exact (ChainFacts.U12_v5_0 m o c).trans hweights

end Cert.Val.Glue

end
-- ==== Proof.Stage1.lean ====
/-
  The combining layer: relu(x · Wᵀ + b), the kernel's four blocks against the plain program's one product.

  `x` is a row of 4096 entries, `W` a matrix of 2048 rows of 4096 weights, `b` a row of 2048 biases. Entry `n` of the
  result is `max (∑ k, x k · W (n, k) + b n) 0`: it depends on row `n` of `W` and entry `n` of `b` alone.

  The kernel visits four points. At point `t` it holds the whole of `x`, the 512 rows `512·t … 512·t + 511` of `W` and the
  matching 512 biases, multiplies `x` by the transpose of that block of rows, adds the biases, rectifies, and writes
  the 512 results to columns `512·t … 512·t + 511` of the output row. Column `j` of the block's result is therefore entry
  `512·t + j` of the whole result (`flushed1_eq`), every column `i` of the output row lies in block `i / 512`
  (`cover1`), and so the output row ends holding the whole result (`arr1_eq`, `kernel_v8`).

  The plain program exchanges the axes of `W`, takes the ordinary product `x · Wᵀ`, adds `b` broadcast from a vector of
  2048 entries, and takes the maximum with a row of zeros: the same entry, the sum over `k` of `x k · Wᵀ (k, n)` being the
  sum of `x k · W (n, k)` (`ref_relu_affine`). The kernel's bias row is the same vector reshaped, which reads the vector
  at the column.
-/
import proofs.«153450_j57131654971751_1_alg».proof.Proof.KI.Chain
import proofs.«153450_j57131654971751_1_alg».proof.Proof.LibAffineRows
import proofs.«153450_j57131654971751_1_alg».proof.Proof.LibMatvecT
import proofs.«153450_j57131654971751_1_alg».proof.Proof.DotFacts
import Idealize.ShloMosaic.Lib.ValueIdx
import Idealize.ShloMosaic.Lib.ValueLayout
import Idealize.ShloMosaic.Lib.Pipeline.Value
import Idealize.ShloMosaic.PureOps.Ideal.Laws

-- membership in a rectangle whose long axis has thousands of coordinates recurses once per coordinate
set_option maxRecDepth 16384

noncomputable section

namespace Cert.Stage1

open Cert.KernelIdeal Cert.KernelIdeal.Gen
open Idealize.ShloMosaic Idealize.ShloMosaic.ValueIdx Idealize.ShloMosaic.TcCoe
open Idealize.ShloMosaic.Pipeline (Dat Cfg Window)
open Cert.Lib

/-! ## One block: the rectified affine map at a column -/

/-- Column `j` of what the body computes from the row `x`, a block `W` of 512 weight rows and the 512 matching biases `b`:
    the inner product of `x` with row `j` of the block, plus bias `j`, rectified. Narrowing the operands changes nothing
    over the extended reals, and the zero word reads as zero. -/
theorem k1_pay1_apply (x : Vec Ideal S1x4096 .f32) (W : Vec Ideal S512x4096 .f32) (b : Vec Ideal S1x512 .f32) (j : Fin 512) :
    k1_pay1 x W b (ix2 (0 : Fin 1) j) = max ((∑ k : Fin 4096, x (ix2 0 k) * W (ix2 j k)) + b (ix2 0 j)) 0 := by
  unfold k1_pay1
  rw [maximumf_apply, addf_apply, broadcast_apply, shapeCast_self, shapeCast_self, matmulT_zero_apply transDot_512]
  exact congrArg (max _) Ideal.ofBits_zero_f32

/-! ## The whole row -/

/-- The combining layer on whole arrays: entry `n` of the row is `max (∑ k, x k · W (n, k) + b n) 0`. -/
def G1 (x : FVec Ideal S1x4096 .f32) (W : FVec Ideal S2048x4096 .f32) (b : FVec Ideal S1x2048 .f32) : FVec Ideal S1x2048 .f32 :=
  fun i => max ((∑ k : Fin 4096, x (ix2 0 k) * W (ix2 (i 1) k)) + b (ix2 0 (i 1))) 0

/-- The same, at a column named by its number. -/
theorem G1_apply (x : FVec Ideal S1x4096 .f32) (W : FVec Ideal S2048x4096 .f32) (b : FVec Ideal S1x2048 .f32) (n : Fin 2048) :
    G1 x W b (ix2 (0 : Fin 1) n) = max ((∑ k : Fin 4096, x (ix2 0 k) * W (ix2 n k)) + b (ix2 0 n)) 0 := rfl

/-- Where each window's block sits at point `t`, decided over the four points: the row `x` is always block `(0, 0)`; the
    weights' block is `(t, 0)`, 512 rows down per point; the biases' and the output's block is `(0, t)`, 512 columns
    along per point. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

set_option maxHeartbeats 1000000 in
/-- WHAT POINT `t` WRITES BACK is block `t` of the whole row `G1 x W b`: column `j` of the block's result reads `x` whole,
    row `512·t + j` of `W` and entry `512·t + j` of `b`, as entry `512·t + j` of the whole row does. -/
theorem flushed1_eq {c : Dev nD} (dat : Dat τ (Elt Ideal) Unit ℕ (UR sig nD τ) ℕ cfg1 c)
    (x : FVec Ideal S1x4096 .f32) (W : FVec Ideal S2048x4096 .f32) (b : FVec Ideal S1x2048 .f32)
    (hafter : ∀ t, dat.after 3 t = k1_pay1 (((cfg1.win 0).blk t).view.read (Elt Ideal) x)
      (((cfg1.win 1).blk t).view.read (Elt Ideal) W) (((cfg1.win 2).blk t).view.read (Elt Ideal) b)) (t : Fin cfg1.N) :
    dat.flushed 3 t = ((cfg1.win 3).blk t).view.read (Elt Ideal) (G1 x W b) := by
  show (cfg1.win 3).cut (grid1.coords t) (dat.after 3 t) = _
  rw [hafter]
  funext j
  obtain ⟨p, q, rfl⟩ : ∃ (p : Fin 1) (q : Fin 512), j = ix2 p q := ⟨j 0, j 1, eq_ix2 j⟩
  obtain rfl : p = 0 := Subsingleton.elim _ _
  obtain ⟨e00, e01, e10, e11, e20, e21, e30, e31⟩ := idx_facts1 t
  have ht : t.val < 4 := t.isLt
  have hq : q.val < 512 := q.isLt
  have hc : 512 * t.val + q.val < 2048 := by omega
  have h3 : ((cfg1.win 3).blk t).view.emb (ix2 (0 : Fin 1) q) = ix2 (0 : Fin 1) (⟨512 * t.val + q.val, hc⟩ : Fin 2048) := by
    funext a; apply Fin.ext
    match a with
    | ⟨0, _⟩ => show win1_3.index t (0 : Fin 2) * 1 + 1 * 0 = 0; omega
    | ⟨1, _⟩ => show win1_3.index t (1 : Fin 2) * 512 + 1 * q.val = 512 * t.val + q.val; omega
  have h0 : ∀ k : Fin 4096, ((cfg1.win 0).blk t).view.emb (ix2 (0 : Fin 1) k) = ix2 (0 : Fin 1) k := fun k => by
    funext a; apply Fin.ext
    match a with
    | ⟨0, _⟩ => show win1_0.index t (0 : Fin 2) * 1 + 1 * 0 = 0; omega
    | ⟨1, _⟩ => show win1_0.index t (1 : Fin 2) * 4096 + 1 * k.val = k.val; omega
  have h1 : ∀ k : Fin 4096, ((cfg1.win 1).blk t).view.emb (ix2 q k) = ix2 (⟨512 * t.val + q.val, hc⟩ : Fin 2048) k := fun k => by
    funext a; apply Fin.ext
    match a with
    | ⟨0, _⟩ => show win1_1.index t (0 : Fin 2) * 512 + 1 * q.val = 512 * t.val + q.val; omega
    | ⟨1, _⟩ => show win1_1.index t (1 : Fin 2) * 4096 + 1 * k.val = k.val; omega
  have h2 : ((cfg1.win 2).blk t).view.emb (ix2 (0 : Fin 1) q) = ix2 (0 : Fin 1) (⟨512 * t.val + q.val, hc⟩ : Fin 2048) := by
    funext a; apply Fin.ext
    match a with
    | ⟨0, _⟩ => show win1_2.index t (0 : Fin 2) * 1 + 1 * 0 = 0; omega
    | ⟨1, _⟩ => show win1_2.index t (1 : Fin 2) * 512 + 1 * q.val = 512 * t.val + q.val; omega
  show k1_pay1 _ _ _ (ix2 (0 : Fin 1) q) = G1 x W b (((cfg1.win 3).blk t).view.emb (ix2 (0 : Fin 1) q))
  rw [k1_pay1_apply, h3]
  show max ((∑ k : Fin 4096, x (((cfg1.win 0).blk t).view.emb (ix2 (0 : Fin 1) k)) * W (((cfg1.win 1).blk t).view.emb (ix2 q k)))
        + b (((cfg1.win 2).blk t).view.emb (ix2 (0 : Fin 1) q))) 0
      = max ((∑ k : Fin 4096, x (ix2 (0 : Fin 1) k) * W (ix2 (⟨512 * t.val + q.val, hc⟩ : Fin 2048) k))
        + b (ix2 (0 : Fin 1) (⟨512 * t.val + q.val, hc⟩ : Fin 2048))) 0
  rw [h2]
  exact congrArg (fun s => max (s + _) 0) (Finset.sum_congr rfl fun k _ => by rw [h0, h1])

/-- A column of the output row is in point `t`'s block iff each coordinate is in the block's range on its axis. -/
theorem mem_blk1 (t : Fin cfg1.N) (i : S1x2048.Idx) :
    i ∈ ((cfg1.win 3).blk t).view.set ↔ ∀ a : Fin 2, win1_3.index t a * S1x512.size a ≤ (i a).val ∧ (i a).val < win1_3.index t a * S1x512.size a + S1x512.size a := by
  show i ∈ ((View.whole main_v8).slice (win1_3.rect t)).set ↔ _
  rw [View.set_slice_whole, Rect.mem_set_unit]
  exact Iff.rfl

/-- THE BLOCKS COVER THE ROW: column `i` lies in the block of point `i / 512`, and every point writes its block back. -/
theorem cover1 (i : S1x2048.Idx) : ∃ t : Fin cfg1.N, (cfg1.win 3).flush t = true ∧ i ∈ ((cfg1.win 3).blk t).view.set := by
  have hi0 : (i 0).val < 1 := (i 0).isLt
  have hi1 : (i 1).val < 2048 := (i 1).isLt
  have hlt : (i 1).val / 512 < 4 := by omega
  refine ⟨⟨(i 1).val / 512, hlt⟩, flush1_3 _, ?_⟩
  rw [mem_blk1]
  obtain ⟨-, -, -, -, -, -, e30, e31⟩ := idx_facts1 ⟨(i 1).val / 512, hlt⟩
  have e31' : win1_3.index ⟨(i 1).val / 512, hlt⟩ (1 : Fin 2) = (i 1).val / 512 := e31
  intro a
  match a with
  | ⟨0, _⟩ => show win1_3.index ⟨(i 1).val / 512, hlt⟩ (0 : Fin 2) * 1 ≤ (i 0).val ∧ (i 0).val < win1_3.index ⟨(i 1).val / 512, hlt⟩ (0 : Fin 2) * 1 + 1; omega
  | ⟨1, _⟩ => show win1_3.index ⟨(i 1).val / 512, hlt⟩ (1 : Fin 2) * 512 ≤ (i 1).val ∧ (i 1).val < win1_3.index ⟨(i 1).val / 512, hlt⟩ (1 : Fin 2) * 512 + 512; omega

/-- THE OUTPUT ROW after the four points, for any proof data whose result block at each point is the body's payload of
    the three blocks read off `x`, `W`, `b`: the whole row `G1 x W b`. -/
theorem arr1_eq {c : Dev nD} (dat : Dat τ (Elt Ideal) Unit ℕ (UR sig nD τ) ℕ cfg1 c)
    (x : FVec Ideal S1x4096 .f32) (W : FVec Ideal S2048x4096 .f32) (b : FVec Ideal S1x2048 .f32)
    (hafter : ∀ t, dat.after 3 t = k1_pay1 (((cfg1.win 0).blk t).view.read (Elt Ideal) x)
      (((cfg1.win 1).blk t).view.read (Elt Ideal) W) (((cfg1.win 2).blk t).view.read (Elt Ideal) b)) :
    dat.arrAt 3 cfg1.N = G1 x W b :=
  dat.arrAt_eq_of_cover 3 (G1 x W b) (fun t _ => flushed1_eq dat x W b hafter t) cover1

/-! ## The kernel's buffer after the region -/

/-- The combined row's buffer after region 1 is `G1` of the three buffers the region is entered with: the row `x`
    (built by the host stretch before), the weight matrix, and the bias row. -/
theorem kernel_v8 (m : (ℓ : Loc nD τ sig) → Buf (Elt Ideal) ℓ) (c : Dev nD) :
    Rn.U6 m c (Proc.devRef .tc main_v8)
      = G1 (Rn.U5 m c (Proc.devRef .tc main_v6)) (Rn.U5 m c (Proc.devRef .tc main_arg6)) (Rn.U5 m c (Proc.devRef .tc main_v7)) :=
  (Rn.U6_arr m c 3).trans (arr1_eq _ _ _ _ fun t => by rw [Rg.after1_3, Rg.out1_3_eq]; rfl)

/-! ## The plain program's chain -/

/-- A vector of 2048 biases broadcast to a row reads, at column `n`, the vector at `n`. -/
theorem bias_row_apply (bv : FVec Ideal S2048 .f32) (hB : S2048.BroadcastsInDim S1x2048 (![1] : Fin 1 → Fin 2)) (n : Fin 2048) :
    broadcastInDim S1x2048 ![1] hB bv (ix2 (0 : Fin 1) n) = bv (ix1 n) :=
  broadcastInDim_apply _ hB bv (ix2 (0 : Fin 1) n) (ix1 n) fun a => by
    match a with
    | ⟨0, _⟩ => exact (if_neg (by decide : ¬ (2048 = 1))).symm

/-- The same vector reshaped to a row reads, at column `n`, the vector at `n`. -/
theorem bias_reshape_apply (bv : FVec Ideal S2048 .f32) (hS : S2048.ShapeCasts S1x2048) (n : Fin 2048) :
    shapeCast S1x2048 bv hS (ix2 (0 : Fin 1) n) = bv (ix1 n) := by
  rw [show shapeCast S1x2048 bv hS (ix2 (0 : Fin 1) n) = bv (fun a => (ix2 (0 : Fin 1) n) a.succ) from
    shapeCast_addUnit_apply ![2048] bv hS (ix2 (0 : Fin 1) n)]
  exact congrArg bv (funext fun a => by match a with | ⟨0, _⟩ => rfl)

/-- The zero scalar broadcast to a row reads zero at every column. -/
theorem zero_row_apply (hZ : S_.BroadcastsInDim S1x2048 (![] : Fin 0 → Fin 2)) (i : S1x2048.Idx) :
    broadcastInDim S1x2048 ![] hZ (constant (F := Ideal) S_ .f32 0x00000000#32) i = 0 := by
  rw [broadcastInDim_apply _ hZ _ i ix0 fun a => a.elim0, constant_apply, Ideal.ofBits_zero_f32]

/-- THE PLAIN PROGRAM'S ROW: the product of `x` with `W` after its axes are exchanged, plus the bias vector broadcast to a
    row, against a row of zeros, is `G1` of `x`, `W` and the bias vector reshaped to a row — entry by entry the same sum,
    `Wᵀ (k, n)` being `W (n, k)`. -/
theorem ref_relu_affine [Cert.ReferenceIdeal.Facts₀] (x : FVec Ideal S1x4096 .f32) (W : FVec Ideal S2048x4096 .f32)
    (bv : FVec Ideal S2048 .f32) (hT : S2048x4096.Transposes [1, 0] ⟨2, ![4096, 2048]⟩)
    (hB : S2048.BroadcastsInDim S1x2048 (![1] : Fin 1 → Fin 2)) (hZ : S_.BroadcastsInDim S1x2048 (![] : Fin 0 → Fin 2))
    (hS : S2048.ShapeCasts S1x2048) :
    maximumf (addf (Host.dotGeneral Cert.ReferenceIdeal.dot_S1x4096_S4096x2048_S1x2048_1_0_0_1_n_n none x
          (transpose ⟨2, ![4096, 2048]⟩ [1, 0] W hT)) (broadcastInDim S1x2048 ![1] hB bv))
        (broadcastInDim S1x2048 ![] hZ (constant (F := Ideal) S_ .f32 0x00000000#32))
      = G1 x W (shapeCast S1x2048 bv hS) := by
  funext i
  obtain ⟨p, n, rfl⟩ : ∃ (p : Fin 1) (n : Fin 2048), i = ix2 p n := ⟨i 0, i 1, eq_ix2 i⟩
  obtain rfl : p = 0 := Subsingleton.elim _ _
  rw [G1_apply, maximumf_apply, addf_apply, dotGeneral_apply plainDot_dot_S1x4096_S4096x2048_S1x2048_1_0_0_1_n_n, sum_transpose,
    bias_row_apply, zero_row_apply, bias_reshape_apply]

/-! ## The two programs agree on the combined row -/

/-- THE STAGE, over any contents `RV` of the plain program's buffers that satisfy its five operations' equations (axes of
    the weights exchanged, product, bias broadcast, sum, maximum with the zero row): if the two programs hold the same
    row `x` when the combining layer starts, the same weight matrix, and the kernel's bias row is the plain program's
    bias vector reshaped, then the kernel's output row after region 1 is the plain program's rectified row. -/
theorem stage1_of [Cert.ReferenceIdeal.Facts₀] (m : (ℓ : Loc nD τ sig) → Buf (Elt Ideal) ℓ) (c : Dev nD)
    (RV : Valuation Cert.ReferenceIdeal.τ Cert.ReferenceIdeal.sig (Elt Ideal))
    (e21 : (RV (Proc.devRef .tc Cert.ReferenceIdeal.main_v21) : (⟨(⟨2, ![4096, 2048]⟩ : Shape), .f32⟩ : BufTy).Contents (Elt Ideal))
      = transpose (⟨2, ![4096, 2048]⟩ : Shape) [1, 0] (RV (Proc.devRef .tc Cert.ReferenceIdeal.main_arg6) : (⟨S2048x4096, .f32⟩ : BufTy).Contents (Elt Ideal)) Cert.ReferenceIdeal.Facts₀.transposes_S2048x4096_S4096x2048_1_0)
    (e22 : (RV (Proc.devRef .tc Cert.ReferenceIdeal.main_v22) : (⟨S1x2048, .f32⟩ : BufTy).Contents (Elt Ideal))
      = Host.dotGeneral (F := Ideal) (φ₁ := .f32) (φ₂ := .f32) Cert.ReferenceIdeal.dot_S1x4096_S4096x2048_S1x2048_1_0_0_1_n_n none (RV (Proc.devRef .tc Cert.ReferenceIdeal.main_v20) : (⟨S1x4096, .f32⟩ : BufTy).Contents (Elt Ideal)) (RV (Proc.devRef .tc Cert.ReferenceIdeal.main_v21) : (⟨(⟨2, ![4096, 2048]⟩ : Shape), .f32⟩ : BufTy).Contents (Elt Ideal)))
    (e23 : (RV (Proc.devRef .tc Cert.ReferenceIdeal.main_v23) : (⟨S1x2048, .f32⟩ : BufTy).Contents (Elt Ideal))
      = broadcastInDim S1x2048 ![1] Cert.ReferenceIdeal.Facts₀.bcast_S2048_S1x2048_1 (RV (Proc.devRef .tc Cert.ReferenceIdeal.main_arg7) : (⟨S2048, .f32⟩ : BufTy).Contents (Elt Ideal)))
    (e24 : (RV (Proc.devRef .tc Cert.ReferenceIdeal.main_v24) : (⟨S1x2048, .f32⟩ : BufTy).Contents (Elt Ideal)) = addf (F := Ideal) (s := S1x2048) (φ := .f32) (RV (Proc.devRef .tc Cert.ReferenceIdeal.main_v22) : (⟨S1x2048, .f32⟩ : BufTy).Contents (Elt Ideal)) (RV (Proc.devRef .tc Cert.ReferenceIdeal.main_v23) : (⟨S1x2048, .f32⟩ : BufTy).Contents (Elt Ideal)))
    (e25 : (RV (Proc.devRef .tc Cert.ReferenceIdeal.main_v25) : (⟨S1x2048, .f32⟩ : BufTy).Contents (Elt Ideal))
      = maximumf (F := Ideal) (s := S1x2048) (φ := .f32) (RV (Proc.devRef .tc Cert.ReferenceIdeal.main_v24) : (⟨S1x2048, .f32⟩ : BufTy).Contents (Elt Ideal)) (broadcastInDim S1x2048 ![] Cert.ReferenceIdeal.Facts₀.bcast_S_S1x2048 (constant (F := Ideal) S_ .f32 0x00000000#32)))
    (hx : (Rn.U5 m c (Proc.devRef .tc main_v6) : (⟨2, ![1, 4096]⟩ : Shape).Idx → EReal)
      = (RV (Proc.devRef .tc Cert.ReferenceIdeal.main_v20) : (⟨2, ![1, 4096]⟩ : Shape).Idx → EReal))
    (hW : (Rn.U5 m c (Proc.devRef .tc main_arg6) : (⟨2, ![2048, 4096]⟩ : Shape).Idx → EReal)
      = (RV (Proc.devRef .tc Cert.ReferenceIdeal.main_arg6) : (⟨2, ![2048, 4096]⟩ : Shape).Idx → EReal))
    (hb : (Rn.U5 m c (Proc.devRef .tc main_v7) : (⟨2, ![1, 2048]⟩ : Shape).Idx → EReal)
      = shapeCast S1x2048 (RV (Proc.devRef .tc Cert.ReferenceIdeal.main_arg7) : (⟨1, ![2048]⟩ : Shape).Idx → EReal) Facts₀.shapeCasts_S2048_S1x2048) :
    (Rn.U6 m c (Proc.devRef .tc main_v8) : (⟨2, ![1, 2048]⟩ : Shape).Idx → EReal)
      = (RV (Proc.devRef .tc Cert.ReferenceIdeal.main_v25) : (⟨2, ![1, 2048]⟩ : Shape).Idx → EReal) := by
  rw [kernel_v8, hx, hW, hb, e25, e24, e23, e22, e21]
  exact (ref_relu_affine _ _ _ _ _ _ _).symm

end Cert.Stage1

end
-- ==== Proof.Glue.lean ====
/-
  The bridge, whole: from launch memories that agree on the fourteen arguments, the kernel's three result buffers hold what the plain
  program's hold. The chain of equalities runs in the order of the computation: the embedding row, the state and the attention's query
  (the same host operations on equal arguments); the attention weights and the context (the first region against the plain softmax and
  product); the combining layer's input and output (the second region, its four column tiles pieced together); the two gate
  projections (the third region, six tiles each) and the recurrent cell's gates (one shared function); the row of logits (the fourth
  region, twenty-five tiles, the last cut) and its log-softmax (one shared function).
-/
import proofs.«153450_j57131654971751_1_alg».proof.Proof.GlueFront
import proofs.«153450_j57131654971751_1_alg».proof.Proof.GlueMid
import proofs.«153450_j57131654971751_1_alg».proof.Proof.GlueBack
import proofs.«153450_j57131654971751_1_alg».proof.Proof.Stage1
import proofs.«153450_j57131654971751_1_alg».proof.Proof.RefStages
import proofs.«153450_j57131654971751_1_alg».proof.Proof.KValueRun

set_option maxRecDepth 16384

noncomputable section

namespace Cert.Val.Glue

open Idealize.ShloMosaic Idealize.ShloMosaic.TcCoe Idealize.SL.Sem
open Cert.ReferenceIdeal.RefRun Cert.Val.Stage0

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The attention's scores in the plain program: the product with the exchanged weights plus the broadcast bias. -/
theorem ref_logits :
    (R (F := Ideal) m' c (Proc.devRef .tc Cert.ReferenceIdeal.main_v7) : (⟨2, ![1, 512]⟩ : Shape).Idx → EReal)
      = refLogits (R m' c (Proc.devRef .tc Cert.ReferenceIdeal.main_v3)) (R m' c (Proc.devRef .tc Cert.ReferenceIdeal.main_arg4)) (R m' c (Proc.devRef .tc Cert.ReferenceIdeal.main_arg5)) := by
  rw [main_v7_eq, main_v5_eq, main_v4_eq, main_v6_eq]; rfl

/-- The combining layer's weights reach the second region as launched, and the launch memories agree on them. -/
theorem comb_W (hA6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.KernelIdeal.Rn.U5 m c (Proc.devRef .tc Cert.KernelIdeal.main_arg6) : (⟨2, ![2048, 4096]⟩ : Shape).Idx → EReal)
      = (R (F := Ideal) m' c (Proc.devRef .tc Cert.ReferenceIdeal.main_arg6) : (⟨2, ![2048, 4096]⟩ : Shape).Idx → EReal) :=
  (Cert.KernelIdeal.ChainFacts.U5_arg6 m c).trans (hA6.symm.trans (ref_arg m' c Cert.ReferenceIdeal.main_arg6 (by decide)).symm)

/-- Its bias reaches the second region as the launched vector made a row, and the launch memories agree on it. -/
theorem comb_b (hA7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.KernelIdeal.Rn.U5 m c (Proc.devRef .tc Cert.KernelIdeal.main_v7) : (⟨2, ![1, 2048]⟩ : Shape).Idx → EReal)
      = shapeCast Cert.KernelIdeal.S1x2048 (R (F := Ideal) m' c (Proc.devRef .tc Cert.ReferenceIdeal.main_arg7) : (⟨1, ![2048]⟩ : Shape).Idx → EReal)
          Cert.KernelIdeal.Facts₀.shapeCasts_S2048_S1x2048 := by
  rw [Cert.KernelIdeal.ChainFacts.U5_v7 m c]
  exact congrArg (fun v => shapeCast Cert.KernelIdeal.S1x2048 v Cert.KernelIdeal.Facts₀.shapeCasts_S2048_S1x2048)
    (hA7.symm.trans (ref_arg m' c Cert.ReferenceIdeal.main_arg7 (by decide)).symm)

/-- THE THREE RESULTS AGREE. -/
theorem results
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (Cert.KernelIdeal.Rn.U12 m (Cert.Val.oK m) c (Proc.devRef .tc Cert.KernelIdeal.main_v42) : Cert.KernelIdeal.S1x50257.Idx → EReal)
        = R (F := Ideal) m' c (Proc.devRef .tc Cert.ReferenceIdeal.main_v66)
      ∧ (Cert.KernelIdeal.Rn.U12 m (Cert.Val.oK m) c (Proc.devRef .tc Cert.KernelIdeal.main_v43) : Cert.KernelIdeal.S1x1x2048.Idx → EReal)
        = R (F := Ideal) m' c (Proc.devRef .tc Cert.ReferenceIdeal.main_v67)
      ∧ (Cert.KernelIdeal.Rn.U12 m (Cert.Val.oK m) c (Proc.devRef .tc Cert.KernelIdeal.main_v5_0) : Cert.KernelIdeal.S1x512.Idx → EReal)
        = R (F := Ideal) m' c (Proc.devRef .tc Cert.ReferenceIdeal.main_v18) := by
  obtain ⟨hA0, hA1, hA2, hA3, hA4, hA5, hA6, hA7, hA8, hA9, hA10, hA11, hA12, hA13⟩ := hagree
  -- the embedding row, the state, the query, the attention's two outputs, the combining layer's input
  obtain ⟨_, h2, _, hw, _, h6⟩ := front m m' c hA0 hA1 hA2 hA3 hA4 hA5 (main_v1_eq m' c) (main_v2_eq m' c) (main_v3_eq m' c)
    (ref_logits m' c) (main_v18_eq m' c) (main_v19_eq m' c) (main_v20_eq m' c)
  -- the combining layer's output
  have hS1 := Cert.Stage1.stage1_of m c (R (F := Ideal) m' c) (main_v21_eq m' c) (main_v22_eq m' c) (main_v23_eq m' c) (main_v24_eq m' c)
    (main_v25_eq m' c) h6 (comb_W m m' c hA6) (comb_b m m' c hA7)
  -- the new state
  have hnew := mid m m' c hS1 h2 hA8 hA9 hA10 hA11 (main_v26_eq m' c) (main_v27_eq m' c) (main_v28_eq m' c) (main_v29_eq m' c)
    (main_v30_eq m' c) (main_v31_eq m' c) (main_v32_eq m' c) (main_v33_eq m' c) (main_v61_eq m' c)
  -- the three results
  exact back m m' c (Cert.Val.oK m) rfl hnew hw hA12.symm hA13.symm (main_v62_eq m' c) (main_v63_eq m' c) (main_v64_eq m' c)
    (main_v65_eq m' c) (main_v66_eq m' c) (main_v67_eq m' c)

end Cert.Val.Glue

end
-- ==== Proof.lean ====
/-
  The certificate of an attention decoder step: an embedding row, Bahdanau attention over 512 encoder rows (a softmax of
  `x1 · attn_Wᵀ + attn_b`, then the weighted sum of the encoder rows), a combining layer with a rectifier, one step of a gated
  recurrent cell, and the logarithm of the softmax of an output layer over 50257 classes. The kernel's program computes the four dense
  layers in four TensorCore regions — the attention in one grid point, the other three tiled along the output columns (4 tiles of 512,
  6 tiles of 1024, 25 tiles of 2048, the last of which overhangs the 50257 columns and is cut at the arrays' end) — with the matrix
  unit fed operands narrowed to bf16, and does the gather, the concatenations, the cell's gates and the log-softmax on the host; the
  plain program is the same mathematics in host operations alone.

  * The three frames. Each kernel program runs region by region: a region's body is run symbolically at a generic grid point, its
    windows' blocks are read off the arrays as the region finds them, and what the write-backs leave is folded into the buffers'
    contents at the next boundary. At the word level the last tile of the output layer reads staging words past the weight array's
    end, which nothing names, and the matrix unit's product is not known there column by column: so what that region leaves in its
    result array is left unnamed, and the two host stretches after it (they take no index, branch or count from it) are run from
    "some contents". The plain program is one straight line of host operations.
  * `preserves`: the idealization rewrote nothing.
  * `algebraic`. Over the extended reals narrowing is the identity and every product is the textbook sum over the contracted index,
    so column `n` of a tile's result is row `n` of its weight block against the input row, plus the bias entry: each tiled region's result
    array is ONE whole-row function of the region's inputs (the tiles cover the columns; the cut tile's columns inside the array read
    weight rows inside the array), and that function is the plain program's `dot_general` of the transposed weights plus the broadcast
    bias. The attention's softmax is the plain program's: both maxima are the greatest of the 512 scores (the largest with −∞ is the
    identity), both sums the sum of the 512 exponentials. The host arithmetic between the regions is the same operations on both
    sides, carried as single functions of their inputs. So, stage by stage from arguments that agree, the two programs' buffers
    agree, and with them the three results.
-/
import proofs.«153450_j57131654971751_1_alg».proof.Defs
import proofs.«153450_j57131654971751_1_alg».proof.Proof.Gen.Kernel
import proofs.«153450_j57131654971751_1_alg».proof.Proof.Gen.KernelIdeal
import proofs.«153450_j57131654971751_1_alg».proof.Proof.Gen.ReferenceIdeal
import proofs.«153450_j57131654971751_1_alg».proof.Proof.Gen.Pre_finite_inputs
import proofs.«153450_j57131654971751_1_alg».proof.Proof.K.Run
import proofs.«153450_j57131654971751_1_alg».proof.Proof.KI.Run
import proofs.«153450_j57131654971751_1_alg».proof.Proof.RefRun
import proofs.«153450_j57131654971751_1_alg».proof.Proof.KValueRun
import proofs.«153450_j57131654971751_1_alg».proof.Proof.Stage3
import proofs.«153450_j57131654971751_1_alg».proof.Proof.Glue

noncomputable section

namespace Cert.Proof

open Idealize.ShloMosaic Idealize.ShloMosaic.TcCoe Idealize.SL.Sem

/-- The word-level program runs to the end, faults nowhere and leaves its arguments as launched. -/
theorem frame_p : Cert.frame_Kernel := fun m ρ _ => Cert.Kernel.Rn.frame m ρ

/-- So does the idealized program. -/
theorem frame_pi : Cert.frame_KernelIdeal := fun m ρ _ => Cert.KernelIdeal.Rn.frame m ρ

/-- And the plain program: a straight line of host operations. -/
theorem frame_ri : Cert.frame_ReferenceIdeal := Cert.ReferenceIdeal.RefRun.frame

/-- The idealization rewrote no operation. -/
theorem preserves : Cert.preserves_Kernel_KernelIdeal := trivial

/-- Run from memories that agree on the arguments, the two idealized programs end with the same three results: the kernel's
    buffers after its last host stretch, which stage by stage are the plain program's. -/
theorem algebraic : Cert.algebraic_KernelIdeal_ReferenceIdeal := by
  intro m ρ m' ρ' _ hagree
  refine ⟨fun c => Cert.KernelIdeal.Rn.U12 m (Cert.Val.oK m) c (Proc.devRef .tc Cert.KernelIdeal.main_v42),
    fun c => Cert.KernelIdeal.Rn.U12 m (Cert.Val.oK m) c (Proc.devRef .tc Cert.KernelIdeal.main_v43),
    fun c => Cert.KernelIdeal.Rn.U12 m (Cert.Val.oK m) c (Proc.devRef .tc Cert.KernelIdeal.main_v5_0),
    Cert.Val.kernel_run Cert.Stage3.colLocal3 m ρ, ?_⟩
  refine (θ_run Cert.ReferenceIdeal.defs _ _).mono (fun r h c => ?_) (Cert.ReferenceIdeal.RefRun.run (F := Ideal) m' ρ')
  obtain ⟨h66, h67, h18, hargs⟩ := h c
  obtain ⟨e42, e43, e50⟩ := Cert.Val.Glue.results m m' c (hagree c)
  exact ⟨h66.trans e42.symm, h67.trans e43.symm, h18.trans e50.symm, hargs⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
